-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x2 .f32) (main_arg10 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1200000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x2 .f32) (main_arg10 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x1 : Shape := ⟨2, ![100000, 1]⟩
abbrev S128 : Shape := ⟨1, ![128]⟩
abbrev S128x1 : Shape := ⟨2, ![128, 1]⟩
abbrev S1x64 : Shape := ⟨2, ![1, 64]⟩
abbrev S5000x64 : Shape := ⟨2, ![5000, 64]⟩
abbrev S5000x1 : Shape := ⟨2, ![5000, 1]⟩
abbrev S1200000x64 : Shape := ⟨2, ![1200000, 64]⟩
abbrev S1x2 : Shape := ⟨2, ![1, 2]⟩
abbrev S128x2 : Shape := ⟨2, ![128, 2]⟩
abbrev S128x64 : Shape := ⟨2, ![128, 64]⟩
abbrev S5000x128 : Shape := ⟨2, ![5000, 128]⟩

abbrev nBuf : Space → Nat
  | .hbm => 87
  | .vmem => 47
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .f32⟩
  | .hbm, ⟨16, _⟩ => ⟨S1200000, .f32⟩
  | .hbm, ⟨17, _⟩ => ⟨S_, .f32⟩
  | .hbm, ⟨18, _⟩ => ⟨S100000, .f32⟩
  | .hbm, ⟨19, _⟩ => ⟨S1200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .f32⟩
  | .hbm, ⟨27, _⟩ => ⟨S100000, .f32⟩
  | .hbm, ⟨28, _⟩ => ⟨S_, .f32⟩
  | .hbm, ⟨29, _⟩ => ⟨S128, .f32⟩
  | .hbm, ⟨30, _⟩ => ⟨S100000x1, .i32⟩
  | .hbm, ⟨31, _⟩ => ⟨S128, .f32⟩
  | .hbm, ⟨32, _⟩ => ⟨S128x1, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S100000x64, .f32⟩
  | .hbm, ⟨37, _⟩ => ⟨S100000x64, .bf16⟩
  | .hbm, ⟨38, _⟩ => ⟨S_, .i32⟩
  | .hbm, ⟨39, _⟩ => ⟨S1200000, .i32⟩
  | .hbm, ⟨40, _⟩ => ⟨S1200000, .i1⟩
  | .hbm, ⟨41, _⟩ => ⟨S_, .i32⟩
  | .hbm, ⟨42, _⟩ => ⟨S1200000, .i32⟩
  | .hbm, ⟨43, _⟩ => ⟨S1200000, .i32⟩
  | .hbm, ⟨44, _⟩ => ⟨S1200000, .i32⟩
  | .hbm, ⟨45, _⟩ => ⟨S1200000x1, .i32⟩
  | .hbm, ⟨46, _⟩ => ⟨S1200000x64, .bf16⟩
  | .hbm, ⟨47, _⟩ => ⟨S1200000x64, .f32⟩
  | .hbm, ⟨48, _⟩ => ⟨S_, .f32⟩
  | .hbm, ⟨49, _⟩ => ⟨S100000x64, .f32⟩
  | .hbm, ⟨50, _⟩ => ⟨S1200000x1, .i32⟩
  | .hbm, ⟨51, _⟩ => ⟨S100000x64, .f32⟩
  | .hbm, ⟨52, _⟩ => ⟨S100000x64, .f32⟩
  | .hbm, ⟨53, _⟩ => ⟨S100000x64, .bf16⟩
  | .hbm, ⟨54, _⟩ => ⟨S_, .i32⟩
  | .hbm, ⟨55, _⟩ => ⟨S1200000, .i32⟩
  | .hbm, ⟨56, _⟩ => ⟨S1200000, .i1⟩
  | .hbm, ⟨57, _⟩ => ⟨S_, .i32⟩
  | .hbm, ⟨58, _⟩ => ⟨S1200000, .i32⟩
  | .hbm, ⟨59, _⟩ => ⟨S1200000, .i32⟩
  | .hbm, ⟨60, _⟩ => ⟨S1200000, .i32⟩
  | .hbm, ⟨61, _⟩ => ⟨S1200000x1, .i32⟩
  | .hbm, ⟨62, _⟩ => ⟨S1200000x64, .bf16⟩
  | .hbm, ⟨63, _⟩ => ⟨S1200000x64, .f32⟩
  | .hbm, ⟨64, _⟩ => ⟨S_, .f32⟩
  | .hbm, ⟨65, _⟩ => ⟨S100000x64, .f32⟩
  | .hbm, ⟨66, _⟩ => ⟨S1200000x1, .i32⟩
  | .hbm, ⟨67, _⟩ => ⟨S100000x64, .f32⟩
  | .hbm, ⟨68, _⟩ => ⟨S100000x64, .f32⟩
  | .hbm, ⟨69, _⟩ => ⟨S100000x64, .bf16⟩
  | .hbm, ⟨70, _⟩ => ⟨S_, .i32⟩
  | .hbm, ⟨71, _⟩ => ⟨S1200000, .i32⟩
  | .hbm, ⟨72, _⟩ => ⟨S1200000, .i1⟩
  | .hbm, ⟨73, _⟩ => ⟨S_, .i32⟩
  | .hbm, ⟨74, _⟩ => ⟨S1200000, .i32⟩
  | .hbm, ⟨75, _⟩ => ⟨S1200000, .i32⟩
  | .hbm, ⟨76, _⟩ => ⟨S1200000, .i32⟩
  | .hbm, ⟨77, _⟩ => ⟨S1200000x1, .i32⟩
  | .hbm, ⟨78, _⟩ => ⟨S1200000x64, .bf16⟩
  | .hbm, ⟨79, _⟩ => ⟨S1200000x64, .f32⟩
  | .hbm, ⟨80, _⟩ => ⟨S_, .f32⟩
  | .hbm, ⟨81, _⟩ => ⟨S100000x64, .f32⟩
  | .hbm, ⟨82, _⟩ => ⟨S1200000x1, .i32⟩
  | .hbm, ⟨83, _⟩ => ⟨S100000x64, .f32⟩
  | .hbm, ⟨84, _⟩ => ⟨S100000x1, .i32⟩
  | .hbm, ⟨85, _⟩ => ⟨S1x2, .f32⟩
  | .hbm, ⟨86, _⟩ => ⟨S128x2, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .bf16⟩
  | .local _ .vmem, ⟨8, _⟩ => ⟨S5000x64, .bf16⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S1x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .bf16⟩
  | .local _ .vmem, ⟨20, _⟩ => ⟨S5000x64, .bf16⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | .local _ .vmem, ⟨31, _⟩ => ⟨S5000x64, .bf16⟩
  | .local _ .vmem, ⟨32, _⟩ => ⟨S5000x64, .bf16⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x1, .i32⟩
  | .local _ .vmem, ⟨41, _⟩ => ⟨S5000x1, .i32⟩
  | .local _ .vmem, ⟨42, _⟩ => ⟨S128x1, .f32⟩
  | .local _ .vmem, ⟨43, _⟩ => ⟨S64x2, .f32⟩
  | .local _ .vmem, ⟨44, _⟩ => ⟨S1x2, .f32⟩
  | .local _ .vmem, ⟨45, _⟩ => ⟨S128x2, .f32⟩
  | .local _ .vmem, ⟨46, _⟩ => ⟨S128x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32_0 : Ref sig .tc := ⟨.hbm, 52, rfl⟩
abbrev main_v32_1 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44_0 : Ref sig .tc := ⟨.hbm, 68, rfl⟩
abbrev main_v44_1 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_scratch0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem4_1 : DmaSem sig := 41
abbrev cc3_sem5_0 : DmaSem sig := 42
abbrev cc3_sem6_0 : DmaSem sig := 43
abbrev cc3_sem7_0 : DmaSem sig := 44
abbrev cc3_sem8_0 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v36 : BitVec 1 := Scalar.cmpi .eq arg0 c19_i32
  let v37 : BitVec 32 := Scalar.extui v36
  let c0_i32_15 : BitVec 32 := 0#32
  let v38 : BitVec 1 := Scalar.cmpi .ne v37 c0_i32_15
  v38

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x1 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  bcast_S_S128 : S_.BroadcastsInDim S128 (![] : Fin 0 → Fin S128.rank)
  bcast_S100000_S100000x1_0 : S100000.BroadcastsInDim S100000x1 (![0] : Fin 1 → Fin S100000x1.rank)
  shapeCasts_S128_S128x1 : S128.ShapeCasts S128x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S2_S1x2 : S2.ShapeCasts S1x2
  inb_S128x64_S128x64_0_0 : ∀ a, (![0, 0] : Fin 2 → Nat) a + S128x64.size a ≤ S128x64.size a
  h_S128x64 : 0 < S128x64.numel
  shapeCasts_S128x64_S128x64 : S128x64.ShapeCasts S128x64
  iota_S5000x128_d1_w32 : S5000x128.Iotas .tc 32 [1]
  broadcasts_S5000x1_S5000x128 : S5000x1.Broadcasts S5000x128
  natLt_1_32 : 1 < 32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x64 : S128x1.Broadcasts S128x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  inb_S128x2_S128x2_0_0 : ∀ a, (![0, 0] : Fin 2 → Nat) a + S128x2.size a ≤ S128x2.size a
  h_S128x2 : 0 < S128x2.numel
  scatter_S100000_S1200000x1_S1200000_n_0_0_1_wf : ScatterDims.WF S100000 S1200000x1 S1200000 [] [0] [0] 1
  scatter_S128_S100000x1_S100000_n_0_0_1_wf : ScatterDims.WF S128 S100000x1 S100000 [] [0] [0] 1
  dot_S5000x64_S64x64_S5000x64_1_0_0_1_n_n_wf : DotDims.WF S5000x64 S64x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x128_S5000x64_S128x64_0_0_1_1_n_n_wf : DotDims.WF S5000x128 S5000x64 S128x64 [0] [0] [1] [1] [] []
  dot_S128x64_S64x2_S128x2_1_0_0_1_n_n_wf : DotDims.WF S128x64 S64x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .bf16 = 32 ∨ (Rect.block (s := S100000x64) S5000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .bf16 = 32 ∨ (Rect.block (s := S100000x64) S5000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .bf16 = 32 ∨ (Rect.block (s := S100000x64) S5000x64.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S100000x1.size a
  hwx3_4 : ∀ i : grid3.Coords, EltTy.bits .i32 = 32 ∨ (Rect.block (s := S100000x1) S5000x1.size (cc3_transform_4 i) (hinb3_4 i)).WholeWords (EltTy.packing .i32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x2.size a ≤ S64x2.size a
  hwx3_6 : ∀ i : grid3.Coords, EltTy.bits .f32 = 32 ∨ (Rect.block (s := S64x2) S64x2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x2.size a ≤ S1x2.size a
  hwx3_7 : ∀ i : grid3.Coords, EltTy.bits .f32 = 32 ∨ (Rect.block (s := S1x2) S1x2.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x2.size a ≤ S128x2.size a
  hwx3_8 : ∀ i : grid3.Coords, EltTy.bits .f32 = 32 ∨ (Rect.block (s := S128x2) S128x2.size (cc3_transform_8 i) (hinb3_8 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S128x64_S64x2_S128x2_1_0_0_1_n_n : DotDims S128x64 S64x2 S128x2 where
  lhsContracting := [1]
  rhsContracting := [0]
  lhsNonContracting := [0]
  rhsNonContracting := [1]
  lhsBatch := []
  rhsBatch := []
  wf := dot_S128x64_S64x2_S128x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32_0) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v44_1) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v55) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44_0) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v16) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg9) S64x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v57) S1x2.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v58) S128x2.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev idle3 : Fin 9 → grid3.Coords → Bool := fun | 0 => fun _ => false | 1 => fun _ => false | 2 => fun _ => false | 3 => fun _ => false | 4 => fun _ => false | 5 => fun _ => false | 6 => fun _ => false | 7 => fun _ => false | 8 => fun i => !(k3_cond2 i == 1#1) | ⟨_ + 9, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S128x64 : Shape := ⟨2, ![128, 64]⟩
abbrev S128 : Shape := ⟨1, ![128]⟩
abbrev S128x1 : Shape := ⟨2, ![128, 1]⟩
abbrev S128x2 : Shape := ⟨2, ![128, 2]⟩
abbrev S1x2 : Shape := ⟨2, ![1, 2]⟩

abbrev nBuf : Space → Nat
  | .hbm => 186
  | .vmem => 0
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x2, .f32⟩
  | 10 => ⟨S2, .f32⟩
  | 11 => ⟨S1x1200000, .i32⟩
  | 12 => ⟨S1200000, .i32⟩
  | 13 => ⟨S1x1200000, .i32⟩
  | 14 => ⟨S1200000, .i32⟩
  | 15 => ⟨S_, .f32⟩
  | 16 => ⟨S1200000, .f32⟩
  | 17 => ⟨S_, .f32⟩
  | 18 => ⟨S100000, .f32⟩
  | 19 => ⟨S1200000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S100000x64, .f32⟩
  | 26 => ⟨S_, .i32⟩
  | 27 => ⟨S1200000, .i32⟩
  | 28 => ⟨S1200000, .i1⟩
  | 29 => ⟨S_, .i32⟩
  | 30 => ⟨S1200000, .i32⟩
  | 31 => ⟨S1200000, .i32⟩
  | 32 => ⟨S1200000, .i32⟩
  | 33 => ⟨S1200000x1, .i32⟩
  | 34 => ⟨S1200000, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000, .f32⟩
  | 44 => ⟨S1200000, .f32⟩
  | 45 => ⟨S_, .i32⟩
  | 46 => ⟨S1200000, .i32⟩
  | 47 => ⟨S1200000, .i1⟩
  | 48 => ⟨S_, .i32⟩
  | 49 => ⟨S1200000, .i32⟩
  | 50 => ⟨S1200000, .i32⟩
  | 51 => ⟨S1200000, .i32⟩
  | 52 => ⟨S1200000x1, .i32⟩
  | 53 => ⟨S1200000x64, .f32⟩
  | 54 => ⟨S1200000x1, .f32⟩
  | 55 => ⟨S1200000x64, .f32⟩
  | 56 => ⟨S1200000x64, .f32⟩
  | 57 => ⟨S_, .f32⟩
  | 58 => ⟨S100000x64, .f32⟩
  | 59 => ⟨S1200000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S1200000, .i32⟩
  | 75 => ⟨S1200000, .i1⟩
  | 76 => ⟨S_, .i32⟩
  | 77 => ⟨S1200000, .i32⟩
  | 78 => ⟨S1200000, .i32⟩
  | 79 => ⟨S1200000, .i32⟩
  | 80 => ⟨S1200000x1, .i32⟩
  | 81 => ⟨S1200000, .f32⟩
  | 82 => ⟨S_, .i32⟩
  | 83 => ⟨S1200000, .i32⟩
  | 84 => ⟨S1200000, .i1⟩
  | 85 => ⟨S_, .i32⟩
  | 86 => ⟨S1200000, .i32⟩
  | 87 => ⟨S1200000, .i32⟩
  | 88 => ⟨S1200000, .i32⟩
  | 89 => ⟨S1200000x1, .i32⟩
  | 90 => ⟨S1200000, .f32⟩
  | 91 => ⟨S1200000, .f32⟩
  | 92 => ⟨S_, .i32⟩
  | 93 => ⟨S1200000, .i32⟩
  | 94 => ⟨S1200000, .i1⟩
  | 95 => ⟨S_, .i32⟩
  | 96 => ⟨S1200000, .i32⟩
  | 97 => ⟨S1200000, .i32⟩
  | 98 => ⟨S1200000, .i32⟩
  | 99 => ⟨S1200000x1, .i32⟩
  | 100 => ⟨S1200000x64, .f32⟩
  | 101 => ⟨S1200000x1, .f32⟩
  | 102 => ⟨S1200000x64, .f32⟩
  | 103 => ⟨S1200000x64, .f32⟩
  | 104 => ⟨S_, .f32⟩
  | 105 => ⟨S100000x64, .f32⟩
  | 106 => ⟨S1200000x1, .i32⟩
  | 107 => ⟨S100000x64, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x64, .f32⟩
  | 120 => ⟨S_, .i32⟩
  | 121 => ⟨S1200000, .i32⟩
  | 122 => ⟨S1200000, .i1⟩
  | 123 => ⟨S_, .i32⟩
  | 124 => ⟨S1200000, .i32⟩
  | 125 => ⟨S1200000, .i32⟩
  | 126 => ⟨S1200000, .i32⟩
  | 127 => ⟨S1200000x1, .i32⟩
  | _ => ⟨S100000x64, .f32⟩

abbrev hbmTy0_1 (i : Nat) : BufTy := match i % 128 with
  | 0 => ⟨S1200000, .f32⟩
  | 1 => ⟨S_, .i32⟩
  | 2 => ⟨S1200000, .i32⟩
  | 3 => ⟨S1200000, .i1⟩
  | 4 => ⟨S_, .i32⟩
  | 5 => ⟨S1200000, .i32⟩
  | 6 => ⟨S1200000, .i32⟩
  | 7 => ⟨S1200000, .i32⟩
  | 8 => ⟨S1200000x1, .i32⟩
  | 9 => ⟨S1200000, .f32⟩
  | 10 => ⟨S1200000, .f32⟩
  | 11 => ⟨S_, .i32⟩
  | 12 => ⟨S1200000, .i32⟩
  | 13 => ⟨S1200000, .i1⟩
  | 14 => ⟨S_, .i32⟩
  | 15 => ⟨S1200000, .i32⟩
  | 16 => ⟨S1200000, .i32⟩
  | 17 => ⟨S1200000, .i32⟩
  | 18 => ⟨S1200000x1, .i32⟩
  | 19 => ⟨S1200000x64, .f32⟩
  | 20 => ⟨S1200000x1, .f32⟩
  | 21 => ⟨S1200000x64, .f32⟩
  | 22 => ⟨S1200000x64, .f32⟩
  | 23 => ⟨S_, .f32⟩
  | 24 => ⟨S100000x64, .f32⟩
  | 25 => ⟨S1200000x1, .i32⟩
  | 26 => ⟨S100000x64, .f32⟩
  | 27 => ⟨S100000, .f32⟩
  | 28 => ⟨S100000x1, .f32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S_, .f32⟩
  | 39 => ⟨S128x64, .f32⟩
  | 40 => ⟨S100000x1, .i32⟩
  | 41 => ⟨S128x64, .f32⟩
  | 42 => ⟨S_, .f32⟩
  | 43 => ⟨S100000, .f32⟩
  | 44 => ⟨S_, .f32⟩
  | 45 => ⟨S128, .f32⟩
  | 46 => ⟨S100000x1, .i32⟩
  | 47 => ⟨S128, .f32⟩
  | 48 => ⟨S_, .f32⟩
  | 49 => ⟨S128, .f32⟩
  | 50 => ⟨S128, .f32⟩
  | 51 => ⟨S128x1, .f32⟩
  | 52 => ⟨S128x64, .f32⟩
  | 53 => ⟨S128x64, .f32⟩
  | 54 => ⟨S128x2, .f32⟩
  | 55 => ⟨S1x2, .f32⟩
  | 56 => ⟨S128x2, .f32⟩
  | 57 => ⟨S128x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_19 : Ref sig .tc := ⟨.hbm, 139, rfl⟩
abbrev main_v103 : Ref sig .tc := ⟨.hbm, 140, rfl⟩
abbrev main_v104 : Ref sig .tc := ⟨.hbm, 141, rfl⟩
abbrev main_c_20 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_call2_cst : Ref sig .tc := ⟨.hbm, 163, rfl⟩
abbrev main_call2_v0 : Ref sig .tc := ⟨.hbm, 164, rfl⟩
abbrev main_v124 : Ref sig .tc := ⟨.hbm, 165, rfl⟩
abbrev main_cst_22 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_23 : Ref sig .tc := ⟨.hbm, 170, rfl⟩
abbrev main_v128 : Ref sig .tc := ⟨.hbm, 171, rfl⟩
abbrev main_cst_24 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_25 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x2_S128x2_1_0_0_1_n_n_wf : DotDims.WF S128x64 S64x2 S128x2 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x2_S128x2_1_0_0_1_n_n : DotDims S128x64 S64x2 S128x2 where
  lhsContracting := [1]
  rhsContracting := [0]
  lhsNonContracting := [0]
  rhsNonContracting := [1]
  lhsBatch := []
  rhsBatch := []
  wf := dot_S128x64_S64x2_S128x2_1_0_0_1_n_n_wf

class Facts : Prop extends Facts₀ where

variable [Facts]
-- ==== Proof.KB.Reg0.lean ====
import proofs.«407338_j17489106829800_2_alg».proof.Proof.Gen.Kernel.Launch
import proofs.«407338_j17489106829800_2_alg».proof.Proof.Gen.Kernel.Skeleton
import proofs.«407338_j17489106829800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the first projection kernel over its grid of 20 row tiles

Pipeline 0 has five windows: the inputs `x` (a tile of 5000 rows by 64 columns, f32, a new tile at every point),
`W0` (64 by 64, f32, one block for the whole grid, brought in at the first point and kept) and `dinv` (a tile of
5000 rows by 1 column, f32), and the outputs `x · W0` (5000 by 64, f32, the operands rounded to bf16 and the
products accumulated in f32) and `(x · W0) * dinv` rounded to bf16 (5000 by 64), each written back at every point.

Everything is stated at a parameter `V`, the contents of the core's buffers when the region is entered, and at any
float model `F`:

* `iblk0`: a window's block at a grid point, read off its array at `V`;
* `before0_W_of`: an input window's current staging buffer holds that block at every point, whether or not the block
  was brought in there (a block that is not brought in has not moved);
* `out0_3`, `out0_4`: what the body leaves in each output window's buffer, the canonical contents of its one
  whole-block store, a closed function of the input blocks; `cover0_3`, `cover0_4`: that store covers the block;
* `sound_kernel0`: the body's triple on whole staging buffers — the inputs are left as found, each output buffer,
  whatever it held (the body reads it before overwriting it and does not use what it read), ends at `out0_W`;
* `dat0`, `A_eq0`, `after0_W`, `before0_W`: the pipeline's proof data and its projections;
* `sound_body0`, `body_obligation0`: the body obligation at every grid point.
-/

-- membership in a rectangle with a 5000-long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (`x`): its current staging buffer holds its block at every point, for any proof data whose array
    is `V`'s (`hA`) and whose body leaves the block in place (`hafter`). The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (`W0`): brought in at the first point only, its block index is constant over the grid, so at a later
    point the buffer still holds the block of the point before, which is this point's. Same statement, same proof. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (`dinv`): as window 0. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each one the whole block -/

abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S5000x1 := Rect.unit (s := S5000x1) ![0, 0] S5000x1.size inb_S5000x1_S5000x1_0_0

/-! ## What the body leaves in each output window's buffer -/

/-- Window 3's staging buffer after the body, from the blocks of `x` and `W0`: its one store, of the product
    `k0_pay1`, as a piece. -/
def out0_3 (x0 : Vec F S5000x64 .f32) (x1 : Vec F S64x64 .f32) : Vec F S5000x64 .f32 :=
  View.canon [⟨r0_0, k0_pay1 (View.ld x0 r0_0) (View.ld x1 r0_1)⟩]

/-- Its store is of the whole block, so it covers it. -/
theorem cover0_3 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

/-- Window 4's staging buffer after the body, from the blocks of `x`, `W0` and `dinv`: its one store, of the scaled
    and rounded product `k0_pay2`, as a piece. -/
def out0_4 (x0 : Vec F S5000x64 .f32) (x1 : Vec F S64x64 .f32) (x2 : Vec F S5000x1 .f32) : Vec F S5000x64 .bf16 :=
  View.canon [⟨r0_0, k0_pay2 (View.ld x0 r0_0) (View.ld x1 r0_1) (View.ld x2 r0_2)⟩]

/-- Its store is of the whole block, so it covers it. -/
theorem cover0_4 (p0 : Vec F S5000x64 .bf16) (y : S5000x64.Idx) :
    ∃ pc ∈ ([⟨r0_0, p0⟩] : List (View.Piece (Elt F) S5000x64 .bf16)), y ∈ pc.1.set :=
  View.cover_of_tiled [⟨r0_0, p0⟩] S5000x64.size (by rfl) y

/-! ## The body's triple -/

set_option maxHeartbeats 1000000 in
/-- The kernel body on whole staging memrefs, the inputs' at read contents `x0 x1 x2` and the outputs' at anything,
    runs to the continuation holding the inputs' as they were and each output's at `out0_W` of the inputs'. The body
    reads each output buffer before its store into it and uses neither value; the store overwrites the whole block. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x1 .f32) (harg3 : arg3.IsWhole) (arg4 : Memref sig .tc .vmem S5000x64 .f32) (harg4 : arg4.IsWhole) (arg5 : Memref sig .tc .vmem S5000x64 .bf16) (harg5 : arg5.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__matmul0_kernel i arg1 harg1 arg2 harg2 arg3 harg3 arg4 harg4 arg5 harg5) K := by
  simp only [cc0__matmul0_kernel_eq_skeleton]; unfold cc0__matmul0_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at point `t`
    each input's buffer at its block and each output's at `out0_W` of the input blocks; the invariant: the core's other
    scoped buffers and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

/-- The proof data's arrays are the region-entry contents (the definition projected; `V` is never unfolded). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
import proofs.«407338_j17489106829800_2_alg».proof.Proof.Gen.Kernel.Launch
import proofs.«407338_j17489106829800_2_alg».proof.Proof.Gen.Kernel.Skeleton
import proofs.«407338_j17489106829800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # REGION 1 of @main: custom_call 1, `cc1__combine_matmul_kernel` (pipeline 1), at the entry contents `V`

One graph-convolution layer on a tile of 5000 node rows, over a grid of 20 points. Seven windows:
inputs 0 (the aggregated neighbour rows, 5000x64), 1 (the node's own rows, 5000x64), 2 (the inverse-root degrees, 5000x1), 3 (the bias row, 1x64)
and 4 (the weight matrix, 64x64); outputs 5 (5000x64, f32) and 6 (5000x64, bf16). Windows 3 and 4 have one block for
the whole grid, so their block index never moves and their buffer holds that block at every point.

With `a`, `h`, `d`, `b`, `W` the blocks of windows 0..4 at a point, the body stores
`y = (bf16 (max (a * d + h * (d * d) + b) 0)) · (bf16 W)` (a 5000x64 by 64x64 product, accumulated in f32) whole into
window 5's buffer and `bf16 (y * d)` whole into window 6's (`d` and `b` broadcast along the other axis). Each is ONE
store covering its buffer, so what the body leaves in an output buffer is that store's payload and depends on the
input blocks only — never on what the buffer held (the body reads each output buffer before storing and drops the
value read).

Everything is generic in the float model `F` and stated at a PARAMETER `V`, the core's buffer contents when the
region is entered:
  * `iblk1` — window `w`'s block at point `t`, read off its array as `V` has it;
  * `before1_W_of` — an input window's current buffer holds its block at every point, fetched there or not;
  * `out1_5`, `out1_6` — what the body leaves in each output buffer, from the five input blocks;
  * `sound_kernel1` — the body's triple on whole buffers;
  * `dat1`, `A_eq1`, `after1_W`, `before1_W` — the pipeline's proof data and its projections;
  * `body_obligation1` — the body obligation of that data, at every point. -/

-- membership in a rectangle with a 5000-long axis: the structural check recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not, for ANY proof data whose
    array is `V`'s (`hA`) and whose body leaves the block in place (`hafter`): where it is not fetched the block index has
    not moved since the point before, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not, for ANY proof data whose
    array is `V`'s (`hA`) and whose body leaves the block in place (`hafter`): where it is not fetched the block index has
    not moved since the point before, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not, for ANY proof data whose
    array is `V`'s (`hA`) and whose body leaves the block in place (`hafter`): where it is not fetched the block index has
    not moved since the point before, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not, for ANY proof data whose
    array is `V`'s (`hA`) and whose body leaves the block in place (`hafter`): where it is not fetched the block index has
    not moved since the point before, and the window is uncut and never idle. This window is fetched at the first point only:
    its block index is the same at every point, which is the unfetched case of the lemma. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not, for ANY proof data whose
    array is `V`'s (`hA`) and whose body leaves the block in place (`hafter`): where it is not fetched the block index has
    not moved since the point before, and the window is uncut and never idle. This window is fetched at the first point only:
    its block index is the same at every point, which is the unfetched case of the lemma. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S5000x1 := Rect.unit (s := S5000x1) ![0, 0] S5000x1.size inb_S5000x1_S5000x1_0_0
abbrev r1_1 : Rect S5000x64 := Rect.unit (s := S5000x64) ![0, 0] S5000x64.size inb_S5000x64_S5000x64_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0

/-! ## What the body leaves in each output window's buffer -/

/-- Window 5's buffer after the body, from the input windows' blocks (`xw` is window `w`'s): its one store as a
    piece. The payload takes the values in the order the body loads them: window 2's, 0's, 1's, 3's, 4's. -/
def out1_5 (x0 : Vec F S5000x64 .f32) (x1 : Vec F S5000x64 .f32) (x2 : Vec F S5000x1 .f32) (x3 : Vec F S1x64 .f32) (x4 : Vec F S64x64 .f32) : Vec F S5000x64 .f32 :=
  View.canon [⟨r1_1, k1_pay2 (View.ld x2 r1_0) (View.ld x0 r1_1) (View.ld x1 r1_1) (View.ld x3 r1_2) (View.ld x4 r1_3)⟩]

/-- Its store is of the whole buffer, so it covers it. -/
theorem cover1_5 (p0 : Vec F S5000x64 .f32) (y : S5000x64.Idx) :
    ∃ pc ∈ ([⟨r1_1, p0⟩] : List (View.Piece (Elt F) S5000x64 .f32)), y ∈ pc.1.set :=
  View.cover_of_tiled [⟨r1_1, p0⟩] S5000x64.size (by rfl) y

/-- Window 6's buffer after the body, from the input windows' blocks: its one store as a piece. -/
def out1_6 (x0 : Vec F S5000x64 .f32) (x1 : Vec F S5000x64 .f32) (x2 : Vec F S5000x1 .f32) (x3 : Vec F S1x64 .f32) (x4 : Vec F S64x64 .f32) : Vec F S5000x64 .bf16 :=
  View.canon [⟨r1_1, k1_pay3 (View.ld x2 r1_0) (View.ld x0 r1_1) (View.ld x1 r1_1) (View.ld x3 r1_2) (View.ld x4 r1_3)⟩]

/-- Its store is of the whole buffer, so it covers it. -/
theorem cover1_6 (p0 : Vec F S5000x64 .bf16) (y : S5000x64.Idx) :
    ∃ pc ∈ ([⟨r1_1, p0⟩] : List (View.Piece (Elt F) S5000x64 .bf16)), y ∈ pc.1.set :=
  View.cover_of_tiled [⟨r1_1, p0⟩] S5000x64.size (by rfl) y

/-! ## The body's triple -/

set_option maxHeartbeats 1000000 in
/-- The body on whole buffers, the inputs' at contents `xW` and the outputs' at anything, runs to the continuation
    holding the inputs' as they were and each output's at `out1_W` of the inputs': the printed function is its skeleton
    of loads and stores over the named payloads, run one memory operation at a time; each output's one store covers
    its buffer, so reading the buffer back gives the store's piece whatever it held before. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S5000x64 .bf16) (harg7 : arg7.IsWhole)
    (x0 : Vec F S5000x64 .f32) (x1 : Vec F S5000x64 .f32) (x2 : Vec F S5000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__combine_matmul_kernel i arg1 harg1 arg2 harg2 arg3 harg3 arg4 harg4 arg5 harg5 arg6 harg6 arg7 harg7) K := by
  simp only [cc1__combine_matmul_kernel_eq_skeleton]; unfold cc1__combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and each output's at `out1_W` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current buffer holds its block at every point, fetched there or not (`before1_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks (`before1_W`), so `sound_kernel1` applies; the
    invariant and the core's owed shares pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of `dat1`, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
import proofs.«407338_j17489106829800_2_alg».proof.Proof.Gen.Kernel.Launch
import proofs.«407338_j17489106829800_2_alg».proof.Proof.Gen.Kernel.Skeleton
import proofs.«407338_j17489106829800_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # REGION 2 of @main: custom_call 2, `cc2__combine_matmul_kernel` (pipeline 2), at the entry contents `V`

One graph-convolution layer on a tile of 5000 node rows, over a grid of 20 points. Seven windows:
inputs 0 (the aggregated neighbour rows, 5000x64), 1 (the node's own rows, 5000x64), 2 (the inverse-root degrees, 5000x1), 3 (the bias row, 1x64)
and 4 (the weight matrix, 64x64); outputs 5 (5000x64, f32) and 6 (5000x64, bf16). Windows 3 and 4 have one block for
the whole grid, so their block index never moves and their buffer holds that block at every point.

With `a`, `h`, `d`, `b`, `W` the blocks of windows 0..4 at a point, the body stores
`y = (bf16 (max (a * d + h * (d * d) + b) 0)) · (bf16 W)` (a 5000x64 by 64x64 product, accumulated in f32) whole into
window 5's buffer and `bf16 (y * d)` whole into window 6's (`d` and `b` broadcast along the other axis). Each is ONE
store covering its buffer, so what the body leaves in an output buffer is that store's payload and depends on the
input blocks only — never on what the buffer held (the body reads each output buffer before storing and drops the
value read).

Everything is generic in the float model `F` and stated at a PARAMETER `V`, the core's buffer contents when the
region is entered:
  * `iblk2` — window `w`'s block at point `t`, read off its array as `V` has it;
  * `before2_W_of` — an input window's current buffer holds its block at every point, fetched there or not;
  * `out2_5`, `out2_6` — what the body leaves in each output buffer, from the five input blocks;
  * `sound_kernel2` — the body's triple on whole buffers;
  * `dat2`, `A_eq2`, `after2_W`, `before2_W` — the pipeline's proof data and its projections;
  * `body_obligation2` — the body obligation of that data, at every point. -/

-- membership in a rectangle with a 5000-long axis: the structural check recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not, for ANY proof data whose
    array is `V`'s (`hA`) and whose body leaves the block in place (`hafter`): where it is not fetched the block index has
    not moved since the point before, and the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not, for ANY proof data whose
    array is `V`'s (`hA`) and whose body leaves the block in place (`hafter`): where it is not fetched the block index has
    not moved since the point before, and the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not, for ANY proof data whose
    array is `V`'s (`hA`) and whose body leaves the block in place (`hafter`): where it is not fetched the block index has
    not moved since the point before, and the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not, for ANY proof data whose
    array is `V`'s (`hA`) and whose body leaves the block in place (`hafter`): where it is not fetched the block index has
    not moved since the point before, and the window is uncut and never idle. This window is fetched at the first point only:
    its block index is the same at every point, which is the unfetched case of the lemma. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not, for ANY proof data whose
    array is `V`'s (`hA`) and whose body leaves the block in place (`hafter`): where it is not fetched the block index has
    not moved since the point before, and the window is uncut and never idle. This window is fetched at the first point only:
    its block index is the same at every point, which is the unfetched case of the lemma. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_0 : Rect S5000x1 := Rect.unit (s := S5000x1) ![0, 0] S5000x1.size inb_S5000x1_S5000x1_0_0
abbrev r2_1 : Rect S5000x64 := Rect.unit (s := S5000x64) ![0, 0] S5000x64.size inb_S5000x64_S5000x64_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0

/-! ## What the body leaves in each output window's buffer -/

/-- Window 5's buffer after the body, from the input windows' blocks (`xw` is window `w`'s): its one store as a
    piece. The payload takes the values in the order the body loads them: window 2's, 0's, 1's, 3's, 4's. -/
def out2_5 (x0 : Vec F S5000x64 .f32) (x1 : Vec F S5000x64 .f32) (x2 : Vec F S5000x1 .f32) (x3 : Vec F S1x64 .f32) (x4 : Vec F S64x64 .f32) : Vec F S5000x64 .f32 :=
  View.canon [⟨r2_1, k2_pay2 (View.ld x2 r2_0) (View.ld x0 r2_1) (View.ld x1 r2_1) (View.ld x3 r2_2) (View.ld x4 r2_3)⟩]

/-- Its store is of the whole buffer, so it covers it. -/
theorem cover2_5 (p0 : Vec F S5000x64 .f32) (y : S5000x64.Idx) :
    ∃ pc ∈ ([⟨r2_1, p0⟩] : List (View.Piece (Elt F) S5000x64 .f32)), y ∈ pc.1.set :=
  View.cover_of_tiled [⟨r2_1, p0⟩] S5000x64.size (by rfl) y

/-- Window 6's buffer after the body, from the input windows' blocks: its one store as a piece. -/
def out2_6 (x0 : Vec F S5000x64 .f32) (x1 : Vec F S5000x64 .f32) (x2 : Vec F S5000x1 .f32) (x3 : Vec F S1x64 .f32) (x4 : Vec F S64x64 .f32) : Vec F S5000x64 .bf16 :=
  View.canon [⟨r2_1, k2_pay3 (View.ld x2 r2_0) (View.ld x0 r2_1) (View.ld x1 r2_1) (View.ld x3 r2_2) (View.ld x4 r2_3)⟩]

/-- Its store is of the whole buffer, so it covers it. -/
theorem cover2_6 (p0 : Vec F S5000x64 .bf16) (y : S5000x64.Idx) :
    ∃ pc ∈ ([⟨r2_1, p0⟩] : List (View.Piece (Elt F) S5000x64 .bf16)), y ∈ pc.1.set :=
  View.cover_of_tiled [⟨r2_1, p0⟩] S5000x64.size (by rfl) y

/-! ## The body's triple -/

set_option maxHeartbeats 1000000 in
/-- The body on whole buffers, the inputs' at contents `xW` and the outputs' at anything, runs to the continuation
    holding the inputs' as they were and each output's at `out2_W` of the inputs': the printed function is its skeleton
    of loads and stores over the named payloads, run one memory operation at a time; each output's one store covers
    its buffer, so reading the buffer back gives the store's piece whatever it held before. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S5000x64 .bf16) (harg7 : arg7.IsWhole)
    (x0 : Vec F S5000x64 .f32) (x1 : Vec F S5000x64 .f32) (x2 : Vec F S5000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4) ∗ owns (c : Thread nD τ) arg7 fullShare (out2_6 x0 x1 x2 x3 x4)) -∗ K ⟨⟩))
      ⊢ wp frame (wpE (defs₀ (F := F)) Variants.none c none) E (cc2__combine_matmul_kernel i arg1 harg1 arg2 harg2 arg3 harg3 arg4 harg4 arg5 harg5 arg6 harg6 arg7 harg7) K := by
  simp only [cc2__combine_matmul_kernel_eq_skeleton]; unfold cc2__combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The pipeline's proof data -/

/-- The proof data of pipeline 2 on core `c`: the arrays as the region finds them (`V`); after the body at point `t`
    each input's buffer at its block and each output's at `out2_W` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents (the definition projected, `V` never unfolded). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

/-- Each input's current buffer holds its block at every point, fetched there or not (`before2_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks (`before2_W`), so `sound_kernel2` applies; the
    invariant and the core's owed shares pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of `dat2`, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3Runs.lean ====
import proofs.«407338_j17489106829800_2_alg».proof.Proof.Gen.Kernel.Launch
import proofs.«407338_j17489106829800_2_alg».proof.Proof.Gen.Kernel.Skeleton
import proofs.«407338_j17489106829800_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-! # REGION 3 of @main: custom_call 3, `cc3__final_kernel` — the body's three control cases

The last region pools the node rows by graph and applies the linear head, over a grid of 20 points (tiles of 5000
node rows). Besides its nine windows the body has a SCRATCH buffer (128x64, one row per graph) that no window stages
and that it carries from point to point.

At a point, with `a`, `h`, `d`, `b`, `g` the blocks of windows 0..4 (aggregated rows, own rows, inverse-root degrees, bias
row, graph ids) and `s` the scratch as the body finds it, the body stores into the scratch, whole,
`k3_pay3 d a h b g s = s + onehot(g)ᵀ · bf16 (max (a * d + h * (d * d) + b) 0)` (a 128x5000 by 5000x64 product accumulated in f32:
row `j` gains the rows of the tile whose graph id is `j`). At the FIRST point it first stores zeros (`k3_pay2`) into the
scratch, whole, so there `s` is zero whatever the scratch held. At the LAST point it then loads the scratch back and, with
`n`, `W`, `β` the blocks of windows 5..7 (rows per graph, head weights, head bias), stores
`k3_pay1 s' n W β = bf16 (s' / max n 1) · bf16 W + β` whole into window 8's buffer; at every other point it stores
nothing there.

The two conditions are functions of the grid coordinate alone (`cond3_0`: the coordinate is 0; `cond3_1`: it is 19),
decided over the grid in closed form (`hcond3_0`, `hcond3_1`). So the body has three control cases:
  * A — the first point: reset, accumulate; window 8's buffer untouched;
  * B — points 1..18: accumulate; window 8's buffer untouched;
  * C — the last point: accumulate, then the head into window 8's buffer.
`kernelRun3_A`, `kernelRun3_B`, `kernelRun3_C` are the body's triples in the three cases on whole buffers: the inputs'
buffers at given contents are handed back as they were, the scratch goes from what it held (anything, in case A) to the
accumulated value, and window 8's buffer is handed back untouched (A, B) or at the head's value (C). Every load and store
is of a whole buffer, through the unit rectangle at zero offsets, so a store leaves its payload and a load reads the
contents. Window 8 is stated idle exactly where the last-point condition fails, and is written back only at the last
point (`idleAt3_8`, `liveAt3_8`, `noFlush3_8`); the input windows are never idle (`liveAt3_W`). Generic in the float
model `F`. -/

-- membership in a rectangle with a 5000-long axis: the structural check recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional's condition (the reset), from the grid coordinate: the body's scalar chain substituted. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val = 0 :=
  (by decide +kernel : ∀ t : Fin grid3.N, cond3_0 (grid3.coords t) ↔ t.val = 0)

/-- The second conditional's condition (the head), from the grid coordinate. -/
abbrev cond3_1 (i : grid3.Coords) : Prop := k3_cond2 i = 1#1
/-- It holds at the last point only — decided over the grid. -/
theorem hcond3_1 : ∀ t : Fin cfg3.N, cond3_1 (grid3.coords t) ↔ t.val = 19 :=
  (by decide +kernel : ∀ t : Fin grid3.N, cond3_1 (grid3.coords t) ↔ t.val = 19)

/-! ## Where the windows are idle -/

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem liveAt3_7 : ∀ t : Fin cfg3.N, cfg3.idle 7 (grid3.coords t) = false := by decide +kernel
/-- Where the last-point condition fails window 8 is idle: the body stores nothing into its buffer there, -/
theorem idleAt3_8 : ∀ t : Fin cfg3.N, ¬cond3_1 (grid3.coords t) → cfg3.idle 8 (grid3.coords t) = true := by decide +kernel
/-- and the pipeline does not write its block back there. -/
theorem noFlush3_8 : ∀ t : Fin cfg3.N, ¬cond3_1 (grid3.coords t) → (cfg3.win 8).flush t = false := by decide +kernel
/-- Where it holds window 8 is live: the body stores the head's value into its buffer. -/
theorem liveAt3_8 : ∀ t : Fin cfg3.N, cond3_1 (grid3.coords t) → cfg3.idle 8 (grid3.coords t) = false := by decide +kernel

/-! ## Whole-buffer accesses -/

/-- The scratch operand: a whole scoped buffer of the kernel's own, passed beside the windows. -/
abbrev scM3 : Memref sig .tc .vmem S128x64 .f32 := Memref.whole cc3_scratch0

/-! ## The body in each control case, on whole buffers -/

/-- The zero offsets of a rank-2 access as the constant function (how the whole-buffer lemmas take them). -/
theorem off3_zero : (![0, 0] : Fin 2 → ℕ) = fun _ => 0 := by funext a; fin_cases a <;> rfl

set_option maxHeartbeats 1000000 in
/-- CASE A (the first point: the reset taken, the head not). On whole buffers — the inputs' at `x0 … x7`, window 8's at
    `xi8`, the scratch at anything — the body runs to the continuation holding the inputs' and window 8's as they were and
    the scratch at the accumulation over zeros, `k3_pay3 x2 x0 x1 x3 x4 k3_pay2`: the reset's store covers the scratch, the
    load after it reads the zeros stored, and the accumulation's store covers it again. -/
theorem kernelRun3_A (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x1 .i32) (harg5 : arg5.IsWhole) (arg6 : Memref sig .tc .vmem S128x1 .f32) (harg6 : arg6.IsWhole) (arg7 : Memref sig .tc .vmem S64x2 .f32) (harg7 : arg7.IsWhole) (arg8 : Memref sig .tc .vmem S1x2 .f32) (harg8 : arg8.IsWhole) (arg9 : Memref sig .tc .vmem S128x2 .f32) (harg9 : arg9.IsWhole) (arg10 : Memref sig .tc .vmem S128x64 .f32) (harg10 : arg10.IsWhole)
    (hc0 : cond3_0 i) (hc1 : ¬cond3_1 i)
    (x0 : Vec F S5000x64 .f32) (x1 : Vec F S5000x64 .f32) (x2 : Vec F S5000x1 .f32) (x3 : Vec F S1x64 .f32) (x4 : Vec F S5000x1 .i32) (x5 : Vec F S128x1 .f32) (x6 : Vec F S64x2 .f32) (x7 : Vec F S1x2 .f32) (xi8 : Vec F S128x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare (k3_pay3 x2 x0 x1 x3 x4 (k3_pay2 (F := F)))) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9 arg10 harg10) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
  subst hf0 hf1 hf2 hf3 hf4 hf5 hf6 hf7 hf8
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact HS
  -- the last store covers the scratch, so it reads back that store's payload; each whole-buffer load read the contents
  ipureintro
  sl_unfold_words
  refine (View.read_writes_eq_canon _ _ _ ?_).trans ?_
  · intro y; refine ⟨_, List.Mem.head _, ?_⟩
    exact View.mem_set_unit_zero (S := S128x64) off3_zero inb_S128x64_S128x64_0_0 y
  refine (View.canon_cons_unit_zero (S := S128x64) off3_zero inb_S128x64_S128x64_0_0 _ _).trans ?_
  simp only [View.readAt_eq_ld, View.ld_unit_zero (S := S5000x64) off3_zero, View.ld_unit_zero (S := S5000x1) off3_zero, View.ld_unit_zero (S := S1x64) off3_zero, View.ld_unit_zero (S := S128x64) off3_zero, View.ld_unit_zero (S := S128x1) off3_zero, View.ld_unit_zero (S := S64x2) off3_zero, View.ld_unit_zero (S := S1x2) off3_zero, View.ld_unit_zero (S := S128x2) off3_zero, View.readCov_unit_zero (S := S128x64) _ off3_zero]

set_option maxHeartbeats 1000000 in
/-- CASE B (points 1..18: neither conditional taken). On whole buffers — the inputs' at `x0 … x7`, window 8's at `xi8`,
    the scratch at `xs` — the body runs to the continuation holding the inputs' and window 8's as they were and the
    scratch at the accumulation over `xs`, `k3_pay3 x2 x0 x1 x3 x4 xs`: its one store covers the scratch. -/
theorem kernelRun3_B (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x1 .i32) (harg5 : arg5.IsWhole) (arg6 : Memref sig .tc .vmem S128x1 .f32) (harg6 : arg6.IsWhole) (arg7 : Memref sig .tc .vmem S64x2 .f32) (harg7 : arg7.IsWhole) (arg8 : Memref sig .tc .vmem S1x2 .f32) (harg8 : arg8.IsWhole) (arg9 : Memref sig .tc .vmem S128x2 .f32) (harg9 : arg9.IsWhole) (arg10 : Memref sig .tc .vmem S128x64 .f32) (harg10 : arg10.IsWhole)
    (hc0 : ¬cond3_0 i) (hc1 : ¬cond3_1 i)
    (x0 : Vec F S5000x64 .f32) (x1 : Vec F S5000x64 .f32) (x2 : Vec F S5000x1 .f32) (x3 : Vec F S1x64 .f32) (x4 : Vec F S5000x1 .i32) (x5 : Vec F S128x1 .f32) (x6 : Vec F S64x2 .f32) (x7 : Vec F S1x2 .f32) (xi8 : Vec F S128x2 .f32) (xs : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare (k3_pay3 x2 x0 x1 x3 x4 xs)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9 arg10 harg10) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  subst hf0 hf1 hf2 hf3 hf4 hf5 hf6 hf7 hf8 hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact HS
  -- the last store covers the scratch, so it reads back that store's payload; each whole-buffer load read the contents
  ipureintro
  sl_unfold_words
  refine (View.read_writes_eq_canon _ _ _ ?_).trans ?_
  · intro y; refine ⟨_, List.Mem.head _, ?_⟩
    exact View.mem_set_unit_zero (S := S128x64) off3_zero inb_S128x64_S128x64_0_0 y
  refine (View.canon_cons_unit_zero (S := S128x64) off3_zero inb_S128x64_S128x64_0_0 _ _).trans ?_
  simp only [View.readAt_eq_ld, View.ld_unit_zero (S := S5000x64) off3_zero, View.ld_unit_zero (S := S5000x1) off3_zero, View.ld_unit_zero (S := S1x64) off3_zero, View.ld_unit_zero (S := S128x64) off3_zero, View.ld_unit_zero (S := S128x1) off3_zero, View.ld_unit_zero (S := S64x2) off3_zero, View.ld_unit_zero (S := S1x2) off3_zero, View.ld_unit_zero (S := S128x2) off3_zero, View.readCov_unit_zero (S := S128x64) _ off3_zero]

set_option maxHeartbeats 1000000 in
/-- CASE C (the last point: the reset not taken, the head taken). On whole buffers — the inputs' at `x0 … x7`, window 8's
    at anything, the scratch at `xs` — the body runs to the continuation holding the inputs' as they were, the scratch at
    the accumulation over `xs`, and window 8's at the head of that accumulation,
    `k3_pay1 (k3_pay3 x2 x0 x1 x3 x4 xs) x5 x6 x7`: the scratch is loaded back after the store that covers it, and the
    head's one store covers window 8's buffer. -/
theorem kernelRun3_C (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x1 .i32) (harg5 : arg5.IsWhole) (arg6 : Memref sig .tc .vmem S128x1 .f32) (harg6 : arg6.IsWhole) (arg7 : Memref sig .tc .vmem S64x2 .f32) (harg7 : arg7.IsWhole) (arg8 : Memref sig .tc .vmem S1x2 .f32) (harg8 : arg8.IsWhole) (arg9 : Memref sig .tc .vmem S128x2 .f32) (harg9 : arg9.IsWhole) (arg10 : Memref sig .tc .vmem S128x64 .f32) (harg10 : arg10.IsWhole)
    (hc0 : ¬cond3_0 i) (hc1 : cond3_1 i)
    (x0 : Vec F S5000x64 .f32) (x1 : Vec F S5000x64 .f32) (x2 : Vec F S5000x1 .f32) (x3 : Vec F S1x64 .f32) (x4 : Vec F S5000x1 .i32) (x5 : Vec F S128x1 .f32) (x6 : Vec F S64x2 .f32) (x7 : Vec F S1x2 .f32) (xs : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k3_pay1 (k3_pay3 x2 x0 x1 x3 x4 xs) x5 x6 x7) ∗ owns (c : Thread nD τ) arg10 fullShare (k3_pay3 x2 x0 x1 x3 x4 xs)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9 arg10 harg10) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  subst hf0 hf1 hf2 hf3 hf4 hf5 hf6 hf7 hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    -- the head's store covers window 8's buffer, so it reads back that store's payload, over the scratch as just stored
    ipureintro
    sl_unfold_words
    refine (View.read_writes_eq_canon _ _ _ ?_).trans ?_
    · intro y; refine ⟨_, List.Mem.head _, ?_⟩
      exact View.mem_set_unit_zero (S := S128x2) off3_zero inb_S128x2_S128x2_0_0 y
    refine (View.canon_cons_unit_zero (S := S128x2) off3_zero inb_S128x2_S128x2_0_0 _ _).trans ?_
    simp only [View.readAt_eq_ld, View.ld_unit_zero (S := S5000x64) off3_zero, View.ld_unit_zero (S := S5000x1) off3_zero, View.ld_unit_zero (S := S1x64) off3_zero, View.ld_unit_zero (S := S128x64) off3_zero, View.ld_unit_zero (S := S128x1) off3_zero, View.ld_unit_zero (S := S64x2) off3_zero, View.ld_unit_zero (S := S1x2) off3_zero, View.ld_unit_zero (S := S128x2) off3_zero, View.readCov_unit_zero (S := S128x64) _ off3_zero]
  iexists _; isplitr
  swap; · iexact HS
  -- the last store covers the scratch, so it reads back that store's payload; each whole-buffer load read the contents
  ipureintro
  sl_unfold_words
  refine (View.read_writes_eq_canon _ _ _ ?_).trans ?_
  · intro y; refine ⟨_, List.Mem.head _, ?_⟩
    exact View.mem_set_unit_zero (S := S128x64) off3_zero inb_S128x64_S128x64_0_0 y
  refine (View.canon_cons_unit_zero (S := S128x64) off3_zero inb_S128x64_S128x64_0_0 _ _).trans ?_
  simp only [View.readAt_eq_ld, View.ld_unit_zero (S := S5000x64) off3_zero, View.ld_unit_zero (S := S5000x1) off3_zero, View.ld_unit_zero (S := S1x64) off3_zero, View.ld_unit_zero (S := S128x64) off3_zero, View.ld_unit_zero (S := S128x1) off3_zero, View.ld_unit_zero (S := S64x2) off3_zero, View.ld_unit_zero (S := S1x2) off3_zero, View.ld_unit_zero (S := S128x2) off3_zero, View.readCov_unit_zero (S := S128x64) _ off3_zero]

end Cert.Kernel.Hand

end
-- ==== Proof.KB.Reg3.lean ====
import proofs.«407338_j17489106829800_2_alg».proof.Proof.KB.Reg3Runs

/-! # REGION 3 of @main: custom_call 3, `cc3__final_kernel` (pipeline 3), at the entry contents `V`

Pooling by graph and the linear head, over a grid of 20 points (tiles of 5000 node rows). Nine windows: inputs 0 (the
aggregated neighbour rows, 5000x64), 1 (the node's own rows, 5000x64), 2 (the inverse-root degrees, 5000x1) and 4 (the graph
ids, 5000x1, integers), whose block moves with the point; inputs 3 (the bias row, 1x64), 5 (the rows per graph, 128x1), 6 (the
head's weights, 64x2) and 7 (the head's bias, 1x2), which have one block for the whole grid, so their block index never
moves and their buffer holds that block at every point; output 8 (128x2), one block for the whole grid, written back
after the LAST point only. The body also has a scratch buffer (128x64) of its own, which no window stages and which
carries the running sum from point to point (the body's three control cases are stated with its runs, imported here).

What the scratch holds after the body at point `n` is the recursion
  `scAt3 0 = k3_pay3 d₀ a₀ h₀ b g₀ 0`,  `scAt3 (n + 1) = k3_pay3 dₙ₊₁ aₙ₊₁ hₙ₊₁ b gₙ₊₁ (scAt3 n)`
over the blocks of windows 2, 0, 1, 3, 4 at the point (`k3_pay3 … s = s +` the tile's rows summed by graph): the first
point starts from zeros whatever the scratch held, every later point adds to what the point before left. What window 8's
buffer holds after the last point is the head of the final sum, `outAt3 19 = k3_pay1 (scAt3 19) n W β` over the blocks of
windows 5, 6, 7; at the other points the body leaves that buffer as it found it (the window is idle there and is not
written back), so `outAt3` at those points is consulted by nothing.

The region's invariant (`PhiS3`) is, before the first point, what the launch hands the region (every scoped buffer that is
no staging buffer at some contents, and the generator register at some state); after point `n`, the scratch owned at
`scAt3 n`, the other such scoped buffers unopened, and the generator register. The launch's form splits at the scratch
(`PhiA3_eq`), which is how the first point's body gets it (at anything) and how the last invariant gives the launch's
form back (`hout3`: the scratch's named contents forgotten).

Everything is generic in the float model `F` and stated at a PARAMETER `V`, the core's buffer contents when the region is
entered:
  * `iblk3` — window `w`'s block at point `t`, read off its array as `V` has it;
  * `before3_W_of` — an input window's current buffer holds its block at every point, fetched there or not;
  * `scAt3`, `outAt3` and their equations `scAt3_zero`, `scAt3_succ`, `outAt3_last`;
  * `dat3`, `A_eq3`, `after3_W`, `before3_W` — the pipeline's proof data and its projections;
  * `body_obligation3` — the body obligation of that data, at every point, by the three control cases;
  * `hin3`, `hout3` — the invariant's two ends against the launch's form. -/

-- membership in a rectangle with a 5000-long axis: the structural check recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, fetched there or not, for ANY proof data whose
    array is `V`'s (`hA`) and whose body leaves the block in place (`hafter`): where it is not fetched the block index has
    not moved since the point before, and the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, fetched there or not, for ANY proof data whose
    array is `V`'s (`hA`) and whose body leaves the block in place (`hafter`): where it is not fetched the block index has
    not moved since the point before, and the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, fetched there or not, for ANY proof data whose
    array is `V`'s (`hA`) and whose body leaves the block in place (`hafter`): where it is not fetched the block index has
    not moved since the point before, and the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, fetched there or not, for ANY proof data whose
    array is `V`'s (`hA`) and whose body leaves the block in place (`hafter`): where it is not fetched the block index has
    not moved since the point before, and the window is uncut and never idle. This window is fetched at the first point
    only: its block index is the same at every point, which is the unfetched case of the lemma. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current buffer holds its block at every point, fetched there or not, for ANY proof data whose
    array is `V`'s (`hA`) and whose body leaves the block in place (`hafter`): where it is not fetched the block index has
    not moved since the point before, and the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current buffer holds its block at every point, fetched there or not, for ANY proof data whose
    array is `V`'s (`hA`) and whose body leaves the block in place (`hafter`): where it is not fetched the block index has
    not moved since the point before, and the window is uncut and never idle. This window is fetched at the first point
    only: its block index is the same at every point, which is the unfetched case of the lemma. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current buffer holds its block at every point, fetched there or not, for ANY proof data whose
    array is `V`'s (`hA`) and whose body leaves the block in place (`hafter`): where it is not fetched the block index has
    not moved since the point before, and the window is uncut and never idle. This window is fetched at the first point
    only: its block index is the same at every point, which is the unfetched case of the lemma. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current buffer holds its block at every point, fetched there or not, for ANY proof data whose
    array is `V`'s (`hA`) and whose body leaves the block in place (`hafter`): where it is not fetched the block index has
    not moved since the point before, and the window is uncut and never idle. This window is fetched at the first point
    only: its block index is the same at every point, which is the unfetched case of the lemma. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## What the scratch and the output's buffer hold after each point -/

/-- THE RUNNING SUM. What the scratch holds after the body at point `n`: at the first point the accumulation over zeros
    (the body resets the scratch there before adding), at a later point the accumulation over what the point before left. -/
def scAt3 (c : Dev nD) : (n : ℕ) → n < cfg3.N → Vec F S128x64 .f32
  | 0, h => k3_pay3 (iblk3 V c 2 ⟨0, h⟩) (iblk3 V c 0 ⟨0, h⟩) (iblk3 V c 1 ⟨0, h⟩) (iblk3 V c 3 ⟨0, h⟩) (iblk3 V c 4 ⟨0, h⟩) (k3_pay2 (F := F))
  | n + 1, h => k3_pay3 (iblk3 V c 2 ⟨n + 1, h⟩) (iblk3 V c 0 ⟨n + 1, h⟩) (iblk3 V c 1 ⟨n + 1, h⟩) (iblk3 V c 3 ⟨n + 1, h⟩) (iblk3 V c 4 ⟨n + 1, h⟩) (scAt3 c n (Nat.lt_of_succ_lt h))

/-- What window 8's buffer holds after the body at point `n` if the body stores the head there: the head of the running
    sum at that point. The body does so at the last point only; elsewhere the window is idle and nothing consults this. -/
def outAt3 (c : Dev nD) (n : ℕ) (h : n < cfg3.N) : Vec F S128x2 .f32 :=
  k3_pay1 (scAt3 V c n h) (iblk3 V c 5 ⟨n, h⟩) (iblk3 V c 6 ⟨n, h⟩) (iblk3 V c 7 ⟨n, h⟩)

theorem scAt3_zero (c : Dev nD) (h : 0 < cfg3.N) :
    scAt3 V c 0 h = k3_pay3 (iblk3 V c 2 ⟨0, h⟩) (iblk3 V c 0 ⟨0, h⟩) (iblk3 V c 1 ⟨0, h⟩) (iblk3 V c 3 ⟨0, h⟩) (iblk3 V c 4 ⟨0, h⟩) (k3_pay2 (F := F)) := rfl

theorem scAt3_succ (c : Dev nD) (n : ℕ) (h : n + 1 < cfg3.N) :
    scAt3 V c (n + 1) h = k3_pay3 (iblk3 V c 2 ⟨n + 1, h⟩) (iblk3 V c 0 ⟨n + 1, h⟩) (iblk3 V c 1 ⟨n + 1, h⟩) (iblk3 V c 3 ⟨n + 1, h⟩) (iblk3 V c 4 ⟨n + 1, h⟩) (scAt3 V c n (Nat.lt_of_succ_lt h)) := rfl

theorem outAt3_last (c : Dev nD) (h : 19 < cfg3.N) :
    outAt3 V c 19 h = k3_pay1 (scAt3 V c 19 h) (iblk3 V c 5 ⟨19, h⟩) (iblk3 V c 6 ⟨19, h⟩) (iblk3 V c 7 ⟨19, h⟩) := rfl

/-- The running sum at the first point, stated at the point. -/
theorem scAt3_of_zero (c : Dev nD) (t : Fin cfg3.N) (h0 : t.val = 0) :
    scAt3 V c t.val t.isLt = k3_pay3 (iblk3 V c 2 t) (iblk3 V c 0 t) (iblk3 V c 1 t) (iblk3 V c 3 t) (iblk3 V c 4 t) (k3_pay2 (F := F)) := by
  obtain ⟨n, hn⟩ := t
  cases n with
  | zero => exact rfl
  | succ n => exact absurd h0 (Nat.succ_ne_zero n)

/-- The running sum at a later point, stated at the point: over what the point before left. -/
theorem scAt3_of_pos (c : Dev nD) (t : Fin cfg3.N) (h0 : t.val ≠ 0) :
    scAt3 V c t.val t.isLt = k3_pay3 (iblk3 V c 2 t) (iblk3 V c 0 t) (iblk3 V c 1 t) (iblk3 V c 3 t) (iblk3 V c 4 t) (scAt3 V c (t.val - 1) (Nat.lt_of_le_of_lt (Nat.sub_le _ _) t.isLt)) := by
  obtain ⟨n, hn⟩ := t
  cases n with
  | zero => exact absurd rfl h0
  | succ n => exact rfl

/-- The head at a point, stated at the point. -/
theorem outAt3_at (c : Dev nD) (t : Fin cfg3.N) :
    outAt3 V c t.val t.isLt = k3_pay1 (scAt3 V c t.val t.isLt) (iblk3 V c 5 t) (iblk3 V c 6 t) (iblk3 V c 7 t) := rfl

/-! ## The region's invariant -/

/-- The invariant before position `n`: before the first point what the launch hands the region; afterwards the scratch
    owned at what the point before left in it (`scAt3`), the other scoped buffers that are no staging buffer unopened, and
    the generator register at some state. -/
def PhiS3 (c : Dev nD) : (n : ℕ) → n ≤ cfg3.N → sProp 𝕄
  | 0, _ => Pipeline.ΦA spec3 c
  | n + 1, hn => iprop(iprop(owns (c : Thread nD τ) scM3 fullShare (scAt3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the scratch at that point's running sum. -/
theorem PhiS3_succ (c : Dev nD) (n : ℕ) (hn : n < cfg3.N) :
    PhiS3 V c (n + 1) hn = iprop(iprop(owns (c : Thread nD τ) scM3 fullShare (scAt3 V c n hn) ∗ Pipeline.scopedRestBut (Ix := Unit) (Name := ℕ) (U := UR sig nD τ) (Lvl := ℕ) (Val := Elt F) spec3 c [cc3_scratch0]) ∗ (∃ r, prngReg c r)) := rfl

/-- Before a point that is not the first: the scratch at what the point before left. -/
theorem PhiS3_pos (c : Dev nD) (n : ℕ) (h : n ≤ cfg3.N) (hz : n ≠ 0) :
    PhiS3 V c n h = iprop(iprop(owns (c : Thread nD τ) scM3 fullShare (scAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- What the launch hands the region, split at the scratch: the scratch as a whole memref owned at some contents, the
    other scoped buffers that are no staging buffer unopened, the generator register. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The pipeline's proof data -/

/-- The proof data of pipeline 3 on core `c`: the arrays as the region finds them (`V`); after the body at point `t` each
    input's buffer at its block and the output's at the head of the running sum there (consulted at the last point
    only); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => outAt3 V c t.val t.isLt
  Φ t := PhiS3 V c t.val (Nat.le_of_lt_succ t.isLt)
  q _ := fullShare
  owed _ := 0

/-- The proof data's arrays are the region-entry contents (the definition projected, `V` never unfolded). -/
theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = outAt3 V c t.val t.isLt := by dsimp only [dat3]

/-- Each input's current buffer holds its block at every point, fetched there or not (`before3_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns: each input's buffer at its block; window 8's as the body found it where the window is idle, at
    the head's value where it is live. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

set_option maxHeartbeats 4800000 in
/-- The body at any point. The inputs' buffers hold their blocks (`before3_W`); the closed forms of the two conditions say
    which control case the point is in. At the first point the invariant is the launch's form, which hands the body the
    scratch at anything (`PhiA3_eq`); at a later point it hands it the scratch at what the point before left
    (`PhiS3_pos`). The case's run applies; the invariant takes the scratch back at this point's running sum
    (`PhiS3_succ`, `scAt3_of_zero` / `scAt3_of_pos`), the other scoped buffers and the generator register pass through
    unopened, and the core owes nothing throughout. Window 8's buffer goes back as found where the window is idle, at
    the head of the running sum at the last point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by unfold Dat.leavesExact; rw [liveAt3_0 t], after3_0]
  rw [show (dat3 V c).leavesExact 1 t = owns (c : Thread nD τ) (st3_1 t) fullShare ((dat3 V c).after 1 t) from by unfold Dat.leavesExact; rw [liveAt3_1 t], after3_1]
  rw [show (dat3 V c).leavesExact 2 t = owns (c : Thread nD τ) (st3_2 t) fullShare ((dat3 V c).after 2 t) from by unfold Dat.leavesExact; rw [liveAt3_2 t], after3_2]
  rw [show (dat3 V c).leavesExact 3 t = owns (c : Thread nD τ) (st3_3 t) fullShare ((dat3 V c).after 3 t) from by unfold Dat.leavesExact; rw [liveAt3_3 t], after3_3]
  rw [show (dat3 V c).leavesExact 4 t = owns (c : Thread nD τ) (st3_4 t) fullShare ((dat3 V c).after 4 t) from by unfold Dat.leavesExact; rw [liveAt3_4 t], after3_4]
  rw [show (dat3 V c).leavesExact 5 t = owns (c : Thread nD τ) (st3_5 t) fullShare ((dat3 V c).after 5 t) from by unfold Dat.leavesExact; rw [liveAt3_5 t], after3_5]
  rw [show (dat3 V c).leavesExact 6 t = owns (c : Thread nD τ) (st3_6 t) fullShare ((dat3 V c).after 6 t) from by unfold Dat.leavesExact; rw [liveAt3_6 t], after3_6]
  rw [show (dat3 V c).leavesExact 7 t = owns (c : Thread nD τ) (st3_7 t) fullShare ((dat3 V c).after 7 t) from by unfold Dat.leavesExact; rw [liveAt3_7 t], after3_7]
  have hN : t.val < 20 := lt_of_lt_of_eq t.isLt (show cfg3.N = 20 from N_3)
  by_cases h19 : t.val = 19
  · -- the last point: the accumulation, then the head
    have h0 : t.val ≠ 0 := by omega
    have hc0 : ¬cond3_0 (grid3.coords t) := fun h => h0 ((hcond3_0 t).mp h)
    have hc1 : cond3_1 (grid3.coords t) := (hcond3_1 t).mpr h19
    rw [show (dat3 V c).leavesExact 8 t = owns (c : Thread nD τ) (st3_8 t) fullShare ((dat3 V c).after 8 t) from by unfold Dat.leavesExact; rw [liveAt3_8 t hc1], after3_8, outAt3_at]
    rw [scAt3_of_pos V c t h0]
    rw [PhiS3_castSucc V c t, PhiS3_pos V c _ _ h0]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernelRun3_C c Set.univ (grid3.coords t) _ _ _ _ _ _ _ _ _ _ _ _ _ _ _ _ _ _ _ _ hc0 hc1 (iblk3 V c 0 t) (iblk3 V c 1 t) (iblk3 V c 2 t) (iblk3 V c 3 t) (iblk3 V c 4 t) (iblk3 V c 5 t) (iblk3 V c 6 t) (iblk3 V c 7 t) (scAt3 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond3_1 (grid3.coords t) := fun h => h19 ((hcond3_1 t).mp h)
    rw [Dat.leavesExact_idle (dat3 V c) 8 t (idleAt3_8 t hc1) (noFlush3_8 t hc1)]
    by_cases h0 : t.val = 0
    · -- the first point: the reset, then the accumulation; the invariant is the launch's form
      have hc0 : cond3_0 (grid3.coords t) := (hcond3_0 t).mpr h0
      rw [scAt3_of_zero V c t h0]
      rw [PhiS3_castSucc V c t, PhiS3_zero V c _ _ h0, PhiA3_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernelRun3_A c Set.univ (grid3.coords t) _ _ _ _ _ _ _ _ _ _ _ _ _ _ _ _ _ _ _ _ hc0 hc1 (iblk3 V c 0 t) (iblk3 V c 1 t) (iblk3 V c 2 t) (iblk3 V c 3 t) (iblk3 V c 4 t) (iblk3 V c 5 t) (iblk3 V c 6 t) (iblk3 V c 7 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · -- a middle point: the accumulation over what the point before left
      have hc0 : ¬cond3_0 (grid3.coords t) := fun h => h0 ((hcond3_0 t).mp h)
      rw [scAt3_of_pos V c t h0]
      rw [PhiS3_castSucc V c t, PhiS3_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernelRun3_B c Set.univ (grid3.coords t) _ _ _ _ _ _ _ _ _ _ _ _ _ _ _ _ _ _ _ _ hc0 hc1 (iblk3 V c 0 t) (iblk3 V c 1 t) (iblk3 V c 2 t) (iblk3 V c 3 t) (iblk3 V c 4 t) (iblk3 V c 5 t) (iblk3 V c 6 t) (iblk3 V c 7 t) _ (scAt3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation of `dat3`, at every point. -/
theorem body_obligation3 (c : Dev nD) : BodyObligation (dat3 (F := F) V c) (defs₀ (F := F)) Variants.none () Set.univ := fun t => by
  rw [bigSep_W3, bigSep_W3]
  exact sound_body3 V c t

/-! ## The invariant's two ends -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's form back: the scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

end Cert.Kernel.Hand

end
-- ==== Proof.KB.Run.lean ====
import proofs.«407338_j17489106829800_2_alg».proof.Proof.KB.Reg0
import proofs.«407338_j17489106829800_2_alg».proof.Proof.KB.Reg1
import proofs.«407338_j17489106829800_2_alg».proof.Proof.KB.Reg2
import proofs.«407338_j17489106829800_2_alg».proof.Proof.KB.Reg3
import proofs.«407338_j17489106829800_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: four kernel regions among four stretches of host operations

From any launch memory with zero counters every weakly fair execution of @main terminates without a fault, and at the end every
unscoped buffer of a core holds a NAMED value: the fold `B8` of the launch contents through the program — a host stretch applies
its operations (`StableHlo.after`), a region leaves each output window's array at its write-backs folded over the entry contents and
everything else as entered. The argument arrays come back unchanged through that fold (no stretch writes one, no region has one as
an output), and the result buffer holds what region 3's last write-back left. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of @main -/

/-- Core `c`'s buffers at launch. -/
abbrev B0 : Dev nD → Valuation τ sig (Elt F) := fun c b => (s₀ m ρ).mem ((c : Dev nD), b)
/-- After the first host stretch (region 0's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b

/-- At region 0's exit: its windows' arrays at what the pipeline leaves (an input as entered, an output at its write-backs folded
    over the entry contents), every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev X2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = X2 m ρ c (Pipeline.arrRef spec0 w) :=
  (B2_arr m ρ c w).symm
theorem hrest0 (c : Dev nD) : ∀ b, b ∉ Finset.univ.image (Pipeline.arrRef spec0) → X2 m ρ c b = E1 m ρ c b :=
  fun b hb => B2_of_ne m ρ c b fun w e => hb (Finset.mem_image.mpr ⟨w, Finset.mem_univ _, e⟩)
/-- After the next host stretch (region 1's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b

/-- At region 1's exit: its windows' arrays at what the pipeline leaves (an input as entered, an output at its write-backs folded
    over the entry contents), every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same read at the TensorCore's references. -/
abbrev X4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = X4 m ρ c (Pipeline.arrRef spec1 w) :=
  (B4_arr m ρ c w).symm
theorem hrest1 (c : Dev nD) : ∀ b, b ∉ Finset.univ.image (Pipeline.arrRef spec1) → X4 m ρ c b = E3 m ρ c b :=
  fun b hb => B4_of_ne m ρ c b fun w e => hb (Finset.mem_image.mpr ⟨w, Finset.mem_univ _, e⟩)
/-- After the next host stretch (region 2's entry). -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b

/-- At region 2's exit: its windows' arrays at what the pipeline leaves (an input as entered, an output at its write-backs folded
    over the entry contents), every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
/-- The same read at the TensorCore's references. -/
abbrev X6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = X6 m ρ c (Pipeline.arrRef spec2 w) :=
  (B6_arr m ρ c w).symm
theorem hrest2 (c : Dev nD) : ∀ b, b ∉ Finset.univ.image (Pipeline.arrRef spec2) → X6 m ρ c b = E5 m ρ c b :=
  fun b hb => B6_of_ne m ρ c b fun w e => hb (Finset.mem_image.mpr ⟨w, Finset.mem_univ _, e⟩)
/-- After the next host stretch (region 3's entry). -/
abbrev B7 : Dev nD → Valuation τ sig (Elt F) := fun c => StableHlo.after hostOps3 (B6 m ρ c)
abbrev E7 : (c : Dev nD) → (b : Ref sig .tc) → Buf (Elt F) ((c : Thread nD τ).loc b) := fun c b => B7 m ρ c b

/-- At region 3's exit: its windows' arrays at what the pipeline leaves (an input as entered, an output at its write-backs folded
    over the entry contents), every other buffer as entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
/-- The same read at the TensorCore's references. -/
abbrev X8 : (c : Dev nD) → (b : Ref sig .tc) → Buf (Elt F) ((c : Thread nD τ).loc b) := fun c b => B8 m ρ c b
theorem hF3 (c : Dev nD) (w : Fin cfg3.W) : (dat3 (E7 m ρ) c).arrAt w cfg3.N = X8 m ρ c (Pipeline.arrRef spec3 w) :=
  (B8_arr m ρ c w).symm
theorem hrest3 (c : Dev nD) : ∀ b, b ∉ Finset.univ.image (Pipeline.arrRef spec3) → X8 m ρ c b = E7 m ρ c b :=
  fun b hb => B8_of_ne m ρ c b fun w e => hb (Finset.mem_image.mpr ⟨w, Finset.mem_univ _, e⟩)

/-! ## What each item leaves alone -/

/-- Region 0 changes only its output arrays: any other buffer leaves it as it entered (an input window's array by the
    pipeline's own account of an input, a buffer no window stages because nothing touches it). -/
theorem B2_keep (c : Dev nD) (b : Ref sig .tc) (hb : b ∉ ([main_v20_0, main_v20_1] : List (Ref sig .tc))) :
    B2 m ρ c (Proc.devRef .tc b) = B1 m ρ c (Proc.devRef .tc b) := by
  by_cases h : ∃ w, Pipeline.arrRef spec0 w = b
  · obtain ⟨w, rfl⟩ := h
    have hin : (cfg0.win w).isOut = false := by
      by_contra hout
      refine hb ?_
      revert hout; revert w; decide
    exact (B2_arr m ρ c w).trans (((dat0 (E1 m ρ) c).arrAt_in w hin _).trans (A_eq0 (E1 m ρ) c w))
  · exact B2_of_ne m ρ c b fun w e => h ⟨w, e⟩

/-- Region 1 changes only its output arrays: any other buffer leaves it as it entered (an input window's array by the
    pipeline's own account of an input, a buffer no window stages because nothing touches it). -/
theorem B4_keep (c : Dev nD) (b : Ref sig .tc) (hb : b ∉ ([main_v32_0, main_v32_1] : List (Ref sig .tc))) :
    B4 m ρ c (Proc.devRef .tc b) = B3 m ρ c (Proc.devRef .tc b) := by
  by_cases h : ∃ w, Pipeline.arrRef spec1 w = b
  · obtain ⟨w, rfl⟩ := h
    have hin : (cfg1.win w).isOut = false := by
      by_contra hout
      refine hb ?_
      revert hout; revert w; decide
    exact (B4_arr m ρ c w).trans (((dat1 (E3 m ρ) c).arrAt_in w hin _).trans (A_eq1 (E3 m ρ) c w))
  · exact B4_of_ne m ρ c b fun w e => h ⟨w, e⟩

/-- Region 2 changes only its output arrays: any other buffer leaves it as it entered (an input window's array by the
    pipeline's own account of an input, a buffer no window stages because nothing touches it). -/
theorem B6_keep (c : Dev nD) (b : Ref sig .tc) (hb : b ∉ ([main_v44_0, main_v44_1] : List (Ref sig .tc))) :
    B6 m ρ c (Proc.devRef .tc b) = B5 m ρ c (Proc.devRef .tc b) := by
  by_cases h : ∃ w, Pipeline.arrRef spec2 w = b
  · obtain ⟨w, rfl⟩ := h
    have hin : (cfg2.win w).isOut = false := by
      by_contra hout
      refine hb ?_
      revert hout; revert w; decide
    exact (B6_arr m ρ c w).trans (((dat2 (E5 m ρ) c).arrAt_in w hin _).trans (A_eq2 (E5 m ρ) c w))
  · exact B6_of_ne m ρ c b fun w e => h ⟨w, e⟩

/-- Region 3 changes only its output arrays: any other buffer leaves it as it entered (an input window's array by the
    pipeline's own account of an input, a buffer no window stages because nothing touches it). -/
theorem B8_keep (c : Dev nD) (b : Ref sig .tc) (hb : b ∉ ([main_v58] : List (Ref sig .tc))) :
    B8 m ρ c (Proc.devRef .tc b) = B7 m ρ c (Proc.devRef .tc b) := by
  by_cases h : ∃ w, Pipeline.arrRef spec3 w = b
  · obtain ⟨w, rfl⟩ := h
    have hin : (cfg3.win w).isOut = false := by
      by_contra hout
      refine hb ?_
      revert hout; revert w; decide
    exact (B8_arr m ρ c w).trans (((dat3 (E7 m ρ) c).arrAt_in w hin _).trans (A_eq3 (E7 m ρ) c w))
  · exact B8_of_ne m ρ c b fun w e => h ⟨w, e⟩

/-- A buffer that no host stretch writes and that is no region's output array ends as launched. -/
theorem B8_keep_all (c : Dev nD) (b : Ref sig .tc) (h0 : b ∉ hostOps0_W) (h1 : b ∉ hostOps1_W) (h2 : b ∉ hostOps2_W) (h3 : b ∉ hostOps3_W)
    (ho0 : b ∉ ([main_v20_0, main_v20_1] : List (Ref sig .tc))) (ho1 : b ∉ ([main_v32_0, main_v32_1] : List (Ref sig .tc)))
    (ho2 : b ∉ ([main_v44_0, main_v44_1] : List (Ref sig .tc))) (ho3 : b ∉ ([main_v58] : List (Ref sig .tc))) :
    B8 m ρ c (Proc.devRef .tc b) = m ((c : Thread nD τ).loc b) := by
  have e8 := B8_keep m ρ c b ho3
  have e7 : B7 m ρ c (Proc.devRef .tc b) = B6 m ρ c (Proc.devRef .tc b) := StableHlo.after_of_writes_sub hostOps3 _ hostOps3_writes h3
  have e6 := B6_keep m ρ c b ho2
  have e5 : B5 m ρ c (Proc.devRef .tc b) = B4 m ρ c (Proc.devRef .tc b) := StableHlo.after_of_writes_sub hostOps2 _ hostOps2_writes h2
  have e4 := B4_keep m ρ c b ho1
  have e3 : B3 m ρ c (Proc.devRef .tc b) = B2 m ρ c (Proc.devRef .tc b) := StableHlo.after_of_writes_sub hostOps1 _ hostOps1_writes h1
  have e2 := B2_keep m ρ c b ho0
  have e1 : B1 m ρ c (Proc.devRef .tc b) = B0 m ρ c (Proc.devRef .tc b) := StableHlo.after_of_writes_sub hostOps0 _ hostOps0_writes h0
  exact e8.trans (e7.trans (e6.trans (e5.trans (e4.trans (e3.trans (e2.trans (e1.trans rfl)))))))

theorem B8_main_arg0 (c : Dev nD) : B8 m ρ c (Proc.devRef .tc main_arg0) = m ((c : Thread nD τ).loc main_arg0) :=
  B8_keep_all m ρ c main_arg0 (by decide) (by decide) (by decide) (by decide) (by decide) (by decide) (by decide) (by decide)
theorem B8_main_arg1 (c : Dev nD) : B8 m ρ c (Proc.devRef .tc main_arg1) = m ((c : Thread nD τ).loc main_arg1) :=
  B8_keep_all m ρ c main_arg1 (by decide) (by decide) (by decide) (by decide) (by decide) (by decide) (by decide) (by decide)
theorem B8_main_arg2 (c : Dev nD) : B8 m ρ c (Proc.devRef .tc main_arg2) = m ((c : Thread nD τ).loc main_arg2) :=
  B8_keep_all m ρ c main_arg2 (by decide) (by decide) (by decide) (by decide) (by decide) (by decide) (by decide) (by decide)
theorem B8_main_arg3 (c : Dev nD) : B8 m ρ c (Proc.devRef .tc main_arg3) = m ((c : Thread nD τ).loc main_arg3) :=
  B8_keep_all m ρ c main_arg3 (by decide) (by decide) (by decide) (by decide) (by decide) (by decide) (by decide) (by decide)
theorem B8_main_arg4 (c : Dev nD) : B8 m ρ c (Proc.devRef .tc main_arg4) = m ((c : Thread nD τ).loc main_arg4) :=
  B8_keep_all m ρ c main_arg4 (by decide) (by decide) (by decide) (by decide) (by decide) (by decide) (by decide) (by decide)
theorem B8_main_arg5 (c : Dev nD) : B8 m ρ c (Proc.devRef .tc main_arg5) = m ((c : Thread nD τ).loc main_arg5) :=
  B8_keep_all m ρ c main_arg5 (by decide) (by decide) (by decide) (by decide) (by decide) (by decide) (by decide) (by decide)
theorem B8_main_arg6 (c : Dev nD) : B8 m ρ c (Proc.devRef .tc main_arg6) = m ((c : Thread nD τ).loc main_arg6) :=
  B8_keep_all m ρ c main_arg6 (by decide) (by decide) (by decide) (by decide) (by decide) (by decide) (by decide) (by decide)
theorem B8_main_arg7 (c : Dev nD) : B8 m ρ c (Proc.devRef .tc main_arg7) = m ((c : Thread nD τ).loc main_arg7) :=
  B8_keep_all m ρ c main_arg7 (by decide) (by decide) (by decide) (by decide) (by decide) (by decide) (by decide) (by decide)
theorem B8_main_arg8 (c : Dev nD) : B8 m ρ c (Proc.devRef .tc main_arg8) = m ((c : Thread nD τ).loc main_arg8) :=
  B8_keep_all m ρ c main_arg8 (by decide) (by decide) (by decide) (by decide) (by decide) (by decide) (by decide) (by decide)
theorem B8_main_arg9 (c : Dev nD) : B8 m ρ c (Proc.devRef .tc main_arg9) = m ((c : Thread nD τ).loc main_arg9) :=
  B8_keep_all m ρ c main_arg9 (by decide) (by decide) (by decide) (by decide) (by decide) (by decide) (by decide) (by decide)
theorem B8_main_arg10 (c : Dev nD) : B8 m ρ c (Proc.devRef .tc main_arg10) = m ((c : Thread nD τ).loc main_arg10) :=
  B8_keep_all m ρ c main_arg10 (by decide) (by decide) (by decide) (by decide) (by decide) (by decide) (by decide) (by decide)

/-- The result buffer ends at what region 3's last write-back leaves in its output window's array. -/
theorem B8_main_v58 (c : Dev nD) : B8 m ρ c (Proc.devRef .tc main_v58) = (dat3 (E7 m ρ) c).arrAt 8 cfg3.N :=
  B8_arr m ρ c 8

/-! ## The proof data family and what rides beside the buffers -/

/-- No pipeline has a prefetched table. -/
abbrev hadm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) hadm p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
abbrev Vr : Variants := Variants.none
/-- No core owes another anything: no level is assigned. -/
abbrev Lr : GSem nD τ sig → Finset Unit := fun _ => ∅
abbrev lvr : GSem nD τ sig → Unit → ℕ := fun _ _ => 0
/-- What rides beside the buffers through every item: the core's generator register at some state and its dues, none. -/
abbrev Rst (c : Dev nD) : sProp 𝕄 := iprop((∃ r, prngReg c r) ∗ ∃ W, owes (c : Thread nD τ) (0 : CellTallies nD τ sig Unit) W)
/-- A host stretch as a segment over the unscoped references from the contents `W`, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vr Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tend (c : Dev nD) : sProp 𝕄 := iprop(StableHlo.held (c : Thread nD τ) (Pipeline.ucRefs τ sig) (B8 m ρ c) ∗ ∃ r, prngReg c r)

/-! ## The regions as segments -/

-- unification of a library lemma stated over `pin pcs a p` with the pinned configuration may unfold plain definitions in a
-- metavariable's type
set_option backward.isDefEq.respectTransparency.types false in
/-- Region 0 as a segment: entered with every unscoped buffer at `B1`, left with them at `B2`. Its windows' arrays are split
    out of the unscoped buffers and put back at what the write-backs leave; the generator register passes through the
    invariant; nothing is owed; the kernel has no semaphore of its own. -/
def reg0 : Pipeline.RegionSeg (pcfgs (F := F)) hadm (pdats m ρ) () defs₀ Vr Lr lvr 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lr lvr 0 fun _ _ => rfl
  pre c := iprop(StableHlo.held (c : Thread nD τ) (Pipeline.ucRefs τ sig) (B1 m ρ c) ∗ Rst c)
  post c := iprop(StableHlo.held (c : Thread nD τ) (Pipeline.ucRefs τ sig) (B2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) hadm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over `pin pcs a p` with the pinned configuration may unfold plain definitions in a
-- metavariable's type
set_option backward.isDefEq.respectTransparency.types false in
/-- Region 1 as a segment: entered with every unscoped buffer at `B3`, left with them at `B4`. Its windows' arrays are split
    out of the unscoped buffers and put back at what the write-backs leave; the generator register passes through the
    invariant; nothing is owed; the kernel has no semaphore of its own. -/
def reg1 : Pipeline.RegionSeg (pcfgs (F := F)) hadm (pdats m ρ) () defs₀ Vr Lr lvr 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lr lvr 1 fun _ _ => rfl
  pre c := iprop(StableHlo.held (c : Thread nD τ) (Pipeline.ucRefs τ sig) (B3 m ρ c) ∗ Rst c)
  post c := iprop(StableHlo.held (c : Thread nD τ) (Pipeline.ucRefs τ sig) (B4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) hadm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over `pin pcs a p` with the pinned configuration may unfold plain definitions in a
-- metavariable's type
set_option backward.isDefEq.respectTransparency.types false in
/-- Region 2 as a segment: entered with every unscoped buffer at `B5`, left with them at `B6`. Its windows' arrays are split
    out of the unscoped buffers and put back at what the write-backs leave; the generator register passes through the
    invariant; nothing is owed; the kernel has no semaphore of its own. -/
def reg2 : Pipeline.RegionSeg (pcfgs (F := F)) hadm (pdats m ρ) () defs₀ Vr Lr lvr 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lr lvr 2 fun _ _ => rfl
  pre c := iprop(StableHlo.held (c : Thread nD τ) (Pipeline.ucRefs τ sig) (B5 m ρ c) ∗ Rst c)
  post c := iprop(StableHlo.held (c : Thread nD τ) (Pipeline.ucRefs τ sig) (B6 m ρ c) ∗ Rst c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) hadm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (pdats m ρ) ((pdats m ρ 2 c).share_full fun _ => rfl)
      (E5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over `pin pcs a p` with the pinned configuration may unfold plain definitions in a
-- metavariable's type
set_option backward.isDefEq.respectTransparency.types false in
/-- Region 3 as a segment: entered with every unscoped buffer at `B7`, left with them at `B8`. Its windows' arrays are split
    out of the unscoped buffers and put back at what the write-backs leave; the generator register passes through the
    invariant; nothing is owed; the kernel has no semaphore of its own. -/
def reg3 : Pipeline.RegionSeg (pcfgs (F := F)) hadm (pdats m ρ) () defs₀ Vr Lr lvr 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ Lr lvr 3 fun _ _ => rfl
  pre c := iprop(StableHlo.held (c : Thread nD τ) (Pipeline.ucRefs τ sig) (B7 m ρ c) ∗ Rst c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) hadm (pdats m ρ) launch3.win launch3.arr_whole c
      ((pdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (E7 m ρ) c).Φ 0 from rfl]
    iintro ⟨Hp, -, Hr⟩
    iapply (hin3 (E7 m ρ) c)
    unfold Pipeline.ΦA
    isplitl [Hr]; · iexact Hr
    iexact Hp
  hout c := by
    rw [Pipeline.ownSems0_none, show (pdats m ρ 3 c).Φ (Fin.last _) = (dat3 (E7 m ρ) c).Φ (Fin.last cfg3.N) from rfl]
    have h3 := hout3 (E7 m ρ) c
    unfold Pipeline.ΦA at h3
    iintro HΦ
    ihave H := h3 $$ HΦ
    icases H with ⟨Hr, Hp⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (pdats m ρ) ((pdats m ρ 3 c).share_full fun _ => rfl)
      (E7 m ρ c) (X8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight items in order: a host segment per stretch from its boundary's contents, a region per pallas_call. -/
abbrev hsegs : List (Pipeline.Seg (pcfgs (F := F)) hadm (pdats m ρ) () defs₀ Vr Lr lvr) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ) ]

/-- @main is the run of its items. -/
theorem main_run (c : Dev nD) : main (F := F) c = Pipeline.Seg.run (hsegs m ρ) := by
  rw [Pipeline.Seg.run_eq_chain]
  exact main_chain c

-- the launch theorem's implicit arguments are found by unifying its conclusion with this one, which takes unfolding plain
-- definitions in a metavariable's type
set_option backward.isDefEq.respectTransparency.types false in
/-- THE RUN. At the compiled mesh, from any memory with zero counters, every weakly fair execution of @main on the TensorCores
    terminates, nothing faulting, and every final state has each unscoped buffer of each core at the fold `B8`. -/
theorem run : θ_run defs (onTc (τ := τ) (main (F := F))) ⟨m, fun _ => 0, ρ⟩ (fun r => ∀ c : Dev nD,
      ∀ b ∈ Pipeline.ucRefs τ sig, r.2.mem (((c : Thread nD τ)).1, b) = B8 m ρ c b) :=
  Pipeline.θ_run_regions_kit (pcfgs (F := F)) hadm (pdats m ρ) () cellOf_inj emb₁ defs₀ Vr Lr lvr m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rst c)) (Tₙ := Tend m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Lr lvr fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h c => h c)

end Cert.Kernel.Hand

end
-- ==== Proof.KI.Reg0.lean ====
import proofs.«407338_j17489106829800_2_alg».proof.Proof.Gen.KernelIdeal.Launch
import proofs.«407338_j17489106829800_2_alg».proof.Proof.Gen.KernelIdeal.Skeleton
import proofs.«407338_j17489106829800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the first projection kernel over its grid of 20 row tiles

Pipeline 0 has five windows: the inputs `x` (a tile of 5000 rows by 64 columns, f32, a new tile at every point),
`W0` (64 by 64, f32, one block for the whole grid, brought in at the first point and kept) and `dinv` (a tile of
5000 rows by 1 column, f32), and the outputs `x · W0` (5000 by 64, f32, the operands rounded to bf16 and the
products accumulated in f32) and `(x · W0) * dinv` rounded to bf16 (5000 by 64), each written back at every point.

Everything is stated at a parameter `V`, the contents of the core's buffers when the region is entered, and at any
float model `F`:

* `iblk0`: a window's block at a grid point, read off its array at `V`;
* `before0_W_of`: an input window's current staging buffer holds that block at every point, whether or not the block
  was brought in there (a block that is not brought in has not moved);
* `out0_3`, `out0_4`: what the body leaves in each output window's buffer, the canonical contents of its one
  whole-block store, a closed function of the input blocks; `cover0_3`, `cover0_4`: that store covers the block;
* `sound_kernel0`: the body's triple on whole staging buffers — the inputs are left as found, each output buffer,
  whatever it held (the body reads it before overwriting it and does not use what it read), ends at `out0_W`;
* `dat0`, `A_eq0`, `after0_W`, `before0_W`: the pipeline's proof data and its projections;
* `sound_body0`, `body_obligation0`: the body obligation at every grid point.
-/

-- membership in a rectangle with a 5000-long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (`x`): its current staging buffer holds its block at every point, for any proof data whose array
    is `V`'s (`hA`) and whose body leaves the block in place (`hafter`). The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (`W0`): brought in at the first point only, its block index is constant over the grid, so at a later
    point the buffer still holds the block of the point before, which is this point's. Same statement, same proof. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (`dinv`): as window 0. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each one the whole block -/

abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S5000x1 := Rect.unit (s := S5000x1) ![0, 0] S5000x1.size inb_S5000x1_S5000x1_0_0

/-! ## What the body leaves in each output window's buffer -/

/-- Window 3's staging buffer after the body, from the blocks of `x` and `W0`: its one store, of the product
    `k0_pay1`, as a piece. -/
def out0_3 (x0 : Vec F S5000x64 .f32) (x1 : Vec F S64x64 .f32) : Vec F S5000x64 .f32 :=
  View.canon [⟨r0_0, k0_pay1 (View.ld x0 r0_0) (View.ld x1 r0_1)⟩]

/-- Its store is of the whole block, so it covers it. -/
theorem cover0_3 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

/-- Window 4's staging buffer after the body, from the blocks of `x`, `W0` and `dinv`: its one store, of the scaled
    and rounded product `k0_pay2`, as a piece. -/
def out0_4 (x0 : Vec F S5000x64 .f32) (x1 : Vec F S64x64 .f32) (x2 : Vec F S5000x1 .f32) : Vec F S5000x64 .bf16 :=
  View.canon [⟨r0_0, k0_pay2 (View.ld x0 r0_0) (View.ld x1 r0_1) (View.ld x2 r0_2)⟩]

/-- Its store is of the whole block, so it covers it. -/
theorem cover0_4 (p0 : Vec F S5000x64 .bf16) (y : S5000x64.Idx) :
    ∃ pc ∈ ([⟨r0_0, p0⟩] : List (View.Piece (Elt F) S5000x64 .bf16)), y ∈ pc.1.set :=
  View.cover_of_tiled [⟨r0_0, p0⟩] S5000x64.size (by rfl) y

/-! ## The body's triple -/

set_option maxHeartbeats 1000000 in
/-- The kernel body on whole staging memrefs, the inputs' at read contents `x0 x1 x2` and the outputs' at anything,
    runs to the continuation holding the inputs' as they were and each output's at `out0_W` of the inputs'. The body
    reads each output buffer before its store into it and uses neither value; the store overwrites the whole block. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x1 .f32) (harg3 : arg3.IsWhole) (arg4 : Memref sig .tc .vmem S5000x64 .f32) (harg4 : arg4.IsWhole) (arg5 : Memref sig .tc .vmem S5000x64 .bf16) (harg5 : arg5.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__matmul0_kernel i arg1 harg1 arg2 harg2 arg3 harg3 arg4 harg4 arg5 harg5) K := by
  simp only [cc0__matmul0_kernel_eq_skeleton]; unfold cc0__matmul0_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at point `t`
    each input's buffer at its block and each output's at `out0_W` of the input blocks; the invariant: the core's other
    scoped buffers and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

/-- The proof data's arrays are the region-entry contents (the definition projected; `V` is never unfolded). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«407338_j17489106829800_2_alg».proof.Proof.Gen.KernelIdeal.Launch
import proofs.«407338_j17489106829800_2_alg».proof.Proof.Gen.KernelIdeal.Skeleton
import proofs.«407338_j17489106829800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # REGION 1 of @main: custom_call 1, `cc1__combine_matmul_kernel` (pipeline 1), at the entry contents `V`

One graph-convolution layer on a tile of 5000 node rows, over a grid of 20 points. Seven windows:
inputs 0 (the aggregated neighbour rows, 5000x64), 1 (the node's own rows, 5000x64), 2 (the inverse-root degrees, 5000x1), 3 (the bias row, 1x64)
and 4 (the weight matrix, 64x64); outputs 5 (5000x64, f32) and 6 (5000x64, bf16). Windows 3 and 4 have one block for
the whole grid, so their block index never moves and their buffer holds that block at every point.

With `a`, `h`, `d`, `b`, `W` the blocks of windows 0..4 at a point, the body stores
`y = (bf16 (max (a * d + h * (d * d) + b) 0)) · (bf16 W)` (a 5000x64 by 64x64 product, accumulated in f32) whole into
window 5's buffer and `bf16 (y * d)` whole into window 6's (`d` and `b` broadcast along the other axis). Each is ONE
store covering its buffer, so what the body leaves in an output buffer is that store's payload and depends on the
input blocks only — never on what the buffer held (the body reads each output buffer before storing and drops the
value read).

Everything is generic in the float model `F` and stated at a PARAMETER `V`, the core's buffer contents when the
region is entered:
  * `iblk1` — window `w`'s block at point `t`, read off its array as `V` has it;
  * `before1_W_of` — an input window's current buffer holds its block at every point, fetched there or not;
  * `out1_5`, `out1_6` — what the body leaves in each output buffer, from the five input blocks;
  * `sound_kernel1` — the body's triple on whole buffers;
  * `dat1`, `A_eq1`, `after1_W`, `before1_W` — the pipeline's proof data and its projections;
  * `body_obligation1` — the body obligation of that data, at every point. -/

-- membership in a rectangle with a 5000-long axis: the structural check recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not, for ANY proof data whose
    array is `V`'s (`hA`) and whose body leaves the block in place (`hafter`): where it is not fetched the block index has
    not moved since the point before, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not, for ANY proof data whose
    array is `V`'s (`hA`) and whose body leaves the block in place (`hafter`): where it is not fetched the block index has
    not moved since the point before, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not, for ANY proof data whose
    array is `V`'s (`hA`) and whose body leaves the block in place (`hafter`): where it is not fetched the block index has
    not moved since the point before, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not, for ANY proof data whose
    array is `V`'s (`hA`) and whose body leaves the block in place (`hafter`): where it is not fetched the block index has
    not moved since the point before, and the window is uncut and never idle. This window is fetched at the first point only:
    its block index is the same at every point, which is the unfetched case of the lemma. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not, for ANY proof data whose
    array is `V`'s (`hA`) and whose body leaves the block in place (`hafter`): where it is not fetched the block index has
    not moved since the point before, and the window is uncut and never idle. This window is fetched at the first point only:
    its block index is the same at every point, which is the unfetched case of the lemma. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S5000x1 := Rect.unit (s := S5000x1) ![0, 0] S5000x1.size inb_S5000x1_S5000x1_0_0
abbrev r1_1 : Rect S5000x64 := Rect.unit (s := S5000x64) ![0, 0] S5000x64.size inb_S5000x64_S5000x64_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0

/-! ## What the body leaves in each output window's buffer -/

/-- Window 5's buffer after the body, from the input windows' blocks (`xw` is window `w`'s): its one store as a
    piece. The payload takes the values in the order the body loads them: window 2's, 0's, 1's, 3's, 4's. -/
def out1_5 (x0 : Vec F S5000x64 .f32) (x1 : Vec F S5000x64 .f32) (x2 : Vec F S5000x1 .f32) (x3 : Vec F S1x64 .f32) (x4 : Vec F S64x64 .f32) : Vec F S5000x64 .f32 :=
  View.canon [⟨r1_1, k1_pay2 (View.ld x2 r1_0) (View.ld x0 r1_1) (View.ld x1 r1_1) (View.ld x3 r1_2) (View.ld x4 r1_3)⟩]

/-- Its store is of the whole buffer, so it covers it. -/
theorem cover1_5 (p0 : Vec F S5000x64 .f32) (y : S5000x64.Idx) :
    ∃ pc ∈ ([⟨r1_1, p0⟩] : List (View.Piece (Elt F) S5000x64 .f32)), y ∈ pc.1.set :=
  View.cover_of_tiled [⟨r1_1, p0⟩] S5000x64.size (by rfl) y

/-- Window 6's buffer after the body, from the input windows' blocks: its one store as a piece. -/
def out1_6 (x0 : Vec F S5000x64 .f32) (x1 : Vec F S5000x64 .f32) (x2 : Vec F S5000x1 .f32) (x3 : Vec F S1x64 .f32) (x4 : Vec F S64x64 .f32) : Vec F S5000x64 .bf16 :=
  View.canon [⟨r1_1, k1_pay3 (View.ld x2 r1_0) (View.ld x0 r1_1) (View.ld x1 r1_1) (View.ld x3 r1_2) (View.ld x4 r1_3)⟩]

/-- Its store is of the whole buffer, so it covers it. -/
theorem cover1_6 (p0 : Vec F S5000x64 .bf16) (y : S5000x64.Idx) :
    ∃ pc ∈ ([⟨r1_1, p0⟩] : List (View.Piece (Elt F) S5000x64 .bf16)), y ∈ pc.1.set :=
  View.cover_of_tiled [⟨r1_1, p0⟩] S5000x64.size (by rfl) y

/-! ## The body's triple -/

set_option maxHeartbeats 1000000 in
/-- The body on whole buffers, the inputs' at contents `xW` and the outputs' at anything, runs to the continuation
    holding the inputs' as they were and each output's at `out1_W` of the inputs': the printed function is its skeleton
    of loads and stores over the named payloads, run one memory operation at a time; each output's one store covers
    its buffer, so reading the buffer back gives the store's piece whatever it held before. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S5000x64 .bf16) (harg7 : arg7.IsWhole)
    (x0 : Vec F S5000x64 .f32) (x1 : Vec F S5000x64 .f32) (x2 : Vec F S5000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__combine_matmul_kernel i arg1 harg1 arg2 harg2 arg3 harg3 arg4 harg4 arg5 harg5 arg6 harg6 arg7 harg7) K := by
  simp only [cc1__combine_matmul_kernel_eq_skeleton]; unfold cc1__combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and each output's at `out1_W` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current buffer holds its block at every point, fetched there or not (`before1_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks (`before1_W`), so `sound_kernel1` applies; the
    invariant and the core's owed shares pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of `dat1`, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«407338_j17489106829800_2_alg».proof.Proof.Gen.KernelIdeal.Launch
import proofs.«407338_j17489106829800_2_alg».proof.Proof.Gen.KernelIdeal.Skeleton
import proofs.«407338_j17489106829800_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # REGION 2 of @main: custom_call 2, `cc2__combine_matmul_kernel` (pipeline 2), at the entry contents `V`

One graph-convolution layer on a tile of 5000 node rows, over a grid of 20 points. Seven windows:
inputs 0 (the aggregated neighbour rows, 5000x64), 1 (the node's own rows, 5000x64), 2 (the inverse-root degrees, 5000x1), 3 (the bias row, 1x64)
and 4 (the weight matrix, 64x64); outputs 5 (5000x64, f32) and 6 (5000x64, bf16). Windows 3 and 4 have one block for
the whole grid, so their block index never moves and their buffer holds that block at every point.

With `a`, `h`, `d`, `b`, `W` the blocks of windows 0..4 at a point, the body stores
`y = (bf16 (max (a * d + h * (d * d) + b) 0)) · (bf16 W)` (a 5000x64 by 64x64 product, accumulated in f32) whole into
window 5's buffer and `bf16 (y * d)` whole into window 6's (`d` and `b` broadcast along the other axis). Each is ONE
store covering its buffer, so what the body leaves in an output buffer is that store's payload and depends on the
input blocks only — never on what the buffer held (the body reads each output buffer before storing and drops the
value read).

Everything is generic in the float model `F` and stated at a PARAMETER `V`, the core's buffer contents when the
region is entered:
  * `iblk2` — window `w`'s block at point `t`, read off its array as `V` has it;
  * `before2_W_of` — an input window's current buffer holds its block at every point, fetched there or not;
  * `out2_5`, `out2_6` — what the body leaves in each output buffer, from the five input blocks;
  * `sound_kernel2` — the body's triple on whole buffers;
  * `dat2`, `A_eq2`, `after2_W`, `before2_W` — the pipeline's proof data and its projections;
  * `body_obligation2` — the body obligation of that data, at every point. -/

-- membership in a rectangle with a 5000-long axis: the structural check recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not, for ANY proof data whose
    array is `V`'s (`hA`) and whose body leaves the block in place (`hafter`): where it is not fetched the block index has
    not moved since the point before, and the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not, for ANY proof data whose
    array is `V`'s (`hA`) and whose body leaves the block in place (`hafter`): where it is not fetched the block index has
    not moved since the point before, and the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not, for ANY proof data whose
    array is `V`'s (`hA`) and whose body leaves the block in place (`hafter`): where it is not fetched the block index has
    not moved since the point before, and the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not, for ANY proof data whose
    array is `V`'s (`hA`) and whose body leaves the block in place (`hafter`): where it is not fetched the block index has
    not moved since the point before, and the window is uncut and never idle. This window is fetched at the first point only:
    its block index is the same at every point, which is the unfetched case of the lemma. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not, for ANY proof data whose
    array is `V`'s (`hA`) and whose body leaves the block in place (`hafter`): where it is not fetched the block index has
    not moved since the point before, and the window is uncut and never idle. This window is fetched at the first point only:
    its block index is the same at every point, which is the unfetched case of the lemma. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_0 : Rect S5000x1 := Rect.unit (s := S5000x1) ![0, 0] S5000x1.size inb_S5000x1_S5000x1_0_0
abbrev r2_1 : Rect S5000x64 := Rect.unit (s := S5000x64) ![0, 0] S5000x64.size inb_S5000x64_S5000x64_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0

/-! ## What the body leaves in each output window's buffer -/

/-- Window 5's buffer after the body, from the input windows' blocks (`xw` is window `w`'s): its one store as a
    piece. The payload takes the values in the order the body loads them: window 2's, 0's, 1's, 3's, 4's. -/
def out2_5 (x0 : Vec F S5000x64 .f32) (x1 : Vec F S5000x64 .f32) (x2 : Vec F S5000x1 .f32) (x3 : Vec F S1x64 .f32) (x4 : Vec F S64x64 .f32) : Vec F S5000x64 .f32 :=
  View.canon [⟨r2_1, k2_pay2 (View.ld x2 r2_0) (View.ld x0 r2_1) (View.ld x1 r2_1) (View.ld x3 r2_2) (View.ld x4 r2_3)⟩]

/-- Its store is of the whole buffer, so it covers it. -/
theorem cover2_5 (p0 : Vec F S5000x64 .f32) (y : S5000x64.Idx) :
    ∃ pc ∈ ([⟨r2_1, p0⟩] : List (View.Piece (Elt F) S5000x64 .f32)), y ∈ pc.1.set :=
  View.cover_of_tiled [⟨r2_1, p0⟩] S5000x64.size (by rfl) y

/-- Window 6's buffer after the body, from the input windows' blocks: its one store as a piece. -/
def out2_6 (x0 : Vec F S5000x64 .f32) (x1 : Vec F S5000x64 .f32) (x2 : Vec F S5000x1 .f32) (x3 : Vec F S1x64 .f32) (x4 : Vec F S64x64 .f32) : Vec F S5000x64 .bf16 :=
  View.canon [⟨r2_1, k2_pay3 (View.ld x2 r2_0) (View.ld x0 r2_1) (View.ld x1 r2_1) (View.ld x3 r2_2) (View.ld x4 r2_3)⟩]

/-- Its store is of the whole buffer, so it covers it. -/
theorem cover2_6 (p0 : Vec F S5000x64 .bf16) (y : S5000x64.Idx) :
    ∃ pc ∈ ([⟨r2_1, p0⟩] : List (View.Piece (Elt F) S5000x64 .bf16)), y ∈ pc.1.set :=
  View.cover_of_tiled [⟨r2_1, p0⟩] S5000x64.size (by rfl) y

/-! ## The body's triple -/

set_option maxHeartbeats 1000000 in
/-- The body on whole buffers, the inputs' at contents `xW` and the outputs' at anything, runs to the continuation
    holding the inputs' as they were and each output's at `out2_W` of the inputs': the printed function is its skeleton
    of loads and stores over the named payloads, run one memory operation at a time; each output's one store covers
    its buffer, so reading the buffer back gives the store's piece whatever it held before. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .f32) (harg6 : arg6.IsWhole) (arg7 : Memref sig .tc .vmem S5000x64 .bf16) (harg7 : arg7.IsWhole)
    (x0 : Vec F S5000x64 .f32) (x1 : Vec F S5000x64 .f32) (x2 : Vec F S5000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4) ∗ owns (c : Thread nD τ) arg7 fullShare (out2_6 x0 x1 x2 x3 x4)) -∗ K ⟨⟩))
      ⊢ wp frame (wpE (defs₀ (F := F)) Variants.none c none) E (cc2__combine_matmul_kernel i arg1 harg1 arg2 harg2 arg3 harg3 arg4 harg4 arg5 harg5 arg6 harg6 arg7 harg7) K := by
  simp only [cc2__combine_matmul_kernel_eq_skeleton]; unfold cc2__combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The pipeline's proof data -/

/-- The proof data of pipeline 2 on core `c`: the arrays as the region finds them (`V`); after the body at point `t`
    each input's buffer at its block and each output's at `out2_W` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents (the definition projected, `V` never unfolded). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

/-- Each input's current buffer holds its block at every point, fetched there or not (`before2_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks (`before2_W`), so `sound_kernel2` applies; the
    invariant and the core's owed shares pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of `dat2`, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3Runs.lean ====
import proofs.«407338_j17489106829800_2_alg».proof.Proof.Gen.KernelIdeal.Launch
import proofs.«407338_j17489106829800_2_alg».proof.Proof.Gen.KernelIdeal.Skeleton
import proofs.«407338_j17489106829800_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-! # REGION 3 of @main: custom_call 3, `cc3__final_kernel` — the body's three control cases

The last region pools the node rows by graph and applies the linear head, over a grid of 20 points (tiles of 5000
node rows). Besides its nine windows the body has a SCRATCH buffer (128x64, one row per graph) that no window stages
and that it carries from point to point.

At a point, with `a`, `h`, `d`, `b`, `g` the blocks of windows 0..4 (aggregated rows, own rows, inverse-root degrees, bias
row, graph ids) and `s` the scratch as the body finds it, the body stores into the scratch, whole,
`k3_pay3 d a h b g s = s + onehot(g)ᵀ · bf16 (max (a * d + h * (d * d) + b) 0)` (a 128x5000 by 5000x64 product accumulated in f32:
row `j` gains the rows of the tile whose graph id is `j`). At the FIRST point it first stores zeros (`k3_pay2`) into the
scratch, whole, so there `s` is zero whatever the scratch held. At the LAST point it then loads the scratch back and, with
`n`, `W`, `β` the blocks of windows 5..7 (rows per graph, head weights, head bias), stores
`k3_pay1 s' n W β = bf16 (s' / max n 1) · bf16 W + β` whole into window 8's buffer; at every other point it stores
nothing there.

The two conditions are functions of the grid coordinate alone (`cond3_0`: the coordinate is 0; `cond3_1`: it is 19),
decided over the grid in closed form (`hcond3_0`, `hcond3_1`). So the body has three control cases:
  * A — the first point: reset, accumulate; window 8's buffer untouched;
  * B — points 1..18: accumulate; window 8's buffer untouched;
  * C — the last point: accumulate, then the head into window 8's buffer.
`kernelRun3_A`, `kernelRun3_B`, `kernelRun3_C` are the body's triples in the three cases on whole buffers: the inputs'
buffers at given contents are handed back as they were, the scratch goes from what it held (anything, in case A) to the
accumulated value, and window 8's buffer is handed back untouched (A, B) or at the head's value (C). Every load and store
is of a whole buffer, through the unit rectangle at zero offsets, so a store leaves its payload and a load reads the
contents. Window 8 is stated idle exactly where the last-point condition fails, and is written back only at the last
point (`idleAt3_8`, `liveAt3_8`, `noFlush3_8`); the input windows are never idle (`liveAt3_W`). Generic in the float
model `F`. -/

-- membership in a rectangle with a 5000-long axis: the structural check recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional's condition (the reset), from the grid coordinate: the body's scalar chain substituted. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val = 0 :=
  (by decide +kernel : ∀ t : Fin grid3.N, cond3_0 (grid3.coords t) ↔ t.val = 0)

/-- The second conditional's condition (the head), from the grid coordinate. -/
abbrev cond3_1 (i : grid3.Coords) : Prop := k3_cond2 i = 1#1
/-- It holds at the last point only — decided over the grid. -/
theorem hcond3_1 : ∀ t : Fin cfg3.N, cond3_1 (grid3.coords t) ↔ t.val = 19 :=
  (by decide +kernel : ∀ t : Fin grid3.N, cond3_1 (grid3.coords t) ↔ t.val = 19)

/-! ## Where the windows are idle -/

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem liveAt3_7 : ∀ t : Fin cfg3.N, cfg3.idle 7 (grid3.coords t) = false := by decide +kernel
/-- Where the last-point condition fails window 8 is idle: the body stores nothing into its buffer there, -/
theorem idleAt3_8 : ∀ t : Fin cfg3.N, ¬cond3_1 (grid3.coords t) → cfg3.idle 8 (grid3.coords t) = true := by decide +kernel
/-- and the pipeline does not write its block back there. -/
theorem noFlush3_8 : ∀ t : Fin cfg3.N, ¬cond3_1 (grid3.coords t) → (cfg3.win 8).flush t = false := by decide +kernel
/-- Where it holds window 8 is live: the body stores the head's value into its buffer. -/
theorem liveAt3_8 : ∀ t : Fin cfg3.N, cond3_1 (grid3.coords t) → cfg3.idle 8 (grid3.coords t) = false := by decide +kernel

/-! ## Whole-buffer accesses -/

/-- The scratch operand: a whole scoped buffer of the kernel's own, passed beside the windows. -/
abbrev scM3 : Memref sig .tc .vmem S128x64 .f32 := Memref.whole cc3_scratch0

/-! ## The body in each control case, on whole buffers -/

/-- The zero offsets of a rank-2 access as the constant function (how the whole-buffer lemmas take them). -/
theorem off3_zero : (![0, 0] : Fin 2 → ℕ) = fun _ => 0 := by funext a; fin_cases a <;> rfl

set_option maxHeartbeats 1000000 in
/-- CASE A (the first point: the reset taken, the head not). On whole buffers — the inputs' at `x0 … x7`, window 8's at
    `xi8`, the scratch at anything — the body runs to the continuation holding the inputs' and window 8's as they were and
    the scratch at the accumulation over zeros, `k3_pay3 x2 x0 x1 x3 x4 k3_pay2`: the reset's store covers the scratch, the
    load after it reads the zeros stored, and the accumulation's store covers it again. -/
theorem kernelRun3_A (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x1 .i32) (harg5 : arg5.IsWhole) (arg6 : Memref sig .tc .vmem S128x1 .f32) (harg6 : arg6.IsWhole) (arg7 : Memref sig .tc .vmem S64x2 .f32) (harg7 : arg7.IsWhole) (arg8 : Memref sig .tc .vmem S1x2 .f32) (harg8 : arg8.IsWhole) (arg9 : Memref sig .tc .vmem S128x2 .f32) (harg9 : arg9.IsWhole) (arg10 : Memref sig .tc .vmem S128x64 .f32) (harg10 : arg10.IsWhole)
    (hc0 : cond3_0 i) (hc1 : ¬cond3_1 i)
    (x0 : Vec F S5000x64 .f32) (x1 : Vec F S5000x64 .f32) (x2 : Vec F S5000x1 .f32) (x3 : Vec F S1x64 .f32) (x4 : Vec F S5000x1 .i32) (x5 : Vec F S128x1 .f32) (x6 : Vec F S64x2 .f32) (x7 : Vec F S1x2 .f32) (xi8 : Vec F S128x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare (k3_pay3 x2 x0 x1 x3 x4 (k3_pay2 (F := F)))) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9 arg10 harg10) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
  subst hf0 hf1 hf2 hf3 hf4 hf5 hf6 hf7 hf8
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact HS
  -- the last store covers the scratch, so it reads back that store's payload; each whole-buffer load read the contents
  ipureintro
  sl_unfold_words
  refine (View.read_writes_eq_canon _ _ _ ?_).trans ?_
  · intro y; refine ⟨_, List.Mem.head _, ?_⟩
    exact View.mem_set_unit_zero (S := S128x64) off3_zero inb_S128x64_S128x64_0_0 y
  refine (View.canon_cons_unit_zero (S := S128x64) off3_zero inb_S128x64_S128x64_0_0 _ _).trans ?_
  simp only [View.readAt_eq_ld, View.ld_unit_zero (S := S5000x64) off3_zero, View.ld_unit_zero (S := S5000x1) off3_zero, View.ld_unit_zero (S := S1x64) off3_zero, View.ld_unit_zero (S := S128x64) off3_zero, View.ld_unit_zero (S := S128x1) off3_zero, View.ld_unit_zero (S := S64x2) off3_zero, View.ld_unit_zero (S := S1x2) off3_zero, View.ld_unit_zero (S := S128x2) off3_zero, View.readCov_unit_zero (S := S128x64) _ off3_zero]

set_option maxHeartbeats 1000000 in
/-- CASE B (points 1..18: neither conditional taken). On whole buffers — the inputs' at `x0 … x7`, window 8's at `xi8`,
    the scratch at `xs` — the body runs to the continuation holding the inputs' and window 8's as they were and the
    scratch at the accumulation over `xs`, `k3_pay3 x2 x0 x1 x3 x4 xs`: its one store covers the scratch. -/
theorem kernelRun3_B (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x1 .i32) (harg5 : arg5.IsWhole) (arg6 : Memref sig .tc .vmem S128x1 .f32) (harg6 : arg6.IsWhole) (arg7 : Memref sig .tc .vmem S64x2 .f32) (harg7 : arg7.IsWhole) (arg8 : Memref sig .tc .vmem S1x2 .f32) (harg8 : arg8.IsWhole) (arg9 : Memref sig .tc .vmem S128x2 .f32) (harg9 : arg9.IsWhole) (arg10 : Memref sig .tc .vmem S128x64 .f32) (harg10 : arg10.IsWhole)
    (hc0 : ¬cond3_0 i) (hc1 : ¬cond3_1 i)
    (x0 : Vec F S5000x64 .f32) (x1 : Vec F S5000x64 .f32) (x2 : Vec F S5000x1 .f32) (x3 : Vec F S1x64 .f32) (x4 : Vec F S5000x1 .i32) (x5 : Vec F S128x1 .f32) (x6 : Vec F S64x2 .f32) (x7 : Vec F S1x2 .f32) (xi8 : Vec F S128x2 .f32) (xs : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare (k3_pay3 x2 x0 x1 x3 x4 xs)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9 arg10 harg10) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  subst hf0 hf1 hf2 hf3 hf4 hf5 hf6 hf7 hf8 hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact HS
  -- the last store covers the scratch, so it reads back that store's payload; each whole-buffer load read the contents
  ipureintro
  sl_unfold_words
  refine (View.read_writes_eq_canon _ _ _ ?_).trans ?_
  · intro y; refine ⟨_, List.Mem.head _, ?_⟩
    exact View.mem_set_unit_zero (S := S128x64) off3_zero inb_S128x64_S128x64_0_0 y
  refine (View.canon_cons_unit_zero (S := S128x64) off3_zero inb_S128x64_S128x64_0_0 _ _).trans ?_
  simp only [View.readAt_eq_ld, View.ld_unit_zero (S := S5000x64) off3_zero, View.ld_unit_zero (S := S5000x1) off3_zero, View.ld_unit_zero (S := S1x64) off3_zero, View.ld_unit_zero (S := S128x64) off3_zero, View.ld_unit_zero (S := S128x1) off3_zero, View.ld_unit_zero (S := S64x2) off3_zero, View.ld_unit_zero (S := S1x2) off3_zero, View.ld_unit_zero (S := S128x2) off3_zero, View.readCov_unit_zero (S := S128x64) _ off3_zero]

set_option maxHeartbeats 1000000 in
/-- CASE C (the last point: the reset not taken, the head taken). On whole buffers — the inputs' at `x0 … x7`, window 8's
    at anything, the scratch at `xs` — the body runs to the continuation holding the inputs' as they were, the scratch at
    the accumulation over `xs`, and window 8's at the head of that accumulation,
    `k3_pay1 (k3_pay3 x2 x0 x1 x3 x4 xs) x5 x6 x7`: the scratch is loaded back after the store that covers it, and the
    head's one store covers window 8's buffer. -/
theorem kernelRun3_C (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x1 .i32) (harg5 : arg5.IsWhole) (arg6 : Memref sig .tc .vmem S128x1 .f32) (harg6 : arg6.IsWhole) (arg7 : Memref sig .tc .vmem S64x2 .f32) (harg7 : arg7.IsWhole) (arg8 : Memref sig .tc .vmem S1x2 .f32) (harg8 : arg8.IsWhole) (arg9 : Memref sig .tc .vmem S128x2 .f32) (harg9 : arg9.IsWhole) (arg10 : Memref sig .tc .vmem S128x64 .f32) (harg10 : arg10.IsWhole)
    (hc0 : ¬cond3_0 i) (hc1 : cond3_1 i)
    (x0 : Vec F S5000x64 .f32) (x1 : Vec F S5000x64 .f32) (x2 : Vec F S5000x1 .f32) (x3 : Vec F S1x64 .f32) (x4 : Vec F S5000x1 .i32) (x5 : Vec F S128x1 .f32) (x6 : Vec F S64x2 .f32) (x7 : Vec F S1x2 .f32) (xs : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k3_pay1 (k3_pay3 x2 x0 x1 x3 x4 xs) x5 x6 x7) ∗ owns (c : Thread nD τ) arg10 fullShare (k3_pay3 x2 x0 x1 x3 x4 xs)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9 arg10 harg10) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  subst hf0 hf1 hf2 hf3 hf4 hf5 hf6 hf7 hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    -- the head's store covers window 8's buffer, so it reads back that store's payload, over the scratch as just stored
    ipureintro
    sl_unfold_words
    refine (View.read_writes_eq_canon _ _ _ ?_).trans ?_
    · intro y; refine ⟨_, List.Mem.head _, ?_⟩
      exact View.mem_set_unit_zero (S := S128x2) off3_zero inb_S128x2_S128x2_0_0 y
    refine (View.canon_cons_unit_zero (S := S128x2) off3_zero inb_S128x2_S128x2_0_0 _ _).trans ?_
    simp only [View.readAt_eq_ld, View.ld_unit_zero (S := S5000x64) off3_zero, View.ld_unit_zero (S := S5000x1) off3_zero, View.ld_unit_zero (S := S1x64) off3_zero, View.ld_unit_zero (S := S128x64) off3_zero, View.ld_unit_zero (S := S128x1) off3_zero, View.ld_unit_zero (S := S64x2) off3_zero, View.ld_unit_zero (S := S1x2) off3_zero, View.ld_unit_zero (S := S128x2) off3_zero, View.readCov_unit_zero (S := S128x64) _ off3_zero]
  iexists _; isplitr
  swap; · iexact HS
  -- the last store covers the scratch, so it reads back that store's payload; each whole-buffer load read the contents
  ipureintro
  sl_unfold_words
  refine (View.read_writes_eq_canon _ _ _ ?_).trans ?_
  · intro y; refine ⟨_, List.Mem.head _, ?_⟩
    exact View.mem_set_unit_zero (S := S128x64) off3_zero inb_S128x64_S128x64_0_0 y
  refine (View.canon_cons_unit_zero (S := S128x64) off3_zero inb_S128x64_S128x64_0_0 _ _).trans ?_
  simp only [View.readAt_eq_ld, View.ld_unit_zero (S := S5000x64) off3_zero, View.ld_unit_zero (S := S5000x1) off3_zero, View.ld_unit_zero (S := S1x64) off3_zero, View.ld_unit_zero (S := S128x64) off3_zero, View.ld_unit_zero (S := S128x1) off3_zero, View.ld_unit_zero (S := S64x2) off3_zero, View.ld_unit_zero (S := S1x2) off3_zero, View.ld_unit_zero (S := S128x2) off3_zero, View.readCov_unit_zero (S := S128x64) _ off3_zero]

end Cert.KernelIdeal.Hand

end
-- ==== Proof.KI.Reg3.lean ====
import proofs.«407338_j17489106829800_2_alg».proof.Proof.KI.Reg3Runs

/-! # REGION 3 of @main: custom_call 3, `cc3__final_kernel` (pipeline 3), at the entry contents `V`

Pooling by graph and the linear head, over a grid of 20 points (tiles of 5000 node rows). Nine windows: inputs 0 (the
aggregated neighbour rows, 5000x64), 1 (the node's own rows, 5000x64), 2 (the inverse-root degrees, 5000x1) and 4 (the graph
ids, 5000x1, integers), whose block moves with the point; inputs 3 (the bias row, 1x64), 5 (the rows per graph, 128x1), 6 (the
head's weights, 64x2) and 7 (the head's bias, 1x2), which have one block for the whole grid, so their block index never
moves and their buffer holds that block at every point; output 8 (128x2), one block for the whole grid, written back
after the LAST point only. The body also has a scratch buffer (128x64) of its own, which no window stages and which
carries the running sum from point to point (the body's three control cases are stated with its runs, imported here).

What the scratch holds after the body at point `n` is the recursion
  `scAt3 0 = k3_pay3 d₀ a₀ h₀ b g₀ 0`,  `scAt3 (n + 1) = k3_pay3 dₙ₊₁ aₙ₊₁ hₙ₊₁ b gₙ₊₁ (scAt3 n)`
over the blocks of windows 2, 0, 1, 3, 4 at the point (`k3_pay3 … s = s +` the tile's rows summed by graph): the first
point starts from zeros whatever the scratch held, every later point adds to what the point before left. What window 8's
buffer holds after the last point is the head of the final sum, `outAt3 19 = k3_pay1 (scAt3 19) n W β` over the blocks of
windows 5, 6, 7; at the other points the body leaves that buffer as it found it (the window is idle there and is not
written back), so `outAt3` at those points is consulted by nothing.

The region's invariant (`PhiS3`) is, before the first point, what the launch hands the region (every scoped buffer that is
no staging buffer at some contents, and the generator register at some state); after point `n`, the scratch owned at
`scAt3 n`, the other such scoped buffers unopened, and the generator register. The launch's form splits at the scratch
(`PhiA3_eq`), which is how the first point's body gets it (at anything) and how the last invariant gives the launch's
form back (`hout3`: the scratch's named contents forgotten).

Everything is generic in the float model `F` and stated at a PARAMETER `V`, the core's buffer contents when the region is
entered:
  * `iblk3` — window `w`'s block at point `t`, read off its array as `V` has it;
  * `before3_W_of` — an input window's current buffer holds its block at every point, fetched there or not;
  * `scAt3`, `outAt3` and their equations `scAt3_zero`, `scAt3_succ`, `outAt3_last`;
  * `dat3`, `A_eq3`, `after3_W`, `before3_W` — the pipeline's proof data and its projections;
  * `body_obligation3` — the body obligation of that data, at every point, by the three control cases;
  * `hin3`, `hout3` — the invariant's two ends against the launch's form. -/

-- membership in a rectangle with a 5000-long axis: the structural check recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, fetched there or not, for ANY proof data whose
    array is `V`'s (`hA`) and whose body leaves the block in place (`hafter`): where it is not fetched the block index has
    not moved since the point before, and the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, fetched there or not, for ANY proof data whose
    array is `V`'s (`hA`) and whose body leaves the block in place (`hafter`): where it is not fetched the block index has
    not moved since the point before, and the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, fetched there or not, for ANY proof data whose
    array is `V`'s (`hA`) and whose body leaves the block in place (`hafter`): where it is not fetched the block index has
    not moved since the point before, and the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, fetched there or not, for ANY proof data whose
    array is `V`'s (`hA`) and whose body leaves the block in place (`hafter`): where it is not fetched the block index has
    not moved since the point before, and the window is uncut and never idle. This window is fetched at the first point
    only: its block index is the same at every point, which is the unfetched case of the lemma. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current buffer holds its block at every point, fetched there or not, for ANY proof data whose
    array is `V`'s (`hA`) and whose body leaves the block in place (`hafter`): where it is not fetched the block index has
    not moved since the point before, and the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current buffer holds its block at every point, fetched there or not, for ANY proof data whose
    array is `V`'s (`hA`) and whose body leaves the block in place (`hafter`): where it is not fetched the block index has
    not moved since the point before, and the window is uncut and never idle. This window is fetched at the first point
    only: its block index is the same at every point, which is the unfetched case of the lemma. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current buffer holds its block at every point, fetched there or not, for ANY proof data whose
    array is `V`'s (`hA`) and whose body leaves the block in place (`hafter`): where it is not fetched the block index has
    not moved since the point before, and the window is uncut and never idle. This window is fetched at the first point
    only: its block index is the same at every point, which is the unfetched case of the lemma. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current buffer holds its block at every point, fetched there or not, for ANY proof data whose
    array is `V`'s (`hA`) and whose body leaves the block in place (`hafter`): where it is not fetched the block index has
    not moved since the point before, and the window is uncut and never idle. This window is fetched at the first point
    only: its block index is the same at every point, which is the unfetched case of the lemma. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## What the scratch and the output's buffer hold after each point -/

/-- THE RUNNING SUM. What the scratch holds after the body at point `n`: at the first point the accumulation over zeros
    (the body resets the scratch there before adding), at a later point the accumulation over what the point before left. -/
def scAt3 (c : Dev nD) : (n : ℕ) → n < cfg3.N → Vec F S128x64 .f32
  | 0, h => k3_pay3 (iblk3 V c 2 ⟨0, h⟩) (iblk3 V c 0 ⟨0, h⟩) (iblk3 V c 1 ⟨0, h⟩) (iblk3 V c 3 ⟨0, h⟩) (iblk3 V c 4 ⟨0, h⟩) (k3_pay2 (F := F))
  | n + 1, h => k3_pay3 (iblk3 V c 2 ⟨n + 1, h⟩) (iblk3 V c 0 ⟨n + 1, h⟩) (iblk3 V c 1 ⟨n + 1, h⟩) (iblk3 V c 3 ⟨n + 1, h⟩) (iblk3 V c 4 ⟨n + 1, h⟩) (scAt3 c n (Nat.lt_of_succ_lt h))

/-- What window 8's buffer holds after the body at point `n` if the body stores the head there: the head of the running
    sum at that point. The body does so at the last point only; elsewhere the window is idle and nothing consults this. -/
def outAt3 (c : Dev nD) (n : ℕ) (h : n < cfg3.N) : Vec F S128x2 .f32 :=
  k3_pay1 (scAt3 V c n h) (iblk3 V c 5 ⟨n, h⟩) (iblk3 V c 6 ⟨n, h⟩) (iblk3 V c 7 ⟨n, h⟩)

theorem scAt3_zero (c : Dev nD) (h : 0 < cfg3.N) :
    scAt3 V c 0 h = k3_pay3 (iblk3 V c 2 ⟨0, h⟩) (iblk3 V c 0 ⟨0, h⟩) (iblk3 V c 1 ⟨0, h⟩) (iblk3 V c 3 ⟨0, h⟩) (iblk3 V c 4 ⟨0, h⟩) (k3_pay2 (F := F)) := rfl

theorem scAt3_succ (c : Dev nD) (n : ℕ) (h : n + 1 < cfg3.N) :
    scAt3 V c (n + 1) h = k3_pay3 (iblk3 V c 2 ⟨n + 1, h⟩) (iblk3 V c 0 ⟨n + 1, h⟩) (iblk3 V c 1 ⟨n + 1, h⟩) (iblk3 V c 3 ⟨n + 1, h⟩) (iblk3 V c 4 ⟨n + 1, h⟩) (scAt3 V c n (Nat.lt_of_succ_lt h)) := rfl

theorem outAt3_last (c : Dev nD) (h : 19 < cfg3.N) :
    outAt3 V c 19 h = k3_pay1 (scAt3 V c 19 h) (iblk3 V c 5 ⟨19, h⟩) (iblk3 V c 6 ⟨19, h⟩) (iblk3 V c 7 ⟨19, h⟩) := rfl

/-- The running sum at the first point, stated at the point. -/
theorem scAt3_of_zero (c : Dev nD) (t : Fin cfg3.N) (h0 : t.val = 0) :
    scAt3 V c t.val t.isLt = k3_pay3 (iblk3 V c 2 t) (iblk3 V c 0 t) (iblk3 V c 1 t) (iblk3 V c 3 t) (iblk3 V c 4 t) (k3_pay2 (F := F)) := by
  obtain ⟨n, hn⟩ := t
  cases n with
  | zero => exact rfl
  | succ n => exact absurd h0 (Nat.succ_ne_zero n)

/-- The running sum at a later point, stated at the point: over what the point before left. -/
theorem scAt3_of_pos (c : Dev nD) (t : Fin cfg3.N) (h0 : t.val ≠ 0) :
    scAt3 V c t.val t.isLt = k3_pay3 (iblk3 V c 2 t) (iblk3 V c 0 t) (iblk3 V c 1 t) (iblk3 V c 3 t) (iblk3 V c 4 t) (scAt3 V c (t.val - 1) (Nat.lt_of_le_of_lt (Nat.sub_le _ _) t.isLt)) := by
  obtain ⟨n, hn⟩ := t
  cases n with
  | zero => exact absurd rfl h0
  | succ n => exact rfl

/-- The head at a point, stated at the point. -/
theorem outAt3_at (c : Dev nD) (t : Fin cfg3.N) :
    outAt3 V c t.val t.isLt = k3_pay1 (scAt3 V c t.val t.isLt) (iblk3 V c 5 t) (iblk3 V c 6 t) (iblk3 V c 7 t) := rfl

/-! ## The region's invariant -/

/-- The invariant before position `n`: before the first point what the launch hands the region; afterwards the scratch
    owned at what the point before left in it (`scAt3`), the other scoped buffers that are no staging buffer unopened, and
    the generator register at some state. -/
def PhiS3 (c : Dev nD) : (n : ℕ) → n ≤ cfg3.N → sProp 𝕄
  | 0, _ => Pipeline.ΦA spec3 c
  | n + 1, hn => iprop(iprop(owns (c : Thread nD τ) scM3 fullShare (scAt3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the scratch at that point's running sum. -/
theorem PhiS3_succ (c : Dev nD) (n : ℕ) (hn : n < cfg3.N) :
    PhiS3 V c (n + 1) hn = iprop(iprop(owns (c : Thread nD τ) scM3 fullShare (scAt3 V c n hn) ∗ Pipeline.scopedRestBut (Ix := Unit) (Name := ℕ) (U := UR sig nD τ) (Lvl := ℕ) (Val := Elt F) spec3 c [cc3_scratch0]) ∗ (∃ r, prngReg c r)) := rfl

/-- Before a point that is not the first: the scratch at what the point before left. -/
theorem PhiS3_pos (c : Dev nD) (n : ℕ) (h : n ≤ cfg3.N) (hz : n ≠ 0) :
    PhiS3 V c n h = iprop(iprop(owns (c : Thread nD τ) scM3 fullShare (scAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- What the launch hands the region, split at the scratch: the scratch as a whole memref owned at some contents, the
    other scoped buffers that are no staging buffer unopened, the generator register. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The pipeline's proof data -/

/-- The proof data of pipeline 3 on core `c`: the arrays as the region finds them (`V`); after the body at point `t` each
    input's buffer at its block and the output's at the head of the running sum there (consulted at the last point
    only); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => outAt3 V c t.val t.isLt
  Φ t := PhiS3 V c t.val (Nat.le_of_lt_succ t.isLt)
  q _ := fullShare
  owed _ := 0

/-- The proof data's arrays are the region-entry contents (the definition projected, `V` never unfolded). -/
theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = outAt3 V c t.val t.isLt := by dsimp only [dat3]

/-- Each input's current buffer holds its block at every point, fetched there or not (`before3_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns: each input's buffer at its block; window 8's as the body found it where the window is idle, at
    the head's value where it is live. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

set_option maxHeartbeats 4800000 in
/-- The body at any point. The inputs' buffers hold their blocks (`before3_W`); the closed forms of the two conditions say
    which control case the point is in. At the first point the invariant is the launch's form, which hands the body the
    scratch at anything (`PhiA3_eq`); at a later point it hands it the scratch at what the point before left
    (`PhiS3_pos`). The case's run applies; the invariant takes the scratch back at this point's running sum
    (`PhiS3_succ`, `scAt3_of_zero` / `scAt3_of_pos`), the other scoped buffers and the generator register pass through
    unopened, and the core owes nothing throughout. Window 8's buffer goes back as found where the window is idle, at
    the head of the running sum at the last point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by unfold Dat.leavesExact; rw [liveAt3_0 t], after3_0]
  rw [show (dat3 V c).leavesExact 1 t = owns (c : Thread nD τ) (st3_1 t) fullShare ((dat3 V c).after 1 t) from by unfold Dat.leavesExact; rw [liveAt3_1 t], after3_1]
  rw [show (dat3 V c).leavesExact 2 t = owns (c : Thread nD τ) (st3_2 t) fullShare ((dat3 V c).after 2 t) from by unfold Dat.leavesExact; rw [liveAt3_2 t], after3_2]
  rw [show (dat3 V c).leavesExact 3 t = owns (c : Thread nD τ) (st3_3 t) fullShare ((dat3 V c).after 3 t) from by unfold Dat.leavesExact; rw [liveAt3_3 t], after3_3]
  rw [show (dat3 V c).leavesExact 4 t = owns (c : Thread nD τ) (st3_4 t) fullShare ((dat3 V c).after 4 t) from by unfold Dat.leavesExact; rw [liveAt3_4 t], after3_4]
  rw [show (dat3 V c).leavesExact 5 t = owns (c : Thread nD τ) (st3_5 t) fullShare ((dat3 V c).after 5 t) from by unfold Dat.leavesExact; rw [liveAt3_5 t], after3_5]
  rw [show (dat3 V c).leavesExact 6 t = owns (c : Thread nD τ) (st3_6 t) fullShare ((dat3 V c).after 6 t) from by unfold Dat.leavesExact; rw [liveAt3_6 t], after3_6]
  rw [show (dat3 V c).leavesExact 7 t = owns (c : Thread nD τ) (st3_7 t) fullShare ((dat3 V c).after 7 t) from by unfold Dat.leavesExact; rw [liveAt3_7 t], after3_7]
  have hN : t.val < 20 := lt_of_lt_of_eq t.isLt (show cfg3.N = 20 from N_3)
  by_cases h19 : t.val = 19
  · -- the last point: the accumulation, then the head
    have h0 : t.val ≠ 0 := by omega
    have hc0 : ¬cond3_0 (grid3.coords t) := fun h => h0 ((hcond3_0 t).mp h)
    have hc1 : cond3_1 (grid3.coords t) := (hcond3_1 t).mpr h19
    rw [show (dat3 V c).leavesExact 8 t = owns (c : Thread nD τ) (st3_8 t) fullShare ((dat3 V c).after 8 t) from by unfold Dat.leavesExact; rw [liveAt3_8 t hc1], after3_8, outAt3_at]
    rw [scAt3_of_pos V c t h0]
    rw [PhiS3_castSucc V c t, PhiS3_pos V c _ _ h0]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernelRun3_C c Set.univ (grid3.coords t) _ _ _ _ _ _ _ _ _ _ _ _ _ _ _ _ _ _ _ _ hc0 hc1 (iblk3 V c 0 t) (iblk3 V c 1 t) (iblk3 V c 2 t) (iblk3 V c 3 t) (iblk3 V c 4 t) (iblk3 V c 5 t) (iblk3 V c 6 t) (iblk3 V c 7 t) (scAt3 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond3_1 (grid3.coords t) := fun h => h19 ((hcond3_1 t).mp h)
    rw [Dat.leavesExact_idle (dat3 V c) 8 t (idleAt3_8 t hc1) (noFlush3_8 t hc1)]
    by_cases h0 : t.val = 0
    · -- the first point: the reset, then the accumulation; the invariant is the launch's form
      have hc0 : cond3_0 (grid3.coords t) := (hcond3_0 t).mpr h0
      rw [scAt3_of_zero V c t h0]
      rw [PhiS3_castSucc V c t, PhiS3_zero V c _ _ h0, PhiA3_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernelRun3_A c Set.univ (grid3.coords t) _ _ _ _ _ _ _ _ _ _ _ _ _ _ _ _ _ _ _ _ hc0 hc1 (iblk3 V c 0 t) (iblk3 V c 1 t) (iblk3 V c 2 t) (iblk3 V c 3 t) (iblk3 V c 4 t) (iblk3 V c 5 t) (iblk3 V c 6 t) (iblk3 V c 7 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · -- a middle point: the accumulation over what the point before left
      have hc0 : ¬cond3_0 (grid3.coords t) := fun h => h0 ((hcond3_0 t).mp h)
      rw [scAt3_of_pos V c t h0]
      rw [PhiS3_castSucc V c t, PhiS3_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernelRun3_B c Set.univ (grid3.coords t) _ _ _ _ _ _ _ _ _ _ _ _ _ _ _ _ _ _ _ _ hc0 hc1 (iblk3 V c 0 t) (iblk3 V c 1 t) (iblk3 V c 2 t) (iblk3 V c 3 t) (iblk3 V c 4 t) (iblk3 V c 5 t) (iblk3 V c 6 t) (iblk3 V c 7 t) _ (scAt3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation of `dat3`, at every point. -/
theorem body_obligation3 (c : Dev nD) : BodyObligation (dat3 (F := F) V c) (defs₀ (F := F)) Variants.none () Set.univ := fun t => by
  rw [bigSep_W3, bigSep_W3]
  exact sound_body3 V c t

/-! ## The invariant's two ends -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's form back: the scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

end Cert.KernelIdeal.Hand

end
-- ==== Proof.KI.Run.lean ====
import proofs.«407338_j17489106829800_2_alg».proof.Proof.KI.Reg0
import proofs.«407338_j17489106829800_2_alg».proof.Proof.KI.Reg1
import proofs.«407338_j17489106829800_2_alg».proof.Proof.KI.Reg2
import proofs.«407338_j17489106829800_2_alg».proof.Proof.KI.Reg3
import proofs.«407338_j17489106829800_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: four kernel regions among four stretches of host operations

From any launch memory with zero counters every weakly fair execution of @main terminates without a fault, and at the end every
unscoped buffer of a core holds a NAMED value: the fold `B8` of the launch contents through the program — a host stretch applies
its operations (`StableHlo.after`), a region leaves each output window's array at its write-backs folded over the entry contents and
everything else as entered. The argument arrays come back unchanged through that fold (no stretch writes one, no region has one as
an output), and the result buffer holds what region 3's last write-back left. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of @main -/

/-- Core `c`'s buffers at launch. -/
abbrev B0 : Dev nD → Valuation τ sig (Elt F) := fun c b => (s₀ m ρ).mem ((c : Dev nD), b)
/-- After the first host stretch (region 0's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b

/-- At region 0's exit: its windows' arrays at what the pipeline leaves (an input as entered, an output at its write-backs folded
    over the entry contents), every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev X2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = X2 m ρ c (Pipeline.arrRef spec0 w) :=
  (B2_arr m ρ c w).symm
theorem hrest0 (c : Dev nD) : ∀ b, b ∉ Finset.univ.image (Pipeline.arrRef spec0) → X2 m ρ c b = E1 m ρ c b :=
  fun b hb => B2_of_ne m ρ c b fun w e => hb (Finset.mem_image.mpr ⟨w, Finset.mem_univ _, e⟩)
/-- After the next host stretch (region 1's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b

/-- At region 1's exit: its windows' arrays at what the pipeline leaves (an input as entered, an output at its write-backs folded
    over the entry contents), every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same read at the TensorCore's references. -/
abbrev X4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = X4 m ρ c (Pipeline.arrRef spec1 w) :=
  (B4_arr m ρ c w).symm
theorem hrest1 (c : Dev nD) : ∀ b, b ∉ Finset.univ.image (Pipeline.arrRef spec1) → X4 m ρ c b = E3 m ρ c b :=
  fun b hb => B4_of_ne m ρ c b fun w e => hb (Finset.mem_image.mpr ⟨w, Finset.mem_univ _, e⟩)
/-- After the next host stretch (region 2's entry). -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b

/-- At region 2's exit: its windows' arrays at what the pipeline leaves (an input as entered, an output at its write-backs folded
    over the entry contents), every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
/-- The same read at the TensorCore's references. -/
abbrev X6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = X6 m ρ c (Pipeline.arrRef spec2 w) :=
  (B6_arr m ρ c w).symm
theorem hrest2 (c : Dev nD) : ∀ b, b ∉ Finset.univ.image (Pipeline.arrRef spec2) → X6 m ρ c b = E5 m ρ c b :=
  fun b hb => B6_of_ne m ρ c b fun w e => hb (Finset.mem_image.mpr ⟨w, Finset.mem_univ _, e⟩)
/-- After the next host stretch (region 3's entry). -/
abbrev B7 : Dev nD → Valuation τ sig (Elt F) := fun c => StableHlo.after hostOps3 (B6 m ρ c)
abbrev E7 : (c : Dev nD) → (b : Ref sig .tc) → Buf (Elt F) ((c : Thread nD τ).loc b) := fun c b => B7 m ρ c b

/-- At region 3's exit: its windows' arrays at what the pipeline leaves (an input as entered, an output at its write-backs folded
    over the entry contents), every other buffer as entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
/-- The same read at the TensorCore's references. -/
abbrev X8 : (c : Dev nD) → (b : Ref sig .tc) → Buf (Elt F) ((c : Thread nD τ).loc b) := fun c b => B8 m ρ c b
theorem hF3 (c : Dev nD) (w : Fin cfg3.W) : (dat3 (E7 m ρ) c).arrAt w cfg3.N = X8 m ρ c (Pipeline.arrRef spec3 w) :=
  (B8_arr m ρ c w).symm
theorem hrest3 (c : Dev nD) : ∀ b, b ∉ Finset.univ.image (Pipeline.arrRef spec3) → X8 m ρ c b = E7 m ρ c b :=
  fun b hb => B8_of_ne m ρ c b fun w e => hb (Finset.mem_image.mpr ⟨w, Finset.mem_univ _, e⟩)

/-! ## What each item leaves alone -/

/-- Region 0 changes only its output arrays: any other buffer leaves it as it entered (an input window's array by the
    pipeline's own account of an input, a buffer no window stages because nothing touches it). -/
theorem B2_keep (c : Dev nD) (b : Ref sig .tc) (hb : b ∉ ([main_v20_0, main_v20_1] : List (Ref sig .tc))) :
    B2 m ρ c (Proc.devRef .tc b) = B1 m ρ c (Proc.devRef .tc b) := by
  by_cases h : ∃ w, Pipeline.arrRef spec0 w = b
  · obtain ⟨w, rfl⟩ := h
    have hin : (cfg0.win w).isOut = false := by
      by_contra hout
      refine hb ?_
      revert hout; revert w; decide
    exact (B2_arr m ρ c w).trans (((dat0 (E1 m ρ) c).arrAt_in w hin _).trans (A_eq0 (E1 m ρ) c w))
  · exact B2_of_ne m ρ c b fun w e => h ⟨w, e⟩

/-- Region 1 changes only its output arrays: any other buffer leaves it as it entered (an input window's array by the
    pipeline's own account of an input, a buffer no window stages because nothing touches it). -/
theorem B4_keep (c : Dev nD) (b : Ref sig .tc) (hb : b ∉ ([main_v32_0, main_v32_1] : List (Ref sig .tc))) :
    B4 m ρ c (Proc.devRef .tc b) = B3 m ρ c (Proc.devRef .tc b) := by
  by_cases h : ∃ w, Pipeline.arrRef spec1 w = b
  · obtain ⟨w, rfl⟩ := h
    have hin : (cfg1.win w).isOut = false := by
      by_contra hout
      refine hb ?_
      revert hout; revert w; decide
    exact (B4_arr m ρ c w).trans (((dat1 (E3 m ρ) c).arrAt_in w hin _).trans (A_eq1 (E3 m ρ) c w))
  · exact B4_of_ne m ρ c b fun w e => h ⟨w, e⟩

/-- Region 2 changes only its output arrays: any other buffer leaves it as it entered (an input window's array by the
    pipeline's own account of an input, a buffer no window stages because nothing touches it). -/
theorem B6_keep (c : Dev nD) (b : Ref sig .tc) (hb : b ∉ ([main_v44_0, main_v44_1] : List (Ref sig .tc))) :
    B6 m ρ c (Proc.devRef .tc b) = B5 m ρ c (Proc.devRef .tc b) := by
  by_cases h : ∃ w, Pipeline.arrRef spec2 w = b
  · obtain ⟨w, rfl⟩ := h
    have hin : (cfg2.win w).isOut = false := by
      by_contra hout
      refine hb ?_
      revert hout; revert w; decide
    exact (B6_arr m ρ c w).trans (((dat2 (E5 m ρ) c).arrAt_in w hin _).trans (A_eq2 (E5 m ρ) c w))
  · exact B6_of_ne m ρ c b fun w e => h ⟨w, e⟩

/-- Region 3 changes only its output arrays: any other buffer leaves it as it entered (an input window's array by the
    pipeline's own account of an input, a buffer no window stages because nothing touches it). -/
theorem B8_keep (c : Dev nD) (b : Ref sig .tc) (hb : b ∉ ([main_v58] : List (Ref sig .tc))) :
    B8 m ρ c (Proc.devRef .tc b) = B7 m ρ c (Proc.devRef .tc b) := by
  by_cases h : ∃ w, Pipeline.arrRef spec3 w = b
  · obtain ⟨w, rfl⟩ := h
    have hin : (cfg3.win w).isOut = false := by
      by_contra hout
      refine hb ?_
      revert hout; revert w; decide
    exact (B8_arr m ρ c w).trans (((dat3 (E7 m ρ) c).arrAt_in w hin _).trans (A_eq3 (E7 m ρ) c w))
  · exact B8_of_ne m ρ c b fun w e => h ⟨w, e⟩

/-- A buffer that no host stretch writes and that is no region's output array ends as launched. -/
theorem B8_keep_all (c : Dev nD) (b : Ref sig .tc) (h0 : b ∉ hostOps0_W) (h1 : b ∉ hostOps1_W) (h2 : b ∉ hostOps2_W) (h3 : b ∉ hostOps3_W)
    (ho0 : b ∉ ([main_v20_0, main_v20_1] : List (Ref sig .tc))) (ho1 : b ∉ ([main_v32_0, main_v32_1] : List (Ref sig .tc)))
    (ho2 : b ∉ ([main_v44_0, main_v44_1] : List (Ref sig .tc))) (ho3 : b ∉ ([main_v58] : List (Ref sig .tc))) :
    B8 m ρ c (Proc.devRef .tc b) = m ((c : Thread nD τ).loc b) := by
  have e8 := B8_keep m ρ c b ho3
  have e7 : B7 m ρ c (Proc.devRef .tc b) = B6 m ρ c (Proc.devRef .tc b) := StableHlo.after_of_writes_sub hostOps3 _ hostOps3_writes h3
  have e6 := B6_keep m ρ c b ho2
  have e5 : B5 m ρ c (Proc.devRef .tc b) = B4 m ρ c (Proc.devRef .tc b) := StableHlo.after_of_writes_sub hostOps2 _ hostOps2_writes h2
  have e4 := B4_keep m ρ c b ho1
  have e3 : B3 m ρ c (Proc.devRef .tc b) = B2 m ρ c (Proc.devRef .tc b) := StableHlo.after_of_writes_sub hostOps1 _ hostOps1_writes h1
  have e2 := B2_keep m ρ c b ho0
  have e1 : B1 m ρ c (Proc.devRef .tc b) = B0 m ρ c (Proc.devRef .tc b) := StableHlo.after_of_writes_sub hostOps0 _ hostOps0_writes h0
  exact e8.trans (e7.trans (e6.trans (e5.trans (e4.trans (e3.trans (e2.trans (e1.trans rfl)))))))

theorem B8_main_arg0 (c : Dev nD) : B8 m ρ c (Proc.devRef .tc main_arg0) = m ((c : Thread nD τ).loc main_arg0) :=
  B8_keep_all m ρ c main_arg0 (by decide) (by decide) (by decide) (by decide) (by decide) (by decide) (by decide) (by decide)
theorem B8_main_arg1 (c : Dev nD) : B8 m ρ c (Proc.devRef .tc main_arg1) = m ((c : Thread nD τ).loc main_arg1) :=
  B8_keep_all m ρ c main_arg1 (by decide) (by decide) (by decide) (by decide) (by decide) (by decide) (by decide) (by decide)
theorem B8_main_arg2 (c : Dev nD) : B8 m ρ c (Proc.devRef .tc main_arg2) = m ((c : Thread nD τ).loc main_arg2) :=
  B8_keep_all m ρ c main_arg2 (by decide) (by decide) (by decide) (by decide) (by decide) (by decide) (by decide) (by decide)
theorem B8_main_arg3 (c : Dev nD) : B8 m ρ c (Proc.devRef .tc main_arg3) = m ((c : Thread nD τ).loc main_arg3) :=
  B8_keep_all m ρ c main_arg3 (by decide) (by decide) (by decide) (by decide) (by decide) (by decide) (by decide) (by decide)
theorem B8_main_arg4 (c : Dev nD) : B8 m ρ c (Proc.devRef .tc main_arg4) = m ((c : Thread nD τ).loc main_arg4) :=
  B8_keep_all m ρ c main_arg4 (by decide) (by decide) (by decide) (by decide) (by decide) (by decide) (by decide) (by decide)
theorem B8_main_arg5 (c : Dev nD) : B8 m ρ c (Proc.devRef .tc main_arg5) = m ((c : Thread nD τ).loc main_arg5) :=
  B8_keep_all m ρ c main_arg5 (by decide) (by decide) (by decide) (by decide) (by decide) (by decide) (by decide) (by decide)
theorem B8_main_arg6 (c : Dev nD) : B8 m ρ c (Proc.devRef .tc main_arg6) = m ((c : Thread nD τ).loc main_arg6) :=
  B8_keep_all m ρ c main_arg6 (by decide) (by decide) (by decide) (by decide) (by decide) (by decide) (by decide) (by decide)
theorem B8_main_arg7 (c : Dev nD) : B8 m ρ c (Proc.devRef .tc main_arg7) = m ((c : Thread nD τ).loc main_arg7) :=
  B8_keep_all m ρ c main_arg7 (by decide) (by decide) (by decide) (by decide) (by decide) (by decide) (by decide) (by decide)
theorem B8_main_arg8 (c : Dev nD) : B8 m ρ c (Proc.devRef .tc main_arg8) = m ((c : Thread nD τ).loc main_arg8) :=
  B8_keep_all m ρ c main_arg8 (by decide) (by decide) (by decide) (by decide) (by decide) (by decide) (by decide) (by decide)
theorem B8_main_arg9 (c : Dev nD) : B8 m ρ c (Proc.devRef .tc main_arg9) = m ((c : Thread nD τ).loc main_arg9) :=
  B8_keep_all m ρ c main_arg9 (by decide) (by decide) (by decide) (by decide) (by decide) (by decide) (by decide) (by decide)
theorem B8_main_arg10 (c : Dev nD) : B8 m ρ c (Proc.devRef .tc main_arg10) = m ((c : Thread nD τ).loc main_arg10) :=
  B8_keep_all m ρ c main_arg10 (by decide) (by decide) (by decide) (by decide) (by decide) (by decide) (by decide) (by decide)

/-- The result buffer ends at what region 3's last write-back leaves in its output window's array. -/
theorem B8_main_v58 (c : Dev nD) : B8 m ρ c (Proc.devRef .tc main_v58) = (dat3 (E7 m ρ) c).arrAt 8 cfg3.N :=
  B8_arr m ρ c 8

/-! ## The proof data family and what rides beside the buffers -/

/-- No pipeline has a prefetched table. -/
abbrev hadm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) hadm p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
abbrev Vr : Variants := Variants.none
/-- No core owes another anything: no level is assigned. -/
abbrev Lr : GSem nD τ sig → Finset Unit := fun _ => ∅
abbrev lvr : GSem nD τ sig → Unit → ℕ := fun _ _ => 0
/-- What rides beside the buffers through every item: the core's generator register at some state and its dues, none. -/
abbrev Rst (c : Dev nD) : sProp 𝕄 := iprop((∃ r, prngReg c r) ∗ ∃ W, owes (c : Thread nD τ) (0 : CellTallies nD τ sig Unit) W)
/-- A host stretch as a segment over the unscoped references from the contents `W`, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vr Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tend (c : Dev nD) : sProp 𝕄 := iprop(StableHlo.held (c : Thread nD τ) (Pipeline.ucRefs τ sig) (B8 m ρ c) ∗ ∃ r, prngReg c r)

/-! ## The regions as segments -/

-- unification of a library lemma stated over `pin pcs a p` with the pinned configuration may unfold plain definitions in a
-- metavariable's type
set_option backward.isDefEq.respectTransparency.types false in
/-- Region 0 as a segment: entered with every unscoped buffer at `B1`, left with them at `B2`. Its windows' arrays are split
    out of the unscoped buffers and put back at what the write-backs leave; the generator register passes through the
    invariant; nothing is owed; the kernel has no semaphore of its own. -/
def reg0 : Pipeline.RegionSeg (pcfgs (F := F)) hadm (pdats m ρ) () defs₀ Vr Lr lvr 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lr lvr 0 fun _ _ => rfl
  pre c := iprop(StableHlo.held (c : Thread nD τ) (Pipeline.ucRefs τ sig) (B1 m ρ c) ∗ Rst c)
  post c := iprop(StableHlo.held (c : Thread nD τ) (Pipeline.ucRefs τ sig) (B2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) hadm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over `pin pcs a p` with the pinned configuration may unfold plain definitions in a
-- metavariable's type
set_option backward.isDefEq.respectTransparency.types false in
/-- Region 1 as a segment: entered with every unscoped buffer at `B3`, left with them at `B4`. Its windows' arrays are split
    out of the unscoped buffers and put back at what the write-backs leave; the generator register passes through the
    invariant; nothing is owed; the kernel has no semaphore of its own. -/
def reg1 : Pipeline.RegionSeg (pcfgs (F := F)) hadm (pdats m ρ) () defs₀ Vr Lr lvr 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lr lvr 1 fun _ _ => rfl
  pre c := iprop(StableHlo.held (c : Thread nD τ) (Pipeline.ucRefs τ sig) (B3 m ρ c) ∗ Rst c)
  post c := iprop(StableHlo.held (c : Thread nD τ) (Pipeline.ucRefs τ sig) (B4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) hadm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over `pin pcs a p` with the pinned configuration may unfold plain definitions in a
-- metavariable's type
set_option backward.isDefEq.respectTransparency.types false in
/-- Region 2 as a segment: entered with every unscoped buffer at `B5`, left with them at `B6`. Its windows' arrays are split
    out of the unscoped buffers and put back at what the write-backs leave; the generator register passes through the
    invariant; nothing is owed; the kernel has no semaphore of its own. -/
def reg2 : Pipeline.RegionSeg (pcfgs (F := F)) hadm (pdats m ρ) () defs₀ Vr Lr lvr 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lr lvr 2 fun _ _ => rfl
  pre c := iprop(StableHlo.held (c : Thread nD τ) (Pipeline.ucRefs τ sig) (B5 m ρ c) ∗ Rst c)
  post c := iprop(StableHlo.held (c : Thread nD τ) (Pipeline.ucRefs τ sig) (B6 m ρ c) ∗ Rst c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) hadm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (pdats m ρ) ((pdats m ρ 2 c).share_full fun _ => rfl)
      (E5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over `pin pcs a p` with the pinned configuration may unfold plain definitions in a
-- metavariable's type
set_option backward.isDefEq.respectTransparency.types false in
/-- Region 3 as a segment: entered with every unscoped buffer at `B7`, left with them at `B8`. Its windows' arrays are split
    out of the unscoped buffers and put back at what the write-backs leave; the generator register passes through the
    invariant; nothing is owed; the kernel has no semaphore of its own. -/
def reg3 : Pipeline.RegionSeg (pcfgs (F := F)) hadm (pdats m ρ) () defs₀ Vr Lr lvr 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ Lr lvr 3 fun _ _ => rfl
  pre c := iprop(StableHlo.held (c : Thread nD τ) (Pipeline.ucRefs τ sig) (B7 m ρ c) ∗ Rst c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) hadm (pdats m ρ) launch3.win launch3.arr_whole c
      ((pdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (E7 m ρ) c).Φ 0 from rfl]
    iintro ⟨Hp, -, Hr⟩
    iapply (hin3 (E7 m ρ) c)
    unfold Pipeline.ΦA
    isplitl [Hr]; · iexact Hr
    iexact Hp
  hout c := by
    rw [Pipeline.ownSems0_none, show (pdats m ρ 3 c).Φ (Fin.last _) = (dat3 (E7 m ρ) c).Φ (Fin.last cfg3.N) from rfl]
    have h3 := hout3 (E7 m ρ) c
    unfold Pipeline.ΦA at h3
    iintro HΦ
    ihave H := h3 $$ HΦ
    icases H with ⟨Hr, Hp⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (pdats m ρ) ((pdats m ρ 3 c).share_full fun _ => rfl)
      (E7 m ρ c) (X8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight items in order: a host segment per stretch from its boundary's contents, a region per pallas_call. -/
abbrev hsegs : List (Pipeline.Seg (pcfgs (F := F)) hadm (pdats m ρ) () defs₀ Vr Lr lvr) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ) ]

/-- @main is the run of its items. -/
theorem main_run (c : Dev nD) : main (F := F) c = Pipeline.Seg.run (hsegs m ρ) := by
  rw [Pipeline.Seg.run_eq_chain]
  exact main_chain c

-- the launch theorem's implicit arguments are found by unifying its conclusion with this one, which takes unfolding plain
-- definitions in a metavariable's type
set_option backward.isDefEq.respectTransparency.types false in
/-- THE RUN. At the compiled mesh, from any memory with zero counters, every weakly fair execution of @main on the TensorCores
    terminates, nothing faulting, and every final state has each unscoped buffer of each core at the fold `B8`. -/
theorem run : θ_run defs (onTc (τ := τ) (main (F := F))) ⟨m, fun _ => 0, ρ⟩ (fun r => ∀ c : Dev nD,
      ∀ b ∈ Pipeline.ucRefs τ sig, r.2.mem (((c : Thread nD τ)).1, b) = B8 m ρ c b) :=
  Pipeline.θ_run_regions_kit (pcfgs (F := F)) hadm (pdats m ρ) () cellOf_inj emb₁ defs₀ Vr Lr lvr m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rst c)) (Tₙ := Tend m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Lr lvr fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h c => h c)

end Cert.KernelIdeal.Hand

end
-- ==== Proof.RefFrame.lean ====
import proofs.«407338_j17489106829800_2_alg».proof.Defs
import proofs.«407338_j17489106829800_2_alg».proof.Proof.Gen.ReferenceIdeal
import proofs.«407338_j17489106829800_2_alg».proof.Proof.Gen.Pre_finite_inputs
import proofs.«407338_j17489106829800_2_alg».proof.Proof.Gen.ReferenceIdeal.Run
import proofs.«407338_j17489106829800_2_alg».proof.Proof.Gen.ReferenceIdeal.Read

/-! The reference runs to the end, faults nowhere and leaves its arguments as it found them: its run, read back as a
    pure term of the arguments, with the result dropped. -/

noncomputable section

open Idealize.ShloMosaic Idealize.SL.Sem

namespace Cert.Proof.RefFrame

theorem frame_ri [hR : Cert.ReferenceIdeal.Facts] [hP : Cert.Pre_finite_inputs.Facts] :
    Cert.frame_ReferenceIdeal (hReferenceIdeal := hR) (hPre_finite_inputs := hP) := fun m ρ _ =>
  (θ_run Cert.ReferenceIdeal.defs _ _).mono (fun _ h c => (h c).2) (Cert.ReferenceIdeal.Value.run (F := Ideal) m ρ)

end Cert.Proof.RefFrame

end
-- ==== Proof.Val.Spec.lean ====
import Idealize.ShloMosaic.PureOps.Ideal
import Idealize.ShloMosaic.PureOps.Ideal.Laws

/-! # The two programs' arithmetic, layer by layer, over the extended reals

A graph-convolution layer sends node features `h` to `relu (agg + h · d² + b)`, where `d r` is the inverse square root of node
`r`'s degree and `agg r` sums, over the edges `e` that END at `r`, the feature row of the edge's source scaled by `d (src e) · d r`.
The kernel scales the rows by `d` BEFORE they are gathered and summed and multiplies the sum by `d r` afterwards; the reference
scales every edge's row by `d (src e) · d (dst e)` and sums. The two agree because `d r` is a nonnegative REAL: such a factor
distributes over any sum of extended reals. The pooled sums are an indicator-weighted sum over all rows, taken tile by tile, against a
sum over the rows of one graph. -/

noncomputable section

namespace Cert.Proof.Val

open Idealize.ShloMosaic

/-- The float literals `0.0` and `1.0` as the programs spell them. -/
abbrev z32 : EReal := Ideal.ofBits .f32 0x00000000#32
abbrev o32 : EReal := Ideal.ofBits .f32 0x3F800000#32

theorem z32_eq : z32 = 0 := Ideal.ofBits_zero_f32

variable {N E K C : Nat}

/-- `x @ W`. -/
def lin (x : Fin N → Fin K → EReal) (W : Fin K → Fin C → EReal) : Fin N → Fin C → EReal :=
  fun r f => ∑ k : Fin K, x r k * W k f

/-- The rows scaled by `d`. -/
def scaled (h : Fin N → Fin C → EReal) (d : Fin N → EReal) : Fin N → Fin C → EReal := fun r f => h r f * d r

/-- The kernel's aggregation: rows already scaled, gathered at the edges' sources, summed at the edges' ends. -/
def aggK (hs : Fin N → Fin C → EReal) (srcRow : Fin E → Fin N) (dstZ : Fin E → ℤ) : Fin N → Fin C → EReal :=
  fun r f => z32 + ∑ e ∈ Finset.univ.filter (fun e : Fin E => dstZ e = (r.val : ℤ)), hs (srcRow e) f

/-- The reference's aggregation: every edge's source row times the edge's norm. -/
def aggR (h : Fin N → Fin C → EReal) (d : Fin N → EReal) (srcRow dstRow : Fin E → Fin N) (dstZ : Fin E → ℤ) :
    Fin N → Fin C → EReal :=
  fun r f => z32 + ∑ e ∈ Finset.univ.filter (fun e : Fin E => dstZ e = (r.val : ℤ)), h (srcRow e) f * (d (srcRow e) * d (dstRow e))

/-- The kernel's layer output before the next product. -/
def combK (agg h : Fin N → Fin C → EReal) (d : Fin N → EReal) (b : Fin C → EReal) : Fin N → Fin C → EReal :=
  fun r f => max (agg r f * d r + h r f * (d r * d r) + b f) z32

/-- The reference's. -/
def combR (agg h : Fin N → Fin C → EReal) (d : Fin N → EReal) (b : Fin C → EReal) : Fin N → Fin C → EReal :=
  fun r f => max (agg r f + h r f * (d r * d r) + b f) z32

/-- A nonnegative real factor distributes over a finite sum of extended reals. -/
theorem finsum_mul_real {ι : Type*} (s : Finset ι) (a : ι → EReal) (c : ℝ) (hc : 0 ≤ c) :
    (∑ j ∈ s, a j) * (c : EReal) = ∑ j ∈ s, a j * (c : EReal) := by
  classical
  induction s using Finset.induction_on with
  | empty => simp
  | insert j s hj ih =>
    rw [Finset.sum_insert hj, Finset.sum_insert hj, EReal.right_distrib_of_nonneg_of_ne_top (EReal.coe_nonneg.mpr hc) (EReal.coe_ne_top c), ih]

/-- THE LAYER LAW: with `d` nonnegative reals and every edge that ends at `r` having `r` as its (clamped) end row, the kernel's
    aggregate times `d r` is the reference's aggregate. -/
theorem aggK_mul_eq_aggR (h : Fin N → Fin C → EReal) (d : Fin N → EReal) (srcRow dstRow : Fin E → Fin N) (dstZ : Fin E → ℤ)
    (hd : ∀ r, ∃ c : ℝ, 0 ≤ c ∧ d r = (c : EReal)) (hdst : ∀ e r, dstZ e = (r.val : ℤ) → dstRow e = r) (r : Fin N) (f : Fin C) :
    aggK (scaled h d) srcRow dstZ r f * d r = aggR h d srcRow dstRow dstZ r f := by
  obtain ⟨c, hc, hdr⟩ := hd r
  unfold aggK aggR scaled
  rw [hdr, z32_eq, zero_add, zero_add, finsum_mul_real _ _ c hc]
  refine Finset.sum_congr rfl fun e he => ?_
  rw [hdst e r (Finset.mem_filter.mp he).2, hdr, mul_assoc]

theorem combK_eq_combR (h : Fin N → Fin C → EReal) (d : Fin N → EReal) (b : Fin C → EReal) (srcRow dstRow : Fin E → Fin N) (dstZ : Fin E → ℤ)
    (hd : ∀ r, ∃ c : ℝ, 0 ≤ c ∧ d r = (c : EReal)) (hdst : ∀ e r, dstZ e = (r.val : ℤ) → dstRow e = r) :
    combK (aggK (scaled h d) srcRow dstZ) h d b = combR (aggR h d srcRow dstRow dstZ) h d b := by
  funext r f
  unfold combK combR
  rw [aggK_mul_eq_aggR h d srcRow dstRow dstZ hd hdst r f]

end Cert.Proof.Val

end
-- ==== Proof.Val.Names.lean ====
import proofs.«407338_j17489106829800_2_alg».proof.KernelIdeal
import proofs.«407338_j17489106829800_2_alg».proof.Proof.Val.Spec
import Idealize.ShloMosaic.Lib.ValueIdx

/-! # The argument arrays read by coordinates

The eleven arguments of the two programs as functions of plain coordinates — node features, the edge list's two rows (a source
and an end per edge, as signed words), the graph of each node, three weight matrices with their biases, the head's weights and bias —
and the quantities both programs derive from the integer arguments alone: an edge's source row (the word read as jnp reads an index:
a negative one counted from the end, then clamped into the table), an edge's end as an integer (an end outside the table is
dropped by the scatter) and as a clamped row, a node's degree and its inverse square root, a graph's node count. -/

noncomputable section

namespace Cert.Proof.Val

open Idealize.ShloMosaic Idealize.ShloMosaic.ValueIdx Idealize.ShloMosaic.TcCoe Idealize.SL.Sem
open Cert.KernelIdeal

/-- The arguments of the kernel's program on core `c`, as launched. -/
structure Args where
  x : Fin 100000 → Fin 64 → EReal
  ei : Fin 2 → Fin 1200000 → BitVec 32
  bat : Fin 100000 → BitVec 32
  W0 : Fin 64 → Fin 64 → EReal
  b0 : Fin 64 → EReal
  W1 : Fin 64 → Fin 64 → EReal
  b1 : Fin 64 → EReal
  W2 : Fin 64 → Fin 64 → EReal
  b2 : Fin 64 → EReal
  lw : Fin 64 → Fin 2 → EReal
  lb : Fin 2 → EReal

/-- The arguments read off a launch memory of the kernel's program. -/
def argsOf (m : (ℓ : Loc nD τ sig) → Buf (Elt Ideal) ℓ) (c : Dev nD) : Args where
  x r k := (m ((c.tc : Thread nD τ).loc main_arg0) : S100000x64.Idx → EReal) (ix2 r k)
  ei a e := (m ((c.tc : Thread nD τ).loc main_arg1) : S2x1200000.Idx → BitVec 32) (ix2 a e)
  bat r := (m ((c.tc : Thread nD τ).loc main_arg2) : S100000.Idx → BitVec 32) (ix1 r)
  W0 k f := (m ((c.tc : Thread nD τ).loc main_arg3) : S64x64.Idx → EReal) (ix2 k f)
  b0 f := (m ((c.tc : Thread nD τ).loc main_arg4) : S64.Idx → EReal) (ix1 f)
  W1 k f := (m ((c.tc : Thread nD τ).loc main_arg5) : S64x64.Idx → EReal) (ix2 k f)
  b1 f := (m ((c.tc : Thread nD τ).loc main_arg6) : S64.Idx → EReal) (ix1 f)
  W2 k f := (m ((c.tc : Thread nD τ).loc main_arg7) : S64x64.Idx → EReal) (ix2 k f)
  b2 f := (m ((c.tc : Thread nD τ).loc main_arg8) : S64.Idx → EReal) (ix1 f)
  lw k j := (m ((c.tc : Thread nD τ).loc main_arg9) : S64x2.Idx → EReal) (ix2 k j)
  lb j := (m ((c.tc : Thread nD τ).loc main_arg10) : S2.Idx → EReal) (ix1 j)

namespace Args

variable (a : Args)

/-- A word read as jnp reads a row index into a table of 100000 rows: a negative one counted from the end (the printed
    `select (compare LT w 0) (add w 100000) w`), -/
def wrapW (w : BitVec 32) : BitVec 32 := Scalar.select (IntOp.cmpi .slt w 0#32) (IntOp.addi w 100000#32) w
/-- then clamped into the table by the gather. -/
def rowOf (w : BitVec 32) : Fin 100000 := ⟨min (wrapW w).toInt.toNat 99999, by omega⟩

/-- Edge `e`'s source row. -/
def srcRow (e : Fin 1200000) : Fin 100000 := rowOf (a.ei 0 e)
/-- Edge `e`'s end, the integer the scatter reads (not clamped: an end outside the table is dropped), -/
def dstZ (e : Fin 1200000) : ℤ := (a.ei 1 e).toInt
/-- and the row a gather at that end reads. -/
def dstRow (e : Fin 1200000) : Fin 100000 := rowOf (a.ei 1 e)

/-- Node `r`'s degree: the edges that end at it, and one. -/
def deg (r : Fin 100000) : EReal := (z32 + ∑ e ∈ Finset.univ.filter (fun e : Fin 1200000 => a.dstZ e = (r.val : ℤ)), o32) + o32
/-- Its inverse square root. -/
def dinv (r : Fin 100000) : EReal := Ideal.rsqrt (deg a r)
/-- The number of nodes of graph `g`. -/
def cnt (g : Fin 128) : EReal := z32 + ∑ r ∈ Finset.univ.filter (fun r : Fin 100000 => (a.bat r).toInt = (g.val : ℤ)), o32

/-- The features after each layer, as the KERNEL computes them: `hK L` the product with layer `L`'s weights. -/
def h0 : Fin 100000 → Fin 64 → EReal := lin a.x a.W0
def v0K : Fin 100000 → Fin 64 → EReal := combK (aggK (scaled a.h0 a.dinv) a.srcRow a.dstZ) a.h0 a.dinv a.b0
def h1K : Fin 100000 → Fin 64 → EReal := lin a.v0K a.W1
def v1K : Fin 100000 → Fin 64 → EReal := combK (aggK (scaled a.h1K a.dinv) a.srcRow a.dstZ) a.h1K a.dinv a.b1
def h2K : Fin 100000 → Fin 64 → EReal := lin a.v1K a.W2
def v2K : Fin 100000 → Fin 64 → EReal := combK (aggK (scaled a.h2K a.dinv) a.srcRow a.dstZ) a.h2K a.dinv a.b2
/-- and as the REFERENCE does. -/
def v0R : Fin 100000 → Fin 64 → EReal := combR (aggR a.h0 a.dinv a.srcRow a.dstRow a.dstZ) a.h0 a.dinv a.b0
def h1R : Fin 100000 → Fin 64 → EReal := lin a.v0R a.W1
def v1R : Fin 100000 → Fin 64 → EReal := combR (aggR a.h1R a.dinv a.srcRow a.dstRow a.dstZ) a.h1R a.dinv a.b1
def h2R : Fin 100000 → Fin 64 → EReal := lin a.v1R a.W2
def v2R : Fin 100000 → Fin 64 → EReal := combR (aggR a.h2R a.dinv a.srcRow a.dstRow a.dstZ) a.h2R a.dinv a.b2

/-- The sum of a graph's node features (the reference's scatter-add by graph id), -/
def sums (v : Fin 100000 → Fin 64 → EReal) (g : Fin 128) (f : Fin 64) : EReal :=
  z32 + ∑ r ∈ Finset.univ.filter (fun r : Fin 100000 => (a.bat r).toInt = (g.val : ℤ)), v r f
/-- the mean, and the head. -/
def pooled (s : Fin 128 → Fin 64 → EReal) (g : Fin 128) (f : Fin 64) : EReal := Ideal.div (s g f) (max (a.cnt g) o32)
def head (p : Fin 128 → Fin 64 → EReal) (g : Fin 128) (j : Fin 2) : EReal := (∑ k : Fin 64, p g k * a.lw k j) + a.lb j

/-- The reference's result. -/
def outR : Fin 128 → Fin 2 → EReal := a.head (a.pooled (a.sums a.v2R))

/-- The kernel's pooled sums: one tile of 5000 rows after another, each row weighted by the indicator of its graph. -/
def ind (r : Fin 100000) (g : Fin 128) : EReal := if a.bat r = BitVec.ofNat 32 g.val then ((1 : ℝ) : EReal) else ((0 : ℝ) : EReal)
def tileSum (v : Fin 100000 → Fin 64 → EReal) (t : Fin 20) (g : Fin 128) (f : Fin 64) : EReal :=
  ∑ y : Fin 5000, a.ind ⟨5000 * t.val + y.val, by omega⟩ g * v ⟨5000 * t.val + y.val, by omega⟩ f
def accK (v : Fin 100000 → Fin 64 → EReal) : (n : ℕ) → n < 20 → Fin 128 → Fin 64 → EReal
  | 0, h => fun g f => z32 + a.tileSum v ⟨0, h⟩ g f
  | n + 1, h => fun g f => accK v n (Nat.lt_of_succ_lt h) g f + a.tileSum v ⟨n + 1, h⟩ g f
/-- The kernel's result. -/
def outK : Fin 128 → Fin 2 → EReal := a.head (a.pooled (a.accK a.v2K 19 (by decide)))

end Args

end Cert.Proof.Val

end
-- ==== Proof.Val.Index.lean ====
import Idealize.ShloMosaic.PureOps.Ideal
import Idealize.ShloMosaic.PureOps.Dims
import Idealize.ShloMosaic.PureOps.ShapeOps
import Idealize.ShloMosaic.PureOps.Contract
import Idealize.ShloMosaic.Lib.ValueIdx

/-!
# The host gather and the host scatter-add read at an index

Reads of `stablehlo.gather` and of the accumulating float `stablehlo.scatter` at one index, for the dimension numbers of
a take of rows `x[idx]` and of its transpose `.at[idx].add(v)`, over a rank-2 table `[N, C]` and over a rank-1 table `[N]`,
the start indices an `[E, 1]` column:

* the gather reads the table's row at the start index, read SIGNED and CLAMPED into `[0, N - 1]`;
* an update of the scatter lands at the row its start index names, read SIGNED and NOT clamped (outside `[0, N)` it is
  dropped), so the scatter-add at row `n` is the operand there plus the sum of the updates `e` whose start index is `n`.

Each is proved for the record with those literal fields (`gathRows`, `gathVec`, `scatRows`, `scatVec`) and then stated for
an ARBITRARY record whose fields are those, the field values as hypotheses (each by `rfl` at a program's record).
-/

noncomputable section

open scoped BigOperators

namespace Cert.Proof.Val

open Idealize.ShloMosaic Idealize.ShloMosaic.ValueIdx

/-! ## Scatter-add of rows into a rank-2 operand -/

/-- The scatter dimension numbers of `x.at[idx].add(v)` for `x : [N, C]`, `idx : [E, 1]`, `v : [E, C]`. -/
abbrev scatRows (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

section ScatRows
variable {N E C w : Nat} (wf : ScatterDims.WF ⟨2, ![N, C]⟩ ⟨2, ![E, 1]⟩ ⟨2, ![E, C]⟩ [1] [0] [0] 1)

/-- Update `(e, c)` reads its start index at `(e, 0)`. -/
theorem scatRows_siIdx (e : Fin E) (c : Fin C) (k : Fin (scatRows N E C wf).scatterDimsToOperandDims.length) :
    (scatRows N E C wf).siIdx (ix2 e c) k = ix2 e 0 := by
  funext b; refine Fin.ext ?_
  match b with
  | ⟨0, _⟩ => rfl
  | ⟨1, _⟩ =>
    show k.val = 0
    have : k.val < 1 := k.isLt
    omega

theorem scatRows_start0 (e : Fin E) (c : Fin C) (idx : IVec ⟨2, ![E, 1]⟩ w) :
    (scatRows N E C wf).start (ix2 e c) idx (0 : Fin 2) = (idx (ix2 e 0)).toInt := by
  unfold ScatterDims.start
  rw [dif_pos (show (0 : Fin 2) ∈ (scatRows N E C wf).scatterDimsToOperandDims from List.mem_singleton.mpr rfl), scatRows_siIdx]

theorem scatRows_start1 (e : Fin E) (c : Fin C) (idx : IVec ⟨2, ![E, 1]⟩ w) :
    (scatRows N E C wf).start (ix2 e c) idx (1 : Fin 2) = 0 := by
  first
  | rfl
  | (unfold ScatterDims.start
     rw [dif_neg (show ¬ (1 : Fin 2) ∈ [(0 : Fin 2)] from by decide)])

theorem scatRows_window0 (e : Fin E) (c : Fin C) : (scatRows N E C wf).window (ix2 e c) (0 : Fin 2) = 0 := by
  first
  | rfl
  | (unfold ScatterDims.window
     rw [dif_neg (show ¬ (0 : Fin 2) ∈ [(1 : Fin 2)] from by decide)])

theorem scatRows_window1 (e : Fin E) (c : Fin C) : (scatRows N E C wf).window (ix2 e c) (1 : Fin 2) = c.val := by
  first
  | rfl
  | (unfold ScatterDims.window
     rw [dif_pos (show (1 : Fin 2) ∈ [(1 : Fin 2)] from by decide)]
     rfl)

/-- WHERE AN UPDATE LANDS: update `(e, c)` lands at `(n, c')` exactly when its start index, read signed, is `n` and the
    columns agree. -/
theorem scatRows_resultIdx (e : Fin E) (c : Fin C) (idx : IVec ⟨2, ![E, 1]⟩ w) (n : Fin N) (c' : Fin C) :
    (scatRows N E C wf).resultIdx? (ix2 e c) idx = some (ix2 n c') ↔ (idx (ix2 e 0)).toInt = (n.val : ℤ) ∧ c = c' := by
  have hs0 := scatRows_start0 wf e c idx
  have hs1 := scatRows_start1 wf e c idx
  have hw0 := scatRows_window0 wf e c
  have hw1 := scatRows_window1 wf e c
  have hn : n.val < N := n.isLt
  have hc : c.val < C := c.isLt
  unfold ScatterDims.resultIdx?
  constructor
  · intro h
    split at h
    · next hh =>
      have hi := Option.some.inj h
      have h0 : ((scatRows N E C wf).start (ix2 e c) idx (0 : Fin 2) + (((scatRows N E C wf).window (ix2 e c) (0 : Fin 2) : ℕ) : ℤ)).toNat
          = n.val := congrArg (fun i => (i 0).val) hi
      have h1 : ((scatRows N E C wf).start (ix2 e c) idx (1 : Fin 2) + (((scatRows N E C wf).window (ix2 e c) (1 : Fin 2) : ℕ) : ℤ)).toNat
          = c'.val := congrArg (fun i => (i 1).val) hi
      have p0 : 0 ≤ (scatRows N E C wf).start (ix2 e c) idx (0 : Fin 2) + (((scatRows N E C wf).window (ix2 e c) (0 : Fin 2) : ℕ) : ℤ) :=
        (hh 0).1
      rw [hs0, hw0] at h0 p0
      rw [hs1, hw1] at h1
      exact ⟨by omega, Fin.ext (by omega)⟩
    · cases h
  · rintro ⟨h0, rfl⟩
    split
    · refine congrArg some (funext fun a => Fin.ext ?_)
      match a with
      | ⟨0, _⟩ =>
        show ((scatRows N E C wf).start (ix2 e c) idx (0 : Fin 2) + (((scatRows N E C wf).window (ix2 e c) (0 : Fin 2) : ℕ) : ℤ)).toNat = n.val
        rw [hs0, hw0] <;> omega
      | ⟨1, _⟩ =>
        show ((scatRows N E C wf).start (ix2 e c) idx (1 : Fin 2) + (((scatRows N E C wf).window (ix2 e c) (1 : Fin 2) : ℕ) : ℤ)).toNat = c.val
        rw [hs1, hw1] <;> omega
    · next hh =>
      refine (hh fun a => ?_).elim
      match a with
      | ⟨0, _⟩ =>
        show 0 ≤ (scatRows N E C wf).start (ix2 e c) idx (0 : Fin 2) + (((scatRows N E C wf).window (ix2 e c) (0 : Fin 2) : ℕ) : ℤ)
          ∧ (scatRows N E C wf).start (ix2 e c) idx (0 : Fin 2) + (((scatRows N E C wf).window (ix2 e c) (0 : Fin 2) : ℕ) : ℤ) < ((N : ℕ) : ℤ)
        rw [hs0, hw0] <;> omega
      | ⟨1, _⟩ =>
        show 0 ≤ (scatRows N E C wf).start (ix2 e c) idx (1 : Fin 2) + (((scatRows N E C wf).window (ix2 e c) (1 : Fin 2) : ℕ) : ℤ)
          ∧ (scatRows N E C wf).start (ix2 e c) idx (1 : Fin 2) + (((scatRows N E C wf).window (ix2 e c) (1 : Fin 2) : ℕ) : ℤ) < ((C : ℕ) : ℤ)
        rw [hs1, hw1] <;> omega

/-- THE SCATTER-ADD AT `(n, c)`: the operand there plus the sum, over the updates `e` whose start index is `n`, of update
    `(e, c)`. -/
theorem scatRows_hostScatterAdd (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (scatRows N E C wf) x idx upd (ix2 n c)
      = x (ix2 n c) + ∑ e ∈ Finset.univ.filter (fun e : Fin E => (idx (ix2 e 0)).toInt = (n.val : ℤ)), upd (ix2 e c) := by
  unfold Ideal.hostScatterAdd
  refine congrArg (fun z => x (ix2 n c) + z) ?_
  refine Finset.sum_bij' (fun j _ => (j 0 : Fin E)) (fun e _ => ix2 e c) ?_ ?_ ?_ ?_ ?_
  · intro j hj
    obtain ⟨e, c', rfl⟩ : ∃ (e : Fin E) (c' : Fin C), j = ix2 e c' := ⟨j 0, j 1, eq_ix2 j⟩
    have h := (scatRows_resultIdx wf e c' idx n c).mp (Finset.mem_filter.mp hj).2
    exact Finset.mem_filter.mpr ⟨Finset.mem_univ _, h.1⟩
  · intro e he
    exact Finset.mem_filter.mpr ⟨Finset.mem_univ _,
      (scatRows_resultIdx wf e c idx n c).mpr ⟨(Finset.mem_filter.mp he).2, rfl⟩⟩
  · intro j hj
    obtain ⟨e, c', rfl⟩ : ∃ (e : Fin E) (c' : Fin C), j = ix2 e c' := ⟨j 0, j 1, eq_ix2 j⟩
    have h := (scatRows_resultIdx wf e c' idx n c).mp (Finset.mem_filter.mp hj).2
    show ix2 e c = ix2 e c'
    rw [h.2]
  · intro e _
    rfl
  · intro j hj
    obtain ⟨e, c', rfl⟩ : ∃ (e : Fin E) (c' : Fin C), j = ix2 e c' := ⟨j 0, j 1, eq_ix2 j⟩
    have h := (scatRows_resultIdx wf e c' idx n c).mp (Finset.mem_filter.mp hj).2
    show upd (ix2 e c') = upd (ix2 e c)
    rw [h.2]

end ScatRows

/-! ## Scatter-add into a rank-1 operand -/

/-- The scatter dimension numbers of `x.at[idx].add(v)` for `x : [N]`, `idx : [E, 1]`, `v : [E]`. -/
abbrev scatVec (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section ScatVec
variable {N E w : Nat} (wf : ScatterDims.WF ⟨1, ![N]⟩ ⟨2, ![E, 1]⟩ ⟨1, ![E]⟩ [] [0] [0] 1)

/-- Update `e` reads its start index at `(e, 0)`. -/
theorem scatVec_siIdx (e : Fin E) (k : Fin (scatVec N E wf).scatterDimsToOperandDims.length) :
    (scatVec N E wf).siIdx (ix1 e) k = ix2 e 0 := by
  funext b; refine Fin.ext ?_
  match b with
  | ⟨0, _⟩ => rfl
  | ⟨1, _⟩ =>
    show k.val = 0
    have : k.val < 1 := k.isLt
    omega

theorem scatVec_start0 (e : Fin E) (idx : IVec ⟨2, ![E, 1]⟩ w) :
    (scatVec N E wf).start (ix1 e) idx (0 : Fin 1) = (idx (ix2 e 0)).toInt := by
  unfold ScatterDims.start
  rw [dif_pos (show (0 : Fin 1) ∈ (scatVec N E wf).scatterDimsToOperandDims from List.mem_singleton.mpr rfl), scatVec_siIdx]

theorem scatVec_window0 (e : Fin E) : (scatVec N E wf).window (ix1 e) (0 : Fin 1) = 0 := by
  first
  | rfl
  | (unfold ScatterDims.window
     rw [dif_neg (show ¬ (0 : Fin 1) ∈ ([] : List (Fin 1)) from List.not_mem_nil)])

/-- WHERE AN UPDATE LANDS: update `e` lands at `n` exactly when its start index, read signed, is `n`. -/
theorem scatVec_resultIdx (e : Fin E) (idx : IVec ⟨2, ![E, 1]⟩ w) (n : Fin N) :
    (scatVec N E wf).resultIdx? (ix1 e) idx = some (ix1 n) ↔ (idx (ix2 e 0)).toInt = (n.val : ℤ) := by
  have hs0 := scatVec_start0 wf e idx
  have hw0 := scatVec_window0 wf e
  have hn : n.val < N := n.isLt
  unfold ScatterDims.resultIdx?
  constructor
  · intro h
    split at h
    · next hh =>
      have hi := Option.some.inj h
      have h0 : ((scatVec N E wf).start (ix1 e) idx (0 : Fin 1) + (((scatVec N E wf).window (ix1 e) (0 : Fin 1) : ℕ) : ℤ)).toNat
          = n.val := congrArg (fun i => (i 0).val) hi
      have p0 : 0 ≤ (scatVec N E wf).start (ix1 e) idx (0 : Fin 1) + (((scatVec N E wf).window (ix1 e) (0 : Fin 1) : ℕ) : ℤ) :=
        (hh 0).1
      rw [hs0, hw0] at h0 p0
      omega
    · cases h
  · intro h0
    split
    · refine congrArg some (funext fun a => Fin.ext ?_)
      match a with
      | ⟨0, _⟩ =>
        show ((scatVec N E wf).start (ix1 e) idx (0 : Fin 1) + (((scatVec N E wf).window (ix1 e) (0 : Fin 1) : ℕ) : ℤ)).toNat = n.val
        rw [hs0, hw0] <;> omega
    · next hh =>
      refine (hh fun a => ?_).elim
      match a with
      | ⟨0, _⟩ =>
        show 0 ≤ (scatVec N E wf).start (ix1 e) idx (0 : Fin 1) + (((scatVec N E wf).window (ix1 e) (0 : Fin 1) : ℕ) : ℤ)
          ∧ (scatVec N E wf).start (ix1 e) idx (0 : Fin 1) + (((scatVec N E wf).window (ix1 e) (0 : Fin 1) : ℕ) : ℤ) < ((N : ℕ) : ℤ)
        rw [hs0, hw0] <;> omega

/-- THE SCATTER-ADD AT `n`: the operand there plus the sum of the updates `e` whose start index is `n`. -/
theorem scatVec_hostScatterAdd (x : (⟨1, ![N]⟩ : Shape).Idx → EReal) (idx : IVec ⟨2, ![E, 1]⟩ w)
    (upd : (⟨1, ![E]⟩ : Shape).Idx → EReal) (n : Fin N) :
    Ideal.hostScatterAdd (scatVec N E wf) x idx upd (ix1 n)
      = x (ix1 n) + ∑ e ∈ Finset.univ.filter (fun e : Fin E => (idx (ix2 e 0)).toInt = (n.val : ℤ)), upd (ix1 e) := by
  unfold Ideal.hostScatterAdd
  refine congrArg (fun z => x (ix1 n) + z) ?_
  refine Finset.sum_bij' (fun j _ => (j 0 : Fin E)) (fun e _ => ix1 e) ?_ ?_ ?_ ?_ ?_
  · intro j hj
    obtain ⟨e, rfl⟩ : ∃ (e : Fin E), j = ix1 e := ⟨j 0, eq_ix1 j⟩
    exact Finset.mem_filter.mpr ⟨Finset.mem_univ _, (scatVec_resultIdx wf e idx n).mp (Finset.mem_filter.mp hj).2⟩
  · intro e he
    exact Finset.mem_filter.mpr ⟨Finset.mem_univ _, (scatVec_resultIdx wf e idx n).mpr (Finset.mem_filter.mp he).2⟩
  · intro j _
    exact (eq_ix1 j).symm
  · intro e _
    rfl
  · intro j _
    exact congrArg upd (eq_ix1 j)

end ScatVec

/-! ## Gather of rows of a rank-2 table -/

/-- The gather dimension numbers of `x[idx]` for `x : [N, C]`, `idx : [E, 1]`, result `[E, C]`. -/
abbrev gathRows (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

section GathRows
variable {N E C w : Nat} (wf : GatherDims.WF ⟨2, ![N, C]⟩ ⟨2, ![E, 1]⟩ ⟨2, ![E, C]⟩ [1] [0] [] [0] [] 1 ![1, C])

/-- Result `(e, c)` reads its start index at `(e, 0)`. -/
theorem gathRows_siIdx (e : Fin E) (c : Fin C) (k : Fin (gathRows N E C wf).startIndexMap.length) :
    (gathRows N E C wf).siIdx (ix2 e c) k = ix2 e 0 := by
  funext b; refine Fin.ext ?_
  match b with
  | ⟨0, _⟩ => rfl
  | ⟨1, _⟩ =>
    show k.val = 0
    have : k.val < 1 := k.isLt
    omega

theorem gathRows_start0 (e : Fin E) (c : Fin C) (idx : IVec ⟨2, ![E, 1]⟩ w) :
    (gathRows N E C wf).start (ix2 e c) idx (0 : Fin 2) = min (idx (ix2 e 0)).toInt.toNat (N - 1) := by
  unfold GatherDims.start
  rw [dif_pos (show (0 : Fin 2) ∈ (gathRows N E C wf).startIndexMap from List.mem_singleton.mpr rfl), gathRows_siIdx] <;> rfl

theorem gathRows_start1 (e : Fin E) (c : Fin C) (idx : IVec ⟨2, ![E, 1]⟩ w) :
    (gathRows N E C wf).start (ix2 e c) idx (1 : Fin 2) = 0 := by
  first
  | rfl
  | (unfold GatherDims.start
     rw [dif_neg (show ¬ (1 : Fin 2) ∈ [(0 : Fin 2)] from by decide)])

theorem gathRows_batchCoord (e : Fin E) (c : Fin C) (a : Fin 2) : (gathRows N E C wf).batchCoord (ix2 e c) a = 0 :=
  GatherDims.batchCoord_eq_zero _ _ _ List.not_mem_nil

theorem gathRows_offCoord0 (e : Fin E) (c : Fin C) : (gathRows N E C wf).offCoord (ix2 e c) (0 : Fin 2) = 0 :=
  GatherDims.offCoord_eq_zero _ _ _ (fun h => ((GatherDims.mem_sKept _ _).mp h).1 (List.mem_singleton.mpr rfl))

theorem gathRows_offCoord1 (e : Fin E) (c : Fin C) : (gathRows N E C wf).offCoord (ix2 e c) (1 : Fin 2) = c.val := by
  first
  | rfl
  | (unfold GatherDims.offCoord
     rw [dif_pos ((GatherDims.mem_sKept _ _).mpr
       ⟨(show ¬ (1 : Fin 2) ∈ [(0 : Fin 2)] from by decide), List.not_mem_nil⟩)]
     rfl)

/-- THE GATHER READ AT `(e, c)`: the table at the row the start index `idx[e, 0]` names, read signed and clamped into
    `[0, N − 1]`, and column `c`. -/
theorem gathRows_apply {α : Type} (hN : 0 < N) (x : (⟨2, ![N, C]⟩ : Shape).Idx → α) (idx : IVec ⟨2, ![E, 1]⟩ w)
    (e : Fin E) (c : Fin C) :
    Host.gather (gathRows N E C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (gathRows N E C wf).start (ix2 e c) idx (0 : Fin 2) + (gathRows N E C wf).batchCoord (ix2 e c) (0 : Fin 2)
        + (gathRows N E C wf).offCoord (ix2 e c) (0 : Fin 2) = min (idx (ix2 e 0)).toInt.toNat (N - 1)
    rw [gathRows_start0, gathRows_batchCoord, gathRows_offCoord0] <;> omega
  | ⟨1, _⟩ =>
    show (gathRows N E C wf).start (ix2 e c) idx (1 : Fin 2) + (gathRows N E C wf).batchCoord (ix2 e c) (1 : Fin 2)
        + (gathRows N E C wf).offCoord (ix2 e c) (1 : Fin 2) = c.val
    rw [gathRows_start1, gathRows_batchCoord, gathRows_offCoord1] <;> omega

end GathRows

/-! ## Gather of entries of a rank-1 table -/

/-- The gather dimension numbers of `x[idx]` for `x : [N]`, `idx : [E, 1]`, result `[E]`. -/
abbrev gathVec (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

section GathVec
variable {N E w : Nat} (wf : GatherDims.WF ⟨1, ![N]⟩ ⟨2, ![E, 1]⟩ ⟨1, ![E]⟩ [] [0] [] [0] [] 1 ![1])

/-- Result `e` reads its start index at `(e, 0)`. -/
theorem gathVec_siIdx (e : Fin E) (k : Fin (gathVec N E wf).startIndexMap.length) :
    (gathVec N E wf).siIdx (ix1 e) k = ix2 e 0 := by
  funext b; refine Fin.ext ?_
  match b with
  | ⟨0, _⟩ => rfl
  | ⟨1, _⟩ =>
    show k.val = 0
    have : k.val < 1 := k.isLt
    omega

theorem gathVec_start0 (e : Fin E) (idx : IVec ⟨2, ![E, 1]⟩ w) :
    (gathVec N E wf).start (ix1 e) idx (0 : Fin 1) = min (idx (ix2 e 0)).toInt.toNat (N - 1) := by
  unfold GatherDims.start
  rw [dif_pos (show (0 : Fin 1) ∈ (gathVec N E wf).startIndexMap from List.mem_singleton.mpr rfl), gathVec_siIdx] <;> rfl

/-- THE GATHER READ AT `e`: the table at the start index `idx[e, 0]`, read signed and clamped into `[0, N − 1]`. -/
theorem gathVec_apply {α : Type} (hN : 0 < N) (x : (⟨1, ![N]⟩ : Shape).Idx → α) (idx : IVec ⟨2, ![E, 1]⟩ w) (e : Fin E) :
    Host.gather (gathVec N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (gathVec N E wf).start (ix1 e) idx (0 : Fin 1) + (gathVec N E wf).batchCoord (ix1 e) (0 : Fin 1)
      + (gathVec N E wf).offCoord (ix1 e) (0 : Fin 1) = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl)),
    gathVec_start0] <;> omega

end GathVec

/-! ## For an arbitrary record with those fields

A program's own record is a definition with these field values: every field hypothesis below is `rfl` at it. -/

section AnyRecord
variable {N E C w : Nat}

/-- (a) ROW GATHER `x[idx]` of a rank-2 table, read at `(e, c)`. -/
theorem gather_rows_apply {α : Type} (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C]) (hN : 0 < N)
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  obtain ⟨od, cs, ob, sb, sm, iv, ss, wf⟩ := d
  have h1 : od = [1] := hod
  have h2 : cs = [0] := hcs
  have h3 : ob = [] := hob
  have h4 : sb = [] := hsb
  have h5 : sm = [0] := hsm
  have h6 : iv = 1 := hiv
  have h7 : ss = ![1, C] := hss
  subst h1 h2 h3 h4 h5 h6 h7
  exact gathRows_apply wf hN x idx e c

/-- The same at an index `j` given whole: row `idx[j 0, 0]` clamped, column `j 1`. -/
theorem gather_rows_apply_idx {α : Type} (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C]) (hN : 0 < N)
    (x : (⟨2, ![N, C]⟩ : Shape).Idx → α) (idx : IVec ⟨2, ![E, 1]⟩ w) (j : (⟨2, ![E, C]⟩ : Shape).Idx) :
    Host.gather d x idx j = x (ix2 ⟨min (idx (ix2 (j 0) 0)).toInt.toNat (N - 1), by omega⟩ (j 1)) :=
  (congrArg (Host.gather d x idx) (eq_ix2 j)).trans (gather_rows_apply d hod hcs hob hsb hsm hiv hss hN x idx (j 0) (j 1))

/-- (b) ENTRY GATHER `x[idx]` of a rank-1 table, read at `e`. -/
theorem gather_vec_apply {α : Type} (d : GatherDims ⟨1, ![N]⟩ ⟨2, ![E, 1]⟩ ⟨1, ![E]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1]) (hN : 0 < N)
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cs, ob, sb, sm, iv, ss, wf⟩ := d
  have h1 : od = [] := hod
  have h2 : cs = [0] := hcs
  have h3 : ob = [] := hob
  have h4 : sb = [] := hsb
  have h5 : sm = [0] := hsm
  have h6 : iv = 1 := hiv
  have h7 : ss = ![1] := hss
  subst h1 h2 h3 h4 h5 h6 h7
  exact gathVec_apply wf hN x idx e

/-- The same at an index `j` given whole. -/
theorem gather_vec_apply_idx {α : Type} (d : GatherDims ⟨1, ![N]⟩ ⟨2, ![E, 1]⟩ ⟨1, ![E]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1]) (hN : 0 < N)
    (x : (⟨1, ![N]⟩ : Shape).Idx → α) (idx : IVec ⟨2, ![E, 1]⟩ w) (j : (⟨1, ![E]⟩ : Shape).Idx) :
    Host.gather d x idx j = x (ix1 ⟨min (idx (ix2 (j 0) 0)).toInt.toNat (N - 1), by omega⟩) :=
  (congrArg (Host.gather d x idx) (eq_ix1 j)).trans (gather_vec_apply d hod hcs hob hsb hsm hiv hss hN x idx (j 0))

/-- (c) WHERE A ROW UPDATE LANDS. -/
theorem scatter_rows_resultIdx (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (e : Fin E) (c : Fin C) (idx : IVec ⟨2, ![E, 1]⟩ w) (n : Fin N) (c' : Fin C) :
    d.resultIdx? (ix2 e c) idx = some (ix2 n c') ↔ (idx (ix2 e 0)).toInt = (n.val : ℤ) ∧ c = c' := by
  obtain ⟨uw, iw, sd, iv, wf⟩ := d
  have h1 : uw = [1] := huw
  have h2 : iw = [0] := hiw
  have h3 : sd = [0] := hsd
  have h4 : iv = 1 := hiv
  subst h1 h2 h3 h4
  exact scatRows_resultIdx wf e c idx n c'

/-- The same at indices given whole, in coordinates: the start index is the row, the columns agree. -/
theorem scatter_rows_resultIdx_idx (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (j : (⟨2, ![E, C]⟩ : Shape).Idx) (idx : IVec ⟨2, ![E, 1]⟩ w) (i : (⟨2, ![N, C]⟩ : Shape).Idx) :
    d.resultIdx? j idx = some i ↔ (idx (ix2 (j 0) 0)).toInt = ((i 0).val : ℤ) ∧ (j 1).val = (i 1).val := by
  have h := scatter_rows_resultIdx d huw hiw hsd hiv (j 0) (j 1) idx (i 0) (i 1)
  have hj : (ix2 (j 0) (j 1) : (⟨2, ![E, C]⟩ : Shape).Idx) = j := (eq_ix2 j).symm
  have hi : (ix2 (i 0) (i 1) : (⟨2, ![N, C]⟩ : Shape).Idx) = i := (eq_ix2 i).symm
  rw [hj, hi] at h
  rw [h]
  exact and_congr_right fun _ => Fin.ext_iff

/-- (c) SCATTER-ADD OF ROWS, read at `(n, c)`. -/
theorem scatter_rows_apply (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e ∈ Finset.univ.filter (fun e : Fin E => (idx (ix2 e 0)).toInt = (n.val : ℤ)), upd (ix2 e c) := by
  obtain ⟨uw, iw, sd, iv, wf⟩ := d
  have h1 : uw = [1] := huw
  have h2 : iw = [0] := hiw
  have h3 : sd = [0] := hsd
  have h4 : iv = 1 := hiv
  subst h1 h2 h3 h4
  exact scatRows_hostScatterAdd wf x idx upd n c

/-- The same at an index `i` given whole. -/
theorem scatter_rows_apply_idx (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![E, 1]⟩ w) (upd : (⟨2, ![E, C]⟩ : Shape).Idx → EReal)
    (i : (⟨2, ![N, C]⟩ : Shape).Idx) :
    Ideal.hostScatterAdd d x idx upd i
      = x i + ∑ e ∈ Finset.univ.filter (fun e : Fin E => (idx (ix2 e 0)).toInt = ((i 0).val : ℤ)), upd (ix2 e (i 1)) :=
  (congrArg (Ideal.hostScatterAdd d x idx upd) (eq_ix2 i)).trans
    ((scatter_rows_apply d huw hiw hsd hiv x idx upd (i 0) (i 1)).trans
      (congrArg (fun z => x z + ∑ e ∈ Finset.univ.filter (fun e : Fin E => (idx (ix2 e 0)).toInt = ((i 0).val : ℤ)),
        upd (ix2 e (i 1))) (eq_ix2 i).symm))

/-- (d) WHERE AN ENTRY UPDATE LANDS. -/
theorem scatter_vec_resultIdx (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (e : Fin E) (idx : IVec ⟨2, ![E, 1]⟩ w) (n : Fin N) :
    d.resultIdx? (ix1 e) idx = some (ix1 n) ↔ (idx (ix2 e 0)).toInt = (n.val : ℤ) := by
  obtain ⟨uw, iw, sd, iv, wf⟩ := d
  have h1 : uw = [] := huw
  have h2 : iw = [0] := hiw
  have h3 : sd = [0] := hsd
  have h4 : iv = 1 := hiv
  subst h1 h2 h3 h4
  exact scatVec_resultIdx wf e idx n

/-- (d) SCATTER-ADD INTO A RANK-1 OPERAND, read at `n`. -/
theorem scatter_vec_apply (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e ∈ Finset.univ.filter (fun e : Fin E => (idx (ix2 e 0)).toInt = (n.val : ℤ)), upd (ix1 e) := by
  obtain ⟨uw, iw, sd, iv, wf⟩ := d
  have h1 : uw = [] := huw
  have h2 : iw = [0] := hiw
  have h3 : sd = [0] := hsd
  have h4 : iv = 1 := hiv
  subst h1 h2 h3 h4
  exact scatVec_hostScatterAdd wf x idx upd n

/-- The same at an index `i` given whole. -/
theorem scatter_vec_apply_idx (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![E, 1]⟩ w) (upd : (⟨1, ![E]⟩ : Shape).Idx → EReal)
    (i : (⟨1, ![N]⟩ : Shape).Idx) :
    Ideal.hostScatterAdd d x idx upd i
      = x i + ∑ e ∈ Finset.univ.filter (fun e : Fin E => (idx (ix2 e 0)).toInt = ((i 0).val : ℤ)), upd (ix1 e) :=
  (congrArg (Ideal.hostScatterAdd d x idx upd) (eq_ix1 i)).trans
    ((scatter_vec_apply d huw hiw hsd hiv x idx upd (i 0)).trans
      (congrArg (fun z => x z + ∑ e ∈ Finset.univ.filter (fun e : Fin E => (idx (ix2 e 0)).toInt = ((i 0).val : ℤ)),
        upd (ix1 e)) (eq_ix1 i).symm))

/-! ### The same reads of the host operation a printed program applies

A printed `"stablehlo.scatter"` with an add body over several indices is `Host.scatterAdd d x idx upd`, which at the
extended reals is `Ideal.hostScatterAdd d x idx upd` by definition. -/

theorem host_scatterAdd_rows_apply {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![E, 1]⟩ w) (upd : FVec Ideal ⟨2, ![E, C]⟩ φ) (n : Fin N) (c : Fin C) :
    Host.scatterAdd d x idx upd (ix2 n c)
      = x (ix2 n c) + ∑ e ∈ Finset.univ.filter (fun e : Fin E => (idx (ix2 e 0)).toInt = (n.val : ℤ)), upd (ix2 e c) :=
  scatter_rows_apply d huw hiw hsd hiv x idx upd n c

theorem host_scatterAdd_vec_apply {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![E, 1]⟩ w) (upd : FVec Ideal ⟨1, ![E]⟩ φ) (n : Fin N) :
    Host.scatterAdd d x idx upd (ix1 n)
      = x (ix1 n) + ∑ e ∈ Finset.univ.filter (fun e : Fin E => (idx (ix2 e 0)).toInt = (n.val : ℤ)), upd (ix1 e) :=
  scatter_vec_apply d huw hiw hsd hiv x idx upd n

end AnyRecord

end Cert.Proof.Val

end
-- ==== Proof.Val.Host0.lean ====
import proofs.«407338_j17489106829800_2_alg».proof.Proof.KI.Run
import proofs.«407338_j17489106829800_2_alg».proof.Proof.Val.Names
import proofs.«407338_j17489106829800_2_alg».proof.Proof.Val.Index
import Idealize.ShloMosaic.Lib.Pipeline.Value
import Idealize.ShloMosaic.Lib.ValueIdx
import Idealize.ShloMosaic.Lib.StableHlo.Run

/-! # What the first stretch of host operations leaves, and that it is still there at each region's entry

Before the first kernel region the program slices the edge list into its two rows, counts each node's degree by a scatter-add of
ones at the edges' ends, adds one and takes the inverse square root, counts each graph's nodes by a scatter-add of ones at the
nodes' graphs, and reshapes the three biases to rows. Read at explicit coordinates these are the quantities the argument record
names: `dinv`, `cnt`, the biases, the two rows of the edge list. No later stretch writes them and no region has them as an
output, so they, and the argument arrays, are found unchanged at every region's entry. The last stretch reshapes the graph ids
to a column and the head's bias to a row. -/

set_option maxRecDepth 16384

noncomputable section

namespace Cert.Proof.Val

open Idealize.ShloMosaic Idealize.ShloMosaic.ValueIdx Idealize.ShloMosaic.TcCoe Idealize.SL.Sem Idealize.ShloMosaic.StableHlo
open Cert.KernelIdeal Cert.KernelIdeal.Gen Cert.KernelIdeal.Hand

namespace Host0

/-! ## The first stretch's operations, as functions of the two integer arguments -/

/-- Row `0` of the edge list (the sources), flat: the slice `[0:1, :]` reshaped. -/
def srcV (ei : (⟨S2x1200000, .i32⟩ : BufTy).Contents (Elt Ideal)) : (⟨S1200000, .i32⟩ : BufTy).Contents (Elt Ideal) :=
  shapeCast S1200000 (extractStridedSlice S1x1200000 ![0, 0] ei slices_S2x1200000_S1x1200000_0_0) shapeCasts_S1x1200000_S1200000
/-- Row `1` (the ends), flat. -/
def dstV (ei : (⟨S2x1200000, .i32⟩ : BufTy).Contents (Elt Ideal)) : (⟨S1200000, .i32⟩ : BufTy).Contents (Elt Ideal) :=
  shapeCast S1200000 (extractStridedSlice S1x1200000 ![1, 0] ei slices_S2x1200000_S1x1200000_1_0) shapeCasts_S1x1200000_S1200000
/-- The degrees: ones scatter-added at the ends into zeros, and one. -/
def degV (ei : (⟨S2x1200000, .i32⟩ : BufTy).Contents (Elt Ideal)) : (⟨S100000, .f32⟩ : BufTy).Contents (Elt Ideal) :=
  addf (F := Ideal) (φ := .f32) (Host.scatterAdd (F := Ideal) (φ := .f32) scatter_S100000_S1200000x1_S1200000_n_0_0_1
      (broadcastInDim S100000 ![] bcast_S_S100000 (constant (F := Ideal) S_ .f32 0x00000000#32))
      (broadcastInDim S1200000x1 ![0] bcast_S1200000_S1200000x1_0 (dstV ei))
      (broadcastInDim S1200000 ![] bcast_S_S1200000 (constant (F := Ideal) S_ .f32 0x3F800000#32)))
    (broadcastInDim S100000 ![] bcast_S_S100000 (constant (F := Ideal) S_ .f32 0x3F800000#32))
/-- Their inverse square roots, as a column. -/
def dinvV (ei : (⟨S2x1200000, .i32⟩ : BufTy).Contents (Elt Ideal)) : (⟨S100000x1, .f32⟩ : BufTy).Contents (Elt Ideal) :=
  shapeCast S100000x1 (Host.rsqrt (F := Ideal) (φ := .f32) (degV ei)) shapeCasts_S100000_S100000x1
/-- The graphs' node counts, as a column: ones scatter-added at the nodes' graphs into zeros. -/
def cntV (bat : (⟨S100000, .i32⟩ : BufTy).Contents (Elt Ideal)) : (⟨S128x1, .f32⟩ : BufTy).Contents (Elt Ideal) :=
  shapeCast S128x1 (Host.scatterAdd (F := Ideal) (φ := .f32) scatter_S128_S100000x1_S100000_n_0_0_1
      (broadcastInDim S128 ![] bcast_S_S128 (constant (F := Ideal) S_ .f32 0x00000000#32))
      (broadcastInDim S100000x1 ![0] bcast_S100000_S100000x1_0 bat)
      (broadcastInDim S100000 ![] bcast_S_S100000 (constant (F := Ideal) S_ .f32 0x3F800000#32))) shapeCasts_S128_S128x1

/-- A splat of a float literal reads the literal everywhere. -/
theorem splat_apply {t : Shape} (h : S_.BroadcastsInDim t (![] : Fin S_.rank → Fin t.rank)) (b : BitVec 32) (j : t.Idx) :
    broadcastInDim t ![] h (constant (F := Ideal) S_ .f32 b) j = Ideal.ofBits .f32 b :=
  broadcastInDim_apply _ h _ j (fun a => a.elim0) (fun a => a.elim0)

/-- The host's inverse square root at an index is the extended reals'. -/
theorem hostRsqrt_apply {s : Shape} (x : FVec Ideal s .f32) (i : s.Idx) : Host.rsqrt (F := Ideal) (φ := .f32) x i = Ideal.rsqrt (x i) := rfl

/-- A flat vector laid out as a column reads its entry. -/
theorem column_apply {n : Nat} {α : Type} (h : (⟨1, ![n]⟩ : Shape).BroadcastsInDim ⟨2, ![n, 1]⟩ (![0] : Fin 1 → Fin 2)) (hn : n ≠ 1)
    (x : (⟨1, ![n]⟩ : Shape).Idx → α) (e : Fin n) :
    broadcastInDim ⟨2, ![n, 1]⟩ ![0] h x (ix2 e 0) = x (ix1 e) :=
  broadcastInDim_apply _ h x (ix2 e 0) (ix1 e) (fun a => match a with
    | ⟨0, _⟩ => by show e.val = if n = 1 then 0 else e.val; rw [if_neg hn])

theorem srcV_apply (ei : (⟨S2x1200000, .i32⟩ : BufTy).Contents (Elt Ideal)) (e : Fin 1200000) : srcV ei (ix1 e) = ei (ix2 0 e) := by
  unfold srcV
  refine (shapeCast_apply _ shapeCasts_S1x1200000_S1200000 (ix1 e) (ix2 (0 : Fin 1) e) ?_).trans ?_
  · rw [Shape.rowMajor_val_two, Shape.rowMajor_val_one]; show 0 * 1200000 + e.val = e.val; omega
  · exact extractStridedSlice_apply ![0, 0] ei slices_S2x1200000_S1x1200000_0_0 (ix2 (0 : Fin 1) e) (ix2 (0 : Fin 2) e) (fun a => match a with
      | ⟨0, _⟩ => by show 0 = 0 + 0; omega
      | ⟨1, _⟩ => by show e.val = 0 + e.val; omega)

theorem dstV_apply (ei : (⟨S2x1200000, .i32⟩ : BufTy).Contents (Elt Ideal)) (e : Fin 1200000) : dstV ei (ix1 e) = ei (ix2 1 e) := by
  unfold dstV
  refine (shapeCast_apply _ shapeCasts_S1x1200000_S1200000 (ix1 e) (ix2 (0 : Fin 1) e) ?_).trans ?_
  · rw [Shape.rowMajor_val_two, Shape.rowMajor_val_one]; show 0 * 1200000 + e.val = e.val; omega
  · exact extractStridedSlice_apply ![1, 0] ei slices_S2x1200000_S1x1200000_1_0 (ix2 (0 : Fin 1) e) (ix2 (1 : Fin 2) e) (fun a => match a with
      | ⟨0, _⟩ => by show 1 = 1 + 0; omega
      | ⟨1, _⟩ => by show e.val = 0 + e.val; omega)

theorem degV_apply (ei : (⟨S2x1200000, .i32⟩ : BufTy).Contents (Elt Ideal)) (r : Fin 100000) :
    degV ei (ix1 r) = (z32 + ∑ e ∈ Finset.univ.filter (fun e : Fin 1200000 => (ei (ix2 1 e)).toInt = (r.val : ℤ)), o32) + o32 := by
  unfold degV
  refine (addf_apply _ _ _).trans ?_
  refine congrArg₂ (fun u v : EReal => u + v) ?_ (splat_apply bcast_S_S100000 0x3F800000#32 (ix1 r))
  refine (host_scatterAdd_vec_apply (φ := .f32) scatter_S100000_S1200000x1_S1200000_n_0_0_1 rfl rfl rfl rfl _ _ _ r).trans ?_
  refine congrArg₂ (fun u v : EReal => u + v) (splat_apply bcast_S_S100000 0x00000000#32 (ix1 r)) ?_
  have hf : ∀ e : Fin 1200000, broadcastInDim S1200000x1 ![0] bcast_S1200000_S1200000x1_0 (dstV ei) (ix2 e 0) = ei (ix2 1 e) :=
    fun e => (column_apply bcast_S1200000_S1200000x1_0 (by decide) (dstV ei) e).trans (dstV_apply ei e)
  simp only [hf]
  exact Finset.sum_congr rfl (fun e _ => splat_apply bcast_S_S1200000 0x3F800000#32 (ix1 e))

theorem dinvV_apply (ei : (⟨S2x1200000, .i32⟩ : BufTy).Contents (Elt Ideal)) (r : Fin 100000) :
    dinvV ei (ix2 r 0) = Ideal.rsqrt ((z32 + ∑ e ∈ Finset.univ.filter (fun e : Fin 1200000 => (ei (ix2 1 e)).toInt = (r.val : ℤ)), o32) + o32) := by
  unfold dinvV
  refine (shapeCast_apply _ shapeCasts_S100000_S100000x1 (ix2 r (0 : Fin 1)) (ix1 r) ?_).trans ?_
  · rw [Shape.rowMajor_val_two, Shape.rowMajor_val_one]; show r.val = r.val * 1 + 0; omega
  · exact (hostRsqrt_apply _ _).trans (congrArg Ideal.rsqrt (degV_apply ei r))

theorem cntV_apply (bat : (⟨S100000, .i32⟩ : BufTy).Contents (Elt Ideal)) (g : Fin 128) :
    cntV bat (ix2 g 0) = z32 + ∑ r ∈ Finset.univ.filter (fun r : Fin 100000 => (bat (ix1 r)).toInt = (g.val : ℤ)), o32 := by
  unfold cntV
  refine (shapeCast_apply _ shapeCasts_S128_S128x1 (ix2 g (0 : Fin 1)) (ix1 g) ?_).trans ?_
  · rw [Shape.rowMajor_val_two, Shape.rowMajor_val_one]; show g.val = g.val * 1 + 0; omega
  refine (host_scatterAdd_vec_apply (φ := .f32) scatter_S128_S100000x1_S100000_n_0_0_1 rfl rfl rfl rfl _ _ _ g).trans ?_
  refine congrArg₂ (fun u v : EReal => u + v) (splat_apply bcast_S_S128 0x00000000#32 (ix1 g)) ?_
  have hf : ∀ r : Fin 100000, broadcastInDim S100000x1 ![0] bcast_S100000_S100000x1_0 bat (ix2 r 0) = bat (ix1 r) :=
    fun r => column_apply bcast_S100000_S100000x1_0 (by decide) bat r
  simp only [hf]
  exact Finset.sum_congr rfl (fun r _ => splat_apply bcast_S_S100000 0x3F800000#32 (ix1 r))

/-- A flat vector reshaped to a row reads its entry. -/
theorem row_apply {α : Type} (x : S64.Idx → α) (f : Fin 64) : shapeCast S1x64 x shapeCasts_S64_S1x64 (ix2 0 f) = x (ix1 f) :=
  shapeCast_apply x shapeCasts_S64_S1x64 (ix2 (0 : Fin 1) f) (ix1 f)
    (by rw [Shape.rowMajor_val_two, Shape.rowMajor_val_one]; show f.val = 0 * 64 + f.val; omega)
theorem row2_apply {α : Type} (x : S2.Idx → α) (j : Fin 2) : shapeCast S1x2 x shapeCasts_S2_S1x2 (ix2 0 j) = x (ix1 j) :=
  shapeCast_apply x shapeCasts_S2_S1x2 (ix2 (0 : Fin 1) j) (ix1 j)
    (by rw [Shape.rowMajor_val_two, Shape.rowMajor_val_one]; show j.val = 0 * 2 + j.val; omega)
theorem col_apply {α : Type} (x : S100000.Idx → α) (r : Fin 100000) : shapeCast S100000x1 x shapeCasts_S100000_S100000x1 (ix2 r 0) = x (ix1 r) :=
  shapeCast_apply x shapeCasts_S100000_S100000x1 (ix2 r (0 : Fin 1)) (ix1 r)
    (by rw [Shape.rowMajor_val_two, Shape.rowMajor_val_one]; show r.val = r.val * 1 + 0; omega)

variable (m : (ℓ : Loc nD τ sig) → Buf (Elt Ideal) ℓ) (ρ : Dev nD → PrngReg) (c : Dev nD)

/-! ## The first stretch's results, as those functions of the launch contents -/

/-- A buffer the first stretch does not write is at region 0's entry as launched. -/
theorem E1_keep (b : Ref sig .tc) (h : b ∉ hostOps0_W) : E1 m ρ c b = m ((c : Thread nD τ).loc b) :=
  (StableHlo.after_of_writes_sub hostOps0 _ hostOps0_writes h).trans rfl

theorem E1_main_v1 : (E1 m ρ c main_v1 : S1200000.Idx → BitVec 32) = srcV (m ((c : Thread nD τ).loc main_arg1)) := by
  show StableHlo.after hostOps0 _ (Proc.devRef .tc main_v1) = _
  after_results; rfl
theorem E1_main_v3 : (E1 m ρ c main_v3 : S1200000.Idx → BitVec 32) = dstV (m ((c : Thread nD τ).loc main_arg1)) := by
  show StableHlo.after hostOps0 _ (Proc.devRef .tc main_v3) = _
  after_results; rfl
theorem E1_main_v11 : (E1 m ρ c main_v11 : S100000x1.Idx → EReal) = dinvV (m ((c : Thread nD τ).loc main_arg1)) := by
  show StableHlo.after hostOps0 _ (Proc.devRef .tc main_v11) = _
  after_results; rfl
theorem E1_main_v16 : (E1 m ρ c main_v16 : S128x1.Idx → EReal) = cntV (m ((c : Thread nD τ).loc main_arg2)) := by
  show StableHlo.after hostOps0 _ (Proc.devRef .tc main_v16) = _
  after_results; rfl
theorem E1_main_v17 : (E1 m ρ c main_v17 : S1x64.Idx → EReal) = shapeCast S1x64 (m ((c : Thread nD τ).loc main_arg4) : S64.Idx → EReal) shapeCasts_S64_S1x64 := by
  show StableHlo.after hostOps0 _ (Proc.devRef .tc main_v17) = _
  after_results; rfl
theorem E1_main_v18 : (E1 m ρ c main_v18 : S1x64.Idx → EReal) = shapeCast S1x64 (m ((c : Thread nD τ).loc main_arg6) : S64.Idx → EReal) shapeCasts_S64_S1x64 := by
  show StableHlo.after hostOps0 _ (Proc.devRef .tc main_v18) = _
  after_results; rfl
theorem E1_main_v19 : (E1 m ρ c main_v19 : S1x64.Idx → EReal) = shapeCast S1x64 (m ((c : Thread nD τ).loc main_arg8) : S64.Idx → EReal) shapeCasts_S64_S1x64 := by
  show StableHlo.after hostOps0 _ (Proc.devRef .tc main_v19) = _
  after_results; rfl
/-! ## Still there at every later region's entry -/

/-- A buffer that no stretch after the first writes and that is no output array of regions 0, 1, 2 is, at the entries of regions
    1, 2, 3 and at region 2's exit, as at region 0's entry. -/
theorem keep (b : Ref sig .tc) (h1 : b ∉ hostOps1_W) (h2 : b ∉ hostOps2_W) (h3 : b ∉ hostOps3_W)
    (ho0 : b ∉ ([main_v20_0, main_v20_1] : List (Ref sig .tc))) (ho1 : b ∉ ([main_v32_0, main_v32_1] : List (Ref sig .tc)))
    (ho2 : b ∉ ([main_v44_0, main_v44_1] : List (Ref sig .tc))) :
    E3 m ρ c b = E1 m ρ c b ∧ E5 m ρ c b = E1 m ρ c b ∧ E7 m ρ c b = E1 m ρ c b ∧ X6 m ρ c b = E1 m ρ c b := by
  have e2 : B2 m ρ c (Proc.devRef .tc b) = B1 m ρ c (Proc.devRef .tc b) := B2_keep m ρ c b ho0
  have e3 : B3 m ρ c (Proc.devRef .tc b) = B2 m ρ c (Proc.devRef .tc b) := StableHlo.after_of_writes_sub hostOps1 _ hostOps1_writes h1
  have e4 : B4 m ρ c (Proc.devRef .tc b) = B3 m ρ c (Proc.devRef .tc b) := B4_keep m ρ c b ho1
  have e5 : B5 m ρ c (Proc.devRef .tc b) = B4 m ρ c (Proc.devRef .tc b) := StableHlo.after_of_writes_sub hostOps2 _ hostOps2_writes h2
  have e6 : B6 m ρ c (Proc.devRef .tc b) = B5 m ρ c (Proc.devRef .tc b) := B6_keep m ρ c b ho2
  have e7 : B7 m ρ c (Proc.devRef .tc b) = B6 m ρ c (Proc.devRef .tc b) := StableHlo.after_of_writes_sub hostOps3 _ hostOps3_writes h3
  have a3 := e3.trans e2
  have a5 := (e5.trans e4).trans a3
  have a6 := e6.trans a5
  exact ⟨a3, a5, e7.trans a6, a6⟩

/-! ## The last stretch's two reshapes -/

/-- The last stretch leaves the graph ids as a column and the head's bias as a row of what it found. -/
theorem after3_main_v56 (V : Valuation τ sig (Elt Ideal)) :
    (StableHlo.after hostOps3 V (Proc.devRef .tc main_v56) : S100000x1.Idx → BitVec 32)
      = shapeCast S100000x1 (V (Proc.devRef .tc main_arg2) : S100000.Idx → BitVec 32) shapeCasts_S100000_S100000x1 := by
  after_results; rfl
theorem after3_main_v57 (V : Valuation τ sig (Elt Ideal)) :
    (StableHlo.after hostOps3 V (Proc.devRef .tc main_v57) : S1x2.Idx → EReal)
      = shapeCast S1x2 (V (Proc.devRef .tc main_arg10) : S2.Idx → EReal) shapeCasts_S2_S1x2 := by
  after_results; rfl

end Host0

open Host0

variable (m : (ℓ : Loc nD τ sig) → Buf (Elt Ideal) ℓ) (ρ : Dev nD → PrngReg) (c : Dev nD)

/-! ## Read at coordinates -/

theorem E1_dinv (r : Fin 100000) : (E1 m ρ c main_v11 : S100000x1.Idx → EReal) (ix2 r 0) = (argsOf m c).dinv r :=
  (congrFun (E1_main_v11 m ρ c) (ix2 r 0)).trans (dinvV_apply _ r)
theorem E1_cnt (g : Fin 128) : (E1 m ρ c main_v16 : S128x1.Idx → EReal) (ix2 g 0) = (argsOf m c).cnt g :=
  (congrFun (E1_main_v16 m ρ c) (ix2 g 0)).trans (cntV_apply _ g)
theorem E1_b0 (f : Fin 64) : (E1 m ρ c main_v17 : S1x64.Idx → EReal) (ix2 0 f) = (argsOf m c).b0 f :=
  (congrFun (E1_main_v17 m ρ c) (ix2 0 f)).trans (row_apply _ f)
theorem E1_b1 (f : Fin 64) : (E1 m ρ c main_v18 : S1x64.Idx → EReal) (ix2 0 f) = (argsOf m c).b1 f :=
  (congrFun (E1_main_v18 m ρ c) (ix2 0 f)).trans (row_apply _ f)
theorem E1_b2 (f : Fin 64) : (E1 m ρ c main_v19 : S1x64.Idx → EReal) (ix2 0 f) = (argsOf m c).b2 f :=
  (congrFun (E1_main_v19 m ρ c) (ix2 0 f)).trans (row_apply _ f)
theorem E1_x (r : Fin 100000) (k : Fin 64) : (E1 m ρ c main_arg0 : S100000x64.Idx → EReal) (ix2 r k) = (argsOf m c).x r k :=
  congrFun (E1_keep m ρ c main_arg0 (by decide) : (E1 m ρ c main_arg0 : S100000x64.Idx → EReal) = _) (ix2 r k)
theorem E1_W0 (k f : Fin 64) : (E1 m ρ c main_arg3 : S64x64.Idx → EReal) (ix2 k f) = (argsOf m c).W0 k f :=
  congrFun (E1_keep m ρ c main_arg3 (by decide) : (E1 m ρ c main_arg3 : S64x64.Idx → EReal) = _) (ix2 k f)
/-- The edges' sources and ends, as the later stretches read them. -/
theorem E1_src (e : Fin 1200000) : (E1 m ρ c main_v1 : S1200000.Idx → BitVec 32) (ix1 e) = (argsOf m c).ei 0 e :=
  (congrFun (E1_main_v1 m ρ c) (ix1 e)).trans (srcV_apply _ e)
theorem E1_dst (e : Fin 1200000) : (E1 m ρ c main_v3 : S1200000.Idx → BitVec 32) (ix1 e) = (argsOf m c).ei 1 e :=
  (congrFun (E1_main_v3 m ρ c) (ix1 e)).trans (dstV_apply _ e)

/-! ## Still there at every later region's entry -/

theorem E3_dinv (r : Fin 100000) : (E3 m ρ c main_v11 : S100000x1.Idx → EReal) (ix2 r 0) = (argsOf m c).dinv r :=
  (congrFun (keep m ρ c main_v11 (by decide) (by decide) (by decide) (by decide) (by decide) (by decide)).1 (ix2 r 0)).trans (E1_dinv m ρ c r)
theorem E5_dinv (r : Fin 100000) : (E5 m ρ c main_v11 : S100000x1.Idx → EReal) (ix2 r 0) = (argsOf m c).dinv r :=
  (congrFun (keep m ρ c main_v11 (by decide) (by decide) (by decide) (by decide) (by decide) (by decide)).2.1 (ix2 r 0)).trans (E1_dinv m ρ c r)
theorem E7_dinv (r : Fin 100000) : (E7 m ρ c main_v11 : S100000x1.Idx → EReal) (ix2 r 0) = (argsOf m c).dinv r :=
  (congrFun (keep m ρ c main_v11 (by decide) (by decide) (by decide) (by decide) (by decide) (by decide)).2.2.1 (ix2 r 0)).trans (E1_dinv m ρ c r)
theorem E3_b0 (f : Fin 64) : (E3 m ρ c main_v17 : S1x64.Idx → EReal) (ix2 0 f) = (argsOf m c).b0 f :=
  (congrFun (keep m ρ c main_v17 (by decide) (by decide) (by decide) (by decide) (by decide) (by decide)).1 (ix2 0 f)).trans (E1_b0 m ρ c f)
theorem E5_b1 (f : Fin 64) : (E5 m ρ c main_v18 : S1x64.Idx → EReal) (ix2 0 f) = (argsOf m c).b1 f :=
  (congrFun (keep m ρ c main_v18 (by decide) (by decide) (by decide) (by decide) (by decide) (by decide)).2.1 (ix2 0 f)).trans (E1_b1 m ρ c f)
theorem E7_b2 (f : Fin 64) : (E7 m ρ c main_v19 : S1x64.Idx → EReal) (ix2 0 f) = (argsOf m c).b2 f :=
  (congrFun (keep m ρ c main_v19 (by decide) (by decide) (by decide) (by decide) (by decide) (by decide)).2.2.1 (ix2 0 f)).trans (E1_b2 m ρ c f)
theorem E7_cnt (g : Fin 128) : (E7 m ρ c main_v16 : S128x1.Idx → EReal) (ix2 g 0) = (argsOf m c).cnt g :=
  (congrFun (keep m ρ c main_v16 (by decide) (by decide) (by decide) (by decide) (by decide) (by decide)).2.2.1 (ix2 g 0)).trans (E1_cnt m ρ c g)
theorem E3_W1 (k f : Fin 64) : (E3 m ρ c main_arg5 : S64x64.Idx → EReal) (ix2 k f) = (argsOf m c).W1 k f :=
  (congrFun (keep m ρ c main_arg5 (by decide) (by decide) (by decide) (by decide) (by decide) (by decide)).1 (ix2 k f)).trans
    (congrFun (E1_keep m ρ c main_arg5 (by decide) : (E1 m ρ c main_arg5 : S64x64.Idx → EReal) = _) (ix2 k f))
theorem E5_W2 (k f : Fin 64) : (E5 m ρ c main_arg7 : S64x64.Idx → EReal) (ix2 k f) = (argsOf m c).W2 k f :=
  (congrFun (keep m ρ c main_arg7 (by decide) (by decide) (by decide) (by decide) (by decide) (by decide)).2.1 (ix2 k f)).trans
    (congrFun (E1_keep m ρ c main_arg7 (by decide) : (E1 m ρ c main_arg7 : S64x64.Idx → EReal) = _) (ix2 k f))
theorem E7_lw (k : Fin 64) (j : Fin 2) : (E7 m ρ c main_arg9 : S64x2.Idx → EReal) (ix2 k j) = (argsOf m c).lw k j :=
  (congrFun (keep m ρ c main_arg9 (by decide) (by decide) (by decide) (by decide) (by decide) (by decide)).2.2.1 (ix2 k j)).trans
    (congrFun (E1_keep m ρ c main_arg9 (by decide) : (E1 m ρ c main_arg9 : S64x2.Idx → EReal) = _) (ix2 k j))
theorem E3_src (e : Fin 1200000) : (E3 m ρ c main_v1 : S1200000.Idx → BitVec 32) (ix1 e) = (argsOf m c).ei 0 e :=
  (congrFun (keep m ρ c main_v1 (by decide) (by decide) (by decide) (by decide) (by decide) (by decide)).1 (ix1 e)).trans (E1_src m ρ c e)
theorem E5_src (e : Fin 1200000) : (E5 m ρ c main_v1 : S1200000.Idx → BitVec 32) (ix1 e) = (argsOf m c).ei 0 e :=
  (congrFun (keep m ρ c main_v1 (by decide) (by decide) (by decide) (by decide) (by decide) (by decide)).2.1 (ix1 e)).trans (E1_src m ρ c e)
theorem E7_src (e : Fin 1200000) : (E7 m ρ c main_v1 : S1200000.Idx → BitVec 32) (ix1 e) = (argsOf m c).ei 0 e :=
  (congrFun (keep m ρ c main_v1 (by decide) (by decide) (by decide) (by decide) (by decide) (by decide)).2.2.1 (ix1 e)).trans (E1_src m ρ c e)
theorem E3_dst (e : Fin 1200000) : (E3 m ρ c main_v3 : S1200000.Idx → BitVec 32) (ix1 e) = (argsOf m c).ei 1 e :=
  (congrFun (keep m ρ c main_v3 (by decide) (by decide) (by decide) (by decide) (by decide) (by decide)).1 (ix1 e)).trans (E1_dst m ρ c e)
theorem E5_dst (e : Fin 1200000) : (E5 m ρ c main_v3 : S1200000.Idx → BitVec 32) (ix1 e) = (argsOf m c).ei 1 e :=
  (congrFun (keep m ρ c main_v3 (by decide) (by decide) (by decide) (by decide) (by decide) (by decide)).2.1 (ix1 e)).trans (E1_dst m ρ c e)
theorem E7_dst (e : Fin 1200000) : (E7 m ρ c main_v3 : S1200000.Idx → BitVec 32) (ix1 e) = (argsOf m c).ei 1 e :=
  (congrFun (keep m ρ c main_v3 (by decide) (by decide) (by decide) (by decide) (by decide) (by decide)).2.2.1 (ix1 e)).trans (E1_dst m ρ c e)

/-! ## The last stretch's two reshapes, at coordinates -/

theorem E7_bat (r : Fin 100000) : (E7 m ρ c main_v56 : S100000x1.Idx → BitVec 32) (ix2 r 0) = (argsOf m c).bat r := by
  have e6 : (X6 m ρ c main_arg2 : S100000.Idx → BitVec 32) = m ((c : Thread nD τ).loc main_arg2) :=
    (keep m ρ c main_arg2 (by decide) (by decide) (by decide) (by decide) (by decide) (by decide)).2.2.2.trans (E1_keep m ρ c main_arg2 (by decide))
  refine (congrFun (after3_main_v56 (B6 m ρ c)) (ix2 r 0)).trans ((col_apply _ r).trans ?_)
  exact congrFun e6 (ix1 r)
theorem E7_lb (j : Fin 2) : (E7 m ρ c main_v57 : S1x2.Idx → EReal) (ix2 0 j) = (argsOf m c).lb j := by
  have e6 : (X6 m ρ c main_arg10 : S2.Idx → EReal) = m ((c : Thread nD τ).loc main_arg10) :=
    (keep m ρ c main_arg10 (by decide) (by decide) (by decide) (by decide) (by decide) (by decide)).2.2.2.trans (E1_keep m ρ c main_arg10 (by decide))
  refine (congrFun (after3_main_v57 (B6 m ρ c)) (ix2 0 j)).trans ((row2_apply _ j).trans ?_)
  exact congrFun e6 (ix1 j)

end Cert.Proof.Val

end
-- ==== Proof.Val.HostAgg.lean ====
import proofs.«407338_j17489106829800_2_alg».proof.Proof.KI.Run
import proofs.«407338_j17489106829800_2_alg».proof.Proof.Val.Names
import proofs.«407338_j17489106829800_2_alg».proof.Proof.Val.Index
import proofs.«407338_j17489106829800_2_alg».proof.Proof.Val.Host0
import Idealize.ShloMosaic.Lib.Pipeline.Value
import Idealize.ShloMosaic.Lib.ValueIdx
import Idealize.ShloMosaic.Lib.StableHlo.Run

/-! # The aggregation between two graph-convolution layers, read at an index

Between two kernel regions the host gathers, for every edge, the row of the previous layer's scaled features at the edge's
source and adds it into a table of zeros at the edge's end. The source is a signed word read as an index into the 100000 rows:
a negative one is counted from the end, and the gather clamps what results into the table. The end is read signed and is not
clamped: an edge whose end is outside the table contributes nothing. So entry `(r, f)` of the aggregate is the literal zero
plus the sum, over the edges that end at `r`, of entry `f` of the row at the edge's source. The three stretches are one
term over a table and two index vectors: it is read at an index once and instantiated three times, the index vectors being the
edge list's two rows, which nothing has changed since they were sliced. Each stretch leaves the previous layer's unscaled
features as it found them. -/

set_option maxRecDepth 16384

noncomputable section

namespace Cert.Proof.Val

open Idealize.ShloMosaic Idealize.ShloMosaic.ValueIdx Idealize.ShloMosaic.TcCoe Idealize.SL.Sem
open Cert.KernelIdeal Cert.KernelIdeal.Gen Cert.KernelIdeal.Hand

namespace HostAgg

/-! ## One stretch's term over a table and two index vectors -/

/-- A flat vector of indices laid out as a column: entry `(e, 0)` is the vector's entry `e`. -/
theorem col_apply {α : Type} (v : S1200000.Idx → α) (e : Fin 1200000) :
    broadcastInDim S1200000x1 ![0] bcast_S1200000_S1200000x1_0 v (ix2 e 0) = v (ix1 e) := by
  have h1 : ¬ S1200000.size 0 = 1 := by decide
  refine broadcastInDim_apply _ bcast_S1200000_S1200000x1_0 v _ (ix1 e) fun a => ?_
  match a with
  | ⟨0, _⟩ => exact (if_neg h1).symm

/-- The aggregate of a table `tbl` of rows along edges with sources `src` and ends `dst`, as the host computes it: the
    sources read as row indices (a negative one counted from the end), the rows gathered, widened, and added into zeros at
    the ends. -/
def aggTerm (tbl : FVec Ideal S100000x64 .bf16) (src dst : IVec S1200000 32) : FVec Ideal S100000x64 .f32 :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 dst)
    (extf .f32 (Host.gather gather_S100000x64_S1200000x1_S1200000x64_1_0_n_n_0_1_164 tbl
      (broadcastInDim S1200000x1 ![0] bcast_S1200000_S1200000x1_0
        (select (cmpi .slt src (broadcastInDim S1200000 ![] bcast_S_S1200000 (constantI S_ 32 0#32)))
          (addi src (broadcastInDim S1200000 ![] bcast_S_S1200000 (constantI S_ 32 100000#32))) src))) bitsLt_bf16_f32)

/-- The gathered and widened rows at `(e, f)`: the table's row at the source of edge `e`, read as the host reads a row index. -/
theorem gathered_apply (tbl : FVec Ideal S100000x64 .bf16) (src : IVec S1200000 32) (e : Fin 1200000) (f : Fin 64) :
    extf .f32 (Host.gather gather_S100000x64_S1200000x1_S1200000x64_1_0_n_n_0_1_164 tbl
      (broadcastInDim S1200000x1 ![0] bcast_S1200000_S1200000x1_0
        (select (cmpi .slt src (broadcastInDim S1200000 ![] bcast_S_S1200000 (constantI S_ 32 0#32)))
          (addi src (broadcastInDim S1200000 ![] bcast_S_S1200000 (constantI S_ 32 100000#32))) src))) bitsLt_bf16_f32 (ix2 e f)
      = tbl (ix2 (Args.rowOf (src (ix1 e))) f) := by
  show Host.gather gather_S100000x64_S1200000x1_S1200000x64_1_0_n_n_0_1_164 tbl _ (ix2 e f) = _
  rw [gather_rows_apply gather_S100000x64_S1200000x1_S1200000x64_1_0_n_n_0_1_164 rfl rfl rfl rfl rfl rfl rfl (by decide)]
  refine congrArg (fun i => tbl (ix2 i f)) (Fin.ext ?_)
  show min (_ : ℕ) (100000 - 1) = _
  rw [col_apply]
  rfl

/-- THE AGGREGATE AT `(r, f)`: the literal zero plus the sum, over the edges whose end read signed is `r`, of entry `f` of
    the table's row at the edge's source. -/
theorem aggTerm_apply (tbl : FVec Ideal S100000x64 .bf16) (src dst : IVec S1200000 32) (r : Fin 100000) (f : Fin 64) :
    aggTerm tbl src dst (ix2 r f)
      = z32 + ∑ e ∈ Finset.univ.filter (fun e : Fin 1200000 => (dst (ix1 e)).toInt = (r.val : ℤ)),
          tbl (ix2 (Args.rowOf (src (ix1 e))) f) := by
  unfold aggTerm
  rw [host_scatterAdd_rows_apply scatter_S100000x64_S1200000x1_S1200000x64_1_0_0_1 rfl rfl rfl rfl]
  refine congrArg₂ (· + ·) rfl ?_
  refine Finset.sum_congr (Finset.filter_congr fun e _ => by rw [col_apply]) fun e _ => ?_
  exact gathered_apply tbl src e f

/-- The same with the two index vectors known to be the edge list's rows. -/
theorem aggTerm_args (a : Args) (tbl : FVec Ideal S100000x64 .bf16) (src dst : IVec S1200000 32)
    (hsrc : ∀ e : Fin 1200000, src (ix1 e) = a.ei 0 e) (hdst : ∀ e : Fin 1200000, dst (ix1 e) = a.ei 1 e)
    (r : Fin 100000) (f : Fin 64) :
    aggTerm tbl src dst (ix2 r f)
      = z32 + ∑ e ∈ Finset.univ.filter (fun e : Fin 1200000 => a.dstZ e = (r.val : ℤ)), tbl (ix2 (a.srcRow e) f) := by
  rw [aggTerm_apply]
  refine congrArg₂ (· + ·) rfl ?_
  refine Finset.sum_congr (Finset.filter_congr fun e _ => ?_) fun e _ => ?_
  · show (dst (ix1 e)).toInt = (r.val : ℤ) ↔ (a.ei 1 e).toInt = (r.val : ℤ)
    rw [hdst]
  · show tbl (ix2 (Args.rowOf (src (ix1 e))) f) = tbl (ix2 (Args.rowOf (a.ei 0 e)) f)
    rw [hsrc]

/-! ## The three stretches are that term -/

theorem after1_main_v31 (V : Valuation τ sig (Elt Ideal)) :
    (StableHlo.after hostOps1 V (Proc.devRef .tc main_v31) : S100000x64.Idx → EReal)
      = aggTerm (V (Proc.devRef .tc main_v20_1)) (V (Proc.devRef .tc main_v1)) (V (Proc.devRef .tc main_v3)) := by
  after_results; rfl
theorem after2_main_v43 (V : Valuation τ sig (Elt Ideal)) :
    (StableHlo.after hostOps2 V (Proc.devRef .tc main_v43) : S100000x64.Idx → EReal)
      = aggTerm (V (Proc.devRef .tc main_v32_1)) (V (Proc.devRef .tc main_v1)) (V (Proc.devRef .tc main_v3)) := by
  after_results; rfl
theorem after3_main_v55 (V : Valuation τ sig (Elt Ideal)) :
    (StableHlo.after hostOps3 V (Proc.devRef .tc main_v55) : S100000x64.Idx → EReal)
      = aggTerm (V (Proc.devRef .tc main_v44_1)) (V (Proc.devRef .tc main_v1)) (V (Proc.devRef .tc main_v3)) := by
  after_results; rfl

end HostAgg

/-! ## The index vectors are the edge list's rows at every stretch's entry -/

variable (m : (ℓ : Loc nD τ sig) → Buf (Elt Ideal) ℓ) (ρ : Dev nD → PrngReg) (c : Dev nD)

namespace HostAgg

theorem X2_src (e : Fin 1200000) : (X2 m ρ c main_v1 : S1200000.Idx → BitVec 32) (ix1 e) = (argsOf m c).ei 0 e :=
  (congrFun (B2_keep m ρ c main_v1 (by decide) : (X2 m ρ c main_v1 : S1200000.Idx → BitVec 32) = E1 m ρ c main_v1) (ix1 e)).trans
    (E1_src m ρ c e)
theorem X2_dst (e : Fin 1200000) : (X2 m ρ c main_v3 : S1200000.Idx → BitVec 32) (ix1 e) = (argsOf m c).ei 1 e :=
  (congrFun (B2_keep m ρ c main_v3 (by decide) : (X2 m ρ c main_v3 : S1200000.Idx → BitVec 32) = E1 m ρ c main_v3) (ix1 e)).trans
    (E1_dst m ρ c e)
theorem X4_src (e : Fin 1200000) : (X4 m ρ c main_v1 : S1200000.Idx → BitVec 32) (ix1 e) = (argsOf m c).ei 0 e :=
  (congrFun (B4_keep m ρ c main_v1 (by decide) : (X4 m ρ c main_v1 : S1200000.Idx → BitVec 32) = E3 m ρ c main_v1) (ix1 e)).trans
    (E3_src m ρ c e)
theorem X4_dst (e : Fin 1200000) : (X4 m ρ c main_v3 : S1200000.Idx → BitVec 32) (ix1 e) = (argsOf m c).ei 1 e :=
  (congrFun (B4_keep m ρ c main_v3 (by decide) : (X4 m ρ c main_v3 : S1200000.Idx → BitVec 32) = E3 m ρ c main_v3) (ix1 e)).trans
    (E3_dst m ρ c e)
theorem X6_src (e : Fin 1200000) : (X6 m ρ c main_v1 : S1200000.Idx → BitVec 32) (ix1 e) = (argsOf m c).ei 0 e :=
  (congrFun (B6_keep m ρ c main_v1 (by decide) : (X6 m ρ c main_v1 : S1200000.Idx → BitVec 32) = E5 m ρ c main_v1) (ix1 e)).trans
    (E5_src m ρ c e)
theorem X6_dst (e : Fin 1200000) : (X6 m ρ c main_v3 : S1200000.Idx → BitVec 32) (ix1 e) = (argsOf m c).ei 1 e :=
  (congrFun (B6_keep m ρ c main_v3 (by decide) : (X6 m ρ c main_v3 : S1200000.Idx → BitVec 32) = E5 m ρ c main_v3) (ix1 e)).trans
    (E5_dst m ρ c e)

end HostAgg

open HostAgg

/-! ## The three aggregates -/

/-- The first aggregate: the rows of region 0's second output summed along the edges. -/
theorem E3_agg (r : Fin 100000) (f : Fin 64) :
    (E3 m ρ c main_v31 : S100000x64.Idx → EReal) (ix2 r f)
      = z32 + Finset.sum (M := EReal) (Finset.univ.filter (fun e : Fin 1200000 => (argsOf m c).dstZ e = (r.val : ℤ)))
          fun e => (X2 m ρ c main_v20_1 : S100000x64.Idx → EReal) (ix2 ((argsOf m c).srcRow e) f) :=
  (congrFun (after1_main_v31 (B2 m ρ c)) (ix2 r f)).trans
    (aggTerm_args (argsOf m c) (X2 m ρ c main_v20_1) (X2 m ρ c main_v1) (X2 m ρ c main_v3) (X2_src m ρ c) (X2_dst m ρ c) r f)

/-- The second: the rows of region 1's second output. -/
theorem E5_agg (r : Fin 100000) (f : Fin 64) :
    (E5 m ρ c main_v43 : S100000x64.Idx → EReal) (ix2 r f)
      = z32 + Finset.sum (M := EReal) (Finset.univ.filter (fun e : Fin 1200000 => (argsOf m c).dstZ e = (r.val : ℤ)))
          fun e => (X4 m ρ c main_v32_1 : S100000x64.Idx → EReal) (ix2 ((argsOf m c).srcRow e) f) :=
  (congrFun (after2_main_v43 (B4 m ρ c)) (ix2 r f)).trans
    (aggTerm_args (argsOf m c) (X4 m ρ c main_v32_1) (X4 m ρ c main_v1) (X4 m ρ c main_v3) (X4_src m ρ c) (X4_dst m ρ c) r f)

/-- The third: the rows of region 2's second output. -/
theorem E7_agg (r : Fin 100000) (f : Fin 64) :
    (E7 m ρ c main_v55 : S100000x64.Idx → EReal) (ix2 r f)
      = z32 + Finset.sum (M := EReal) (Finset.univ.filter (fun e : Fin 1200000 => (argsOf m c).dstZ e = (r.val : ℤ)))
          fun e => (X6 m ρ c main_v44_1 : S100000x64.Idx → EReal) (ix2 ((argsOf m c).srcRow e) f) :=
  (congrFun (after3_main_v55 (B6 m ρ c)) (ix2 r f)).trans
    (aggTerm_args (argsOf m c) (X6 m ρ c main_v44_1) (X6 m ρ c main_v1) (X6 m ρ c main_v3) (X6_src m ρ c) (X6_dst m ρ c) r f)

/-! ## The previous layer's unscaled features pass through -/

theorem E3_h (r : Fin 100000) (f : Fin 64) :
    (E3 m ρ c main_v20_0 : S100000x64.Idx → EReal) (ix2 r f) = (X2 m ρ c main_v20_0 : S100000x64.Idx → EReal) (ix2 r f) :=
  congrFun (StableHlo.after_of_writes_sub hostOps1 (B2 m ρ c) hostOps1_writes (by decide) :
    (E3 m ρ c main_v20_0 : S100000x64.Idx → EReal) = X2 m ρ c main_v20_0) (ix2 r f)
theorem E5_h (r : Fin 100000) (f : Fin 64) :
    (E5 m ρ c main_v32_0 : S100000x64.Idx → EReal) (ix2 r f) = (X4 m ρ c main_v32_0 : S100000x64.Idx → EReal) (ix2 r f) :=
  congrFun (StableHlo.after_of_writes_sub hostOps2 (B4 m ρ c) hostOps2_writes (by decide) :
    (E5 m ρ c main_v32_0 : S100000x64.Idx → EReal) = X4 m ρ c main_v32_0) (ix2 r f)
theorem E7_h (r : Fin 100000) (f : Fin 64) :
    (E7 m ρ c main_v44_0 : S100000x64.Idx → EReal) (ix2 r f) = (X6 m ρ c main_v44_0 : S100000x64.Idx → EReal) (ix2 r f) :=
  congrFun (StableHlo.after_of_writes_sub hostOps3 (B6 m ρ c) hostOps3_writes (by decide) :
    (E7 m ρ c main_v44_0 : S100000x64.Idx → EReal) = X6 m ρ c main_v44_0) (ix2 r f)

end Cert.Proof.Val

end
-- ==== Proof.Val.R0.lean ====
import proofs.«407338_j17489106829800_2_alg».proof.Proof.KI.Reg0
import Idealize.ShloMosaic.Lib.Pipeline.Value
import Idealize.ShloMosaic.Lib.ValueIdx
import Idealize.ShloMosaic.PureOps.Ideal.Laws

/-! # Region 0 at the extended reals: the two output arrays, element by element

Region 0 multiplies the node features by the first weight matrix, row tile by row tile. At the extended reals the
roundings to bf16 are the identity and the matrix product is the exact sum, so whatever the buffers `V` hold when the
region is entered,

* the first output array holds, at row `r` and column `f`, `∑ k, x r k * W k f`;
* the second holds that sum times the scale `d r` (the one-column array, read at column 0).

The cut: the body's two stored values read at an index of a block (`pay1_apply`, `pay2_apply`: the contraction's sum
re-indexed by its one coordinate; the column broadcast read at its row); a window's block at a grid point read at an
index of the block, as the array at the row 5000·t further down (`blk0_apply`, `blk1_apply`, `blk2_apply`); what a point
writes back is its block of ONE function of the arrays (`flushed3_eq`, `flushed4_eq`); row `r` lies in the block of point
`r / 5000` (`cover3`, `cover4`); so each array ends holding that function (`arr0_3`, `arr0_4`). -/

noncomputable section

namespace Cert.Proof.Val

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand

namespace R0

/-! ## The product's operand indices, axis by axis -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The body's two stored values at an index of the block -/

/-- The first stored value: the exact product of the two loaded blocks (the roundings of the operands to bf16 are the
    identity on extended reals; the accumulator is the zero splat). -/
theorem pay1_apply (x0 : Vec Ideal S5000x64 .f32) (x1 : Vec Ideal S64x64 .f32) (p : Fin 5000) (f : Fin 64) :
    (k0_pay1 (F := Ideal) x0 x1 : S5000x64.Idx → EReal) (ix2 p f)
      = ∑ k : Fin 64, (x0 : S5000x64.Idx → EReal) (ix2 p k) * (x1 : S64x64.Idx → EReal) (ix2 k f) := by
  unfold k0_pay1
  refine (Ideal.matmul_constant_zero_apply dot_S5000x64_S64x64_S5000x64_1_0_0_1_n_n none
    (truncf .bf16 x0 (by decide) : FVec Ideal S5000x64 .bf16) (truncf .bf16 x1 (by decide) : FVec Ideal S64x64 .bf16) (ix2 p f)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p f) ((contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p f) ((contrEquiv1 dot_S5000x64_S64x64_S5000x64_1_0_0_1_n_n 64 rfl rfl).symm k) = ix2 k f := funext fun a => Fin.ext (by
    match a with
    | ⟨0, _⟩ => exact (rhs_0 _ _).trans hk
    | ⟨1, _⟩ => exact rhs_1 _ _)
  show (x0 : S5000x64.Idx → EReal) (dot_S5000x64_S64x64_S5000x64_1_0_0_1_n_n.lhsIdx (ix2 p f) ((contrEquiv1 dot_S5000x64_S64x64_S5000x64_1_0_0_1_n_n 64 rfl rfl).symm k))
      * (x1 : S64x64.Idx → EReal) (dot_S5000x64_S64x64_S5000x64_1_0_0_1_n_n.rhsIdx (ix2 p f) ((contrEquiv1 dot_S5000x64_S64x64_S5000x64_1_0_0_1_n_n 64 rfl rfl).symm k)) = _
  rw [el, er]

/-- The second stored value: the first times the one-column block broadcast along the rows (the cast of that block to its
    own shape and the rounding of the product to bf16 are the identity). -/
theorem pay2_apply (x0 : Vec Ideal S5000x64 .f32) (x1 : Vec Ideal S64x64 .f32) (x2 : Vec Ideal S5000x1 .f32) (p : Fin 5000) (f : Fin 64) :
    (k0_pay2 (F := Ideal) x0 x1 x2 : S5000x64.Idx → EReal) (ix2 p f)
      = (∑ k : Fin 64, (x0 : S5000x64.Idx → EReal) (ix2 p k) * (x1 : S64x64.Idx → EReal) (ix2 k f))
        * (x2 : S5000x1.Idx → EReal) (ix2 p (0 : Fin 1)) := by
  rw [← pay1_apply x0 x1 p f]
  unfold k0_pay2
  have hb : (broadcastTo S5000x64 (shapeCast S5000x1 x2 (by decide)) (by decide) : S5000x64.Idx → EReal) (ix2 p f)
      = (x2 : S5000x1.Idx → EReal) (ix2 p (0 : Fin 1)) := by
    rw [shapeCast_self]
    exact broadcastTo_apply (s := S5000x1) (t := S5000x64) x2 (by decide) (ix2 p f) (ix2 p (0 : Fin 1)) (fun a => match a with
      | ⟨0, _⟩ => by show p.val = if (5000 : Nat) = 1 then 0 else p.val; rw [if_neg (by decide)]
      | ⟨1, _⟩ => by show (0 : Nat) = if (1 : Nat) = 1 then 0 else f.val; rw [if_pos rfl])
  exact congrArg (fun z : EReal => (k0_pay1 (F := Ideal) x0 x1 : S5000x64.Idx → EReal) (ix2 p f) * z) hb

/-! ## The windows' blocks on their arrays -/

theorem hz : (![0, 0] : Fin 2 → Nat) = fun _ => 0 := funext fun a => by fin_cases a <;> rfl

/-- The printed index maps, decided over the grid's 20 points: the four row-tiled windows are on block `t` of rows, the
    weights' window on its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

-- the buffers' contents when the region is entered
variable (V : (c : Dev nD) → (b : Ref sig .tc) → Buf (Elt Ideal) ((c : Thread nD τ).loc b))

/-- Window 0's block at point `t`, at row `p` of the block, is the features' array at row `5000 t + p`. -/
theorem blk0_apply (c : Dev nD) (t : Fin cfg0.N) (p : Fin 5000) (k : Fin 64) (r : Fin 100000) (hr : r.val = 5000 * t.val + p.val) :
    (iblk0 V c 0 t : S5000x64.Idx → EReal) (ix2 p k) = (V c main_arg0 : S100000x64.Idx → EReal) (ix2 r k) := by
  obtain ⟨e0, e1, e2, e3, e4, e5, e6, e7, e8, e9⟩ := idx_facts t
  unfold iblk0
  rw [View.read_apply]
  show (V c main_arg0 : S100000x64.Idx → EReal) _ = _
  refine congrArg (V c main_arg0 : S100000x64.Idx → EReal) (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- Window 1's block at every point is the weights' array. -/
theorem blk1_apply (c : Dev nD) (t : Fin cfg0.N) (k : Fin 64) (f f' : Fin 64) (hf : f'.val = f.val) :
    (iblk0 V c 1 t : S64x64.Idx → EReal) (ix2 k f) = (V c main_arg3 : S64x64.Idx → EReal) (ix2 k f') := by
  obtain ⟨e0, e1, e2, e3, e4, e5, e6, e7, e8, e9⟩ := idx_facts t
  unfold iblk0
  rw [View.read_apply]
  show (V c main_arg3 : S64x64.Idx → EReal) _ = _
  refine congrArg (V c main_arg3 : S64x64.Idx → EReal) (funext fun a => Fin.ext ?_)
  match a with
  | ⟨0, _⟩ => show win0_1.index t (0 : Fin 2) * 64 + 1 * k.val = k.val; omega
  | ⟨1, _⟩ => show win0_1.index t (1 : Fin 2) * 64 + 1 * f.val = f'.val; omega

/-- Window 2's block at point `t`, at row `p`, is the scales' array at row `5000 t + p`. -/
theorem blk2_apply (c : Dev nD) (t : Fin cfg0.N) (p : Fin 5000) (r : Fin 100000) (hr : r.val = 5000 * t.val + p.val) :
    (iblk0 V c 2 t : S5000x1.Idx → EReal) (ix2 p (0 : Fin 1)) = (V c main_v11 : S100000x1.Idx → EReal) (ix2 r (0 : Fin 1)) := by
  obtain ⟨e0, e1, e2, e3, e4, e5, e6, e7, e8, e9⟩ := idx_facts t
  unfold iblk0
  rw [View.read_apply]
  show (V c main_v11 : S100000x1.Idx → EReal) _ = _
  refine congrArg (V c main_v11 : S100000x1.Idx → EReal) (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-! ## Each output as one function of the arrays -/

/-- `x · W` at an index of the output array. -/
def prodAt (a0 : S100000x64.Idx → EReal) (a1 : S64x64.Idx → EReal) (i : S100000x64.Idx) : EReal :=
  ∑ k : Fin 64, a0 (ix2 (⟨(i 0).val, idx2_lt0 i⟩ : Fin 100000) k) * a1 (ix2 k (⟨(i 1).val, idx2_lt1 i⟩ : Fin 64))

/-- `x · W` with row `r` scaled by `d r`. -/
def scaledAt (a0 : S100000x64.Idx → EReal) (a1 : S64x64.Idx → EReal) (a2 : S100000x1.Idx → EReal) (i : S100000x64.Idx) : EReal :=
  prodAt a0 a1 i * a2 (ix2 (⟨(i 0).val, idx2_lt0 i⟩ : Fin 100000) (0 : Fin 1))

/-- The first stored value at point `t`, at (p, f) of the block, is `prodAt` at any index of the array on row `5000 t + p` and
    column `f`. -/
theorem pay1_blk (c : Dev nD) (t : Fin cfg0.N) (p : Fin 5000) (f : Fin 64) (i : S100000x64.Idx)
    (hi0 : (i 0).val = 5000 * t.val + p.val) (hi1 : (i 1).val = f.val) :
    (k0_pay1 (F := Ideal) (iblk0 V c 0 t) (iblk0 V c 1 t) : S5000x64.Idx → EReal) (ix2 p f)
      = prodAt (V c main_arg0) (V c main_arg3) i := by
  refine (pay1_apply (iblk0 V c 0 t) (iblk0 V c 1 t) p f).trans ?_
  unfold prodAt
  refine Finset.sum_congr rfl fun k _ => ?_
  rw [blk0_apply V c t p k ⟨(i 0).val, idx2_lt0 i⟩ hi0, blk1_apply V c t k f ⟨(i 1).val, idx2_lt1 i⟩ hi1]

/-- The second likewise is `scaledAt` there. -/
theorem pay2_blk (c : Dev nD) (t : Fin cfg0.N) (p : Fin 5000) (f : Fin 64) (i : S100000x64.Idx)
    (hi0 : (i 0).val = 5000 * t.val + p.val) (hi1 : (i 1).val = f.val) :
    (k0_pay2 (F := Ideal) (iblk0 V c 0 t) (iblk0 V c 1 t) (iblk0 V c 2 t) : S5000x64.Idx → EReal) (ix2 p f)
      = scaledAt (V c main_arg0) (V c main_arg3) (V c main_v11) i := by
  refine (pay2_apply (iblk0 V c 0 t) (iblk0 V c 1 t) (iblk0 V c 2 t) p f).trans ?_
  unfold scaledAt
  exact congrArg₂ (fun a b : EReal => a * b)
    ((pay1_apply (iblk0 V c 0 t) (iblk0 V c 1 t) p f).symm.trans (pay1_blk V c t p f i hi0 hi1))
    (blk2_apply V c t p ⟨(i 0).val, idx2_lt0 i⟩ hi0)

/-! ## From the blocks to the arrays -/

/-- What point `t` writes back to output window 3's array is block `t` of `prodAt` of the arrays as the region finds them. -/
theorem flushed3_eq (c : Dev nD) (t : Fin cfg0.N) :
    (dat0 V c).flushed 3 t = ((cfg0.win 3).blk t).view.read (Elt Ideal) (prodAt (V c main_arg0) (V c main_arg3)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz]
  funext j
  obtain ⟨e0, e1, e2, e3, e4, e5, e6, e7, e8, e9⟩ := idx_facts t
  have hj0 : (j 0).val < 5000 := (j 0).isLt
  have hj1 : (j 1).val < 64 := (j 1).isLt
  have hx : ((cfg0.win 3).xinj (grid0.coords t) j : S5000x64.Idx) = ix2 (⟨(j 0).val, hj0⟩ : Fin 5000) (⟨(j 1).val, hj1⟩ : Fin 64) :=
    funext fun a => Fin.ext (by match a with | ⟨0, _⟩ => rfl | ⟨1, _⟩ => rfl)
  show (k0_pay1 (F := Ideal) (iblk0 V c 0 t) (iblk0 V c 1 t) : S5000x64.Idx → EReal) ((cfg0.win 3).xinj (grid0.coords t) j)
      = prodAt (V c main_arg0) (V c main_arg3) (((cfg0.win 3).blk t).view.emb j)
  rw [hx]
  exact pay1_blk V c t ⟨(j 0).val, hj0⟩ ⟨(j 1).val, hj1⟩ (((cfg0.win 3).blk t).view.emb j)
    (by show win0_3.index t (0 : Fin 2) * 5000 + 1 * (j 0).val = 5000 * t.val + (j 0).val; omega)
    (by show win0_3.index t (1 : Fin 2) * 64 + 1 * (j 1).val = (j 1).val; omega)

/-- An index of the array is in point `t`'s block iff each coordinate is in the block's range on its axis. -/
theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v20_0).slice (win0_3.rect t)).set ↔ _
  rw [View.set_slice_whole, Rect.mem_set_unit]
  exact Iff.rfl

/-- Row `r` of the array is in the block of point `r / 5000`. -/
theorem cover3 (i : S100000x64.Idx) : ∃ t : Fin cfg0.N, (cfg0.win 3).flush t = true ∧ i ∈ ((cfg0.win 3).blk t).view.set := by
  have hN : cfg0.N = 20 := N_0
  have hi0 : (i 0).val < 100000 := (i 0).isLt
  have hi1 : (i 1).val < 64 := (i 1).isLt
  obtain ⟨t, ht⟩ : ∃ t : Fin cfg0.N, t.val = (i 0).val / 5000 := ⟨⟨(i 0).val / 5000, by rw [hN]; omega⟩, rfl⟩
  obtain ⟨e0, e1, e2, e3, e4, e5, e6, e7, e8, e9⟩ := idx_facts t
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- What point `t` writes back to output window 4's array is block `t` of `scaledAt` of the arrays as the region finds them. -/
theorem flushed4_eq (c : Dev nD) (t : Fin cfg0.N) :
    (dat0 V c).flushed 4 t = ((cfg0.win 4).blk t).view.read (Elt Ideal) (scaledAt (V c main_arg0) (V c main_arg3) (V c main_v11)) := by
  show (cfg0.win 4).cut (grid0.coords t) ((dat0 V c).after 4 t) = _
  rw [after0_4]
  unfold out0_4
  rw [View.canon_unit_zero hz]
  simp only [View.ld_unit_zero (S := S5000x64) hz, View.ld_unit_zero (S := S64x64) hz, View.ld_unit_zero (S := S5000x1) hz]
  funext j
  obtain ⟨e0, e1, e2, e3, e4, e5, e6, e7, e8, e9⟩ := idx_facts t
  have hj0 : (j 0).val < 5000 := (j 0).isLt
  have hj1 : (j 1).val < 64 := (j 1).isLt
  have hx : ((cfg0.win 4).xinj (grid0.coords t) j : S5000x64.Idx) = ix2 (⟨(j 0).val, hj0⟩ : Fin 5000) (⟨(j 1).val, hj1⟩ : Fin 64) :=
    funext fun a => Fin.ext (by match a with | ⟨0, _⟩ => rfl | ⟨1, _⟩ => rfl)
  show (k0_pay2 (F := Ideal) (iblk0 V c 0 t) (iblk0 V c 1 t) (iblk0 V c 2 t) : S5000x64.Idx → EReal) ((cfg0.win 4).xinj (grid0.coords t) j)
      = scaledAt (V c main_arg0) (V c main_arg3) (V c main_v11) (((cfg0.win 4).blk t).view.emb j)
  rw [hx]
  exact pay2_blk V c t ⟨(j 0).val, hj0⟩ ⟨(j 1).val, hj1⟩ (((cfg0.win 4).blk t).view.emb j)
    (by show win0_4.index t (0 : Fin 2) * 5000 + 1 * (j 0).val = 5000 * t.val + (j 0).val; omega)
    (by show win0_4.index t (1 : Fin 2) * 64 + 1 * (j 1).val = (j 1).val; omega)

/-- An index of the array is in point `t`'s block iff each coordinate is in the block's range on its axis. -/
theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v20_1).slice (win0_4.rect t)).set ↔ _
  rw [View.set_slice_whole, Rect.mem_set_unit]
  exact Iff.rfl

/-- Row `r` of the array is in the block of point `r / 5000`. -/
theorem cover4 (i : S100000x64.Idx) : ∃ t : Fin cfg0.N, (cfg0.win 4).flush t = true ∧ i ∈ ((cfg0.win 4).blk t).view.set := by
  have hN : cfg0.N = 20 := N_0
  have hi0 : (i 0).val < 100000 := (i 0).isLt
  have hi1 : (i 1).val < 64 := (i 1).isLt
  obtain ⟨t, ht⟩ : ∃ t : Fin cfg0.N, t.val = (i 0).val / 5000 := ⟨⟨(i 0).val / 5000, by rw [hN]; omega⟩, rfl⟩
  obtain ⟨e0, e1, e2, e3, e4, e5, e6, e7, e8, e9⟩ := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

end R0

open R0

variable (V : (c : Dev nD) → (b : Ref sig .tc) → Buf (Elt Ideal) ((c : Thread nD τ).loc b))

-- the product of two extended reals, named at that type: an array's element type is the extended reals only once the signature is unfolded
local notation:70 a:70 " ⬝ " b:71 => (HMul.hMul : EReal → EReal → EReal) a b

/-- REGION 0's FIRST OUTPUT: after the region the array holds `x · W0`, whatever the buffers held when it was entered. -/
theorem arr0_3 (c : Dev nD) (r : Fin 100000) (f : Fin 64) :
    ((dat0 V c).arrAt 3 cfg0.N : S100000x64.Idx → EReal) (ix2 r f)
      = ∑ k : Fin 64, (V c main_arg0 : S100000x64.Idx → EReal) (ix2 r k) ⬝ (V c main_arg3 : S64x64.Idx → EReal) (ix2 k f) :=
  (congrFun ((dat0 V c).arrAt_eq_of_cover 3 (prodAt (V c main_arg0) (V c main_arg3)) (fun t _ => flushed3_eq V c t) cover3) (ix2 r f)).trans rfl

/-- REGION 0's SECOND OUTPUT: the same rows, each scaled by the one-column array's entry of its row. -/
theorem arr0_4 (c : Dev nD) (r : Fin 100000) (f : Fin 64) :
    ((dat0 V c).arrAt 4 cfg0.N : S100000x64.Idx → EReal) (ix2 r f)
      = (∑ k : Fin 64, (V c main_arg0 : S100000x64.Idx → EReal) (ix2 r k) ⬝ (V c main_arg3 : S64x64.Idx → EReal) (ix2 k f))
        ⬝ (V c main_v11 : S100000x1.Idx → EReal) (ix2 r (0 : Fin 1)) :=
  (congrFun ((dat0 V c).arrAt_eq_of_cover 4 (scaledAt (V c main_arg0) (V c main_arg3) (V c main_v11)) (fun t _ => flushed4_eq V c t) cover4) (ix2 r f)).trans rfl

end Cert.Proof.Val

end
-- ==== Proof.Val.R1.lean ====
import proofs.«407338_j17489106829800_2_alg».proof.Proof.KI.Reg1
import proofs.«407338_j17489106829800_2_alg».proof.Proof.Val.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-! # REGION 1 over the extended reals: what its two output arrays hold after the grid

One graph-convolution layer followed by the next layer's product, on 100000 node rows taken 5000 at a time. With `a` the
aggregated neighbour rows, `h` the nodes' own rows, `d r` the inverse-root degree of row `r`, `b` the bias row and `W` the
next weight matrix, every entry of the first output is

  `y r f = ∑ k, max (a r k * d r + h r k * (d r * d r) + b k) 0 * W k f`

and every entry of the second is `y r f * d r`. Over the extended reals a change of float format is the identity and the
matrix product into a zero accumulator is the plain sum, so nothing is left of the two roundings to sixteen bits.

The steps. At one grid point the body's single store covers its buffer, so the buffer ends holding the store's payload
(`out5_R1`, `out6_R1`). The payload read at an entry `(p, q)` of the tile is the sum above over the tile's rows (`pay2_R1`,
`pay3_R1`): the column of `d` broadcast along a row reads the row's entry (`bcastCol_R1`), the bias row broadcast down the
tile reads its entry, and the product's contraction index is re-indexed to the 64 columns. Tile `t` of a streamed array is
its rows `5000 t … 5000 t + 4999`, and the bias and the weights are whole at every point (`blk0_R1` … `blk4_R1`, from the index
maps decided over the twenty points, `idx_R1`). So what point `t` writes back is tile `t` of ONE function of the arrays as
the region finds them (`flushed5_R1`, `flushed6_R1`); row `r` lies in tile `r / 5000`, so the tiles cover the array
(`cover5_R1`, `cover6_R1`), and the array ends holding that function (`arr1_5`, `arr1_6`). -/

-- a rectangle with a 5000-long axis: membership in it is decided coordinate by coordinate along that axis
set_option maxRecDepth 16384

noncomputable section

open scoped BigOperators

namespace Cert.Proof.Val

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand

-- the core's buffer contents when the region is entered, at the extended reals
variable (V : (c : Dev nD) → (b : Ref sig .tc) → Buf (Elt Ideal) ((c : Thread nD τ).loc b))

-- the extended reals' product and sum, with both operands read as extended reals: an entry of an array is an extended
-- real by the type of the array's buffer
local notation:70 a:70 " ⬝ " b:71 => (HMul.hMul : EReal → EReal → EReal) a b
local notation:65 a:65 " ⊹ " b:66 => (HAdd.hAdd : EReal → EReal → EReal) a b

/-! ## The payload at an entry of the tile -/

theorem hz_R1 : (![0, 0] : Fin 2 → Nat) = fun _ => 0 := funext fun a => by fin_cases a <;> rfl

/-- A column `[a, 1]` broadcast to `[a, b]` reads, at `(p, c)`, the column's entry of row `p`. -/
theorem bcastCol_R1 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's operand indices at output `i` and contraction index `q`, axis by axis: the left operand is read at
    (`i`'s row, `q`) and the right at (`q`, `i`'s column). -/
theorem lhs_R1_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_R1_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_R1_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_R1_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The f32 payload at `(p, q)`, from the tile's blocks `x0` (aggregate), `x1` (own rows), `x2` (the column of factors), `x3`
    (the bias row) and `x4` (the weights): the layer's row `p` times column `q` of the weights. -/
theorem pay2_R1 (x0 x1 : Vec Ideal S5000x64 .f32) (x2 : Vec Ideal S5000x1 .f32) (x3 : Vec Ideal S1x64 .f32) (x4 : Vec Ideal S64x64 .f32)
    (p : Fin 5000) (q : Fin 64) :
    k1_pay2 (F := Ideal) x2 x0 x1 x3 x4 (ix2 p q)
      = ∑ k : Fin 64, max (x0 (ix2 p k) * x2 (ix2 p 0) + x1 (ix2 p k) * (x2 (ix2 p 0) * x2 (ix2 p 0)) + x3 (ix2 0 k)) z32 * x4 (ix2 k q) := by
  unfold k1_pay2 k1_pay1
  dsimp only
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_R1_0 _ _
    | ⟨1, _⟩ => exact (lhs_R1_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_R1_0 _ _).trans hk
    | ⟨1, _⟩ => exact rhs_R1_1 _ _)
  rw [el, er]
  simp only [truncf_apply, maximumf_apply, addf_apply, mulf_apply, broadcast_apply, shapeCast_self, bcastCol_R1, broadcastTo_1b_ab_apply]
  rfl

/-- The bf16 payload at `(p, q)`: the f32 one times row `p`'s factor. -/
theorem pay3_R1 (x0 x1 : Vec Ideal S5000x64 .f32) (x2 : Vec Ideal S5000x1 .f32) (x3 : Vec Ideal S1x64 .f32) (x4 : Vec Ideal S64x64 .f32)
    (p : Fin 5000) (q : Fin 64) :
    k1_pay3 (F := Ideal) x2 x0 x1 x3 x4 (ix2 p q) = k1_pay2 (F := Ideal) x2 x0 x1 x3 x4 (ix2 p q) * x2 (ix2 p 0) := by
  unfold k1_pay3 k1_pay1
  dsimp only
  simp only [truncf_apply, mulf_apply, shapeCast_self, bcastCol_R1]

/-- The same two at any index of the tile whose coordinates are `p` and `q`. -/
theorem pay2_at_R1 (x0 x1 : Vec Ideal S5000x64 .f32) (x2 : Vec Ideal S5000x1 .f32) (x3 : Vec Ideal S1x64 .f32) (x4 : Vec Ideal S64x64 .f32)
    (i : S5000x64.Idx) (p : Fin 5000) (q : Fin 64) (hp : (i 0).val = p.val) (hq : (i 1).val = q.val) :
    k1_pay2 (F := Ideal) x2 x0 x1 x3 x4 i
      = ∑ k : Fin 64, max (x0 (ix2 p k) * x2 (ix2 p 0) + x1 (ix2 p k) * (x2 (ix2 p 0) * x2 (ix2 p 0)) + x3 (ix2 0 k)) z32 * x4 (ix2 k q) := by
  obtain rfl : i = ix2 p q := funext fun a => Fin.ext (by
    match a with
    | ⟨0, _⟩ => exact hp
    | ⟨1, _⟩ => exact hq)
  exact pay2_R1 x0 x1 x2 x3 x4 p q

theorem pay3_at_R1 (x0 x1 : Vec Ideal S5000x64 .f32) (x2 : Vec Ideal S5000x1 .f32) (x3 : Vec Ideal S1x64 .f32) (x4 : Vec Ideal S64x64 .f32)
    (i : S5000x64.Idx) (p : Fin 5000) (q : Fin 64) (hp : (i 0).val = p.val) (hq : (i 1).val = q.val) :
    k1_pay3 (F := Ideal) x2 x0 x1 x3 x4 i
      = (∑ k : Fin 64, max (x0 (ix2 p k) * x2 (ix2 p 0) + x1 (ix2 p k) * (x2 (ix2 p 0) * x2 (ix2 p 0)) + x3 (ix2 0 k)) z32 * x4 (ix2 k q)) * x2 (ix2 p 0) := by
  obtain rfl : i = ix2 p q := funext fun a => Fin.ext (by
    match a with
    | ⟨0, _⟩ => exact hp
    | ⟨1, _⟩ => exact hq)
  rw [pay3_R1 x0 x1 x2 x3 x4 p q, pay2_R1 x0 x1 x2 x3 x4 p q]

/-! ## What the body leaves in each output buffer is its store's payload -/

theorem out5_R1 (x0 x1 : Vec Ideal S5000x64 .f32) (x2 : Vec Ideal S5000x1 .f32) (x3 : Vec Ideal S1x64 .f32) (x4 : Vec Ideal S64x64 .f32) :
    out1_5 (F := Ideal) x0 x1 x2 x3 x4 = k1_pay2 (F := Ideal) x2 x0 x1 x3 x4 := by
  unfold out1_5
  rw [View.canon_unit_zero hz_R1]
  simp only [View.ld_unit_zero (S := S5000x64) hz_R1, View.ld_unit_zero (S := S5000x1) hz_R1, View.ld_unit_zero (S := S1x64) hz_R1, View.ld_unit_zero (S := S64x64) hz_R1]

theorem out6_R1 (x0 x1 : Vec Ideal S5000x64 .f32) (x2 : Vec Ideal S5000x1 .f32) (x3 : Vec Ideal S1x64 .f32) (x4 : Vec Ideal S64x64 .f32) :
    out1_6 (F := Ideal) x0 x1 x2 x3 x4 = k1_pay3 (F := Ideal) x2 x0 x1 x3 x4 := by
  unfold out1_6
  rw [View.canon_unit_zero hz_R1]
  simp only [View.ld_unit_zero (S := S5000x64) hz_R1, View.ld_unit_zero (S := S5000x1) hz_R1, View.ld_unit_zero (S := S1x64) hz_R1, View.ld_unit_zero (S := S64x64) hz_R1]

/-! ## The tiles of the arrays -/

/-- The printed index maps, decided over the twenty points: a streamed window's tile index is the point, the bias and
    the weights stay at tile (0, 0). -/
theorem idx_R1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row `p` of tile `t` is row `5000 t + p` of the array. -/
def row_R1 (t : Fin cfg1.N) (p : Fin 5000) : Fin 100000 :=
  ⟨5000 * t.val + p.val, by have hN : cfg1.N = 20 := N_1; have := t.isLt; have := p.isLt; omega⟩

/-- The aggregate's tile. -/
theorem blk0_R1 (c : Dev nD) (t : Fin cfg1.N) (p : Fin 5000) (k : Fin 64) :
    (iblk1 V c 0 t : Vec Ideal S5000x64 .f32) (ix2 p k) = (V c main_v31 : S100000x64.Idx → EReal) (ix2 (row_R1 t p) k) := by
  obtain ⟨e0, e1, -⟩ := idx_R1 t
  show (V c main_v31 : S100000x64.Idx → EReal) (((cfg1.win 0).blk t).view.emb (ix2 p k)) = _
  refine congrArg (V c main_v31 : S100000x64.Idx → EReal) ?_
  funext a
  apply Fin.ext
  match a with
  | ⟨0, _⟩ => show win1_0.index t (0 : Fin 2) * 5000 + 1 * p.val = 5000 * t.val + p.val; omega
  | ⟨1, _⟩ => show win1_0.index t (1 : Fin 2) * 64 + 1 * k.val = k.val; omega

/-- The own rows' tile. -/
theorem blk1_R1 (c : Dev nD) (t : Fin cfg1.N) (p : Fin 5000) (k : Fin 64) :
    (iblk1 V c 1 t : Vec Ideal S5000x64 .f32) (ix2 p k) = (V c main_v20_0 : S100000x64.Idx → EReal) (ix2 (row_R1 t p) k) := by
  obtain ⟨-, -, e0, e1, -⟩ := idx_R1 t
  show (V c main_v20_0 : S100000x64.Idx → EReal) (((cfg1.win 1).blk t).view.emb (ix2 p k)) = _
  refine congrArg (V c main_v20_0 : S100000x64.Idx → EReal) ?_
  funext a
  apply Fin.ext
  match a with
  | ⟨0, _⟩ => show win1_1.index t (0 : Fin 2) * 5000 + 1 * p.val = 5000 * t.val + p.val; omega
  | ⟨1, _⟩ => show win1_1.index t (1 : Fin 2) * 64 + 1 * k.val = k.val; omega

/-- The factors' tile: a column. -/
theorem blk2_R1 (c : Dev nD) (t : Fin cfg1.N) (p : Fin 5000) :
    (iblk1 V c 2 t : Vec Ideal S5000x1 .f32) (ix2 p (0 : Fin 1)) = (V c main_v11 : S100000x1.Idx → EReal) (ix2 (row_R1 t p) (0 : Fin 1)) := by
  obtain ⟨-, -, -, -, e0, e1, -⟩ := idx_R1 t
  show (V c main_v11 : S100000x1.Idx → EReal) (((cfg1.win 2).blk t).view.emb (ix2 p (0 : Fin 1))) = _
  refine congrArg (V c main_v11 : S100000x1.Idx → EReal) ?_
  funext a
  apply Fin.ext
  match a with
  | ⟨0, _⟩ => show win1_2.index t (0 : Fin 2) * 5000 + 1 * p.val = 5000 * t.val + p.val; omega
  | ⟨1, _⟩ => show win1_2.index t (1 : Fin 2) * 1 + 1 * 0 = 0; omega

/-- The bias row, whole at every point. -/
theorem blk3_R1 (c : Dev nD) (t : Fin cfg1.N) (k : Fin 64) :
    (iblk1 V c 3 t : Vec Ideal S1x64 .f32) (ix2 (0 : Fin 1) k) = (V c main_v17 : S1x64.Idx → EReal) (ix2 (0 : Fin 1) k) := by
  obtain ⟨-, -, -, -, -, -, e0, e1, -⟩ := idx_R1 t
  show (V c main_v17 : S1x64.Idx → EReal) (((cfg1.win 3).blk t).view.emb (ix2 (0 : Fin 1) k)) = _
  refine congrArg (V c main_v17 : S1x64.Idx → EReal) ?_
  funext a
  apply Fin.ext
  match a with
  | ⟨0, _⟩ => show win1_3.index t (0 : Fin 2) * 1 + 1 * 0 = 0; omega
  | ⟨1, _⟩ => show win1_3.index t (1 : Fin 2) * 64 + 1 * k.val = k.val; omega

/-- The weights, whole at every point. -/
theorem blk4_R1 (c : Dev nD) (t : Fin cfg1.N) (k q : Fin 64) :
    (iblk1 V c 4 t : Vec Ideal S64x64 .f32) (ix2 k q) = (V c main_arg5 : S64x64.Idx → EReal) (ix2 k q) := by
  obtain ⟨-, -, -, -, -, -, -, -, e0, e1, -⟩ := idx_R1 t
  show (V c main_arg5 : S64x64.Idx → EReal) (((cfg1.win 4).blk t).view.emb (ix2 k q)) = _
  refine congrArg (V c main_arg5 : S64x64.Idx → EReal) ?_
  funext a
  apply Fin.ext
  match a with
  | ⟨0, _⟩ => show win1_4.index t (0 : Fin 2) * 64 + 1 * k.val = k.val; omega
  | ⟨1, _⟩ => show win1_4.index t (1 : Fin 2) * 64 + 1 * q.val = q.val; omega

/-! ## The two arrays as functions of the arrays the region finds -/

/-- The layer's row `r` times column `f` of the weights, from the five arrays: the aggregate `A`, the own rows `H`, the column of
    factors `Dv`, the bias row `B` and the weights `W`. -/
def lay_R1 (A H : S100000x64.Idx → EReal) (Dv : S100000x1.Idx → EReal) (B : S1x64.Idx → EReal) (W : S64x64.Idx → EReal)
    (r : Fin 100000) (f : Fin 64) : EReal :=
  ∑ k : Fin 64, max (A (ix2 r k) * Dv (ix2 r 0) + H (ix2 r k) * (Dv (ix2 r 0) * Dv (ix2 r 0)) + B (ix2 0 k)) z32 * W (ix2 k f)

/-- The first output array, index by index, -/
def G5_R1 (c : Dev nD) : S100000x64.Idx → EReal :=
  fun i => lay_R1 (V c main_v31) (V c main_v20_0) (V c main_v11) (V c main_v17) (V c main_arg5) ⟨(i 0).val, idx2_lt0 i⟩ ⟨(i 1).val, idx2_lt1 i⟩
/-- and the second: the same entry times the row's factor. -/
def scl_R1 (Dv : S100000x1.Idx → EReal) (y : EReal) (r : Fin 100000) : EReal := y * Dv (ix2 r 0)
def G6_R1 (c : Dev nD) : S100000x64.Idx → EReal :=
  fun i => scl_R1 (V c main_v11) (lay_R1 (V c main_v31) (V c main_v20_0) (V c main_v11) (V c main_v17) (V c main_arg5) ⟨(i 0).val, idx2_lt0 i⟩ ⟨(i 1).val, idx2_lt1 i⟩) ⟨(i 0).val, idx2_lt0 i⟩

theorem G5_at_R1 (c : Dev nD) (i : S100000x64.Idx) (r : Fin 100000) (f : Fin 64) (hr : (i 0).val = r.val) (hf : (i 1).val = f.val) :
    G5_R1 V c i = lay_R1 (V c main_v31) (V c main_v20_0) (V c main_v11) (V c main_v17) (V c main_arg5) r f := by
  obtain rfl : i = ix2 r f := funext fun a => Fin.ext (by
    match a with
    | ⟨0, _⟩ => exact hr
    | ⟨1, _⟩ => exact hf)
  rfl

theorem G6_at_R1 (c : Dev nD) (i : S100000x64.Idx) (r : Fin 100000) (f : Fin 64) (hr : (i 0).val = r.val) (hf : (i 1).val = f.val) :
    G6_R1 V c i = scl_R1 (V c main_v11) (lay_R1 (V c main_v31) (V c main_v20_0) (V c main_v11) (V c main_v17) (V c main_arg5) r f) r := by
  obtain rfl : i = ix2 r f := funext fun a => Fin.ext (by
    match a with
    | ⟨0, _⟩ => exact hr
    | ⟨1, _⟩ => exact hf)
  rfl

/-- The layer's sum over a tile's blocks, `x0` … `x4` read as rows of the arrays `A` … `W` (`h0` … `h4`), is the sum over the arrays' row. -/
theorem tile_R1 (x0 x1 : Vec Ideal S5000x64 .f32) (x2 : Vec Ideal S5000x1 .f32) (x3 : Vec Ideal S1x64 .f32) (x4 : Vec Ideal S64x64 .f32)
    (A H : S100000x64.Idx → EReal) (Dv : S100000x1.Idx → EReal) (B : S1x64.Idx → EReal) (W : S64x64.Idx → EReal)
    (p : Fin 5000) (q : Fin 64) (r : Fin 100000)
    (h0 : ∀ k : Fin 64, x0 (ix2 p k) = A (ix2 r k)) (h1 : ∀ k : Fin 64, x1 (ix2 p k) = H (ix2 r k))
    (h2 : x2 (ix2 p 0) = Dv (ix2 r 0)) (h3 : ∀ k : Fin 64, x3 (ix2 0 k) = B (ix2 0 k)) (h4 : ∀ k : Fin 64, x4 (ix2 k q) = W (ix2 k q)) :
    (∑ k : Fin 64, max (x0 (ix2 p k) * x2 (ix2 p 0) + x1 (ix2 p k) * (x2 (ix2 p 0) * x2 (ix2 p 0)) + x3 (ix2 0 k)) z32 * x4 (ix2 k q))
      = lay_R1 A H Dv B W r q := by
  unfold lay_R1
  refine Finset.sum_congr rfl fun k _ => ?_
  rw [h0 k, h1 k, h2, h3 k, h4 k]

/-! ## What a point writes back, and the cover -/

/-- A tile of a whole-array function, read at an index of the tile, is the function where the tile's rectangle puts the index. -/
theorem read5_R1 (t : Fin cfg1.N) (G : S100000x64.Idx → EReal) (j : ((cfg1.win 5).xblock (grid1.coords t)).Idx) :
    ((cfg1.win 5).blk t).view.read (Elt Ideal) G j = G (((cfg1.win 5).blk t).view.emb j) := rfl
theorem read6_R1 (t : Fin cfg1.N) (G : S100000x64.Idx → EReal) (j : ((cfg1.win 6).xblock (grid1.coords t)).Idx) :
    ((cfg1.win 6).blk t).view.read (Elt Ideal) G j = G (((cfg1.win 6).blk t).view.emb j) := rfl

/-- Where an index of point `t`'s tile sits in the output arrays: row `5000 t` plus its row, and its column. -/
theorem emb5_R1 (t : Fin cfg1.N) (j : ((cfg1.win 5).xblock (grid1.coords t)).Idx) :
    ((((cfg1.win 5).blk t).view.emb j) 0).val = 5000 * t.val + (j 0).val ∧ ((((cfg1.win 5).blk t).view.emb j) 1).val = (j 1).val := by
  obtain ⟨-, -, -, -, -, -, -, -, -, -, e0, e1, -⟩ := idx_R1 t
  constructor
  · show win1_5.index t (0 : Fin 2) * 5000 + 1 * (j 0).val = 5000 * t.val + (j 0).val; omega
  · show win1_5.index t (1 : Fin 2) * 64 + 1 * (j 1).val = (j 1).val; omega
theorem emb6_R1 (t : Fin cfg1.N) (j : ((cfg1.win 6).xblock (grid1.coords t)).Idx) :
    ((((cfg1.win 6).blk t).view.emb j) 0).val = 5000 * t.val + (j 0).val ∧ ((((cfg1.win 6).blk t).view.emb j) 1).val = (j 1).val := by
  obtain ⟨-, -, -, -, -, -, -, -, -, -, -, -, e0, e1⟩ := idx_R1 t
  constructor
  · show win1_6.index t (0 : Fin 2) * 5000 + 1 * (j 0).val = 5000 * t.val + (j 0).val; omega
  · show win1_6.index t (1 : Fin 2) * 64 + 1 * (j 1).val = (j 1).val; omega

/-- What the body leaves in window 5's buffer at point `t`, cut to what the write-back moves, is the f32 payload of the point's blocks. -/
theorem left5_R1 (c : Dev nD) (t : Fin cfg1.N) :
    (dat1 V c).flushed 5 t = (cfg1.win 5).cut (grid1.coords t) (k1_pay2 (F := Ideal) (iblk1 V c 2 t) (iblk1 V c 0 t) (iblk1 V c 1 t) (iblk1 V c 3 t) (iblk1 V c 4 t)) := by
  show (cfg1.win 5).cut (grid1.coords t) ((dat1 V c).after 5 t) = _
  rw [after1_5, out5_R1 (iblk1 V c 0 t) (iblk1 V c 1 t) (iblk1 V c 2 t) (iblk1 V c 3 t) (iblk1 V c 4 t)]
theorem left6_R1 (c : Dev nD) (t : Fin cfg1.N) :
    (dat1 V c).flushed 6 t = (cfg1.win 6).cut (grid1.coords t) (k1_pay3 (F := Ideal) (iblk1 V c 2 t) (iblk1 V c 0 t) (iblk1 V c 1 t) (iblk1 V c 3 t) (iblk1 V c 4 t)) := by
  show (cfg1.win 6).cut (grid1.coords t) ((dat1 V c).after 6 t) = _
  rw [after1_6, out6_R1 (iblk1 V c 0 t) (iblk1 V c 1 t) (iblk1 V c 2 t) (iblk1 V c 3 t) (iblk1 V c 4 t)]

/-- The layer's sum over point `t`'s blocks at row `p` is the arrays' layer at row `5000 t + p`. -/
theorem tileAt_R1 (c : Dev nD) (t : Fin cfg1.N) (p : Fin 5000) (q : Fin 64) :
    (∑ k : Fin 64, max ((iblk1 V c 0 t : Vec Ideal S5000x64 .f32) (ix2 p k) ⬝ (iblk1 V c 2 t : Vec Ideal S5000x1 .f32) (ix2 p 0)
        ⊹ (iblk1 V c 1 t : Vec Ideal S5000x64 .f32) (ix2 p k) ⬝ ((iblk1 V c 2 t : Vec Ideal S5000x1 .f32) (ix2 p 0) ⬝ (iblk1 V c 2 t : Vec Ideal S5000x1 .f32) (ix2 p 0))
        ⊹ (iblk1 V c 3 t : Vec Ideal S1x64 .f32) (ix2 0 k)) z32 ⬝ (iblk1 V c 4 t : Vec Ideal S64x64 .f32) (ix2 k q))
      = lay_R1 (V c main_v31) (V c main_v20_0) (V c main_v11) (V c main_v17) (V c main_arg5) (row_R1 t p) q :=
  tile_R1 (iblk1 V c 0 t) (iblk1 V c 1 t) (iblk1 V c 2 t) (iblk1 V c 3 t) (iblk1 V c 4 t)
    (V c main_v31) (V c main_v20_0) (V c main_v11) (V c main_v17) (V c main_arg5) p q (row_R1 t p)
    (fun k => blk0_R1 V c t p k) (fun k => blk1_R1 V c t p k) (blk2_R1 V c t p) (fun k => blk3_R1 V c t k) (fun k => blk4_R1 V c t k q)

/-- WHAT POINT `t` WRITES BACK through window 5 is tile `t` of `G5_R1`. -/
theorem flushed5_R1 (c : Dev nD) (t : Fin cfg1.N) :
    (dat1 V c).flushed 5 t = ((cfg1.win 5).blk t).view.read (Elt Ideal) (G5_R1 V c) := by
  rw [left5_R1 V c t]
  funext j
  have hp : (j 0).val < 5000 := (j 0).isLt
  have hq : (j 1).val < 64 := (j 1).isLt
  obtain ⟨he0, he1⟩ := emb5_R1 t j
  rw [read5_R1 t (G5_R1 V c) j, G5_at_R1 V c (((cfg1.win 5).blk t).view.emb j) (row_R1 t ⟨(j 0).val, hp⟩) ⟨(j 1).val, hq⟩ he0 he1]
  refine (pay2_at_R1 (iblk1 V c 0 t) (iblk1 V c 1 t) (iblk1 V c 2 t) (iblk1 V c 3 t) (iblk1 V c 4 t)
    ((cfg1.win 5).xinj (grid1.coords t) j) ⟨(j 0).val, hp⟩ ⟨(j 1).val, hq⟩ rfl rfl).trans ?_
  exact tileAt_R1 V c t ⟨(j 0).val, hp⟩ ⟨(j 1).val, hq⟩

/-- WHAT POINT `t` WRITES BACK through window 6 is tile `t` of `G6_R1`. -/
theorem flushed6_R1 (c : Dev nD) (t : Fin cfg1.N) :
    (dat1 V c).flushed 6 t = ((cfg1.win 6).blk t).view.read (Elt Ideal) (G6_R1 V c) := by
  rw [left6_R1 V c t]
  funext j
  have hp : (j 0).val < 5000 := (j 0).isLt
  have hq : (j 1).val < 64 := (j 1).isLt
  obtain ⟨he0, he1⟩ := emb6_R1 t j
  rw [read6_R1 t (G6_R1 V c) j, G6_at_R1 V c (((cfg1.win 6).blk t).view.emb j) (row_R1 t ⟨(j 0).val, hp⟩) ⟨(j 1).val, hq⟩ he0 he1]
  refine (pay3_at_R1 (iblk1 V c 0 t) (iblk1 V c 1 t) (iblk1 V c 2 t) (iblk1 V c 3 t) (iblk1 V c 4 t)
    ((cfg1.win 6).xinj (grid1.coords t) j) ⟨(j 0).val, hp⟩ ⟨(j 1).val, hq⟩ rfl rfl).trans ?_
  unfold scl_R1
  exact congrArg₂ (fun a b : EReal => a * b) (tileAt_R1 V c t ⟨(j 0).val, hp⟩ ⟨(j 1).val, hq⟩) (blk2_R1 V c t ⟨(j 0).val, hp⟩)

/-- An index of the first output array is in point `t`'s tile iff each coordinate is in the tile's range on its axis. -/
theorem mem_blk5_R1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v32_0).slice (win1_5.rect t)).set ↔ _
  rw [View.set_slice_whole, Rect.mem_set_unit]
  exact Iff.rfl

/-- The same for the second. -/
theorem mem_blk6_R1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v32_1).slice (win1_6.rect t)).set ↔ _
  rw [View.set_slice_whole, Rect.mem_set_unit]
  exact Iff.rfl

/-- THE COVER: row `r` lies in tile `r / 5000`, and every point writes its tile back. -/
theorem cover5_R1 (i : S100000x64.Idx) :
    ∃ t : Fin cfg1.N, (cfg1.win 5).flush t = true ∧ i ∈ ((cfg1.win 5).blk t).view.set := by
  have hN : cfg1.N = 20 := N_1
  have hi0 : (i 0).val < 100000 := idx2_lt0 i
  have hi1 : (i 1).val < 64 := idx2_lt1 i
  obtain ⟨t, ht⟩ : ∃ t : Fin cfg1.N, t.val = (i 0).val / 5000 := ⟨⟨(i 0).val / 5000, by omega⟩, rfl⟩
  obtain ⟨-, -, -, -, -, -, -, -, -, -, e0, e1, -⟩ := idx_R1 t
  refine ⟨t, flush1_5 t, ?_⟩
  rw [mem_blk5_R1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

theorem cover6_R1 (i : S100000x64.Idx) :
    ∃ t : Fin cfg1.N, (cfg1.win 6).flush t = true ∧ i ∈ ((cfg1.win 6).blk t).view.set := by
  have hN : cfg1.N = 20 := N_1
  have hi0 : (i 0).val < 100000 := idx2_lt0 i
  have hi1 : (i 1).val < 64 := idx2_lt1 i
  obtain ⟨t, ht⟩ : ∃ t : Fin cfg1.N, t.val = (i 0).val / 5000 := ⟨⟨(i 0).val / 5000, by omega⟩, rfl⟩
  obtain ⟨-, -, -, -, -, -, -, -, -, -, -, -, e0, e1⟩ := idx_R1 t
  refine ⟨t, flush1_6 t, ?_⟩
  rw [mem_blk6_R1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-! ## The arrays after the grid -/

/-- THE FIRST OUTPUT ARRAY after the grid, at row `r` and column `f`: the layer's row `r` times column `f` of the weights. -/
theorem arr1_5 (c : Dev nD) (r : Fin 100000) (f : Fin 64) :
    ((dat1 V c).arrAt 5 cfg1.N : S100000x64.Idx → EReal) (ix2 r f)
      = ∑ k : Fin 64, max ((V c main_v31 : S100000x64.Idx → EReal) (ix2 r k) ⬝ (V c main_v11 : S100000x1.Idx → EReal) (ix2 r 0)
          ⊹ (V c main_v20_0 : S100000x64.Idx → EReal) (ix2 r k) ⬝ ((V c main_v11 : S100000x1.Idx → EReal) (ix2 r 0) ⬝ (V c main_v11 : S100000x1.Idx → EReal) (ix2 r 0))
          ⊹ (V c main_v17 : S1x64.Idx → EReal) (ix2 0 k)) z32 ⬝ (V c main_arg5 : S64x64.Idx → EReal) (ix2 k f) :=
  ((congrFun ((dat1 V c).arrAt_eq_of_cover 5 (G5_R1 V c) (fun t _ => flushed5_R1 V c t) (fun i => cover5_R1 i)) (ix2 r f)).trans
    (G5_at_R1 V c (ix2 r f) r f rfl rfl)).trans rfl

/-- THE SECOND OUTPUT ARRAY after the grid: the same entry times row `r`'s factor. -/
theorem arr1_6 (c : Dev nD) (r : Fin 100000) (f : Fin 64) :
    ((dat1 V c).arrAt 6 cfg1.N : S100000x64.Idx → EReal) (ix2 r f)
      = (∑ k : Fin 64, max ((V c main_v31 : S100000x64.Idx → EReal) (ix2 r k) ⬝ (V c main_v11 : S100000x1.Idx → EReal) (ix2 r 0)
          ⊹ (V c main_v20_0 : S100000x64.Idx → EReal) (ix2 r k) ⬝ ((V c main_v11 : S100000x1.Idx → EReal) (ix2 r 0) ⬝ (V c main_v11 : S100000x1.Idx → EReal) (ix2 r 0))
          ⊹ (V c main_v17 : S1x64.Idx → EReal) (ix2 0 k)) z32 ⬝ (V c main_arg5 : S64x64.Idx → EReal) (ix2 k f))
        ⬝ (V c main_v11 : S100000x1.Idx → EReal) (ix2 r 0) :=
  ((congrFun ((dat1 V c).arrAt_eq_of_cover 6 (G6_R1 V c) (fun t _ => flushed6_R1 V c t) (fun i => cover6_R1 i)) (ix2 r f)).trans
    (G6_at_R1 V c (ix2 r f) r f rfl rfl)).trans rfl

end Cert.Proof.Val

end
-- ==== Proof.Val.R2.lean ====
import proofs.«407338_j17489106829800_2_alg».proof.Proof.KI.Reg2
import proofs.«407338_j17489106829800_2_alg».proof.Proof.Val.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-! # REGION 2 over the extended reals: what its two output arrays hold after the grid

One graph-convolution layer followed by the next layer's product, on 100000 node rows taken 5000 at a time. With `a` the
aggregated neighbour rows, `h` the nodes' own rows, `d r` the inverse-root degree of row `r`, `b` the bias row and `W` the
next weight matrix, every entry of the first output is

  `y r f = ∑ k, max (a r k * d r + h r k * (d r * d r) + b k) 0 * W k f`

and every entry of the second is `y r f * d r`. Over the extended reals a change of float format is the identity and the
matrix product into a zero accumulator is the plain sum, so nothing is left of the two roundings to sixteen bits.

The steps. At one grid point the body's single store covers its buffer, so the buffer ends holding the store's payload
(`out5_R2`, `out6_R2`). The payload read at an entry `(p, q)` of the tile is the sum above over the tile's rows (`pay2_R2`,
`pay3_R2`): the column of `d` broadcast along a row reads the row's entry (`bcastCol_R2`), the bias row broadcast down the
tile reads its entry, and the product's contraction index is re-indexed to the 64 columns. Tile `t` of a streamed array is
its rows `5000 t … 5000 t + 4999`, and the bias and the weights are whole at every point (`blk0_R2` … `blk4_R2`, from the index
maps decided over the twenty points, `idx_R2`). So what point `t` writes back is tile `t` of ONE function of the arrays as
the region finds them (`flushed5_R2`, `flushed6_R2`); row `r` lies in tile `r / 5000`, so the tiles cover the array
(`cover5_R2`, `cover6_R2`), and the array ends holding that function (`arr2_5`, `arr2_6`). -/

-- a rectangle with a 5000-long axis: membership in it is decided coordinate by coordinate along that axis
set_option maxRecDepth 16384

noncomputable section

open scoped BigOperators

namespace Cert.Proof.Val

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand

-- the core's buffer contents when the region is entered, at the extended reals
variable (V : (c : Dev nD) → (b : Ref sig .tc) → Buf (Elt Ideal) ((c : Thread nD τ).loc b))

-- the extended reals' product and sum, with both operands read as extended reals: an entry of an array is an extended
-- real by the type of the array's buffer
local notation:70 a:70 " ⬝ " b:71 => (HMul.hMul : EReal → EReal → EReal) a b
local notation:65 a:65 " ⊹ " b:66 => (HAdd.hAdd : EReal → EReal → EReal) a b

/-! ## The payload at an entry of the tile -/

theorem hz_R2 : (![0, 0] : Fin 2 → Nat) = fun _ => 0 := funext fun a => by fin_cases a <;> rfl

/-- A column `[a, 1]` broadcast to `[a, b]` reads, at `(p, c)`, the column's entry of row `p`. -/
theorem bcastCol_R2 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's operand indices at output `i` and contraction index `q`, axis by axis: the left operand is read at
    (`i`'s row, `q`) and the right at (`q`, `i`'s column). -/
theorem lhs_R2_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_R2_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_R2_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_R2_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The f32 payload at `(p, q)`, from the tile's blocks `x0` (aggregate), `x1` (own rows), `x2` (the column of factors), `x3`
    (the bias row) and `x4` (the weights): the layer's row `p` times column `q` of the weights. -/
theorem pay2_R2 (x0 x1 : Vec Ideal S5000x64 .f32) (x2 : Vec Ideal S5000x1 .f32) (x3 : Vec Ideal S1x64 .f32) (x4 : Vec Ideal S64x64 .f32)
    (p : Fin 5000) (q : Fin 64) :
    k2_pay2 (F := Ideal) x2 x0 x1 x3 x4 (ix2 p q)
      = ∑ k : Fin 64, max (x0 (ix2 p k) * x2 (ix2 p 0) + x1 (ix2 p k) * (x2 (ix2 p 0) * x2 (ix2 p 0)) + x3 (ix2 0 k)) z32 * x4 (ix2 k q) := by
  unfold k2_pay2 k2_pay1
  dsimp only
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_R2_0 _ _
    | ⟨1, _⟩ => exact (lhs_R2_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_R2_0 _ _).trans hk
    | ⟨1, _⟩ => exact rhs_R2_1 _ _)
  rw [el, er]
  simp only [truncf_apply, maximumf_apply, addf_apply, mulf_apply, broadcast_apply, shapeCast_self, bcastCol_R2, broadcastTo_1b_ab_apply]
  rfl

/-- The bf16 payload at `(p, q)`: the f32 one times row `p`'s factor. -/
theorem pay3_R2 (x0 x1 : Vec Ideal S5000x64 .f32) (x2 : Vec Ideal S5000x1 .f32) (x3 : Vec Ideal S1x64 .f32) (x4 : Vec Ideal S64x64 .f32)
    (p : Fin 5000) (q : Fin 64) :
    k2_pay3 (F := Ideal) x2 x0 x1 x3 x4 (ix2 p q) = k2_pay2 (F := Ideal) x2 x0 x1 x3 x4 (ix2 p q) * x2 (ix2 p 0) := by
  unfold k2_pay3 k2_pay1
  dsimp only
  simp only [truncf_apply, mulf_apply, shapeCast_self, bcastCol_R2]

/-- The same two at any index of the tile whose coordinates are `p` and `q`. -/
theorem pay2_at_R2 (x0 x1 : Vec Ideal S5000x64 .f32) (x2 : Vec Ideal S5000x1 .f32) (x3 : Vec Ideal S1x64 .f32) (x4 : Vec Ideal S64x64 .f32)
    (i : S5000x64.Idx) (p : Fin 5000) (q : Fin 64) (hp : (i 0).val = p.val) (hq : (i 1).val = q.val) :
    k2_pay2 (F := Ideal) x2 x0 x1 x3 x4 i
      = ∑ k : Fin 64, max (x0 (ix2 p k) * x2 (ix2 p 0) + x1 (ix2 p k) * (x2 (ix2 p 0) * x2 (ix2 p 0)) + x3 (ix2 0 k)) z32 * x4 (ix2 k q) := by
  obtain rfl : i = ix2 p q := funext fun a => Fin.ext (by
    match a with
    | ⟨0, _⟩ => exact hp
    | ⟨1, _⟩ => exact hq)
  exact pay2_R2 x0 x1 x2 x3 x4 p q

theorem pay3_at_R2 (x0 x1 : Vec Ideal S5000x64 .f32) (x2 : Vec Ideal S5000x1 .f32) (x3 : Vec Ideal S1x64 .f32) (x4 : Vec Ideal S64x64 .f32)
    (i : S5000x64.Idx) (p : Fin 5000) (q : Fin 64) (hp : (i 0).val = p.val) (hq : (i 1).val = q.val) :
    k2_pay3 (F := Ideal) x2 x0 x1 x3 x4 i
      = (∑ k : Fin 64, max (x0 (ix2 p k) * x2 (ix2 p 0) + x1 (ix2 p k) * (x2 (ix2 p 0) * x2 (ix2 p 0)) + x3 (ix2 0 k)) z32 * x4 (ix2 k q)) * x2 (ix2 p 0) := by
  obtain rfl : i = ix2 p q := funext fun a => Fin.ext (by
    match a with
    | ⟨0, _⟩ => exact hp
    | ⟨1, _⟩ => exact hq)
  rw [pay3_R2 x0 x1 x2 x3 x4 p q, pay2_R2 x0 x1 x2 x3 x4 p q]

/-! ## What the body leaves in each output buffer is its store's payload -/

theorem out5_R2 (x0 x1 : Vec Ideal S5000x64 .f32) (x2 : Vec Ideal S5000x1 .f32) (x3 : Vec Ideal S1x64 .f32) (x4 : Vec Ideal S64x64 .f32) :
    out2_5 (F := Ideal) x0 x1 x2 x3 x4 = k2_pay2 (F := Ideal) x2 x0 x1 x3 x4 := by
  unfold out2_5
  rw [View.canon_unit_zero hz_R2]
  simp only [View.ld_unit_zero (S := S5000x64) hz_R2, View.ld_unit_zero (S := S5000x1) hz_R2, View.ld_unit_zero (S := S1x64) hz_R2, View.ld_unit_zero (S := S64x64) hz_R2]

theorem out6_R2 (x0 x1 : Vec Ideal S5000x64 .f32) (x2 : Vec Ideal S5000x1 .f32) (x3 : Vec Ideal S1x64 .f32) (x4 : Vec Ideal S64x64 .f32) :
    out2_6 (F := Ideal) x0 x1 x2 x3 x4 = k2_pay3 (F := Ideal) x2 x0 x1 x3 x4 := by
  unfold out2_6
  rw [View.canon_unit_zero hz_R2]
  simp only [View.ld_unit_zero (S := S5000x64) hz_R2, View.ld_unit_zero (S := S5000x1) hz_R2, View.ld_unit_zero (S := S1x64) hz_R2, View.ld_unit_zero (S := S64x64) hz_R2]

/-! ## The tiles of the arrays -/

/-- The printed index maps, decided over the twenty points: a streamed window's tile index is the point, the bias and
    the weights stay at tile (0, 0). -/
theorem idx_R2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row `p` of tile `t` is row `5000 t + p` of the array. -/
def row_R2 (t : Fin cfg2.N) (p : Fin 5000) : Fin 100000 :=
  ⟨5000 * t.val + p.val, by have hN : cfg2.N = 20 := N_2; have := t.isLt; have := p.isLt; omega⟩

/-- The aggregate's tile. -/
theorem blk0_R2 (c : Dev nD) (t : Fin cfg2.N) (p : Fin 5000) (k : Fin 64) :
    (iblk2 V c 0 t : Vec Ideal S5000x64 .f32) (ix2 p k) = (V c main_v43 : S100000x64.Idx → EReal) (ix2 (row_R2 t p) k) := by
  obtain ⟨e0, e1, -⟩ := idx_R2 t
  show (V c main_v43 : S100000x64.Idx → EReal) (((cfg2.win 0).blk t).view.emb (ix2 p k)) = _
  refine congrArg (V c main_v43 : S100000x64.Idx → EReal) ?_
  funext a
  apply Fin.ext
  match a with
  | ⟨0, _⟩ => show win2_0.index t (0 : Fin 2) * 5000 + 1 * p.val = 5000 * t.val + p.val; omega
  | ⟨1, _⟩ => show win2_0.index t (1 : Fin 2) * 64 + 1 * k.val = k.val; omega

/-- The own rows' tile. -/
theorem blk1_R2 (c : Dev nD) (t : Fin cfg2.N) (p : Fin 5000) (k : Fin 64) :
    (iblk2 V c 1 t : Vec Ideal S5000x64 .f32) (ix2 p k) = (V c main_v32_0 : S100000x64.Idx → EReal) (ix2 (row_R2 t p) k) := by
  obtain ⟨-, -, e0, e1, -⟩ := idx_R2 t
  show (V c main_v32_0 : S100000x64.Idx → EReal) (((cfg2.win 1).blk t).view.emb (ix2 p k)) = _
  refine congrArg (V c main_v32_0 : S100000x64.Idx → EReal) ?_
  funext a
  apply Fin.ext
  match a with
  | ⟨0, _⟩ => show win2_1.index t (0 : Fin 2) * 5000 + 1 * p.val = 5000 * t.val + p.val; omega
  | ⟨1, _⟩ => show win2_1.index t (1 : Fin 2) * 64 + 1 * k.val = k.val; omega

/-- The factors' tile: a column. -/
theorem blk2_R2 (c : Dev nD) (t : Fin cfg2.N) (p : Fin 5000) :
    (iblk2 V c 2 t : Vec Ideal S5000x1 .f32) (ix2 p (0 : Fin 1)) = (V c main_v11 : S100000x1.Idx → EReal) (ix2 (row_R2 t p) (0 : Fin 1)) := by
  obtain ⟨-, -, -, -, e0, e1, -⟩ := idx_R2 t
  show (V c main_v11 : S100000x1.Idx → EReal) (((cfg2.win 2).blk t).view.emb (ix2 p (0 : Fin 1))) = _
  refine congrArg (V c main_v11 : S100000x1.Idx → EReal) ?_
  funext a
  apply Fin.ext
  match a with
  | ⟨0, _⟩ => show win2_2.index t (0 : Fin 2) * 5000 + 1 * p.val = 5000 * t.val + p.val; omega
  | ⟨1, _⟩ => show win2_2.index t (1 : Fin 2) * 1 + 1 * 0 = 0; omega

/-- The bias row, whole at every point. -/
theorem blk3_R2 (c : Dev nD) (t : Fin cfg2.N) (k : Fin 64) :
    (iblk2 V c 3 t : Vec Ideal S1x64 .f32) (ix2 (0 : Fin 1) k) = (V c main_v18 : S1x64.Idx → EReal) (ix2 (0 : Fin 1) k) := by
  obtain ⟨-, -, -, -, -, -, e0, e1, -⟩ := idx_R2 t
  show (V c main_v18 : S1x64.Idx → EReal) (((cfg2.win 3).blk t).view.emb (ix2 (0 : Fin 1) k)) = _
  refine congrArg (V c main_v18 : S1x64.Idx → EReal) ?_
  funext a
  apply Fin.ext
  match a with
  | ⟨0, _⟩ => show win2_3.index t (0 : Fin 2) * 1 + 1 * 0 = 0; omega
  | ⟨1, _⟩ => show win2_3.index t (1 : Fin 2) * 64 + 1 * k.val = k.val; omega

/-- The weights, whole at every point. -/
theorem blk4_R2 (c : Dev nD) (t : Fin cfg2.N) (k q : Fin 64) :
    (iblk2 V c 4 t : Vec Ideal S64x64 .f32) (ix2 k q) = (V c main_arg7 : S64x64.Idx → EReal) (ix2 k q) := by
  obtain ⟨-, -, -, -, -, -, -, -, e0, e1, -⟩ := idx_R2 t
  show (V c main_arg7 : S64x64.Idx → EReal) (((cfg2.win 4).blk t).view.emb (ix2 k q)) = _
  refine congrArg (V c main_arg7 : S64x64.Idx → EReal) ?_
  funext a
  apply Fin.ext
  match a with
  | ⟨0, _⟩ => show win2_4.index t (0 : Fin 2) * 64 + 1 * k.val = k.val; omega
  | ⟨1, _⟩ => show win2_4.index t (1 : Fin 2) * 64 + 1 * q.val = q.val; omega

/-! ## The two arrays as functions of the arrays the region finds -/

/-- The layer's row `r` times column `f` of the weights, from the five arrays: the aggregate `A`, the own rows `H`, the column of
    factors `Dv`, the bias row `B` and the weights `W`. -/
def lay_R2 (A H : S100000x64.Idx → EReal) (Dv : S100000x1.Idx → EReal) (B : S1x64.Idx → EReal) (W : S64x64.Idx → EReal)
    (r : Fin 100000) (f : Fin 64) : EReal :=
  ∑ k : Fin 64, max (A (ix2 r k) * Dv (ix2 r 0) + H (ix2 r k) * (Dv (ix2 r 0) * Dv (ix2 r 0)) + B (ix2 0 k)) z32 * W (ix2 k f)

/-- The first output array, index by index, -/
def G5_R2 (c : Dev nD) : S100000x64.Idx → EReal :=
  fun i => lay_R2 (V c main_v43) (V c main_v32_0) (V c main_v11) (V c main_v18) (V c main_arg7) ⟨(i 0).val, idx2_lt0 i⟩ ⟨(i 1).val, idx2_lt1 i⟩
/-- and the second: the same entry times the row's factor. -/
def scl_R2 (Dv : S100000x1.Idx → EReal) (y : EReal) (r : Fin 100000) : EReal := y * Dv (ix2 r 0)
def G6_R2 (c : Dev nD) : S100000x64.Idx → EReal :=
  fun i => scl_R2 (V c main_v11) (lay_R2 (V c main_v43) (V c main_v32_0) (V c main_v11) (V c main_v18) (V c main_arg7) ⟨(i 0).val, idx2_lt0 i⟩ ⟨(i 1).val, idx2_lt1 i⟩) ⟨(i 0).val, idx2_lt0 i⟩

theorem G5_at_R2 (c : Dev nD) (i : S100000x64.Idx) (r : Fin 100000) (f : Fin 64) (hr : (i 0).val = r.val) (hf : (i 1).val = f.val) :
    G5_R2 V c i = lay_R2 (V c main_v43) (V c main_v32_0) (V c main_v11) (V c main_v18) (V c main_arg7) r f := by
  obtain rfl : i = ix2 r f := funext fun a => Fin.ext (by
    match a with
    | ⟨0, _⟩ => exact hr
    | ⟨1, _⟩ => exact hf)
  rfl

theorem G6_at_R2 (c : Dev nD) (i : S100000x64.Idx) (r : Fin 100000) (f : Fin 64) (hr : (i 0).val = r.val) (hf : (i 1).val = f.val) :
    G6_R2 V c i = scl_R2 (V c main_v11) (lay_R2 (V c main_v43) (V c main_v32_0) (V c main_v11) (V c main_v18) (V c main_arg7) r f) r := by
  obtain rfl : i = ix2 r f := funext fun a => Fin.ext (by
    match a with
    | ⟨0, _⟩ => exact hr
    | ⟨1, _⟩ => exact hf)
  rfl

/-- The layer's sum over a tile's blocks, `x0` … `x4` read as rows of the arrays `A` … `W` (`h0` … `h4`), is the sum over the arrays' row. -/
theorem tile_R2 (x0 x1 : Vec Ideal S5000x64 .f32) (x2 : Vec Ideal S5000x1 .f32) (x3 : Vec Ideal S1x64 .f32) (x4 : Vec Ideal S64x64 .f32)
    (A H : S100000x64.Idx → EReal) (Dv : S100000x1.Idx → EReal) (B : S1x64.Idx → EReal) (W : S64x64.Idx → EReal)
    (p : Fin 5000) (q : Fin 64) (r : Fin 100000)
    (h0 : ∀ k : Fin 64, x0 (ix2 p k) = A (ix2 r k)) (h1 : ∀ k : Fin 64, x1 (ix2 p k) = H (ix2 r k))
    (h2 : x2 (ix2 p 0) = Dv (ix2 r 0)) (h3 : ∀ k : Fin 64, x3 (ix2 0 k) = B (ix2 0 k)) (h4 : ∀ k : Fin 64, x4 (ix2 k q) = W (ix2 k q)) :
    (∑ k : Fin 64, max (x0 (ix2 p k) * x2 (ix2 p 0) + x1 (ix2 p k) * (x2 (ix2 p 0) * x2 (ix2 p 0)) + x3 (ix2 0 k)) z32 * x4 (ix2 k q))
      = lay_R2 A H Dv B W r q := by
  unfold lay_R2
  refine Finset.sum_congr rfl fun k _ => ?_
  rw [h0 k, h1 k, h2, h3 k, h4 k]

/-! ## What a point writes back, and the cover -/

/-- A tile of a whole-array function, read at an index of the tile, is the function where the tile's rectangle puts the index. -/
theorem read5_R2 (t : Fin cfg2.N) (G : S100000x64.Idx → EReal) (j : ((cfg2.win 5).xblock (grid2.coords t)).Idx) :
    ((cfg2.win 5).blk t).view.read (Elt Ideal) G j = G (((cfg2.win 5).blk t).view.emb j) := rfl
theorem read6_R2 (t : Fin cfg2.N) (G : S100000x64.Idx → EReal) (j : ((cfg2.win 6).xblock (grid2.coords t)).Idx) :
    ((cfg2.win 6).blk t).view.read (Elt Ideal) G j = G (((cfg2.win 6).blk t).view.emb j) := rfl

/-- Where an index of point `t`'s tile sits in the output arrays: row `5000 t` plus its row, and its column. -/
theorem emb5_R2 (t : Fin cfg2.N) (j : ((cfg2.win 5).xblock (grid2.coords t)).Idx) :
    ((((cfg2.win 5).blk t).view.emb j) 0).val = 5000 * t.val + (j 0).val ∧ ((((cfg2.win 5).blk t).view.emb j) 1).val = (j 1).val := by
  obtain ⟨-, -, -, -, -, -, -, -, -, -, e0, e1, -⟩ := idx_R2 t
  constructor
  · show win2_5.index t (0 : Fin 2) * 5000 + 1 * (j 0).val = 5000 * t.val + (j 0).val; omega
  · show win2_5.index t (1 : Fin 2) * 64 + 1 * (j 1).val = (j 1).val; omega
theorem emb6_R2 (t : Fin cfg2.N) (j : ((cfg2.win 6).xblock (grid2.coords t)).Idx) :
    ((((cfg2.win 6).blk t).view.emb j) 0).val = 5000 * t.val + (j 0).val ∧ ((((cfg2.win 6).blk t).view.emb j) 1).val = (j 1).val := by
  obtain ⟨-, -, -, -, -, -, -, -, -, -, -, -, e0, e1⟩ := idx_R2 t
  constructor
  · show win2_6.index t (0 : Fin 2) * 5000 + 1 * (j 0).val = 5000 * t.val + (j 0).val; omega
  · show win2_6.index t (1 : Fin 2) * 64 + 1 * (j 1).val = (j 1).val; omega

/-- What the body leaves in window 5's buffer at point `t`, cut to what the write-back moves, is the f32 payload of the point's blocks. -/
theorem left5_R2 (c : Dev nD) (t : Fin cfg2.N) :
    (dat2 V c).flushed 5 t = (cfg2.win 5).cut (grid2.coords t) (k2_pay2 (F := Ideal) (iblk2 V c 2 t) (iblk2 V c 0 t) (iblk2 V c 1 t) (iblk2 V c 3 t) (iblk2 V c 4 t)) := by
  show (cfg2.win 5).cut (grid2.coords t) ((dat2 V c).after 5 t) = _
  rw [after2_5, out5_R2 (iblk2 V c 0 t) (iblk2 V c 1 t) (iblk2 V c 2 t) (iblk2 V c 3 t) (iblk2 V c 4 t)]
theorem left6_R2 (c : Dev nD) (t : Fin cfg2.N) :
    (dat2 V c).flushed 6 t = (cfg2.win 6).cut (grid2.coords t) (k2_pay3 (F := Ideal) (iblk2 V c 2 t) (iblk2 V c 0 t) (iblk2 V c 1 t) (iblk2 V c 3 t) (iblk2 V c 4 t)) := by
  show (cfg2.win 6).cut (grid2.coords t) ((dat2 V c).after 6 t) = _
  rw [after2_6, out6_R2 (iblk2 V c 0 t) (iblk2 V c 1 t) (iblk2 V c 2 t) (iblk2 V c 3 t) (iblk2 V c 4 t)]

/-- The layer's sum over point `t`'s blocks at row `p` is the arrays' layer at row `5000 t + p`. -/
theorem tileAt_R2 (c : Dev nD) (t : Fin cfg2.N) (p : Fin 5000) (q : Fin 64) :
    (∑ k : Fin 64, max ((iblk2 V c 0 t : Vec Ideal S5000x64 .f32) (ix2 p k) ⬝ (iblk2 V c 2 t : Vec Ideal S5000x1 .f32) (ix2 p 0)
        ⊹ (iblk2 V c 1 t : Vec Ideal S5000x64 .f32) (ix2 p k) ⬝ ((iblk2 V c 2 t : Vec Ideal S5000x1 .f32) (ix2 p 0) ⬝ (iblk2 V c 2 t : Vec Ideal S5000x1 .f32) (ix2 p 0))
        ⊹ (iblk2 V c 3 t : Vec Ideal S1x64 .f32) (ix2 0 k)) z32 ⬝ (iblk2 V c 4 t : Vec Ideal S64x64 .f32) (ix2 k q))
      = lay_R2 (V c main_v43) (V c main_v32_0) (V c main_v11) (V c main_v18) (V c main_arg7) (row_R2 t p) q :=
  tile_R2 (iblk2 V c 0 t) (iblk2 V c 1 t) (iblk2 V c 2 t) (iblk2 V c 3 t) (iblk2 V c 4 t)
    (V c main_v43) (V c main_v32_0) (V c main_v11) (V c main_v18) (V c main_arg7) p q (row_R2 t p)
    (fun k => blk0_R2 V c t p k) (fun k => blk1_R2 V c t p k) (blk2_R2 V c t p) (fun k => blk3_R2 V c t k) (fun k => blk4_R2 V c t k q)

/-- WHAT POINT `t` WRITES BACK through window 5 is tile `t` of `G5_R2`. -/
theorem flushed5_R2 (c : Dev nD) (t : Fin cfg2.N) :
    (dat2 V c).flushed 5 t = ((cfg2.win 5).blk t).view.read (Elt Ideal) (G5_R2 V c) := by
  rw [left5_R2 V c t]
  funext j
  have hp : (j 0).val < 5000 := (j 0).isLt
  have hq : (j 1).val < 64 := (j 1).isLt
  obtain ⟨he0, he1⟩ := emb5_R2 t j
  rw [read5_R2 t (G5_R2 V c) j, G5_at_R2 V c (((cfg2.win 5).blk t).view.emb j) (row_R2 t ⟨(j 0).val, hp⟩) ⟨(j 1).val, hq⟩ he0 he1]
  refine (pay2_at_R2 (iblk2 V c 0 t) (iblk2 V c 1 t) (iblk2 V c 2 t) (iblk2 V c 3 t) (iblk2 V c 4 t)
    ((cfg2.win 5).xinj (grid2.coords t) j) ⟨(j 0).val, hp⟩ ⟨(j 1).val, hq⟩ rfl rfl).trans ?_
  exact tileAt_R2 V c t ⟨(j 0).val, hp⟩ ⟨(j 1).val, hq⟩

/-- WHAT POINT `t` WRITES BACK through window 6 is tile `t` of `G6_R2`. -/
theorem flushed6_R2 (c : Dev nD) (t : Fin cfg2.N) :
    (dat2 V c).flushed 6 t = ((cfg2.win 6).blk t).view.read (Elt Ideal) (G6_R2 V c) := by
  rw [left6_R2 V c t]
  funext j
  have hp : (j 0).val < 5000 := (j 0).isLt
  have hq : (j 1).val < 64 := (j 1).isLt
  obtain ⟨he0, he1⟩ := emb6_R2 t j
  rw [read6_R2 t (G6_R2 V c) j, G6_at_R2 V c (((cfg2.win 6).blk t).view.emb j) (row_R2 t ⟨(j 0).val, hp⟩) ⟨(j 1).val, hq⟩ he0 he1]
  refine (pay3_at_R2 (iblk2 V c 0 t) (iblk2 V c 1 t) (iblk2 V c 2 t) (iblk2 V c 3 t) (iblk2 V c 4 t)
    ((cfg2.win 6).xinj (grid2.coords t) j) ⟨(j 0).val, hp⟩ ⟨(j 1).val, hq⟩ rfl rfl).trans ?_
  unfold scl_R2
  exact congrArg₂ (fun a b : EReal => a * b) (tileAt_R2 V c t ⟨(j 0).val, hp⟩ ⟨(j 1).val, hq⟩) (blk2_R2 V c t ⟨(j 0).val, hp⟩)

/-- An index of the first output array is in point `t`'s tile iff each coordinate is in the tile's range on its axis. -/
theorem mem_blk5_R2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v44_0).slice (win2_5.rect t)).set ↔ _
  rw [View.set_slice_whole, Rect.mem_set_unit]
  exact Iff.rfl

/-- The same for the second. -/
theorem mem_blk6_R2 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v44_1).slice (win2_6.rect t)).set ↔ _
  rw [View.set_slice_whole, Rect.mem_set_unit]
  exact Iff.rfl

/-- THE COVER: row `r` lies in tile `r / 5000`, and every point writes its tile back. -/
theorem cover5_R2 (i : S100000x64.Idx) :
    ∃ t : Fin cfg2.N, (cfg2.win 5).flush t = true ∧ i ∈ ((cfg2.win 5).blk t).view.set := by
  have hN : cfg2.N = 20 := N_2
  have hi0 : (i 0).val < 100000 := idx2_lt0 i
  have hi1 : (i 1).val < 64 := idx2_lt1 i
  obtain ⟨t, ht⟩ : ∃ t : Fin cfg2.N, t.val = (i 0).val / 5000 := ⟨⟨(i 0).val / 5000, by omega⟩, rfl⟩
  obtain ⟨-, -, -, -, -, -, -, -, -, -, e0, e1, -⟩ := idx_R2 t
  refine ⟨t, flush2_5 t, ?_⟩
  rw [mem_blk5_R2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

theorem cover6_R2 (i : S100000x64.Idx) :
    ∃ t : Fin cfg2.N, (cfg2.win 6).flush t = true ∧ i ∈ ((cfg2.win 6).blk t).view.set := by
  have hN : cfg2.N = 20 := N_2
  have hi0 : (i 0).val < 100000 := idx2_lt0 i
  have hi1 : (i 1).val < 64 := idx2_lt1 i
  obtain ⟨t, ht⟩ : ∃ t : Fin cfg2.N, t.val = (i 0).val / 5000 := ⟨⟨(i 0).val / 5000, by omega⟩, rfl⟩
  obtain ⟨-, -, -, -, -, -, -, -, -, -, -, -, e0, e1⟩ := idx_R2 t
  refine ⟨t, flush2_6 t, ?_⟩
  rw [mem_blk6_R2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-! ## The arrays after the grid -/

/-- THE FIRST OUTPUT ARRAY after the grid, at row `r` and column `f`: the layer's row `r` times column `f` of the weights. -/
theorem arr2_5 (c : Dev nD) (r : Fin 100000) (f : Fin 64) :
    ((dat2 V c).arrAt 5 cfg2.N : S100000x64.Idx → EReal) (ix2 r f)
      = ∑ k : Fin 64, max ((V c main_v43 : S100000x64.Idx → EReal) (ix2 r k) ⬝ (V c main_v11 : S100000x1.Idx → EReal) (ix2 r 0)
          ⊹ (V c main_v32_0 : S100000x64.Idx → EReal) (ix2 r k) ⬝ ((V c main_v11 : S100000x1.Idx → EReal) (ix2 r 0) ⬝ (V c main_v11 : S100000x1.Idx → EReal) (ix2 r 0))
          ⊹ (V c main_v18 : S1x64.Idx → EReal) (ix2 0 k)) z32 ⬝ (V c main_arg7 : S64x64.Idx → EReal) (ix2 k f) :=
  ((congrFun ((dat2 V c).arrAt_eq_of_cover 5 (G5_R2 V c) (fun t _ => flushed5_R2 V c t) (fun i => cover5_R2 i)) (ix2 r f)).trans
    (G5_at_R2 V c (ix2 r f) r f rfl rfl)).trans rfl

/-- THE SECOND OUTPUT ARRAY after the grid: the same entry times row `r`'s factor. -/
theorem arr2_6 (c : Dev nD) (r : Fin 100000) (f : Fin 64) :
    ((dat2 V c).arrAt 6 cfg2.N : S100000x64.Idx → EReal) (ix2 r f)
      = (∑ k : Fin 64, max ((V c main_v43 : S100000x64.Idx → EReal) (ix2 r k) ⬝ (V c main_v11 : S100000x1.Idx → EReal) (ix2 r 0)
          ⊹ (V c main_v32_0 : S100000x64.Idx → EReal) (ix2 r k) ⬝ ((V c main_v11 : S100000x1.Idx → EReal) (ix2 r 0) ⬝ (V c main_v11 : S100000x1.Idx → EReal) (ix2 r 0))
          ⊹ (V c main_v18 : S1x64.Idx → EReal) (ix2 0 k)) z32 ⬝ (V c main_arg7 : S64x64.Idx → EReal) (ix2 k f))
        ⬝ (V c main_v11 : S100000x1.Idx → EReal) (ix2 r 0) :=
  ((congrFun ((dat2 V c).arrAt_eq_of_cover 6 (G6_R2 V c) (fun t _ => flushed6_R2 V c t) (fun i => cover6_R2 i)) (ix2 r f)).trans
    (G6_at_R2 V c (ix2 r f) r f rfl rfl)).trans rfl

end Cert.Proof.Val

end
-- ==== Proof.Val.R3.lean ====
import proofs.«407338_j17489106829800_2_alg».proof.Proof.KI.Reg3
import proofs.«407338_j17489106829800_2_alg».proof.Proof.Val.Spec
import Idealize.ShloMosaic.Lib.Pipeline.Value
import Idealize.ShloMosaic.Lib.ValueIdx
import Idealize.ShloMosaic.Lib.ValueLayout
import Idealize.ShloMosaic.PureOps.Ideal.Laws

/-! # The value of region 3's result, over the extended reals

Region 3 pools the last layer's node features by graph and applies the linear head. Over a grid of 20 tiles of 5000 node
rows it keeps running sums `128 × 64` (one row per graph): at every tile it forms the rows' outputs
`v r f = max (agg r f · d r + h r f · (d r · d r) + b f) 0` and adds, for each graph `g`, the tile's rows weighted by the indicator
`[graph of r = g]` — a product of the `5000 × 128` indicator matrix, contracted over the rows, with the `5000 × 64` outputs.
After the last tile the result `128 × 2` is `(sums g k / max (count g) 1) · W k j + bias j`, summed over the 64 features `k`.

Everything is read at explicit coordinates, in the arrays as the region finds them (the parameter `V`), with the floats
the extended reals, where every operation is exact:
  * `val3`, `ind3`, `acc3` — a row's output, the indicator of its graph, the running sums after tile `n` (zero and the tiles
    `0 … n` added in order, each tile its 5000 rows weighted by their indicators);
  * `k3_pay3_apply3`, `k3_pay2_apply3`, `k3_pay1_apply3` — the three stored values of the body, at an index;
  * `iblk3_W_apply`, `iblk3_W_eq` — a window's block at a point as rows `5000 t …` of its array, or as the whole array;
  * `sc3_eq` — the running sums the body carries after point `n` are `acc3 n`, by induction on the point;
  * `arr3_8_eq`, `arr3_8` — the result array after the region is what the last point stores, and its value at `(g, j)`. -/

noncomputable section

namespace Cert.Proof.Val

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand

-- the core's buffer contents when region 3 is entered
variable (V : (c : Dev nD) → (b : Ref sig .tc) → Buf (Elt Ideal) ((c : Thread nD τ).loc b))

-- the extended reals' product and sum, named: an array read at an index has the array's own element type, which computes to the extended reals
local notation:70 a:70 " ⬝ " b:71 => (HMul.hMul : EReal → EReal → EReal) a b
local notation:65 a:65 " ⊹ " b:66 => (HAdd.hAdd : EReal → EReal → EReal) a b

/-! ## The quantities the region computes, by coordinates -/

/-- Row `r` of the last layer's output, feature `f`, as region 3 computes it from the arrays it finds:
    `max (agg · d + h · (d · d) + bias) 0`, `d` the row's inverse-root degree. -/
def val3 (c : Dev nD) (r : Fin 100000) (f : Fin 64) : EReal :=
  max ((V c main_v55 : S100000x64.Idx → EReal) (ix2 r f) ⬝ (V c main_v11 : S100000x1.Idx → EReal) (ix2 r 0)
      ⊹ (V c main_v44_0 : S100000x64.Idx → EReal) (ix2 r f)
          ⬝ ((V c main_v11 : S100000x1.Idx → EReal) (ix2 r 0) ⬝ (V c main_v11 : S100000x1.Idx → EReal) (ix2 r 0))
      ⊹ (V c main_v19 : S1x64.Idx → EReal) (ix2 0 f)) z32

/-- The indicator that row `r` belongs to graph `g`: the row's graph id compared, as a word, with `g`. -/
def ind3 (c : Dev nD) (r : Fin 100000) (g : Fin 128) : EReal :=
  if (Eq : BitVec 32 → BitVec 32 → Prop) ((V c main_v56 : S100000x1.Idx → BitVec 32) (ix2 r 0)) (BitVec.ofNat 32 g.val)
  then ((1 : ℝ) : EReal) else ((0 : ℝ) : EReal)

/-- The running sums after tile `n`: zero and the tiles `0 … n` added in order, each tile its 5000 rows weighted by their
    indicators. -/
def acc3 (c : Dev nD) : (n : ℕ) → n < 20 → Fin 128 → Fin 64 → EReal
  | 0, h => fun g f => z32 + ∑ y : Fin 5000, ind3 V c ⟨5000 * 0 + y.val, by omega⟩ g * val3 V c ⟨5000 * 0 + y.val, by omega⟩ f
  | n + 1, h => fun g f => acc3 c n (Nat.lt_of_succ_lt h) g f
      + ∑ y : Fin 5000, ind3 V c ⟨5000 * (n + 1) + y.val, by omega⟩ g * val3 V c ⟨5000 * (n + 1) + y.val, by omega⟩ f

theorem acc3_zero (c : Dev nD) (h : 0 < 20) (g : Fin 128) (f : Fin 64) :
    acc3 V c 0 h g f = z32 + ∑ y : Fin 5000, ind3 V c ⟨5000 * 0 + y.val, by omega⟩ g * val3 V c ⟨5000 * 0 + y.val, by omega⟩ f := rfl

theorem acc3_succ (c : Dev nD) (n : ℕ) (h : n + 1 < 20) (g : Fin 128) (f : Fin 64) :
    acc3 V c (n + 1) h g f = acc3 V c n (Nat.lt_of_succ_lt h) g f
      + ∑ y : Fin 5000, ind3 V c ⟨5000 * (n + 1) + y.val, by omega⟩ g * val3 V c ⟨5000 * (n + 1) + y.val, by omega⟩ f := rfl

/-! ## Small reads -/

/-- An equality test of two words, widened and read as a signed integer, is the indicator of their equality. -/
theorem onehot_word3 (u w : BitVec 32) :
    ((((IntOp.cmpi .eq u w).setWidth 32).toInt : ℝ) : EReal) = if u = w then ((1 : ℝ) : EReal) else ((0 : ℝ) : EReal) := by
  have hc : IntOp.cmpi .eq u w = BitVec.ofBool (u == w) := rfl
  rw [hc]
  by_cases h : u = w
  · rw [if_pos h, show (u == w) = true from beq_iff_eq.mpr h,
      show ((BitVec.ofBool true).setWidth 32).toInt = 1 from by decide, Int.cast_one]
  · rw [if_neg h, show (u == w) = false from beq_eq_false_iff_ne.mpr h,
      show ((BitVec.ofBool false).setWidth 32).toInt = 0 from by decide, Int.cast_zero]

/-- A column `[a, 1]` broadcast to `[a, b]` reads, at `(p, q)`, the column at `p`. -/
theorem bcastCol3_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one-hot of the graph ids against the column numbers, at `(y, g)`. -/
theorem onehot3_apply (ids : IVec S5000x1 32) (hb : S5000x1.Broadcasts S5000x128) (hi : S5000x128.Iotas .tc 32 [1]) (hlt : 1 < 32)
    (y : Fin 5000) (g : Fin 128) :
    (sitofp (F := Ideal) .f32 (extui 32 (cmpi .eq (broadcastTo S5000x128 ids hb) (iota .tc S5000x128 32 [1] hi)) hlt)) (ix2 y g)
      = if ids (ix2 y 0) = BitVec.ofNat 32 g.val then ((1 : ℝ) : EReal) else ((0 : ℝ) : EReal) := by
  show ((((IntOp.cmpi .eq (broadcastTo S5000x128 ids hb (ix2 y g)) (iota .tc S5000x128 32 [1] hi (ix2 y g))).setWidth 32).toInt : ℝ) : EReal) = _
  rw [bcastCol3_apply ids hb y g, iota_single_apply .tc S5000x128 32 1 hi (ix2 y g)]
  exact onehot_word3 _ _

/-- The layer's output row, at `(y, f)`. -/
theorem relu3_apply (dv : FVec Ideal S5000x1 .f32) (ag hh : FVec Ideal S5000x64 .f32) (b : FVec Ideal S1x64 .f32)
    (h1 : S5000x1.Broadcasts S5000x64) (h2 : S1x64.Broadcasts S5000x64) (y : Fin 5000) (f : Fin 64) :
    (maximumf (addf (addf (mulf ag (broadcastTo S5000x64 dv h1)) (mulf hh (broadcastTo S5000x64 (mulf dv dv) h1))) (broadcastTo S5000x64 b h2))
        (broadcast S5000x64 (Scalar.ofBits (F := Ideal) .f32 0x00000000#32))) (ix2 y f)
      = max (ag (ix2 y f) * dv (ix2 y 0) + hh (ix2 y f) * (dv (ix2 y 0) * dv (ix2 y 0)) + b (ix2 0 f)) z32 := by
  show max (ag (ix2 y f) * broadcastTo S5000x64 dv h1 (ix2 y f) + hh (ix2 y f) * broadcastTo S5000x64 (mulf dv dv) h1 (ix2 y f)
      + broadcastTo S5000x64 b h2 (ix2 y f)) z32 = _
  rw [bcastCol3_apply dv h1 y f, bcastCol3_apply (mulf dv dv) h1 y f, broadcastTo_1b_ab_apply b h2 y f]
  try rfl

/-- The zero payload at an index. -/
theorem k3_pay2_apply3 (i : S128x64.Idx) : k3_pay2 (F := Ideal) i = z32 := by
  unfold k3_pay2
  simp only [shapeCast_self]
  try rfl

/-! ## The accumulation payload at an index -/

theorem lhs3_0 (i : S128x64.Idx) (q : dot_S5000x128_S5000x64_S128x64_0_0_1_1_n_n.contr.Idx) :
    (dot_S5000x128_S5000x64_S128x64_0_0_1_1_n_n.lhsIdx i q 0).val = (q ⟨0, by decide⟩).val :=
  dot_S5000x128_S5000x64_S128x64_0_0_1_1_n_n.lhsIdx_val_of_single rfl i q
theorem lhs3_1 (i : S128x64.Idx) (q : dot_S5000x128_S5000x64_S128x64_0_0_1_1_n_n.contr.Idx) :
    (dot_S5000x128_S5000x64_S128x64_0_0_1_1_n_n.lhsIdx i q 1).val = (i 0).val := by
  unfold DotDims.lhsIdx
  rw [dif_neg (show ¬(1 : Fin S5000x128.rank) ∈ dot_S5000x128_S5000x64_S128x64_0_0_1_1_n_n.lhsBatch by decide), dif_pos (show (1 : Fin S5000x128.rank) ∈ dot_S5000x128_S5000x64_S128x64_0_0_1_1_n_n.lhsNonContracting by decide)]
  rfl
theorem rhs3_0 (i : S128x64.Idx) (q : dot_S5000x128_S5000x64_S128x64_0_0_1_1_n_n.contr.Idx) :
    (dot_S5000x128_S5000x64_S128x64_0_0_1_1_n_n.rhsIdx i q 0).val = (q ⟨0, by decide⟩).val :=
  dot_S5000x128_S5000x64_S128x64_0_0_1_1_n_n.rhsIdx_val_of_single rfl i q
theorem rhs3_1 (i : S128x64.Idx) (q : dot_S5000x128_S5000x64_S128x64_0_0_1_1_n_n.contr.Idx) :
    (dot_S5000x128_S5000x64_S128x64_0_0_1_1_n_n.rhsIdx i q 1).val = (i 1).val := by
  unfold DotDims.rhsIdx
  rw [dif_neg (show ¬(1 : Fin S5000x64.rank) ∈ dot_S5000x128_S5000x64_S128x64_0_0_1_1_n_n.rhsBatch by decide), dif_pos (show (1 : Fin S5000x64.rank) ∈ dot_S5000x128_S5000x64_S128x64_0_0_1_1_n_n.rhsNonContracting by decide)]
  rfl

/-- What a point stores into the running sums, at `(g, f)`: what they held plus, over the tile's 5000 rows `y`, the
    indicator that row `y` is of graph `g` times the row's output feature `f`. -/
theorem k3_pay3_apply3 (dv : Vec Ideal S5000x1 .f32) (ag hh : Vec Ideal S5000x64 .f32) (b : Vec Ideal S1x64 .f32)
    (ids : Vec Ideal S5000x1 .i32) (sc : Vec Ideal S128x64 .f32) (g : Fin 128) (f : Fin 64) :
    k3_pay3 dv ag hh b ids sc (ix2 g f)
      = sc (ix2 g f) + ∑ y : Fin 5000,
          (if ids (ix2 y 0) = BitVec.ofNat 32 g.val then ((1 : ℝ) : EReal) else ((0 : ℝ) : EReal))
            * max (ag (ix2 y f) * dv (ix2 y 0) + hh (ix2 y f) * (dv (ix2 y 0) * dv (ix2 y 0)) + b (ix2 0 f)) z32 := by
  unfold k3_pay3
  simp only [shapeCast_self]
  rw [addf_apply]
  refine congrArg (fun x : EReal => sc (ix2 g f) + x) ?_
  simp only [matmul]
  rw [Ideal.matmul_constant_zero_apply, ← Equiv.sum_comp (contrEquiv1 dot_S5000x128_S5000x64_S128x64_0_0_1_1_n_n 5000 rfl rfl).symm]
  refine Finset.sum_congr rfl fun y _ => ?_
  have hk := contrEquiv1_symm_val dot_S5000x128_S5000x64_S128x64_0_0_1_1_n_n 5000 rfl rfl y
  have el : dot_S5000x128_S5000x64_S128x64_0_0_1_1_n_n.lhsIdx (ix2 g f) ((contrEquiv1 dot_S5000x128_S5000x64_S128x64_0_0_1_1_n_n 5000 rfl rfl).symm y) = ix2 y g := funext fun a => Fin.ext (by
    match a with
    | ⟨0, _⟩ => exact (lhs3_0 _ _).trans hk
    | ⟨1, _⟩ => exact lhs3_1 _ _)
  have er : dot_S5000x128_S5000x64_S128x64_0_0_1_1_n_n.rhsIdx (ix2 g f) ((contrEquiv1 dot_S5000x128_S5000x64_S128x64_0_0_1_1_n_n 5000 rfl rfl).symm y) = ix2 y f := funext fun a => Fin.ext (by
    match a with
    | ⟨0, _⟩ => exact (rhs3_0 _ _).trans hk
    | ⟨1, _⟩ => exact rhs3_1 _ _)
  rw [el, er, truncf_apply, truncf_apply, onehot3_apply, relu3_apply]

/-! ## The head payload at an index -/

theorem lhs3h_0 (i : S128x2.Idx) (q : dot_S128x64_S64x2_S128x2_1_0_0_1_n_n.contr.Idx) : (dot_S128x64_S64x2_S128x2_1_0_0_1_n_n.lhsIdx i q 0).val = (i 0).val := by
  unfold DotDims.lhsIdx
  rw [dif_neg (show ¬(0 : Fin S128x64.rank) ∈ dot_S128x64_S64x2_S128x2_1_0_0_1_n_n.lhsBatch by decide), dif_pos (show (0 : Fin S128x64.rank) ∈ dot_S128x64_S64x2_S128x2_1_0_0_1_n_n.lhsNonContracting by decide)]
  rfl
theorem lhs3h_1 (i : S128x2.Idx) (q : dot_S128x64_S64x2_S128x2_1_0_0_1_n_n.contr.Idx) : (dot_S128x64_S64x2_S128x2_1_0_0_1_n_n.lhsIdx i q 1).val = (q ⟨0, by decide⟩).val :=
  dot_S128x64_S64x2_S128x2_1_0_0_1_n_n.lhsIdx_val_of_single rfl i q
theorem rhs3h_0 (i : S128x2.Idx) (q : dot_S128x64_S64x2_S128x2_1_0_0_1_n_n.contr.Idx) : (dot_S128x64_S64x2_S128x2_1_0_0_1_n_n.rhsIdx i q 0).val = (q ⟨0, by decide⟩).val :=
  dot_S128x64_S64x2_S128x2_1_0_0_1_n_n.rhsIdx_val_of_single rfl i q
theorem rhs3h_1 (i : S128x2.Idx) (q : dot_S128x64_S64x2_S128x2_1_0_0_1_n_n.contr.Idx) : (dot_S128x64_S64x2_S128x2_1_0_0_1_n_n.rhsIdx i q 1).val = (i 1).val := by
  unfold DotDims.rhsIdx
  rw [dif_neg (show ¬(1 : Fin S64x2.rank) ∈ dot_S128x64_S64x2_S128x2_1_0_0_1_n_n.rhsBatch by decide), dif_pos (show (1 : Fin S64x2.rank) ∈ dot_S128x64_S64x2_S128x2_1_0_0_1_n_n.rhsNonContracting by decide)]
  rfl

/-- A graph's mean of feature `k`: its sum over the larger of its node count and one. -/
theorem pool3_apply (s : FVec Ideal S128x64 .f32) (cn : FVec Ideal S128x1 .f32) (h : S128x1.Broadcasts S128x64) (g : Fin 128) (k : Fin 64) :
    (divf s (broadcastTo S128x64 (maximumf cn (broadcast S128x1 (Scalar.ofBits (F := Ideal) .f32 0x3F800000#32))) h)) (ix2 g k)
      = Ideal.div (s (ix2 g k)) (max (cn (ix2 g 0)) o32) := by
  show Ideal.div (s (ix2 g k)) (broadcastTo S128x64 (maximumf cn (broadcast S128x1 (Scalar.ofBits (F := Ideal) .f32 0x3F800000#32))) h (ix2 g k)) = _
  rw [bcastCol3_apply _ h g k]
  try rfl

/-- What the last point stores into the result, at `(g, j)`: the means times the head's weights, plus its bias. -/
theorem k3_pay1_apply3 (s : Vec Ideal S128x64 .f32) (cn : Vec Ideal S128x1 .f32) (lw : Vec Ideal S64x2 .f32) (lb : Vec Ideal S1x2 .f32)
    (g : Fin 128) (j : Fin 2) :
    k3_pay1 s cn lw lb (ix2 g j)
      = (∑ k : Fin 64, Ideal.div (s (ix2 g k)) (max (cn (ix2 g 0)) o32) * lw (ix2 k j)) + lb (ix2 0 j) := by
  unfold k3_pay1
  simp only [shapeCast_self]
  rw [addf_apply, broadcastTo_1b_ab_apply]
  refine congrArg (fun x : EReal => x + lb (ix2 0 j)) ?_
  simp only [matmul]
  rw [Ideal.matmul_constant_zero_apply, ← Equiv.sum_comp (contrEquiv1 dot_S128x64_S64x2_S128x2_1_0_0_1_n_n 64 rfl rfl).symm]
  refine Finset.sum_congr rfl fun k _ => ?_
  have hk := contrEquiv1_symm_val dot_S128x64_S64x2_S128x2_1_0_0_1_n_n 64 rfl rfl k
  have el : dot_S128x64_S64x2_S128x2_1_0_0_1_n_n.lhsIdx (ix2 g j) ((contrEquiv1 dot_S128x64_S64x2_S128x2_1_0_0_1_n_n 64 rfl rfl).symm k) = ix2 g k := funext fun a => Fin.ext (by
    match a with
    | ⟨0, _⟩ => exact lhs3h_0 _ _
    | ⟨1, _⟩ => exact (lhs3h_1 _ _).trans hk)
  have er : dot_S128x64_S64x2_S128x2_1_0_0_1_n_n.rhsIdx (ix2 g j) ((contrEquiv1 dot_S128x64_S64x2_S128x2_1_0_0_1_n_n 64 rfl rfl).symm k) = ix2 k j := funext fun a => Fin.ext (by
    match a with
    | ⟨0, _⟩ => exact (rhs3h_0 _ _).trans hk
    | ⟨1, _⟩ => exact rhs3h_1 _ _)
  rw [el, er, truncf_apply, truncf_apply, pool3_apply]

/-! ## The windows' blocks as parts of their arrays -/

/-- The printed index maps over the 20 points: a streamed window's block index is the point, on the rows' axis; -/
theorem idx3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem idx3_1 : ∀ t : Fin cfg3.N, win3_1.index t (0 : Fin 2) = t.val ∧ win3_1.index t (1 : Fin 2) = 0 :=
  (by decide +kernel : ∀ t : Fin grid3.N, win3_1.index t (0 : Fin 2) = t.val ∧ win3_1.index t (1 : Fin 2) = 0)
theorem idx3_2 : ∀ t : Fin cfg3.N, win3_2.index t (0 : Fin 2) = t.val ∧ win3_2.index t (1 : Fin 2) = 0 :=
  (by decide +kernel : ∀ t : Fin grid3.N, win3_2.index t (0 : Fin 2) = t.val ∧ win3_2.index t (1 : Fin 2) = 0)
theorem idx3_4 : ∀ t : Fin cfg3.N, win3_4.index t (0 : Fin 2) = t.val ∧ win3_4.index t (1 : Fin 2) = 0 :=
  (by decide +kernel : ∀ t : Fin grid3.N, win3_4.index t (0 : Fin 2) = t.val ∧ win3_4.index t (1 : Fin 2) = 0)
/-- a whole-array window's is zero. -/
theorem idx3_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem idx3_5 : ∀ t : Fin cfg3.N, win3_5.index t (0 : Fin 2) = 0 ∧ win3_5.index t (1 : Fin 2) = 0 :=
  (by decide +kernel : ∀ t : Fin grid3.N, win3_5.index t (0 : Fin 2) = 0 ∧ win3_5.index t (1 : Fin 2) = 0)
theorem idx3_6 : ∀ t : Fin cfg3.N, win3_6.index t (0 : Fin 2) = 0 ∧ win3_6.index t (1 : Fin 2) = 0 :=
  (by decide +kernel : ∀ t : Fin grid3.N, win3_6.index t (0 : Fin 2) = 0 ∧ win3_6.index t (1 : Fin 2) = 0)
theorem idx3_7 : ∀ t : Fin cfg3.N, win3_7.index t (0 : Fin 2) = 0 ∧ win3_7.index t (1 : Fin 2) = 0 :=
  (by decide +kernel : ∀ t : Fin grid3.N, win3_7.index t (0 : Fin 2) = 0 ∧ win3_7.index t (1 : Fin 2) = 0)
theorem idx3_8 : ∀ t : Fin cfg3.N, win3_8.index t (0 : Fin 2) = 0 ∧ win3_8.index t (1 : Fin 2) = 0 :=
  (by decide +kernel : ∀ t : Fin grid3.N, win3_8.index t (0 : Fin 2) = 0 ∧ win3_8.index t (1 : Fin 2) = 0)

/-- Window 0's block at point `t` is rows `5000 t …` of its array. -/
theorem iblk3_0_apply (c : Dev nD) (t : Fin cfg3.N) (y : Fin 5000) (f : Fin 64) :
    (iblk3 V c 0 t : Vec Ideal S5000x64 .f32) (ix2 y f)
      = (V c main_v55 : S100000x64.Idx → EReal) (ix2 ⟨5000 * t.val + y.val, by have := t.isLt; have hN : cfg3.N = 20 := N_3; have := y.isLt; omega⟩ f) := by
  have hi : win3_0.index t (0 : Fin 2) = t.val ∧ win3_0.index t (1 : Fin 2) = 0 := idx3_0 t
  unfold iblk3
  rw [View.read_apply]
  show V c main_v55 _ = V c main_v55 _
  congr 1
  funext a
  apply Fin.ext
  match a with
  | ⟨0, _⟩ => show win3_0.index t (0 : Fin 2) * 5000 + 1 * y.val = 5000 * t.val + y.val; rw [hi.1]; omega
  | ⟨1, _⟩ => show win3_0.index t (1 : Fin 2) * 64 + 1 * f.val = f.val; rw [hi.2]; omega

/-- Window 1's block at point `t` is rows `5000 t …` of its array. -/
theorem iblk3_1_apply (c : Dev nD) (t : Fin cfg3.N) (y : Fin 5000) (f : Fin 64) :
    (iblk3 V c 1 t : Vec Ideal S5000x64 .f32) (ix2 y f)
      = (V c main_v44_0 : S100000x64.Idx → EReal) (ix2 ⟨5000 * t.val + y.val, by have := t.isLt; have hN : cfg3.N = 20 := N_3; have := y.isLt; omega⟩ f) := by
  have hi : win3_1.index t (0 : Fin 2) = t.val ∧ win3_1.index t (1 : Fin 2) = 0 := idx3_1 t
  unfold iblk3
  rw [View.read_apply]
  show V c main_v44_0 _ = V c main_v44_0 _
  congr 1
  funext a
  apply Fin.ext
  match a with
  | ⟨0, _⟩ => show win3_1.index t (0 : Fin 2) * 5000 + 1 * y.val = 5000 * t.val + y.val; rw [hi.1]; omega
  | ⟨1, _⟩ => show win3_1.index t (1 : Fin 2) * 64 + 1 * f.val = f.val; rw [hi.2]; omega

/-- Window 2's block at point `t` is rows `5000 t …` of its array. -/
theorem iblk3_2_apply (c : Dev nD) (t : Fin cfg3.N) (y : Fin 5000) (z : Fin 1) :
    (iblk3 V c 2 t : Vec Ideal S5000x1 .f32) (ix2 y z)
      = (V c main_v11 : S100000x1.Idx → EReal) (ix2 ⟨5000 * t.val + y.val, by have := t.isLt; have hN : cfg3.N = 20 := N_3; have := y.isLt; omega⟩ z) := by
  have hi : win3_2.index t (0 : Fin 2) = t.val ∧ win3_2.index t (1 : Fin 2) = 0 := idx3_2 t
  unfold iblk3
  rw [View.read_apply]
  show V c main_v11 _ = V c main_v11 _
  congr 1
  funext a
  apply Fin.ext
  match a with
  | ⟨0, _⟩ => show win3_2.index t (0 : Fin 2) * 5000 + 1 * y.val = 5000 * t.val + y.val; rw [hi.1]; omega
  | ⟨1, _⟩ => show win3_2.index t (1 : Fin 2) * 1 + 1 * z.val = z.val; rw [hi.2]; omega

/-- Window 4's block at point `t` is rows `5000 t …` of its array. -/
theorem iblk3_4_apply (c : Dev nD) (t : Fin cfg3.N) (y : Fin 5000) (z : Fin 1) :
    (iblk3 V c 4 t : Vec Ideal S5000x1 .i32) (ix2 y z)
      = (V c main_v56 : S100000x1.Idx → BitVec 32) (ix2 ⟨5000 * t.val + y.val, by have := t.isLt; have hN : cfg3.N = 20 := N_3; have := y.isLt; omega⟩ z) := by
  have hi : win3_4.index t (0 : Fin 2) = t.val ∧ win3_4.index t (1 : Fin 2) = 0 := idx3_4 t
  unfold iblk3
  rw [View.read_apply]
  show V c main_v56 _ = V c main_v56 _
  congr 1
  funext a
  apply Fin.ext
  match a with
  | ⟨0, _⟩ => show win3_4.index t (0 : Fin 2) * 5000 + 1 * y.val = 5000 * t.val + y.val; rw [hi.1]; omega
  | ⟨1, _⟩ => show win3_4.index t (1 : Fin 2) * 1 + 1 * z.val = z.val; rw [hi.2]; omega

/-- Window 3 has one block, its whole array. -/
theorem iblk3_3_eq (c : Dev nD) (t : Fin cfg3.N) :
    (iblk3 V c 3 t : Vec Ideal S1x64 .f32) = (V c main_v19 : S1x64.Idx → EReal) := by
  have hi : win3_3.index t (0 : Fin 2) = 0 ∧ win3_3.index t (1 : Fin 2) = 0 := idx3_3 t
  funext x
  unfold iblk3
  rw [View.read_apply]
  show V c main_v19 _ = V c main_v19 _
  congr 1
  funext a
  apply Fin.ext
  match a with
  | ⟨0, _⟩ => show win3_3.index t (0 : Fin 2) * 1 + 1 * (x 0).val = (x 0).val; rw [hi.1]; omega
  | ⟨1, _⟩ => show win3_3.index t (1 : Fin 2) * 64 + 1 * (x 1).val = (x 1).val; rw [hi.2]; omega

/-- Window 5 has one block, its whole array. -/
theorem iblk3_5_eq (c : Dev nD) (t : Fin cfg3.N) :
    (iblk3 V c 5 t : Vec Ideal S128x1 .f32) = (V c main_v16 : S128x1.Idx → EReal) := by
  have hi : win3_5.index t (0 : Fin 2) = 0 ∧ win3_5.index t (1 : Fin 2) = 0 := idx3_5 t
  funext x
  unfold iblk3
  rw [View.read_apply]
  show V c main_v16 _ = V c main_v16 _
  congr 1
  funext a
  apply Fin.ext
  match a with
  | ⟨0, _⟩ => show win3_5.index t (0 : Fin 2) * 128 + 1 * (x 0).val = (x 0).val; rw [hi.1]; omega
  | ⟨1, _⟩ => show win3_5.index t (1 : Fin 2) * 1 + 1 * (x 1).val = (x 1).val; rw [hi.2]; omega

/-- Window 6 has one block, its whole array. -/
theorem iblk3_6_eq (c : Dev nD) (t : Fin cfg3.N) :
    (iblk3 V c 6 t : Vec Ideal S64x2 .f32) = (V c main_arg9 : S64x2.Idx → EReal) := by
  have hi : win3_6.index t (0 : Fin 2) = 0 ∧ win3_6.index t (1 : Fin 2) = 0 := idx3_6 t
  funext x
  unfold iblk3
  rw [View.read_apply]
  show V c main_arg9 _ = V c main_arg9 _
  congr 1
  funext a
  apply Fin.ext
  match a with
  | ⟨0, _⟩ => show win3_6.index t (0 : Fin 2) * 64 + 1 * (x 0).val = (x 0).val; rw [hi.1]; omega
  | ⟨1, _⟩ => show win3_6.index t (1 : Fin 2) * 2 + 1 * (x 1).val = (x 1).val; rw [hi.2]; omega

/-- Window 7 has one block, its whole array. -/
theorem iblk3_7_eq (c : Dev nD) (t : Fin cfg3.N) :
    (iblk3 V c 7 t : Vec Ideal S1x2 .f32) = (V c main_v57 : S1x2.Idx → EReal) := by
  have hi : win3_7.index t (0 : Fin 2) = 0 ∧ win3_7.index t (1 : Fin 2) = 0 := idx3_7 t
  funext x
  unfold iblk3
  rw [View.read_apply]
  show V c main_v57 _ = V c main_v57 _
  congr 1
  funext a
  apply Fin.ext
  match a with
  | ⟨0, _⟩ => show win3_7.index t (0 : Fin 2) * 1 + 1 * (x 0).val = (x 0).val; rw [hi.1]; omega
  | ⟨1, _⟩ => show win3_7.index t (1 : Fin 2) * 2 + 1 * (x 1).val = (x 1).val; rw [hi.2]; omega

/-! ## The running sums after each point -/

/-- A point of the grid is below 20. -/
theorem lt20_3 {n : ℕ} (h : n < cfg3.N) : n < 20 := Nat.lt_of_lt_of_eq h N_3

/-- What point `n` stores into the running sums, over its blocks: what they held plus tile `n`'s rows, each weighted by its
    indicator. -/
theorem pay3_blocks (c : Dev nD) (n : ℕ) (h : n < cfg3.N) (sc : Vec Ideal S128x64 .f32) (g : Fin 128) (f : Fin 64) :
    k3_pay3 (iblk3 V c 2 ⟨n, h⟩) (iblk3 V c 0 ⟨n, h⟩) (iblk3 V c 1 ⟨n, h⟩) (iblk3 V c 3 ⟨n, h⟩) (iblk3 V c 4 ⟨n, h⟩) sc (ix2 g f)
      = sc (ix2 g f) + ∑ y : Fin 5000, ind3 V c ⟨5000 * n + y.val, by have := lt20_3 h; omega⟩ g
          * val3 V c ⟨5000 * n + y.val, by have := lt20_3 h; omega⟩ f := by
  rw [k3_pay3_apply3]
  refine congrArg (fun x : EReal => sc (ix2 g f) + x) (Finset.sum_congr rfl fun y _ => ?_)
  rw [iblk3_4_apply V c ⟨n, h⟩ y 0, iblk3_0_apply V c ⟨n, h⟩ y f, iblk3_1_apply V c ⟨n, h⟩ y f, iblk3_2_apply V c ⟨n, h⟩ y 0,
    iblk3_3_eq V c ⟨n, h⟩]
  rfl

/-- THE SCRATCH after point `n`, at `(g, f)`, is the running sum: by induction on the point. -/
theorem sc3_eq (c : Dev nD) : ∀ (n : ℕ) (h : n < cfg3.N) (g : Fin 128) (f : Fin 64),
    (scAt3 V c n h : Vec Ideal S128x64 .f32) (ix2 g f) = acc3 V c n (lt20_3 h) g f
  | 0, h, g, f => by
    rw [scAt3_zero V c h, pay3_blocks V c 0 h, k3_pay2_apply3, acc3_zero]
  | n + 1, h, g, f => by
    rw [scAt3_succ V c n h, pay3_blocks V c (n + 1) h, sc3_eq c n (Nat.lt_of_succ_lt h) g f, acc3_succ]

/-! ## The result array after the region -/

/-- The last point. -/
abbrev t19 : Fin cfg3.N := ⟨19, by decide⟩

/-- What the result array ends holding: the one block the last point writes back. -/
abbrev G3 (c : Dev nD) : Buf (Elt Ideal) ((c : Thread nD τ).loc main_v58) := outAt3 V c 19 t19.isLt

/-- The one write-back, at point 19, writes `G3`: block `(0, 0)` of the `128 × 2` array, read at zero offsets, is the array. -/
theorem flushed3_8 (c : Dev nD) (t : Fin cfg3.N) (hf : (cfg3.win 8).flush t = true) :
    (dat3 V c).flushed 8 t = ((cfg3.win 8).blk t).view.read (Elt Ideal) (G3 V c) := by
  have h1 : t.val = 19 := by have := (flush3_8 t).mp hf; have := t.isLt; have hN : cfg3.N = 20 := N_3; omega
  obtain rfl : t = t19 := Fin.ext h1
  show (cfg3.win 8).cut (grid3.coords t19) ((dat3 V c).after 8 t19) = _
  rw [after3_8]
  have hz' : (fun a => win3_8.index t19 a * main_v58.ty.shape.size a) = fun _ => 0 := funext fun a => by
    fin_cases a <;> decide +kernel
  exact (Memref.read_access_unit_zero (Elt Ideal) main_v58 hz' (fun a => by rw [congrFun hz' a]; simp) (G3 V c)).symm

/-- So the result array ends holding `G3`: point 19's block covers it. -/
theorem arr3_8_eq (c : Dev nD) : (dat3 V c).arrAt 8 cfg3.N = G3 V c :=
  (dat3 V c).arrAt_eq_of_cover 8 (G3 V c) (flushed3_8 V c) fun i =>
    ⟨t19, (flush3_8 t19).mpr rfl, by
      show i ∈ ((View.whole main_v58).slice (win3_8.rect t19)).set
      rw [View.set_slice_whole, Rect.mem_set_unit]
      intro a
      have h0 : (i 0 : Nat) < 128 := (i 0).isLt
      have h1 : (i 1 : Nat) < 2 := (i 1).isLt
      match a with
      | ⟨0, _⟩ =>
        show win3_8.index t19 (0 : Fin 2) * win3_8.size (0 : Fin 2) ≤ (i 0 : Nat) ∧ (i 0 : Nat) < win3_8.index t19 (0 : Fin 2) * win3_8.size (0 : Fin 2) + win3_8.xsize (grid3.coords t19) (0 : Fin 2)
        rw [show win3_8.index t19 (0 : Fin 2) * win3_8.size (0 : Fin 2) = 0 from by decide +kernel, show win3_8.xsize (grid3.coords t19) (0 : Fin 2) = 128 from by decide +kernel]; omega
      | ⟨1, _⟩ =>
        show win3_8.index t19 (1 : Fin 2) * win3_8.size (1 : Fin 2) ≤ (i 1 : Nat) ∧ (i 1 : Nat) < win3_8.index t19 (1 : Fin 2) * win3_8.size (1 : Fin 2) + win3_8.xsize (grid3.coords t19) (1 : Fin 2)
        rw [show win3_8.index t19 (1 : Fin 2) * win3_8.size (1 : Fin 2) = 0 from by decide +kernel, show win3_8.xsize (grid3.coords t19) (1 : Fin 2) = 2 from by decide +kernel]; omega⟩

/-- THE VALUE OF REGION 3'S RESULT, at `(g, j)`: graph `g`'s running sums after the last tile, each over the larger of the
    graph's node count and one, times the head's weights, plus its bias — in the arrays as the region finds them. -/
theorem arr3_8 (c : Dev nD) (g : Fin 128) (j : Fin 2) :
    ((dat3 V c).arrAt 8 cfg3.N : S128x2.Idx → EReal) (ix2 g j)
      = (∑ k : Fin 64, Ideal.div (acc3 V c 19 (by decide) g k)
              ((max : EReal → EReal → EReal) ((V c main_v16 : S128x1.Idx → EReal) (ix2 g 0)) o32)
            ⬝ (V c main_arg9 : S64x2.Idx → EReal) (ix2 k j))
          ⊹ (V c main_v57 : S1x2.Idx → EReal) (ix2 0 j) := by
  rw [arr3_8_eq V c]
  show (outAt3 V c 19 t19.isLt : Vec Ideal S128x2 .f32) (ix2 g j) = _
  rw [outAt3_last V c t19.isLt, k3_pay1_apply3, iblk3_5_eq V c t19, iblk3_6_eq V c t19, iblk3_7_eq V c t19]
  refine congrArg (fun x : EReal => x ⊹ (V c main_v57 : S1x2.Idx → EReal) (ix2 0 j)) (Finset.sum_congr rfl fun k _ => ?_)
  rw [sc3_eq V c 19 t19.isLt g k]

end Cert.Proof.Val

end
-- ==== Proof.Val.Kernel.lean ====
import proofs.«407338_j17489106829800_2_alg».proof.Proof.KI.Run
import proofs.«407338_j17489106829800_2_alg».proof.Proof.Val.Names
import proofs.«407338_j17489106829800_2_alg».proof.Proof.Val.Host0
import proofs.«407338_j17489106829800_2_alg».proof.Proof.Val.HostAgg
import proofs.«407338_j17489106829800_2_alg».proof.Proof.Val.R0
import proofs.«407338_j17489106829800_2_alg».proof.Proof.Val.R1
import proofs.«407338_j17489106829800_2_alg».proof.Proof.Val.R2
import proofs.«407338_j17489106829800_2_alg».proof.Proof.Val.R3

/-! # The kernel's result as a function of its arguments

Region by region, the run's named contents are the layers of `Val/Names.lean`: region 0 leaves `x · W0` and its rows scaled by
the inverse square roots of the degrees; each aggregation stretch gathers the scaled rows at the edges' sources and sums them at the
edges' ends; regions 1 and 2 combine (aggregate · d + h · d² + bias, clipped at zero) and multiply by the next weights; region 3
combines once more, sums the rows of each graph tile by tile, divides by the graph's size and applies the head. -/

noncomputable section

namespace Cert.Proof.Val

open Idealize.ShloMosaic Idealize.ShloMosaic.ValueIdx Idealize.ShloMosaic.TcCoe Idealize.SL.Sem
open Cert.KernelIdeal Cert.KernelIdeal.Gen Cert.KernelIdeal.Hand

variable (m : (ℓ : Loc nD τ sig) → Buf (Elt Ideal) ℓ) (ρ : Dev nD → PrngReg) (c : Dev nD)

/-- Region 0's first output: `x · W0`. -/
theorem X2_h (r : Fin 100000) (f : Fin 64) :
    (X2 m ρ c main_v20_0 : S100000x64.Idx → EReal) (ix2 r f) = (argsOf m c).h0 r f := by
  rw [show (X2 m ρ c main_v20_0 : S100000x64.Idx → EReal) = (dat0 (E1 m ρ) c).arrAt 3 cfg0.N from B2_arr m ρ c 3]
  rw [arr0_3 (E1 m ρ) c r f]
  unfold Args.h0 lin
  change @Eq EReal _ _
  exact Finset.sum_congr rfl fun k _ => by rw [E1_x m ρ c r k, E1_W0 m ρ c k f]

/-- Region 0's second output: those rows scaled. -/
theorem X2_hs (r : Fin 100000) (f : Fin 64) :
    (X2 m ρ c main_v20_1 : S100000x64.Idx → EReal) (ix2 r f) = scaled (argsOf m c).h0 (argsOf m c).dinv r f := by
  rw [show (X2 m ρ c main_v20_1 : S100000x64.Idx → EReal) = (dat0 (E1 m ρ) c).arrAt 4 cfg0.N from B2_arr m ρ c 4]
  rw [arr0_4 (E1 m ρ) c r f, E1_dinv m ρ c r]
  unfold scaled Args.h0 lin
  change @Eq EReal _ _
  refine congrArg (fun s : EReal => s * (argsOf m c).dinv r) ?_
  exact Finset.sum_congr rfl fun k _ => by rw [E1_x m ρ c r k, E1_W0 m ρ c k f]

/-- The first aggregation. -/
theorem E3_aggK (r : Fin 100000) (f : Fin 64) :
    (E3 m ρ c main_v31 : S100000x64.Idx → EReal) (ix2 r f)
      = aggK (scaled (argsOf m c).h0 (argsOf m c).dinv) (argsOf m c).srcRow (argsOf m c).dstZ r f := by
  rw [E3_agg m ρ c r f]
  unfold aggK
  change @Eq EReal _ _
  refine congrArg (fun s : EReal => z32 + s) ?_
  exact Finset.sum_congr rfl fun e _ => X2_hs m ρ c _ f

/-- Region 1's outputs. -/
theorem X4_h (r : Fin 100000) (f : Fin 64) :
    (X4 m ρ c main_v32_0 : S100000x64.Idx → EReal) (ix2 r f) = (argsOf m c).h1K r f := by
  rw [show (X4 m ρ c main_v32_0 : S100000x64.Idx → EReal) = (dat1 (E3 m ρ) c).arrAt 5 cfg1.N from B4_arr m ρ c 5]
  rw [arr1_5 (E3 m ρ) c r f]
  unfold Args.h1K lin Args.v0K combK
  change @Eq EReal _ _
  exact Finset.sum_congr rfl fun k _ => by
    rw [E3_aggK m ρ c r k, E3_dinv m ρ c r, E3_h m ρ c r k, X2_h m ρ c r k, E3_b0 m ρ c k, E3_W1 m ρ c k f]

/-- and those rows scaled by the inverse root degrees. -/
theorem X4_hs (r : Fin 100000) (f : Fin 64) :
    (X4 m ρ c main_v32_1 : S100000x64.Idx → EReal) (ix2 r f) = scaled (argsOf m c).h1K (argsOf m c).dinv r f := by
  rw [show (X4 m ρ c main_v32_1 : S100000x64.Idx → EReal) = (dat1 (E3 m ρ) c).arrAt 6 cfg1.N from B4_arr m ρ c 6]
  rw [arr1_6 (E3 m ρ) c r f]
  unfold scaled Args.h1K lin Args.v0K combK
  rw [E3_dinv m ρ c r]
  change @Eq EReal _ _
  refine congrArg (fun s : EReal => s * (argsOf m c).dinv r) ?_
  exact Finset.sum_congr rfl fun k _ => by
    rw [E3_aggK m ρ c r k, E3_h m ρ c r k, X2_h m ρ c r k, E3_b0 m ρ c k, E3_W1 m ρ c k f]

/-- The second aggregation. -/
theorem E5_aggK (r : Fin 100000) (f : Fin 64) :
    (E5 m ρ c main_v43 : S100000x64.Idx → EReal) (ix2 r f)
      = aggK (scaled (argsOf m c).h1K (argsOf m c).dinv) (argsOf m c).srcRow (argsOf m c).dstZ r f := by
  rw [E5_agg m ρ c r f]
  unfold aggK
  change @Eq EReal _ _
  refine congrArg (fun s : EReal => z32 + s) ?_
  exact Finset.sum_congr rfl fun e _ => X4_hs m ρ c _ f

/-- Region 2's outputs. -/
theorem X6_h (r : Fin 100000) (f : Fin 64) :
    (X6 m ρ c main_v44_0 : S100000x64.Idx → EReal) (ix2 r f) = (argsOf m c).h2K r f := by
  rw [show (X6 m ρ c main_v44_0 : S100000x64.Idx → EReal) = (dat2 (E5 m ρ) c).arrAt 5 cfg2.N from B6_arr m ρ c 5]
  rw [arr2_5 (E5 m ρ) c r f]
  unfold Args.h2K lin Args.v1K combK
  change @Eq EReal _ _
  exact Finset.sum_congr rfl fun k _ => by
    rw [E5_aggK m ρ c r k, E5_dinv m ρ c r, E5_h m ρ c r k, X4_h m ρ c r k, E5_b1 m ρ c k, E5_W2 m ρ c k f]

/-- and those rows scaled. -/
theorem X6_hs (r : Fin 100000) (f : Fin 64) :
    (X6 m ρ c main_v44_1 : S100000x64.Idx → EReal) (ix2 r f) = scaled (argsOf m c).h2K (argsOf m c).dinv r f := by
  rw [show (X6 m ρ c main_v44_1 : S100000x64.Idx → EReal) = (dat2 (E5 m ρ) c).arrAt 6 cfg2.N from B6_arr m ρ c 6]
  rw [arr2_6 (E5 m ρ) c r f]
  unfold scaled Args.h2K lin Args.v1K combK
  rw [E5_dinv m ρ c r]
  change @Eq EReal _ _
  refine congrArg (fun s : EReal => s * (argsOf m c).dinv r) ?_
  exact Finset.sum_congr rfl fun k _ => by
    rw [E5_aggK m ρ c r k, E5_h m ρ c r k, X4_h m ρ c r k, E5_b1 m ρ c k, E5_W2 m ρ c k f]

/-- The third aggregation. -/
theorem E7_aggK (r : Fin 100000) (f : Fin 64) :
    (E7 m ρ c main_v55 : S100000x64.Idx → EReal) (ix2 r f)
      = aggK (scaled (argsOf m c).h2K (argsOf m c).dinv) (argsOf m c).srcRow (argsOf m c).dstZ r f := by
  rw [E7_agg m ρ c r f]
  unfold aggK
  change @Eq EReal _ _
  refine congrArg (fun s : EReal => z32 + s) ?_
  exact Finset.sum_congr rfl fun e _ => X6_hs m ρ c _ f

/-- Region 3's combined features are the third layer's. -/
theorem val3_eq (r : Fin 100000) (f : Fin 64) : val3 (E7 m ρ) c r f = (argsOf m c).v2K r f := by
  unfold val3 Args.v2K combK
  rw [E7_aggK m ρ c r f, E7_dinv m ρ c r, E7_h m ρ c r f, X6_h m ρ c r f, E7_b2 m ρ c f]

/-- Region 3's indicator of a row's graph is the arguments'. -/
theorem ind3_eq (r : Fin 100000) (g : Fin 128) : ind3 (E7 m ρ) c r g = (argsOf m c).ind r g := by
  unfold ind3 Args.ind
  rw [E7_bat m ρ c r]

/-- Region 3's running sums, tile after tile, are the arguments' over the third layer's features. -/
theorem acc3_eq : ∀ (n : ℕ) (h : n < 20) (g : Fin 128) (f : Fin 64),
    acc3 (E7 m ρ) c n h g f = (argsOf m c).accK (argsOf m c).v2K n h g f
  | 0, h, g, f => by
    unfold acc3 Args.accK Args.tileSum
    refine congrArg (fun s : EReal => z32 + s) ?_
    exact Finset.sum_congr rfl fun y _ => by rw [ind3_eq m ρ c, val3_eq m ρ c]
  | n + 1, h, g, f => by
    unfold acc3 Args.accK Args.tileSum
    rw [acc3_eq n (Nat.lt_of_succ_lt h) g f]
    refine congrArg (fun s : EReal => (argsOf m c).accK (argsOf m c).v2K n (Nat.lt_of_succ_lt h) g f + s) ?_
    exact Finset.sum_congr rfl fun y _ => by rw [ind3_eq m ρ c, val3_eq m ρ c]

/-- THE KERNEL'S RESULT: the result buffer at the end of the run holds `outK` of the launch arguments. -/
theorem kernel_out (g : Fin 128) (j : Fin 2) :
    (B8 m ρ c (Proc.devRef .tc main_v58) : S128x2.Idx → EReal) (ix2 g j) = (argsOf m c).outK g j := by
  rw [show (B8 m ρ c (Proc.devRef .tc main_v58) : S128x2.Idx → EReal) = (dat3 (E7 m ρ) c).arrAt 8 cfg3.N from B8_main_v58 m ρ c]
  rw [arr3_8 (E7 m ρ) c g j]
  unfold Args.outK Args.head Args.pooled
  rw [E7_lb m ρ c j]
  change @Eq EReal _ _
  refine congrArg (fun s : EReal => s + (argsOf m c).lb j) ?_
  exact Finset.sum_congr rfl fun k _ => by rw [acc3_eq m ρ c 19 (by decide) g k, E7_cnt m ρ c g, E7_lw m ρ c k j]

end Cert.Proof.Val

end
-- ==== Proof.Val.Ref.lean ====
import proofs.«407338_j17489106829800_2_alg».proof.Proof.Gen.ReferenceIdeal.Read
import proofs.«407338_j17489106829800_2_alg».proof.Proof.Val.Names
import proofs.«407338_j17489106829800_2_alg».proof.Proof.Val.Index

/-! # The reference's result, read by coordinates

The reference program computes, from node features, an edge list, a graph id per node and the weights, three graph-convolution
layers, a mean over each graph's nodes and a linear head. Stage by stage its value at explicit coordinates is the closed form of
`Names`: a node's inverse square-root degree (a scatter-add of ones over the edges' ends, plus one); a product with a weight
matrix (a sum over the 64 features); a layer (every edge's source row times the product of the two inverse square-root degrees,
summed at the edge's end, plus the node's own row times its squared factor, plus the bias, clipped below at zero); the sums and
counts per graph; the quotient by the count clipped below at one; and the head. A source index is read as a table index is read:
a negative one counted from the end, then clamped into the table; an end is read signed and an edge that ends outside is dropped.
The three layers are the same text: each is one instance of `layer_comb`. -/

noncomputable section

namespace Cert.Proof.Val

open Idealize.ShloMosaic Idealize.ShloMosaic.ValueIdx Idealize.ShloMosaic.TcCoe Idealize.SL.Sem Idealize.ShloMosaic.StableHlo
open Cert.ReferenceIdeal Cert.ReferenceIdeal.Read

/-- The reference's eleven arguments, by coordinates. -/
def argsR (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) : Args where
  x r k := x0 (ix2 r k)
  ei a e := x1 (ix2 a e)
  bat r := x2 (ix1 r)
  W0 k f := x3 (ix2 k f)
  b0 f := x4 (ix1 f)
  W1 k f := x5 (ix2 k f)
  b1 f := x6 (ix1 f)
  W2 k f := x7 (ix2 k f)
  b2 f := x8 (ix1 f)
  lw k j := x9 (ix2 k j)
  lb j := x10 (ix1 j)

/-! ## The gathers and scatter-adds of this program at an index -/

/-- An entry gathered from a table of 100000 entries: the entry at the start word `v`, read signed and clamped into the table. -/
theorem gather1_of (x : S100000.Idx → EReal) (idx : S1200000x1.Idx → BitVec 32) (e : Fin 1200000) (v : BitVec 32)
    (hv : idx (ix2 e (0 : Fin 1)) = v) :
    Host.gather gather_S100000_S1200000x1_S1200000_n_0_n_n_0_1_1 x idx (ix1 e)
      = x (ix1 (⟨min v.toInt.toNat 99999, by omega⟩ : Fin 100000)) := by
  subst hv
  exact gather_vec_apply gather_S100000_S1200000x1_S1200000_n_0_n_n_0_1_1 rfl rfl rfl rfl rfl rfl rfl (by decide) x idx e

/-- A row gathered from a table of 100000 rows, likewise. -/
theorem gather2_of (x : S100000x64.Idx → EReal) (idx : S1200000x1.Idx → BitVec 32) (e : Fin 1200000) (f : Fin 64) (v : BitVec 32)
    (hv : idx (ix2 e (0 : Fin 1)) = v) :
    Host.gather gather_S100000x64_S1200000x1_S1200000x64_1_0_n_n_0_1_164 x idx (ix2 e f)
      = x (ix2 (⟨min v.toInt.toNat 99999, by omega⟩ : Fin 100000) f) := by
  subst hv
  exact gather_rows_apply gather_S100000x64_S1200000x1_S1200000x64_1_0_n_n_0_1_164 rfl rfl rfl rfl rfl rfl rfl (by decide) x idx e f

/-- A scatter-add of rows: the operand's entry plus the update rows whose signed index word is the row, the operand's entry
    `z`, the index words `w` and the update entries `u` given. -/
theorem scatter_rows_of {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![E, 1]⟩ 32) (upd : FVec Ideal ⟨2, ![E, C]⟩ .f32) (n : Fin N) (c : Fin C)
    (z : EReal) (w : Fin E → BitVec 32) (u : Fin E → EReal)
    (hx : x (ix2 n c) = z) (hidx : ∀ e, idx (ix2 e (0 : Fin 1)) = w e) (hupd : ∀ e, upd (ix2 e c) = u e) :
    Host.scatterAdd d x idx upd (ix2 n c)
      = z + ∑ e ∈ Finset.univ.filter (fun e : Fin E => (w e).toInt = (n.val : ℤ)), u e := by
  rw [host_scatterAdd_rows_apply d huw hiw hsd hiv x idx upd n c, hx]
  refine congrArg (fun t => z + t) ?_
  exact Finset.sum_congr (Finset.filter_congr fun e _ => by rw [hidx e]) (fun e _ => hupd e)

/-- A scatter-add of entries, likewise. -/
theorem scatter_vec_of {N E : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ 32) (upd : FVec Ideal ⟨1, ![E]⟩ .f32) (n : Fin N)
    (z : EReal) (w : Fin E → BitVec 32) (u : Fin E → EReal)
    (hx : x (ix1 n) = z) (hidx : ∀ e, idx (ix2 e (0 : Fin 1)) = w e) (hupd : ∀ e, upd (ix1 e) = u e) :
    Host.scatterAdd d x idx upd (ix1 n)
      = z + ∑ e ∈ Finset.univ.filter (fun e : Fin E => (w e).toInt = (n.val : ℤ)), u e := by
  rw [host_scatterAdd_vec_apply d huw hiw hsd hiv x idx upd n, hx]
  refine congrArg (fun t => z + t) ?_
  exact Finset.sum_congr (Finset.filter_congr fun e _ => by rw [hidx e]) (fun e _ => hupd e)

/-! ## The edge list's two rows, and a word wrapped as a table index -/

/-- An edge's source word. -/
theorem src_word (x1 : (⟨S2x1200000, .i32⟩ : BufTy).Contents (Elt Ideal)) (e : Fin 1200000) :
    val_main_v1 (F := Ideal) x1 (ix1 e) = x1 (ix2 (0 : Fin 2) e) := by
  rw [val_main_v1_apply, val_main_v0_apply]
  refine congrArg x1 (funext fun a => ?_)
  match a with
  | ⟨0, _⟩ => rfl
  | ⟨1, _⟩ => exact Fin.ext (Nat.mod_eq_of_lt e.isLt)

/-- An edge's end word. -/
theorem dst_word (x1 : (⟨S2x1200000, .i32⟩ : BufTy).Contents (Elt Ideal)) (e : Fin 1200000) :
    val_main_v3 (F := Ideal) x1 (ix1 e) = x1 (ix2 (1 : Fin 2) e) := by
  rw [val_main_v3_apply, val_main_v2_apply]
  refine congrArg x1 (funext fun a => ?_)
  match a with
  | ⟨0, _⟩ => rfl
  | ⟨1, _⟩ => exact Fin.ext (Nat.mod_eq_of_lt e.isLt)

/-! ## The argument record's fields, read back -/

theorem srcRow_argsR (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (e : Fin 1200000) :
    (argsR x0 x1 x2 x3 x4 x5 x6 x7 x8 x9 x10).srcRow e = Args.rowOf (x1 (ix2 (0 : Fin 2) e)) := rfl
theorem dstRow_argsR (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (e : Fin 1200000) :
    (argsR x0 x1 x2 x3 x4 x5 x6 x7 x8 x9 x10).dstRow e = Args.rowOf (x1 (ix2 (1 : Fin 2) e)) := rfl
theorem ei1_argsR (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (e : Fin 1200000) :
    (argsR x0 x1 x2 x3 x4 x5 x6 x7 x8 x9 x10).ei 1 e = x1 (ix2 (1 : Fin 2) e) := rfl
theorem lw_argsR (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (k : Fin 64) (j : Fin 2) :
    (argsR x0 x1 x2 x3 x4 x5 x6 x7 x8 x9 x10).lw k j = x9 (ix2 k j) := rfl
theorem lb_argsR (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (j : Fin 2) :
    (argsR x0 x1 x2 x3 x4 x5 x6 x7 x8 x9 x10).lb j = x10 (ix1 j) := rfl

/-! ## The inverse square-root degree, and the first product -/

/-- The scatter-add of ones over the edges' ends. -/
theorem ref_deg_scatter (x1 : (⟨S2x1200000, .i32⟩ : BufTy).Contents (Elt Ideal)) (r : Fin 100000) :
    val_main_v7 (F := Ideal) x1 (ix1 r)
      = z32 + ∑ e ∈ Finset.univ.filter (fun e : Fin 1200000 => (x1 (ix2 (1 : Fin 2) e)).toInt = (r.val : ℤ)), o32 := by
  unfold val_main_v7
  refine scatter_vec_of scatter_S100000_S1200000x1_S1200000_n_0_0_1 rfl rfl rfl rfl _ _ _ r z32
    (fun e => x1 (ix2 (1 : Fin 2) e)) (fun _ => o32) ?_ (fun e => ?_) (fun e => ?_)
  · exact (val_main_v5_apply _).trans (val_main_cst_0_apply _)
  · have hi : idx_main_v6 (ix2 e (0 : Fin 1)) = ix1 e := funext fun a => by match a with | ⟨0, _⟩ => rfl
    rw [val_main_v6_apply, hi]
    exact dst_word x1 e
  · exact (val_main_v4_apply _).trans (val_main_cst_apply _)

/-- A node's inverse square-root degree. -/
theorem ref_dinv (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (r : Fin 100000) :
    val_main_v10 (F := Ideal) x1 (ix1 r) = (argsR x0 x1 x2 x3 x4 x5 x6 x7 x8 x9 x10).dinv r := by
  have h8 : val_main_v8 (F := Ideal) (ix1 r) = o32 := (val_main_v8_apply _).trans (val_main_cst_1_apply _)
  unfold Args.dinv Args.deg Args.dstZ
  rw [val_main_v10_apply, val_main_v9_apply, ref_deg_scatter, h8, Ideal.hostUnary_rsqrt_def, Ideal.addf_def]
  rfl

/-- The product of the node features with the first layer's weights. -/
theorem ref_h0 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (r : Fin 100000) (f : Fin 64) :
    val_main_v11 (F := Ideal) x0 x3 (ix2 r f) = (argsR x0 x1 x2 x3 x4 x5 x6 x7 x8 x9 x10).h0 r f := by
  rw [val_main_v11_apply]
  show _ = ∑ k : Fin 64, (argsR x0 x1 x2 x3 x4 x5 x6 x7 x8 x9 x10).x r k * (argsR x0 x1 x2 x3 x4 x5 x6 x7 x8 x9 x10).W0 k f
  refine Finset.sum_congr rfl fun k _ => ?_
  have hl : lidx_main_v11 (ix2 r f) k = ix2 r k := funext fun a => by match a with | ⟨0, _⟩ => rfl | ⟨1, _⟩ => rfl
  have hr : ridx_main_v11 (ix2 r f) k = ix2 k f := funext fun a => by match a with | ⟨0, _⟩ => rfl | ⟨1, _⟩ => rfl
  rw [hl, hr]
  rfl

/-! ## One layer, over abstract tables -/

/-- A layer's closed form from its pieces: the scatter-added sum of the edge updates, the node's own term, the bias, the clip. -/
theorem layer_comb (a : Args) (h : Fin 100000 → Fin 64 → EReal) (b : Fin 64 → EReal) (r : Fin 100000) (f : Fin 64)
    (upd : Fin 1200000 → EReal) (hr bf : EReal)
    (hupd : ∀ e, upd e = h (a.srcRow e) f * (a.dinv (a.srcRow e) * a.dinv (a.dstRow e)))
    (hhr : hr = h r f) (hbf : bf = b f) :
    max ((z32 + ∑ e ∈ Finset.univ.filter (fun e : Fin 1200000 => (a.ei 1 e).toInt = (r.val : ℤ)), upd e)
        + hr * (a.dinv r * a.dinv r) + bf) z32
      = combR (aggR h a.dinv a.srcRow a.dstRow a.dstZ) h a.dinv b r f := by
  obtain rfl : upd = fun e => h (a.srcRow e) f * (a.dinv (a.srcRow e) * a.dinv (a.dstRow e)) := funext hupd
  subst hhr hbf
  unfold combR aggR Args.dstZ
  rfl

/-! ## Layer 1 -/

/-- The source word of edge `e` wrapped as a table index (stage 17). -/
theorem wrap_17 (x1 : (⟨S2x1200000, .i32⟩ : BufTy).Contents (Elt Ideal)) (e : Fin 1200000) :
    val_main_v17 (F := Ideal) x1 (ix2 e (0 : Fin 1)) = Args.wrapW (x1 (ix2 (0 : Fin 2) e)) := by
  have hi : idx_main_v17 (ix2 e (0 : Fin 1)) = ix1 e := funext fun a => by match a with | ⟨0, _⟩ => rfl
  have h0 : val_main_v12 (F := Ideal) (ix1 e) = 0#32 := (val_main_v12_apply _).trans (val_main_c_apply _)
  have h1 : val_main_v14 (F := Ideal) (ix1 e) = 100000#32 := (val_main_v14_apply _).trans (val_main_c_2_apply _)
  rw [val_main_v17_apply, hi, val_main_v16_apply, val_main_v13_apply, val_main_v15_apply, h0, h1, src_word]
  rfl

/-- The end word of edge `e` wrapped as a table index (stage 24). -/
theorem wrap_24 (x1 : (⟨S2x1200000, .i32⟩ : BufTy).Contents (Elt Ideal)) (e : Fin 1200000) :
    val_main_v24 (F := Ideal) x1 (ix2 e (0 : Fin 1)) = Args.wrapW (x1 (ix2 (1 : Fin 2) e)) := by
  have hi : idx_main_v24 (ix2 e (0 : Fin 1)) = ix1 e := funext fun a => by match a with | ⟨0, _⟩ => rfl
  have h0 : val_main_v19 (F := Ideal) (ix1 e) = 0#32 := (val_main_v19_apply _).trans (val_main_c_3_apply _)
  have h1 : val_main_v21 (F := Ideal) (ix1 e) = 100000#32 := (val_main_v21_apply _).trans (val_main_c_4_apply _)
  rw [val_main_v24_apply, hi, val_main_v23_apply, val_main_v20_apply, val_main_v22_apply, h0, h1, dst_word]
  rfl

/-- The source word of edge `e` wrapped as a table index (stage 32). -/
theorem wrap_32 (x1 : (⟨S2x1200000, .i32⟩ : BufTy).Contents (Elt Ideal)) (e : Fin 1200000) :
    val_main_v32 (F := Ideal) x1 (ix2 e (0 : Fin 1)) = Args.wrapW (x1 (ix2 (0 : Fin 2) e)) := by
  have hi : idx_main_v32 (ix2 e (0 : Fin 1)) = ix1 e := funext fun a => by match a with | ⟨0, _⟩ => rfl
  have h0 : val_main_v27 (F := Ideal) (ix1 e) = 0#32 := (val_main_v27_apply _).trans (val_main_c_5_apply _)
  have h1 : val_main_v29 (F := Ideal) (ix1 e) = 100000#32 := (val_main_v29_apply _).trans (val_main_c_6_apply _)
  rw [val_main_v32_apply, hi, val_main_v31_apply, val_main_v28_apply, val_main_v30_apply, h0, h1, src_word]
  rfl

/-- An edge's norm: the product of the inverse square-root degrees of its source row and its end row. -/
theorem nrm_1 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (e : Fin 1200000) :
    val_main_v26 (F := Ideal) x1 (ix1 e) = (argsR x0 x1 x2 x3 x4 x5 x6 x7 x8 x9 x10).dinv ((argsR x0 x1 x2 x3 x4 x5 x6 x7 x8 x9 x10).srcRow e) * (argsR x0 x1 x2 x3 x4 x5 x6 x7 x8 x9 x10).dinv ((argsR x0 x1 x2 x3 x4 x5 x6 x7 x8 x9 x10).dstRow e) := by
  have h1 : val_main_v18 (F := Ideal) x1 (ix1 e) = val_main_v10 (F := Ideal) x1 (ix1 (Args.rowOf (x1 (ix2 (0 : Fin 2) e)))) := by
    unfold val_main_v18
    exact gather1_of _ _ e _ (wrap_17 x1 e)
  have h2 : val_main_v25 (F := Ideal) x1 (ix1 e) = val_main_v10 (F := Ideal) x1 (ix1 (Args.rowOf (x1 (ix2 (1 : Fin 2) e)))) := by
    unfold val_main_v25
    exact gather1_of _ _ e _ (wrap_24 x1 e)
  rw [val_main_v26_apply, h1, h2, ref_dinv x0 x1 x2 x3 x4 x5 x6 x7 x8 x9 x10, ref_dinv x0 x1 x2 x3 x4 x5 x6 x7 x8 x9 x10, Ideal.mulf_def, srcRow_argsR, dstRow_argsR]

/-- The row gathered for an edge: the source row of the layer's product. -/
theorem rows_1 (x0 : (⟨S100000x64, .f32⟩ : BufTy).Contents (Elt Ideal)) (x1 : (⟨S2x1200000, .i32⟩ : BufTy).Contents (Elt Ideal)) (x3 : (⟨S64x64, .f32⟩ : BufTy).Contents (Elt Ideal)) (e : Fin 1200000) (f : Fin 64) :
    val_main_v33 (F := Ideal) x0 x1 x3 (ix2 e f) = val_main_v11 (F := Ideal) x0 x3 (ix2 (Args.rowOf (x1 (ix2 (0 : Fin 2) e))) f) := by
  unfold val_main_v33
  exact gather2_of _ _ e f _ (wrap_32 x1 e)

/-- An edge's update: its source row times its norm. -/
theorem upd_1 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (e : Fin 1200000) (f : Fin 64) :
    val_main_v36 (F := Ideal) x0 x1 x3 (ix2 e f)
      = val_main_v11 (F := Ideal) x0 x3 (ix2 ((argsR x0 x1 x2 x3 x4 x5 x6 x7 x8 x9 x10).srcRow e) f) * ((argsR x0 x1 x2 x3 x4 x5 x6 x7 x8 x9 x10).dinv ((argsR x0 x1 x2 x3 x4 x5 x6 x7 x8 x9 x10).srcRow e) * (argsR x0 x1 x2 x3 x4 x5 x6 x7 x8 x9 x10).dinv ((argsR x0 x1 x2 x3 x4 x5 x6 x7 x8 x9 x10).dstRow e)) := by
  have hi : idx_main_v34 (idx_main_v35 (ix2 e f)) = ix1 e := funext fun a => by match a with | ⟨0, _⟩ => rfl
  rw [val_main_v36_apply, rows_1, val_main_v35_apply, val_main_v34_apply, hi, nrm_1 x0 x1 x2 x3 x4 x5 x6 x7 x8 x9 x10, Ideal.mulf_def, srcRow_argsR]

/-- The updates summed at the edges' ends. -/
theorem agg_1 (x0 : (⟨S100000x64, .f32⟩ : BufTy).Contents (Elt Ideal)) (x1 : (⟨S2x1200000, .i32⟩ : BufTy).Contents (Elt Ideal)) (x3 : (⟨S64x64, .f32⟩ : BufTy).Contents (Elt Ideal)) (r : Fin 100000) (f : Fin 64) :
    val_main_v39 (F := Ideal) x0 x1 x3 (ix2 r f)
      = z32 + ∑ e ∈ Finset.univ.filter (fun e : Fin 1200000 => (x1 (ix2 (1 : Fin 2) e)).toInt = (r.val : ℤ)),
          val_main_v36 (F := Ideal) x0 x1 x3 (ix2 e f) := by
  unfold val_main_v39
  refine scatter_rows_of scatter_S100000x64_S1200000x1_S1200000x64_1_0_0_1 rfl rfl rfl rfl _ _ _ r f z32
    (fun e => x1 (ix2 (1 : Fin 2) e)) (fun e => val_main_v36 (F := Ideal) x0 x1 x3 (ix2 e f)) ?_ (fun e => ?_) (fun e => rfl)
  · exact (val_main_v37_apply _).trans (val_main_cst_7_apply _)
  · have hi : idx_main_v38 (ix2 e (0 : Fin 1)) = ix1 e := funext fun a => by match a with | ⟨0, _⟩ => rfl
    rw [val_main_v38_apply, hi]
    exact dst_word x1 e

/-- The node's own row times its squared factor. -/
theorem self_1 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (r : Fin 100000) (f : Fin 64) :
    val_main_v43 (F := Ideal) x0 x1 x3 (ix2 r f) = val_main_v11 (F := Ideal) x0 x3 (ix2 r f) * ((argsR x0 x1 x2 x3 x4 x5 x6 x7 x8 x9 x10).dinv r * (argsR x0 x1 x2 x3 x4 x5 x6 x7 x8 x9 x10).dinv r) := by
  have hi : idx_main_v41 (idx_main_v42 (ix2 r f)) = ix1 r := funext fun a => by match a with | ⟨0, _⟩ => rfl
  rw [val_main_v43_apply, val_main_v42_apply, val_main_v41_apply, hi, val_main_v40_apply, ref_dinv x0 x1 x2 x3 x4 x5 x6 x7 x8 x9 x10, Ideal.mulf_def, Ideal.mulf_def]

/-- The bias, broadcast over the rows. -/
theorem bias_1 (x4 : (⟨S64, .f32⟩ : BufTy).Contents (Elt Ideal)) (r : Fin 100000) (f : Fin 64) :
    val_main_v46 (F := Ideal) x4 (ix2 r f) = x4 (ix1 f) := by
  have hi : idx_main_v45 (idx_main_v46 (ix2 r f)) = ix1 f := funext fun a => by match a with | ⟨0, _⟩ => rfl
  rw [val_main_v46_apply, val_main_v45_apply, hi]

/-- The layer's result. -/
theorem layer_1 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (r : Fin 100000) (f : Fin 64) :
    val_main_v48 (F := Ideal) x0 x1 x3 x4 (ix2 r f) = (argsR x0 x1 x2 x3 x4 x5 x6 x7 x8 x9 x10).v0R r f := by
  have hz : val_main_call0_v0 (F := Ideal) (ix2 r f) = z32 :=
    (val_main_call0_v0_apply _).trans (val_main_call0_cst_apply _)
  unfold Args.v0R
  rw [val_main_v48_apply, val_main_v47_apply, val_main_v44_apply, hz, agg_1, self_1 x0 x1 x2 x3 x4 x5 x6 x7 x8 x9 x10, bias_1,
    Ideal.maximumf_def, Ideal.addf_def, Ideal.addf_def]
  exact layer_comb (argsR x0 x1 x2 x3 x4 x5 x6 x7 x8 x9 x10) (argsR x0 x1 x2 x3 x4 x5 x6 x7 x8 x9 x10).h0 (argsR x0 x1 x2 x3 x4 x5 x6 x7 x8 x9 x10).b0 r f
    (fun e => val_main_v36 (F := Ideal) x0 x1 x3 (ix2 e f)) _ _
    (fun e => (upd_1 x0 x1 x2 x3 x4 x5 x6 x7 x8 x9 x10 e f).trans
      (congrArg (fun t => t * ((argsR x0 x1 x2 x3 x4 x5 x6 x7 x8 x9 x10).dinv ((argsR x0 x1 x2 x3 x4 x5 x6 x7 x8 x9 x10).srcRow e) * (argsR x0 x1 x2 x3 x4 x5 x6 x7 x8 x9 x10).dinv ((argsR x0 x1 x2 x3 x4 x5 x6 x7 x8 x9 x10).dstRow e))) (ref_h0 x0 x1 x2 x3 x4 x5 x6 x7 x8 x9 x10 ((argsR x0 x1 x2 x3 x4 x5 x6 x7 x8 x9 x10).srcRow e) f)))
    (ref_h0 x0 x1 x2 x3 x4 x5 x6 x7 x8 x9 x10 r f) rfl

/-- The product of a layer's result with the next layer's weights. -/
theorem ref_h1 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (r : Fin 100000) (f : Fin 64) :
    val_main_v49 (F := Ideal) x0 x1 x3 x4 x5 (ix2 r f) = (argsR x0 x1 x2 x3 x4 x5 x6 x7 x8 x9 x10).h1R r f := by
  rw [val_main_v49_apply]
  show _ = ∑ k : Fin 64, (argsR x0 x1 x2 x3 x4 x5 x6 x7 x8 x9 x10).v0R r k * (argsR x0 x1 x2 x3 x4 x5 x6 x7 x8 x9 x10).W1 k f
  refine Finset.sum_congr rfl fun k _ => ?_
  have hl : lidx_main_v49 (ix2 r f) k = ix2 r k := funext fun a => by match a with | ⟨0, _⟩ => rfl | ⟨1, _⟩ => rfl
  have hr : ridx_main_v49 (ix2 r f) k = ix2 k f := funext fun a => by match a with | ⟨0, _⟩ => rfl | ⟨1, _⟩ => rfl
  rw [hl, hr, layer_1 x0 x1 x2 x3 x4 x5 x6 x7 x8 x9 x10]
  rfl

/-! ## Layer 2 -/

/-- The source word of edge `e` wrapped as a table index (stage 55). -/
theorem wrap_55 (x1 : (⟨S2x1200000, .i32⟩ : BufTy).Contents (Elt Ideal)) (e : Fin 1200000) :
    val_main_v55 (F := Ideal) x1 (ix2 e (0 : Fin 1)) = Args.wrapW (x1 (ix2 (0 : Fin 2) e)) := by
  have hi : idx_main_v55 (ix2 e (0 : Fin 1)) = ix1 e := funext fun a => by match a with | ⟨0, _⟩ => rfl
  have h0 : val_main_v50 (F := Ideal) (ix1 e) = 0#32 := (val_main_v50_apply _).trans (val_main_c_8_apply _)
  have h1 : val_main_v52 (F := Ideal) (ix1 e) = 100000#32 := (val_main_v52_apply _).trans (val_main_c_9_apply _)
  rw [val_main_v55_apply, hi, val_main_v54_apply, val_main_v51_apply, val_main_v53_apply, h0, h1, src_word]
  rfl

/-- The end word of edge `e` wrapped as a table index (stage 62). -/
theorem wrap_62 (x1 : (⟨S2x1200000, .i32⟩ : BufTy).Contents (Elt Ideal)) (e : Fin 1200000) :
    val_main_v62 (F := Ideal) x1 (ix2 e (0 : Fin 1)) = Args.wrapW (x1 (ix2 (1 : Fin 2) e)) := by
  have hi : idx_main_v62 (ix2 e (0 : Fin 1)) = ix1 e := funext fun a => by match a with | ⟨0, _⟩ => rfl
  have h0 : val_main_v57 (F := Ideal) (ix1 e) = 0#32 := (val_main_v57_apply _).trans (val_main_c_10_apply _)
  have h1 : val_main_v59 (F := Ideal) (ix1 e) = 100000#32 := (val_main_v59_apply _).trans (val_main_c_11_apply _)
  rw [val_main_v62_apply, hi, val_main_v61_apply, val_main_v58_apply, val_main_v60_apply, h0, h1, dst_word]
  rfl

/-- The source word of edge `e` wrapped as a table index (stage 70). -/
theorem wrap_70 (x1 : (⟨S2x1200000, .i32⟩ : BufTy).Contents (Elt Ideal)) (e : Fin 1200000) :
    val_main_v70 (F := Ideal) x1 (ix2 e (0 : Fin 1)) = Args.wrapW (x1 (ix2 (0 : Fin 2) e)) := by
  have hi : idx_main_v70 (ix2 e (0 : Fin 1)) = ix1 e := funext fun a => by match a with | ⟨0, _⟩ => rfl
  have h0 : val_main_v65 (F := Ideal) (ix1 e) = 0#32 := (val_main_v65_apply _).trans (val_main_c_12_apply _)
  have h1 : val_main_v67 (F := Ideal) (ix1 e) = 100000#32 := (val_main_v67_apply _).trans (val_main_c_13_apply _)
  rw [val_main_v70_apply, hi, val_main_v69_apply, val_main_v66_apply, val_main_v68_apply, h0, h1, src_word]
  rfl

/-- An edge's norm: the product of the inverse square-root degrees of its source row and its end row. -/
theorem nrm_2 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (e : Fin 1200000) :
    val_main_v64 (F := Ideal) x1 (ix1 e) = (argsR x0 x1 x2 x3 x4 x5 x6 x7 x8 x9 x10).dinv ((argsR x0 x1 x2 x3 x4 x5 x6 x7 x8 x9 x10).srcRow e) * (argsR x0 x1 x2 x3 x4 x5 x6 x7 x8 x9 x10).dinv ((argsR x0 x1 x2 x3 x4 x5 x6 x7 x8 x9 x10).dstRow e) := by
  have h1 : val_main_v56 (F := Ideal) x1 (ix1 e) = val_main_v10 (F := Ideal) x1 (ix1 (Args.rowOf (x1 (ix2 (0 : Fin 2) e)))) := by
    unfold val_main_v56
    exact gather1_of _ _ e _ (wrap_55 x1 e)
  have h2 : val_main_v63 (F := Ideal) x1 (ix1 e) = val_main_v10 (F := Ideal) x1 (ix1 (Args.rowOf (x1 (ix2 (1 : Fin 2) e)))) := by
    unfold val_main_v63
    exact gather1_of _ _ e _ (wrap_62 x1 e)
  rw [val_main_v64_apply, h1, h2, ref_dinv x0 x1 x2 x3 x4 x5 x6 x7 x8 x9 x10, ref_dinv x0 x1 x2 x3 x4 x5 x6 x7 x8 x9 x10, Ideal.mulf_def, srcRow_argsR, dstRow_argsR]

/-- The row gathered for an edge: the source row of the layer's product. -/
theorem rows_2 (x0 : (⟨S100000x64, .f32⟩ : BufTy).Contents (Elt Ideal)) (x1 : (⟨S2x1200000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (e : Fin 1200000) (f : Fin 64) :
    val_main_v71 (F := Ideal) x0 x1 x3 x4 x5 (ix2 e f) = val_main_v49 (F := Ideal) x0 x1 x3 x4 x5 (ix2 (Args.rowOf (x1 (ix2 (0 : Fin 2) e))) f) := by
  unfold val_main_v71
  exact gather2_of _ _ e f _ (wrap_70 x1 e)

/-- An edge's update: its source row times its norm. -/
theorem upd_2 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (e : Fin 1200000) (f : Fin 64) :
    val_main_v74 (F := Ideal) x0 x1 x3 x4 x5 (ix2 e f)
      = val_main_v49 (F := Ideal) x0 x1 x3 x4 x5 (ix2 ((argsR x0 x1 x2 x3 x4 x5 x6 x7 x8 x9 x10).srcRow e) f) * ((argsR x0 x1 x2 x3 x4 x5 x6 x7 x8 x9 x10).dinv ((argsR x0 x1 x2 x3 x4 x5 x6 x7 x8 x9 x10).srcRow e) * (argsR x0 x1 x2 x3 x4 x5 x6 x7 x8 x9 x10).dinv ((argsR x0 x1 x2 x3 x4 x5 x6 x7 x8 x9 x10).dstRow e)) := by
  have hi : idx_main_v72 (idx_main_v73 (ix2 e f)) = ix1 e := funext fun a => by match a with | ⟨0, _⟩ => rfl
  rw [val_main_v74_apply, rows_2, val_main_v73_apply, val_main_v72_apply, hi, nrm_2 x0 x1 x2 x3 x4 x5 x6 x7 x8 x9 x10, Ideal.mulf_def, srcRow_argsR]

/-- The updates summed at the edges' ends. -/
theorem agg_2 (x0 : (⟨S100000x64, .f32⟩ : BufTy).Contents (Elt Ideal)) (x1 : (⟨S2x1200000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (r : Fin 100000) (f : Fin 64) :
    val_main_v77 (F := Ideal) x0 x1 x3 x4 x5 (ix2 r f)
      = z32 + ∑ e ∈ Finset.univ.filter (fun e : Fin 1200000 => (x1 (ix2 (1 : Fin 2) e)).toInt = (r.val : ℤ)),
          val_main_v74 (F := Ideal) x0 x1 x3 x4 x5 (ix2 e f) := by
  unfold val_main_v77
  refine scatter_rows_of scatter_S100000x64_S1200000x1_S1200000x64_1_0_0_1 rfl rfl rfl rfl _ _ _ r f z32
    (fun e => x1 (ix2 (1 : Fin 2) e)) (fun e => val_main_v74 (F := Ideal) x0 x1 x3 x4 x5 (ix2 e f)) ?_ (fun e => ?_) (fun e => rfl)
  · exact (val_main_v75_apply _).trans (val_main_cst_14_apply _)
  · have hi : idx_main_v76 (ix2 e (0 : Fin 1)) = ix1 e := funext fun a => by match a with | ⟨0, _⟩ => rfl
    rw [val_main_v76_apply, hi]
    exact dst_word x1 e

/-- The node's own row times its squared factor. -/
theorem self_2 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (r : Fin 100000) (f : Fin 64) :
    val_main_v81 (F := Ideal) x0 x1 x3 x4 x5 (ix2 r f) = val_main_v49 (F := Ideal) x0 x1 x3 x4 x5 (ix2 r f) * ((argsR x0 x1 x2 x3 x4 x5 x6 x7 x8 x9 x10).dinv r * (argsR x0 x1 x2 x3 x4 x5 x6 x7 x8 x9 x10).dinv r) := by
  have hi : idx_main_v79 (idx_main_v80 (ix2 r f)) = ix1 r := funext fun a => by match a with | ⟨0, _⟩ => rfl
  rw [val_main_v81_apply, val_main_v80_apply, val_main_v79_apply, hi, val_main_v78_apply, ref_dinv x0 x1 x2 x3 x4 x5 x6 x7 x8 x9 x10, Ideal.mulf_def, Ideal.mulf_def]

/-- The bias, broadcast over the rows. -/
theorem bias_2 (x6 : (⟨S64, .f32⟩ : BufTy).Contents (Elt Ideal)) (r : Fin 100000) (f : Fin 64) :
    val_main_v84 (F := Ideal) x6 (ix2 r f) = x6 (ix1 f) := by
  have hi : idx_main_v83 (idx_main_v84 (ix2 r f)) = ix1 f := funext fun a => by match a with | ⟨0, _⟩ => rfl
  rw [val_main_v84_apply, val_main_v83_apply, hi]

/-- The layer's result. -/
theorem layer_2 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (r : Fin 100000) (f : Fin 64) :
    val_main_v86 (F := Ideal) x0 x1 x3 x4 x5 x6 (ix2 r f) = (argsR x0 x1 x2 x3 x4 x5 x6 x7 x8 x9 x10).v1R r f := by
  have hz : val_main_call1_v0 (F := Ideal) (ix2 r f) = z32 :=
    (val_main_call1_v0_apply _).trans (val_main_call1_cst_apply _)
  unfold Args.v1R
  rw [val_main_v86_apply, val_main_v85_apply, val_main_v82_apply, hz, agg_2, self_2 x0 x1 x2 x3 x4 x5 x6 x7 x8 x9 x10, bias_2,
    Ideal.maximumf_def, Ideal.addf_def, Ideal.addf_def]
  exact layer_comb (argsR x0 x1 x2 x3 x4 x5 x6 x7 x8 x9 x10) (argsR x0 x1 x2 x3 x4 x5 x6 x7 x8 x9 x10).h1R (argsR x0 x1 x2 x3 x4 x5 x6 x7 x8 x9 x10).b1 r f
    (fun e => val_main_v74 (F := Ideal) x0 x1 x3 x4 x5 (ix2 e f)) _ _
    (fun e => (upd_2 x0 x1 x2 x3 x4 x5 x6 x7 x8 x9 x10 e f).trans
      (congrArg (fun t => t * ((argsR x0 x1 x2 x3 x4 x5 x6 x7 x8 x9 x10).dinv ((argsR x0 x1 x2 x3 x4 x5 x6 x7 x8 x9 x10).srcRow e) * (argsR x0 x1 x2 x3 x4 x5 x6 x7 x8 x9 x10).dinv ((argsR x0 x1 x2 x3 x4 x5 x6 x7 x8 x9 x10).dstRow e))) (ref_h1 x0 x1 x2 x3 x4 x5 x6 x7 x8 x9 x10 ((argsR x0 x1 x2 x3 x4 x5 x6 x7 x8 x9 x10).srcRow e) f)))
    (ref_h1 x0 x1 x2 x3 x4 x5 x6 x7 x8 x9 x10 r f) rfl

/-- The product of a layer's result with the next layer's weights. -/
theorem ref_h2 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (r : Fin 100000) (f : Fin 64) :
    val_main_v87 (F := Ideal) x0 x1 x3 x4 x5 x6 x7 (ix2 r f) = (argsR x0 x1 x2 x3 x4 x5 x6 x7 x8 x9 x10).h2R r f := by
  rw [val_main_v87_apply]
  show _ = ∑ k : Fin 64, (argsR x0 x1 x2 x3 x4 x5 x6 x7 x8 x9 x10).v1R r k * (argsR x0 x1 x2 x3 x4 x5 x6 x7 x8 x9 x10).W2 k f
  refine Finset.sum_congr rfl fun k _ => ?_
  have hl : lidx_main_v87 (ix2 r f) k = ix2 r k := funext fun a => by match a with | ⟨0, _⟩ => rfl | ⟨1, _⟩ => rfl
  have hr : ridx_main_v87 (ix2 r f) k = ix2 k f := funext fun a => by match a with | ⟨0, _⟩ => rfl | ⟨1, _⟩ => rfl
  rw [hl, hr, layer_2 x0 x1 x2 x3 x4 x5 x6 x7 x8 x9 x10]
  rfl

/-! ## Layer 3 -/

/-- The source word of edge `e` wrapped as a table index (stage 93). -/
theorem wrap_93 (x1 : (⟨S2x1200000, .i32⟩ : BufTy).Contents (Elt Ideal)) (e : Fin 1200000) :
    val_main_v93 (F := Ideal) x1 (ix2 e (0 : Fin 1)) = Args.wrapW (x1 (ix2 (0 : Fin 2) e)) := by
  have hi : idx_main_v93 (ix2 e (0 : Fin 1)) = ix1 e := funext fun a => by match a with | ⟨0, _⟩ => rfl
  have h0 : val_main_v88 (F := Ideal) (ix1 e) = 0#32 := (val_main_v88_apply _).trans (val_main_c_15_apply _)
  have h1 : val_main_v90 (F := Ideal) (ix1 e) = 100000#32 := (val_main_v90_apply _).trans (val_main_c_16_apply _)
  rw [val_main_v93_apply, hi, val_main_v92_apply, val_main_v89_apply, val_main_v91_apply, h0, h1, src_word]
  rfl

/-- The end word of edge `e` wrapped as a table index (stage 100). -/
theorem wrap_100 (x1 : (⟨S2x1200000, .i32⟩ : BufTy).Contents (Elt Ideal)) (e : Fin 1200000) :
    val_main_v100 (F := Ideal) x1 (ix2 e (0 : Fin 1)) = Args.wrapW (x1 (ix2 (1 : Fin 2) e)) := by
  have hi : idx_main_v100 (ix2 e (0 : Fin 1)) = ix1 e := funext fun a => by match a with | ⟨0, _⟩ => rfl
  have h0 : val_main_v95 (F := Ideal) (ix1 e) = 0#32 := (val_main_v95_apply _).trans (val_main_c_17_apply _)
  have h1 : val_main_v97 (F := Ideal) (ix1 e) = 100000#32 := (val_main_v97_apply _).trans (val_main_c_18_apply _)
  rw [val_main_v100_apply, hi, val_main_v99_apply, val_main_v96_apply, val_main_v98_apply, h0, h1, dst_word]
  rfl

/-- The source word of edge `e` wrapped as a table index (stage 108). -/
theorem wrap_108 (x1 : (⟨S2x1200000, .i32⟩ : BufTy).Contents (Elt Ideal)) (e : Fin 1200000) :
    val_main_v108 (F := Ideal) x1 (ix2 e (0 : Fin 1)) = Args.wrapW (x1 (ix2 (0 : Fin 2) e)) := by
  have hi : idx_main_v108 (ix2 e (0 : Fin 1)) = ix1 e := funext fun a => by match a with | ⟨0, _⟩ => rfl
  have h0 : val_main_v103 (F := Ideal) (ix1 e) = 0#32 := (val_main_v103_apply _).trans (val_main_c_19_apply _)
  have h1 : val_main_v105 (F := Ideal) (ix1 e) = 100000#32 := (val_main_v105_apply _).trans (val_main_c_20_apply _)
  rw [val_main_v108_apply, hi, val_main_v107_apply, val_main_v104_apply, val_main_v106_apply, h0, h1, src_word]
  rfl

/-- An edge's norm: the product of the inverse square-root degrees of its source row and its end row. -/
theorem nrm_3 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (e : Fin 1200000) :
    val_main_v102 (F := Ideal) x1 (ix1 e) = (argsR x0 x1 x2 x3 x4 x5 x6 x7 x8 x9 x10).dinv ((argsR x0 x1 x2 x3 x4 x5 x6 x7 x8 x9 x10).srcRow e) * (argsR x0 x1 x2 x3 x4 x5 x6 x7 x8 x9 x10).dinv ((argsR x0 x1 x2 x3 x4 x5 x6 x7 x8 x9 x10).dstRow e) := by
  have h1 : val_main_v94 (F := Ideal) x1 (ix1 e) = val_main_v10 (F := Ideal) x1 (ix1 (Args.rowOf (x1 (ix2 (0 : Fin 2) e)))) := by
    unfold val_main_v94
    exact gather1_of _ _ e _ (wrap_93 x1 e)
  have h2 : val_main_v101 (F := Ideal) x1 (ix1 e) = val_main_v10 (F := Ideal) x1 (ix1 (Args.rowOf (x1 (ix2 (1 : Fin 2) e)))) := by
    unfold val_main_v101
    exact gather1_of _ _ e _ (wrap_100 x1 e)
  rw [val_main_v102_apply, h1, h2, ref_dinv x0 x1 x2 x3 x4 x5 x6 x7 x8 x9 x10, ref_dinv x0 x1 x2 x3 x4 x5 x6 x7 x8 x9 x10, Ideal.mulf_def, srcRow_argsR, dstRow_argsR]

/-- The row gathered for an edge: the source row of the layer's product. -/
theorem rows_3 (x0 : (⟨S100000x64, .f32⟩ : BufTy).Contents (Elt Ideal)) (x1 : (⟨S2x1200000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (e : Fin 1200000) (f : Fin 64) :
    val_main_v109 (F := Ideal) x0 x1 x3 x4 x5 x6 x7 (ix2 e f) = val_main_v87 (F := Ideal) x0 x1 x3 x4 x5 x6 x7 (ix2 (Args.rowOf (x1 (ix2 (0 : Fin 2) e))) f) := by
  unfold val_main_v109
  exact gather2_of _ _ e f _ (wrap_108 x1 e)

/-- An edge's update: its source row times its norm. -/
theorem upd_3 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (e : Fin 1200000) (f : Fin 64) :
    val_main_v112 (F := Ideal) x0 x1 x3 x4 x5 x6 x7 (ix2 e f)
      = val_main_v87 (F := Ideal) x0 x1 x3 x4 x5 x6 x7 (ix2 ((argsR x0 x1 x2 x3 x4 x5 x6 x7 x8 x9 x10).srcRow e) f) * ((argsR x0 x1 x2 x3 x4 x5 x6 x7 x8 x9 x10).dinv ((argsR x0 x1 x2 x3 x4 x5 x6 x7 x8 x9 x10).srcRow e) * (argsR x0 x1 x2 x3 x4 x5 x6 x7 x8 x9 x10).dinv ((argsR x0 x1 x2 x3 x4 x5 x6 x7 x8 x9 x10).dstRow e)) := by
  have hi : idx_main_v110 (idx_main_v111 (ix2 e f)) = ix1 e := funext fun a => by match a with | ⟨0, _⟩ => rfl
  rw [val_main_v112_apply, rows_3, val_main_v111_apply, val_main_v110_apply, hi, nrm_3 x0 x1 x2 x3 x4 x5 x6 x7 x8 x9 x10, Ideal.mulf_def, srcRow_argsR]

/-- The updates summed at the edges' ends. -/
theorem agg_3 (x0 : (⟨S100000x64, .f32⟩ : BufTy).Contents (Elt Ideal)) (x1 : (⟨S2x1200000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (r : Fin 100000) (f : Fin 64) :
    val_main_v115 (F := Ideal) x0 x1 x3 x4 x5 x6 x7 (ix2 r f)
      = z32 + ∑ e ∈ Finset.univ.filter (fun e : Fin 1200000 => (x1 (ix2 (1 : Fin 2) e)).toInt = (r.val : ℤ)),
          val_main_v112 (F := Ideal) x0 x1 x3 x4 x5 x6 x7 (ix2 e f) := by
  unfold val_main_v115
  refine scatter_rows_of scatter_S100000x64_S1200000x1_S1200000x64_1_0_0_1 rfl rfl rfl rfl _ _ _ r f z32
    (fun e => x1 (ix2 (1 : Fin 2) e)) (fun e => val_main_v112 (F := Ideal) x0 x1 x3 x4 x5 x6 x7 (ix2 e f)) ?_ (fun e => ?_) (fun e => rfl)
  · exact (val_main_v113_apply _).trans (val_main_cst_21_apply _)
  · have hi : idx_main_v114 (ix2 e (0 : Fin 1)) = ix1 e := funext fun a => by match a with | ⟨0, _⟩ => rfl
    rw [val_main_v114_apply, hi]
    exact dst_word x1 e

/-- The node's own row times its squared factor. -/
theorem self_3 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (r : Fin 100000) (f : Fin 64) :
    val_main_v119 (F := Ideal) x0 x1 x3 x4 x5 x6 x7 (ix2 r f) = val_main_v87 (F := Ideal) x0 x1 x3 x4 x5 x6 x7 (ix2 r f) * ((argsR x0 x1 x2 x3 x4 x5 x6 x7 x8 x9 x10).dinv r * (argsR x0 x1 x2 x3 x4 x5 x6 x7 x8 x9 x10).dinv r) := by
  have hi : idx_main_v117 (idx_main_v118 (ix2 r f)) = ix1 r := funext fun a => by match a with | ⟨0, _⟩ => rfl
  rw [val_main_v119_apply, val_main_v118_apply, val_main_v117_apply, hi, val_main_v116_apply, ref_dinv x0 x1 x2 x3 x4 x5 x6 x7 x8 x9 x10, Ideal.mulf_def, Ideal.mulf_def]

/-- The bias, broadcast over the rows. -/
theorem bias_3 (x8 : (⟨S64, .f32⟩ : BufTy).Contents (Elt Ideal)) (r : Fin 100000) (f : Fin 64) :
    val_main_v122 (F := Ideal) x8 (ix2 r f) = x8 (ix1 f) := by
  have hi : idx_main_v121 (idx_main_v122 (ix2 r f)) = ix1 f := funext fun a => by match a with | ⟨0, _⟩ => rfl
  rw [val_main_v122_apply, val_main_v121_apply, hi]

/-- The layer's result. -/
theorem layer_3 (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (r : Fin 100000) (f : Fin 64) :
    val_main_v124 (F := Ideal) x0 x1 x3 x4 x5 x6 x7 x8 (ix2 r f) = (argsR x0 x1 x2 x3 x4 x5 x6 x7 x8 x9 x10).v2R r f := by
  have hz : val_main_call2_v0 (F := Ideal) (ix2 r f) = z32 :=
    (val_main_call2_v0_apply _).trans (val_main_call2_cst_apply _)
  unfold Args.v2R
  rw [val_main_v124_apply, val_main_v123_apply, val_main_v120_apply, hz, agg_3, self_3 x0 x1 x2 x3 x4 x5 x6 x7 x8 x9 x10, bias_3,
    Ideal.maximumf_def, Ideal.addf_def, Ideal.addf_def]
  exact layer_comb (argsR x0 x1 x2 x3 x4 x5 x6 x7 x8 x9 x10) (argsR x0 x1 x2 x3 x4 x5 x6 x7 x8 x9 x10).h2R (argsR x0 x1 x2 x3 x4 x5 x6 x7 x8 x9 x10).b2 r f
    (fun e => val_main_v112 (F := Ideal) x0 x1 x3 x4 x5 x6 x7 (ix2 e f)) _ _
    (fun e => (upd_3 x0 x1 x2 x3 x4 x5 x6 x7 x8 x9 x10 e f).trans
      (congrArg (fun t => t * ((argsR x0 x1 x2 x3 x4 x5 x6 x7 x8 x9 x10).dinv ((argsR x0 x1 x2 x3 x4 x5 x6 x7 x8 x9 x10).srcRow e) * (argsR x0 x1 x2 x3 x4 x5 x6 x7 x8 x9 x10).dinv ((argsR x0 x1 x2 x3 x4 x5 x6 x7 x8 x9 x10).dstRow e))) (ref_h2 x0 x1 x2 x3 x4 x5 x6 x7 x8 x9 x10 ((argsR x0 x1 x2 x3 x4 x5 x6 x7 x8 x9 x10).srcRow e) f)))
    (ref_h2 x0 x1 x2 x3 x4 x5 x6 x7 x8 x9 x10 r f) rfl

/-! ## The pooled sums, the counts, and the head -/

/-- The sum of a graph's rows of the last layer's result. -/
theorem ref_sums (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (g : Fin 128) (f : Fin 64) :
    val_main_v127 (F := Ideal) x0 x1 x2 x3 x4 x5 x6 x7 x8 (ix2 g f) = (argsR x0 x1 x2 x3 x4 x5 x6 x7 x8 x9 x10).sums (argsR x0 x1 x2 x3 x4 x5 x6 x7 x8 x9 x10).v2R g f := by
  unfold val_main_v127
  refine scatter_rows_of scatter_S128x64_S100000x1_S100000x64_1_0_0_1 rfl rfl rfl rfl _ _ _ g f z32
    (fun r => x2 (ix1 r)) (fun r => (argsR x0 x1 x2 x3 x4 x5 x6 x7 x8 x9 x10).v2R r f) ?_ (fun r => ?_) (fun r => layer_3 x0 x1 x2 x3 x4 x5 x6 x7 x8 x9 x10 r f)
  · exact (val_main_v125_apply _).trans (val_main_cst_22_apply _)
  · have hi : idx_main_v126 (ix2 r (0 : Fin 1)) = ix1 r := funext fun a => by match a with | ⟨0, _⟩ => rfl
    rw [val_main_v126_apply, hi]

/-- The number of a graph's nodes. -/
theorem ref_cnt (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (g : Fin 128) :
    val_main_v131 (F := Ideal) x2 (ix1 g) = (argsR x0 x1 x2 x3 x4 x5 x6 x7 x8 x9 x10).cnt g := by
  unfold val_main_v131
  refine scatter_vec_of scatter_S128_S100000x1_S100000_n_0_0_1 rfl rfl rfl rfl _ _ _ g z32
    (fun r => x2 (ix1 r)) (fun _ => o32) ?_ (fun r => ?_) (fun r => ?_)
  · exact (val_main_v129_apply _).trans (val_main_cst_24_apply _)
  · have hi : idx_main_v130 (ix2 r (0 : Fin 1)) = ix1 r := funext fun a => by match a with | ⟨0, _⟩ => rfl
    rw [val_main_v130_apply, hi]
  · exact (val_main_v128_apply _).trans (val_main_cst_23_apply _)

/-- The mean of a graph's rows. -/
theorem ref_pooled (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (g : Fin 128) (k : Fin 64) :
    val_main_v136 (F := Ideal) x0 x1 x2 x3 x4 x5 x6 x7 x8 (ix2 g k) = (argsR x0 x1 x2 x3 x4 x5 x6 x7 x8 x9 x10).pooled ((argsR x0 x1 x2 x3 x4 x5 x6 x7 x8 x9 x10).sums (argsR x0 x1 x2 x3 x4 x5 x6 x7 x8 x9 x10).v2R) g k := by
  have hi : idx_main_v134 (idx_main_v135 (ix2 g k)) = ix1 g := funext fun a => by match a with | ⟨0, _⟩ => rfl
  have hc : val_main_v132 (F := Ideal) (ix1 g) = o32 := (val_main_v132_apply _).trans (val_main_cst_25_apply _)
  unfold Args.pooled
  rw [val_main_v136_apply, ref_sums x0 x1 x2 x3 x4 x5 x6 x7 x8 x9 x10, val_main_v135_apply, val_main_v134_apply, hi, val_main_v133_apply, ref_cnt x0 x1 x2 x3 x4 x5 x6 x7 x8 x9 x10, hc,
    Ideal.hostDivf_def, Ideal.maximumf_def]

/-- THE REFERENCE'S RESULT at graph `g`, coordinate `j` of the head. -/
theorem ref_out (x0 : (⟨S100000x64, .f32⟩ : BufTy).Contents (Elt Ideal)) (x1 : (⟨S2x1200000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) (g : Fin 128) (j : Fin 2) :
    val_main_v140 (F := Ideal) x0 x1 x2 x3 x4 x5 x6 x7 x8 x9 x10 (ix2 g j) = (argsR x0 x1 x2 x3 x4 x5 x6 x7 x8 x9 x10).outR g j := by
  have hb : val_main_v139 (F := Ideal) x10 (ix2 g j) = x10 (ix1 j) := by
    have hi : idx_main_v138 (idx_main_v139 (ix2 g j)) = ix1 j := funext fun a => by match a with | ⟨0, _⟩ => rfl
    rw [val_main_v139_apply, val_main_v138_apply, hi]
  unfold Args.outR Args.head
  rw [val_main_v140_apply, hb, val_main_v137_apply, Ideal.addf_def, lb_argsR]
  refine congrArg (fun t => t + x10 (ix1 j)) (Finset.sum_congr rfl fun k _ => ?_)
  have hl : lidx_main_v137 (ix2 g j) k = ix2 g k := funext fun a => by match a with | ⟨0, _⟩ => rfl | ⟨1, _⟩ => rfl
  have hr : ridx_main_v137 (ix2 g j) k = ix2 k j := funext fun a => by match a with | ⟨0, _⟩ => rfl | ⟨1, _⟩ => rfl
  rw [hl, hr, ref_pooled x0 x1 x2 x3 x4 x5 x6 x7 x8 x9 x10, lw_argsR]

end Cert.Proof.Val

end
-- ==== Proof.Val.Law.lean ====
import Idealize.ShloMosaic.PureOps.Ideal
import Idealize.ShloMosaic.PureOps.Ideal.Laws
import Mathlib.Data.EReal.Operations
import Mathlib.Data.EReal.Inv
import Mathlib.Algebra.BigOperators.Fin
import Mathlib.Algebra.BigOperators.Group.Finset.Basic
import Mathlib.Logic.Equiv.Fin.Basic
import Mathlib.Analysis.SpecialFunctions.Pow.Real

/-!
# Laws of the extended reals used by the value proof

Float values are read as extended reals (`EReal`), where multiplication does not distribute over addition in general
(`(⊤ + ⊥) * c` against `⊤ * c + ⊥ * c`). What the value proof needs:

* a NONNEGATIVE REAL factor distributes over a finite sum (`sum_mul_nonneg_real`, `mul_sum_nonneg_real`, and the forms
  with a leading `0 +`);
* the degree of a node, `(0 + ∑ j ∈ s, 1) + 1`, is the real number `|s| + 1 ≥ 1`, so its inverse square root is a
  nonnegative real, `(√(|s| + 1))⁻¹` (`count_add_one`, `rsqrt_count`, `rsqrt_count_nonneg_real`);
* a sum weighted by the indicator of a predicate is the sum over the elements that satisfy it (`sum_indicator_mul`);
* a sum over `n * m` rows is the sum over `n` tiles of the sums over the `m` rows of each tile (`sum_tiles_gen`,
  `sum_tiles`), also restricted to the first `k` tiles (`sum_tiles_lt`), and the step from `k` tiles to `k + 1`
  (`sum_filter_lt_succ`).
-/

noncomputable section

open scoped BigOperators

namespace Cert.Proof.Val

open Idealize.ShloMosaic

/-! ## A nonnegative real factor distributes over a finite sum -/

/-- A nonnegative real, as an extended real, is nonnegative and not `⊤`: the two facts under which a factor distributes. -/
theorem coe_nonneg_ne_top {c : ℝ} (hc : 0 ≤ c) : (0 : EReal) ≤ (c : EReal) ∧ (c : EReal) ≠ ⊤ :=
  ⟨EReal.coe_nonneg.mpr hc, EReal.coe_ne_top c⟩

/-- `(x + y) * c = x * c + y * c` for a nonnegative real `c`. -/
theorem add_mul_nonneg_real (x y : EReal) (c : ℝ) (hc : 0 ≤ c) : (x + y) * (c : EReal) = x * (c : EReal) + y * (c : EReal) :=
  EReal.right_distrib_of_nonneg_of_ne_top (EReal.coe_nonneg.mpr hc) (EReal.coe_ne_top c) x y

/-- `c * (x + y) = c * x + c * y` for a nonnegative real `c`. -/
theorem mul_add_nonneg_real (x y : EReal) (c : ℝ) (hc : 0 ≤ c) : (c : EReal) * (x + y) = (c : EReal) * x + (c : EReal) * y :=
  EReal.left_distrib_of_nonneg_of_ne_top (EReal.coe_nonneg.mpr hc) (EReal.coe_ne_top c) x y

/-- A finite sum times a nonnegative real is the sum of the products. -/
theorem sum_mul_nonneg_real {ι : Type*} (s : Finset ι) (a : ι → EReal) (c : ℝ) (hc : 0 ≤ c) :
    (∑ j ∈ s, a j) * (c : EReal) = ∑ j ∈ s, a j * (c : EReal) := by
  classical
  induction s using Finset.induction_on with
  | empty => simp
  | insert i s hi ih => rw [Finset.sum_insert hi, Finset.sum_insert hi, add_mul_nonneg_real _ _ c hc, ih]

/-- A nonnegative real times a finite sum is the sum of the products. -/
theorem mul_sum_nonneg_real {ι : Type*} (s : Finset ι) (a : ι → EReal) (c : ℝ) (hc : 0 ≤ c) :
    (c : EReal) * (∑ j ∈ s, a j) = ∑ j ∈ s, (c : EReal) * a j := by
  rw [mul_comm, sum_mul_nonneg_real s a c hc]
  exact Finset.sum_congr rfl fun j _ => mul_comm _ _

/-- The same with the leading `0 +` an accumulation from zero leaves. -/
theorem zero_add_sum_mul_nonneg_real {ι : Type*} (s : Finset ι) (a : ι → EReal) (c : ℝ) (hc : 0 ≤ c) :
    ((0 : EReal) + ∑ j ∈ s, a j) * (c : EReal) = 0 + ∑ j ∈ s, a j * (c : EReal) := by
  rw [zero_add, zero_add, sum_mul_nonneg_real s a c hc]

/-- … and with the factor on the left. -/
theorem mul_zero_add_sum_nonneg_real {ι : Type*} (s : Finset ι) (a : ι → EReal) (c : ℝ) (hc : 0 ≤ c) :
    (c : EReal) * ((0 : EReal) + ∑ j ∈ s, a j) = 0 + ∑ j ∈ s, (c : EReal) * a j := by
  rw [zero_add, zero_add, mul_sum_nonneg_real s a c hc]

/-! ## The degree of a node and its inverse square root -/

/-- The f32 pattern `0x3F800000` denotes `1`. -/
theorem ofBits_one_f32 : Ideal.ofBits .f32 0x3F800000#32 = 1 := by
  simp [Ideal.ofBits, Ideal.ieee, -EReal.coe_mul]; norm_num

/-- The inverse square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- `(√r)⁻¹` is nonnegative. -/
theorem inv_sqrt_nonneg (r : ℝ) : 0 ≤ (Real.sqrt r)⁻¹ := inv_nonneg.mpr (Real.sqrt_nonneg r)

/-- A count of ones accumulated from zero, plus one, is the real `|s| + 1`. -/
theorem count_add_one {ι : Type*} (s : Finset ι) :
    ((0 : EReal) + ∑ _j ∈ s, (1 : EReal)) + 1 = (((s.card : ℝ) + 1 : ℝ) : EReal) := by
  rw [zero_add, Finset.sum_const, EReal.nsmul_eq_mul, mul_one, EReal.coe_add, EReal.coe_natCast, EReal.coe_one]

/-- The same over the f32 literals `0` and `1` a program writes. -/
theorem count_add_one_bits {ι : Type*} (s : Finset ι) :
    (Ideal.ofBits .f32 0x00000000#32 + ∑ _j ∈ s, Ideal.ofBits .f32 0x3F800000#32) + Ideal.ofBits .f32 0x3F800000#32
      = (((s.card : ℝ) + 1 : ℝ) : EReal) := by
  rw [Ideal.ofBits_zero_f32, ofBits_one_f32]
  exact count_add_one s

/-- `|s| + 1` is positive. -/
theorem card_add_one_pos {ι : Type*} (s : Finset ι) : (0 : ℝ) < (s.card : ℝ) + 1 := by
  have h : (0 : ℝ) ≤ (s.card : ℝ) := Nat.cast_nonneg _
  linarith

/-- The inverse square root of the degree `|s| + 1`, as the real it is. -/
theorem rsqrt_count {ι : Type*} (s : Finset ι) :
    Ideal.rsqrt ((Ideal.ofBits .f32 0x00000000#32 + ∑ _j ∈ s, Ideal.ofBits .f32 0x3F800000#32) + Ideal.ofBits .f32 0x3F800000#32)
      = (((Real.sqrt ((s.card : ℝ) + 1))⁻¹ : ℝ) : EReal) := by
  rw [count_add_one_bits, rsqrt_coe_pos (card_add_one_pos s)]

/-- The inverse square root of a degree is a nonnegative real (over `Ideal.rsqrt`). -/
theorem rsqrt_count_nonneg_real' {ι : Type*} (s : Finset ι) :
    ∃ r : ℝ, 0 ≤ r ∧
      Ideal.rsqrt ((Ideal.ofBits .f32 0x00000000#32 + ∑ _j ∈ s, Ideal.ofBits .f32 0x3F800000#32) + Ideal.ofBits .f32 0x3F800000#32)
        = (r : EReal) :=
  ⟨_, inv_sqrt_nonneg _, rsqrt_count s⟩

/-- The inverse square root of a degree is a nonnegative real (over the host's one-operand `rsqrt`, which at the extended
    reals is `Ideal.rsqrt` by definition). -/
theorem rsqrt_count_nonneg_real {ι : Type*} (s : Finset ι) :
    ∃ r : ℝ, 0 ≤ r ∧
      FloatOps.hostUnary (F := Ideal) (φ := .f32) .rsqrt
          ((Ideal.ofBits .f32 0x00000000#32 + ∑ _j ∈ s, Ideal.ofBits .f32 0x3F800000#32) + Ideal.ofBits .f32 0x3F800000#32)
        = (r : EReal) :=
  rsqrt_count_nonneg_real' s

/-! ## A sum weighted by an indicator -/

/-- A sum weighted by the indicator of `p` is the sum over the elements that satisfy `p`. -/
theorem sum_indicator_mul {ι : Type*} [Fintype ι] (p : ι → Prop) [DecidablePred p] (v : ι → EReal) :
    ∑ r, (if p r then (1 : EReal) else 0) * v r = ∑ r ∈ Finset.univ.filter p, v r := by
  rw [Finset.sum_filter]
  refine Finset.sum_congr rfl fun r _ => ?_
  by_cases h : p r
  · rw [if_pos h, if_pos h, one_mul]
  · rw [if_neg h, if_neg h, zero_mul]

/-- The same with the weight on the right. -/
theorem sum_mul_indicator {ι : Type*} [Fintype ι] (p : ι → Prop) [DecidablePred p] (v : ι → EReal) :
    ∑ r, v r * (if p r then (1 : EReal) else 0) = ∑ r ∈ Finset.univ.filter p, v r := by
  rw [← sum_indicator_mul p v]
  exact Finset.sum_congr rfl fun r _ => mul_comm _ _

/-! ## Rows by tiles -/

/-- Row `y` of tile `t` is a row: `m * t + y < N` when `n * m = N`. -/
theorem tile_lt {n m N : Nat} (h : n * m = N) (t : Fin n) (y : Fin m) : m * t.val + y.val < N := by
  have h1 : t.val + 1 ≤ n := t.isLt
  have h2 := y.isLt
  have h3 : m * (t.val + 1) ≤ m * n := Nat.mul_le_mul_left m h1
  have h4 : m * (t.val + 1) = m * t.val + m := by rw [Nat.mul_add, Nat.mul_one]
  have h5 : m * n = N := by rw [Nat.mul_comm]; exact h
  omega

/-- A sum over `n * m = N` rows is the sum over `n` tiles of the sums over the `m` rows of each: row `m * t + y` is row
    `y` of tile `t`. -/
theorem sum_tiles_gen {M : Type*} [AddCommMonoid M] (n m N : Nat) (h : n * m = N) (f : Fin N → M) :
    ∑ t : Fin n, ∑ y : Fin m, f ⟨m * t.val + y.val, tile_lt h t y⟩ = ∑ r : Fin N, f r := by
  subst h
  refine (Fintype.sum_prod_type' _).symm.trans ?_
  refine Fintype.sum_equiv finProdFinEquiv _ _ fun p => ?_
  refine congrArg f (Fin.ext ?_)
  show m * p.1.val + p.2.val = p.2.val + m * p.1.val
  exact Nat.add_comm _ _

/-- The rows of this program: 100000 rows in 20 tiles of 5000. -/
theorem sum_tiles {M : Type*} [AddCommMonoid M] (f : Fin 100000 → M) :
    ∑ t : Fin 20, ∑ y : Fin 5000, f ⟨5000 * t.val + y.val, by omega⟩ = ∑ r : Fin 100000, f r :=
  sum_tiles_gen 20 5000 100000 (by norm_num) f

/-- The first `k` tiles hold the rows below `5000 * k`. -/
theorem sum_tiles_lt {M : Type*} [AddCommMonoid M] (f : Fin 100000 → M) (k : Nat) :
    ∑ t ∈ Finset.univ.filter (fun t : Fin 20 => t.val < k), ∑ y : Fin 5000, f ⟨5000 * t.val + y.val, by omega⟩
      = ∑ r ∈ Finset.univ.filter (fun r : Fin 100000 => r.val < 5000 * k), f r := by
  rw [Finset.sum_filter, Finset.sum_filter]
  have key := sum_tiles (fun r : Fin 100000 => if r.val < 5000 * k then f r else 0)
  refine Eq.trans ?_ key
  refine Finset.sum_congr rfl fun t _ => ?_
  by_cases ht : t.val < k
  · rw [if_pos ht]
    refine Finset.sum_congr rfl fun y _ => ?_
    exact (if_pos (show 5000 * t.val + y.val < 5000 * k by have := y.isLt; omega)).symm
  · rw [if_neg ht]
    refine (Finset.sum_eq_zero fun y _ => ?_).symm
    exact if_neg (show ¬ 5000 * t.val + y.val < 5000 * k by omega)

/-- From `k` tiles to `k + 1`: the sum over the tiles below `k + 1` is the sum over those below `k` plus tile `k`'s term. -/
theorem sum_filter_lt_succ {M : Type*} [AddCommMonoid M] {n : Nat} (g : Fin n → M) (k : Nat) (hk : k < n) :
    ∑ t ∈ Finset.univ.filter (fun t : Fin n => t.val < k + 1), g t
      = (∑ t ∈ Finset.univ.filter (fun t : Fin n => t.val < k), g t) + g ⟨k, hk⟩ := by
  have hset : Finset.univ.filter (fun t : Fin n => t.val < k + 1)
      = insert (⟨k, hk⟩ : Fin n) (Finset.univ.filter (fun t : Fin n => t.val < k)) := by
    ext t
    rw [Finset.mem_insert, Finset.mem_filter, Finset.mem_filter]
    constructor
    · rintro ⟨_, h⟩
      by_cases h' : t.val = k
      · exact Or.inl (Fin.ext h')
      · exact Or.inr ⟨Finset.mem_univ _, by omega⟩
    · rintro (rfl | ⟨_, h⟩)
      · exact ⟨Finset.mem_univ _, Nat.lt_succ_self _⟩
      · exact ⟨Finset.mem_univ _, by omega⟩
  have hnot : (⟨k, hk⟩ : Fin n) ∉ Finset.univ.filter (fun t : Fin n => t.val < k) := by
    intro h
    exact Nat.lt_irrefl k (Finset.mem_filter.mp h).2
  rw [hset, Finset.sum_insert hnot, add_comm]

/-- No tile is below `0`: the sum over them is zero. -/
theorem sum_filter_lt_zero {M : Type*} [AddCommMonoid M] {n : Nat} (g : Fin n → M) :
    ∑ t ∈ Finset.univ.filter (fun t : Fin n => t.val < 0), g t = 0 := by
  rw [Finset.filter_false_of_mem (fun t _ => Nat.not_lt_zero _), Finset.sum_empty]

/-- Every tile is below `n`: the sum over them is the whole sum. -/
theorem sum_filter_lt_all {M : Type*} [AddCommMonoid M] {n : Nat} (g : Fin n → M) :
    ∑ t ∈ Finset.univ.filter (fun t : Fin n => t.val < n), g t = ∑ t, g t := by
  rw [Finset.filter_true_of_mem (fun t _ => t.isLt)]

end Cert.Proof.Val

end
-- ==== Proof.Val.Bridge.lean ====
import proofs.«407338_j17489106829800_2_alg».proof.Proof.Val.Names
import proofs.«407338_j17489106829800_2_alg».proof.Proof.Val.Law
import Idealize.ShloMosaic.Lib.StableHlo.Predicate

/-! # The two results are one function of the arguments

Layer by layer the kernel's features are the reference's: the inverse square root of a degree (a count plus one) is a nonnegative
real, so the layer law of `Val/Spec.lean` applies — an edge that ends at row `r` has `r` as its clamped end row, because an end the
scatter keeps is already inside the table. The kernel's per-graph sums add, tile after tile, every row weighted by the indicator
"this row's graph is `g`"; all twenty tiles together are every row once, and an indicator-weighted sum is the sum over the rows
the indicator keeps: the reference's scatter-add by graph. The mean and the head are then the same expression. -/

noncomputable section

namespace Cert.Proof.Val

open Idealize.ShloMosaic

namespace Args

variable (a : Args)

/-- The inverse square root of a degree is a nonnegative real. -/
theorem dinv_real (r : Fin 100000) : ∃ c : ℝ, 0 ≤ c ∧ a.dinv r = (c : EReal) :=
  rsqrt_count_nonneg_real' (Finset.univ.filter (fun e : Fin 1200000 => a.dstZ e = (r.val : ℤ)))

/-- A word whose signed value is not negative is read as a row index unchanged. -/
theorem wrapW_of_nonneg (w : BitVec 32) (h : 0 ≤ w.toInt) : wrapW w = w := by
  have hs : w.slt 0#32 = false := by
    unfold BitVec.slt
    rw [BitVec.toInt_zero]
    exact decide_eq_false (by omega)
  show Scalar.select (BitVec.ofBool (w.slt 0#32)) (IntOp.addi w 100000#32) w = w
  rw [hs]
  rfl

/-- A word whose signed value is a row of the table reads, as a row index, that row. -/
theorem rowOf_of_toInt (w : BitVec 32) (r : Fin 100000) (h : w.toInt = (r.val : ℤ)) : rowOf w = r := by
  have hr := r.isLt
  have hw : wrapW w = w := wrapW_of_nonneg w (by omega)
  refine Fin.ext ?_
  show min (wrapW w).toInt.toNat 99999 = r.val
  rw [hw, h]
  omega

/-- An edge that ends at row `r` has `r` as its clamped end row. -/
theorem dstRow_of_dstZ (e : Fin 1200000) (r : Fin 100000) (h : a.dstZ e = (r.val : ℤ)) : a.dstRow e = r :=
  rowOf_of_toInt _ r h

theorem v0K_eq : a.v0K = a.v0R :=
  combK_eq_combR a.h0 a.dinv a.b0 a.srcRow a.dstRow a.dstZ a.dinv_real a.dstRow_of_dstZ
theorem h1K_eq : a.h1K = a.h1R := by
  unfold Args.h1K Args.h1R
  rw [a.v0K_eq]
theorem v1K_eq : a.v1K = a.v1R := by
  unfold Args.v1K Args.v1R
  rw [a.h1K_eq]
  exact combK_eq_combR a.h1R a.dinv a.b1 a.srcRow a.dstRow a.dstZ a.dinv_real a.dstRow_of_dstZ
theorem h2K_eq : a.h2K = a.h2R := by
  unfold Args.h2K Args.h2R
  rw [a.v1K_eq]
theorem v2K_eq : a.v2K = a.v2R := by
  unfold Args.v2K Args.v2R
  rw [a.h2K_eq]
  exact combK_eq_combR a.h2R a.dinv a.b2 a.srcRow a.dstRow a.dstZ a.dinv_real a.dstRow_of_dstZ

/-- The graph ids are compared as words; a graph number below 128 is its own signed value. -/
theorem bat_eq_iff (r : Fin 100000) (g : Fin 128) : a.bat r = BitVec.ofNat 32 g.val ↔ (a.bat r).toInt = (g.val : ℤ) := by
  have hg := g.isLt
  have hsmall : (BitVec.ofNat 32 g.val).toInt = (g.val : ℤ) :=
    StableHlo.Predicate.toInt_ofNat_small g.val (by omega)
  constructor
  · intro h
    rw [h, hsmall]
  · intro h
    apply BitVec.eq_of_toInt_eq
    rw [h, hsmall]

/-- The accumulated tiles up to tile `n`. -/
theorem accK_eq_sum (v : Fin 100000 → Fin 64 → EReal) (g : Fin 128) (f : Fin 64) : ∀ (n : ℕ) (h : n < 20),
    a.accK v n h g f = z32 + ∑ t ∈ Finset.univ.filter (fun t : Fin 20 => t.val < n + 1), a.tileSum v t g f
  | 0, h => by
    show z32 + a.tileSum v ⟨0, h⟩ g f = _
    rw [sum_filter_lt_succ (fun t : Fin 20 => a.tileSum v t g f) 0 h, sum_filter_lt_zero, zero_add]
  | n + 1, h => by
    show a.accK v n (Nat.lt_of_succ_lt h) g f + a.tileSum v ⟨n + 1, h⟩ g f = _
    rw [accK_eq_sum v g f n (Nat.lt_of_succ_lt h), sum_filter_lt_succ (fun t : Fin 20 => a.tileSum v t g f) (n + 1) h,
      add_assoc]

/-- All twenty tiles are every row once, and the indicator keeps the rows of graph `g`. -/
theorem accK_last (v : Fin 100000 → Fin 64 → EReal) (g : Fin 128) (f : Fin 64) : a.accK v 19 (by decide) g f = a.sums v g f := by
  rw [a.accK_eq_sum v g f 19 (by decide)]
  show z32 + _ = z32 + _
  refine congrArg (fun z => z32 + z) ?_
  refine (sum_filter_lt_all (fun t : Fin 20 => a.tileSum v t g f)).trans ?_
  refine (sum_tiles (fun r : Fin 100000 => a.ind r g * v r f)).trans ?_
  rw [← sum_indicator_mul (fun r : Fin 100000 => (a.bat r).toInt = (g.val : ℤ)) (fun r => v r f)]
  refine Finset.sum_congr rfl fun r _ => ?_
  unfold Args.ind
  by_cases hb : a.bat r = BitVec.ofNat 32 g.val
  · rw [if_pos hb, if_pos ((a.bat_eq_iff r g).mp hb)]
    rfl
  · rw [if_neg hb, if_neg (fun h => hb ((a.bat_eq_iff r g).mpr h))]
    rfl

/-- THE BRIDGE. -/
theorem outK_eq_outR : a.outK = a.outR := by
  have hacc : a.accK a.v2R 19 (by decide) = a.sums a.v2R := by
    funext g f
    exact a.accK_last a.v2R g f
  unfold Args.outK Args.outR
  rw [a.v2K_eq, hacc]

end Args

theorem outK_eq_outR (a : Args) : a.outK = a.outR := a.outK_eq_outR

end Cert.Proof.Val

end
-- ==== Proof.lean ====
import proofs.«407338_j17489106829800_2_alg».proof.Defs
import proofs.«407338_j17489106829800_2_alg».proof.Proof.Gen.Kernel
import proofs.«407338_j17489106829800_2_alg».proof.Proof.Gen.KernelIdeal
import proofs.«407338_j17489106829800_2_alg».proof.Proof.Gen.ReferenceIdeal
import proofs.«407338_j17489106829800_2_alg».proof.Proof.Gen.Pre_finite_inputs
import proofs.«407338_j17489106829800_2_alg».proof.Proof.KB.Run
import proofs.«407338_j17489106829800_2_alg».proof.Proof.KI.Run
import proofs.«407338_j17489106829800_2_alg».proof.Proof.RefFrame
import proofs.«407338_j17489106829800_2_alg».proof.Proof.Val.Kernel
import proofs.«407338_j17489106829800_2_alg».proof.Proof.Val.Ref
import proofs.«407338_j17489106829800_2_alg».proof.Proof.Val.Bridge

/-! # The claim

A three-layer graph convolution, a mean over each graph's nodes and a linear head. The kernel computes it in four pipelined
regions (a product with the first weights; twice a combination of aggregate, self term and bias clipped at zero fused with the next
product; a last combination fused with the per-graph sums, accumulated tile by tile in a scratch, the mean and the head), with the
edges' gather and scatter-add between them on the host; it scales the feature rows by the inverse square roots of the degrees before the
gather and once more after the sum, where the reference scales each edge's row by both factors. The frames: every run of either
program ends and leaves the arguments as launched (the kernel's by the run of its eight items, the reference's by its read-back run).
The idealization rewrote nothing. At the ideal instance both programs end at the same array: the inverse square root of a degree is
a nonnegative real, and such a factor distributes over a sum of extended reals; a sum over all rows weighted by the indicator of a
graph, taken tile by tile, is the sum over the graph's rows. No precondition is used. -/

noncomputable section

namespace Cert.Proof

open Idealize.ShloMosaic Idealize.ShloMosaic.ValueIdx Idealize.SL.Sem

theorem frame_k : Cert.frame_Kernel (hKernel := Cert.Kernel.Gen.facts) (hPre_finite_inputs := Cert.Pre_finite_inputs.Gen.facts) :=
  fun m ρ _ => (θ_run Cert.Kernel.defs _ _).mono (fun r h c =>
    ⟨(h c _ (Cert.Kernel.Hand.mem_uc Cert.Kernel.main_arg0 (by decide))).trans (Cert.Kernel.Hand.B8_main_arg0 m ρ c),
      (h c _ (Cert.Kernel.Hand.mem_uc Cert.Kernel.main_arg1 (by decide))).trans (Cert.Kernel.Hand.B8_main_arg1 m ρ c),
      (h c _ (Cert.Kernel.Hand.mem_uc Cert.Kernel.main_arg2 (by decide))).trans (Cert.Kernel.Hand.B8_main_arg2 m ρ c),
      (h c _ (Cert.Kernel.Hand.mem_uc Cert.Kernel.main_arg3 (by decide))).trans (Cert.Kernel.Hand.B8_main_arg3 m ρ c),
      (h c _ (Cert.Kernel.Hand.mem_uc Cert.Kernel.main_arg4 (by decide))).trans (Cert.Kernel.Hand.B8_main_arg4 m ρ c),
      (h c _ (Cert.Kernel.Hand.mem_uc Cert.Kernel.main_arg5 (by decide))).trans (Cert.Kernel.Hand.B8_main_arg5 m ρ c),
      (h c _ (Cert.Kernel.Hand.mem_uc Cert.Kernel.main_arg6 (by decide))).trans (Cert.Kernel.Hand.B8_main_arg6 m ρ c),
      (h c _ (Cert.Kernel.Hand.mem_uc Cert.Kernel.main_arg7 (by decide))).trans (Cert.Kernel.Hand.B8_main_arg7 m ρ c),
      (h c _ (Cert.Kernel.Hand.mem_uc Cert.Kernel.main_arg8 (by decide))).trans (Cert.Kernel.Hand.B8_main_arg8 m ρ c),
      (h c _ (Cert.Kernel.Hand.mem_uc Cert.Kernel.main_arg9 (by decide))).trans (Cert.Kernel.Hand.B8_main_arg9 m ρ c),
      (h c _ (Cert.Kernel.Hand.mem_uc Cert.Kernel.main_arg10 (by decide))).trans (Cert.Kernel.Hand.B8_main_arg10 m ρ c)⟩) (Cert.Kernel.Hand.run m ρ)

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun r h c =>
    ⟨(h c _ (Cert.KernelIdeal.Hand.mem_uc Cert.KernelIdeal.main_arg0 (by decide))).trans (Cert.KernelIdeal.Hand.B8_main_arg0 m ρ c),
      (h c _ (Cert.KernelIdeal.Hand.mem_uc Cert.KernelIdeal.main_arg1 (by decide))).trans (Cert.KernelIdeal.Hand.B8_main_arg1 m ρ c),
      (h c _ (Cert.KernelIdeal.Hand.mem_uc Cert.KernelIdeal.main_arg2 (by decide))).trans (Cert.KernelIdeal.Hand.B8_main_arg2 m ρ c),
      (h c _ (Cert.KernelIdeal.Hand.mem_uc Cert.KernelIdeal.main_arg3 (by decide))).trans (Cert.KernelIdeal.Hand.B8_main_arg3 m ρ c),
      (h c _ (Cert.KernelIdeal.Hand.mem_uc Cert.KernelIdeal.main_arg4 (by decide))).trans (Cert.KernelIdeal.Hand.B8_main_arg4 m ρ c),
      (h c _ (Cert.KernelIdeal.Hand.mem_uc Cert.KernelIdeal.main_arg5 (by decide))).trans (Cert.KernelIdeal.Hand.B8_main_arg5 m ρ c),
      (h c _ (Cert.KernelIdeal.Hand.mem_uc Cert.KernelIdeal.main_arg6 (by decide))).trans (Cert.KernelIdeal.Hand.B8_main_arg6 m ρ c),
      (h c _ (Cert.KernelIdeal.Hand.mem_uc Cert.KernelIdeal.main_arg7 (by decide))).trans (Cert.KernelIdeal.Hand.B8_main_arg7 m ρ c),
      (h c _ (Cert.KernelIdeal.Hand.mem_uc Cert.KernelIdeal.main_arg8 (by decide))).trans (Cert.KernelIdeal.Hand.B8_main_arg8 m ρ c),
      (h c _ (Cert.KernelIdeal.Hand.mem_uc Cert.KernelIdeal.main_arg9 (by decide))).trans (Cert.KernelIdeal.Hand.B8_main_arg9 m ρ c),
      (h c _ (Cert.KernelIdeal.Hand.mem_uc Cert.KernelIdeal.main_arg10 (by decide))).trans (Cert.KernelIdeal.Hand.B8_main_arg10 m ρ c)⟩) (Cert.KernelIdeal.Hand.run m ρ)

/-- The reference's read-back term at the kernel's launch arguments: the arguments by coordinates are the same record. -/
theorem ref_out_args (m : (ℓ : Loc Cert.KernelIdeal.nD Cert.KernelIdeal.τ Cert.KernelIdeal.sig) → Buf (Elt Ideal) ℓ) (c : Dev Cert.KernelIdeal.nD) (g : Fin 128) (j : Fin 2) :
    Cert.ReferenceIdeal.Read.val_main_v140 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (ix2 g j) = (Cert.Proof.Val.argsOf m c).outR g j :=
  Cert.Proof.Val.ref_out _ _ _ _ _ _ _ _ _ _ _ g j

/-- Both programs end, at the ideal instance, with the same result: the kernel's named contents of its result buffer are `outK`
    of the arguments, the reference's read-back term is `outR` of them, and the two are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.B8 m ρ c (Proc.devRef .tc Cert.KernelIdeal.main_v58), ?_, ?_⟩
  · exact (θ_run Cert.KernelIdeal.defs _ _).mono (fun r h c =>
      ⟨h c _ (Cert.KernelIdeal.Hand.mem_uc Cert.KernelIdeal.main_v58 (by decide)),
      (h c _ (Cert.KernelIdeal.Hand.mem_uc Cert.KernelIdeal.main_arg0 (by decide))).trans (Cert.KernelIdeal.Hand.B8_main_arg0 m ρ c),
      (h c _ (Cert.KernelIdeal.Hand.mem_uc Cert.KernelIdeal.main_arg1 (by decide))).trans (Cert.KernelIdeal.Hand.B8_main_arg1 m ρ c),
      (h c _ (Cert.KernelIdeal.Hand.mem_uc Cert.KernelIdeal.main_arg2 (by decide))).trans (Cert.KernelIdeal.Hand.B8_main_arg2 m ρ c),
      (h c _ (Cert.KernelIdeal.Hand.mem_uc Cert.KernelIdeal.main_arg3 (by decide))).trans (Cert.KernelIdeal.Hand.B8_main_arg3 m ρ c),
      (h c _ (Cert.KernelIdeal.Hand.mem_uc Cert.KernelIdeal.main_arg4 (by decide))).trans (Cert.KernelIdeal.Hand.B8_main_arg4 m ρ c),
      (h c _ (Cert.KernelIdeal.Hand.mem_uc Cert.KernelIdeal.main_arg5 (by decide))).trans (Cert.KernelIdeal.Hand.B8_main_arg5 m ρ c),
      (h c _ (Cert.KernelIdeal.Hand.mem_uc Cert.KernelIdeal.main_arg6 (by decide))).trans (Cert.KernelIdeal.Hand.B8_main_arg6 m ρ c),
      (h c _ (Cert.KernelIdeal.Hand.mem_uc Cert.KernelIdeal.main_arg7 (by decide))).trans (Cert.KernelIdeal.Hand.B8_main_arg7 m ρ c),
      (h c _ (Cert.KernelIdeal.Hand.mem_uc Cert.KernelIdeal.main_arg8 (by decide))).trans (Cert.KernelIdeal.Hand.B8_main_arg8 m ρ c),
      (h c _ (Cert.KernelIdeal.Hand.mem_uc Cert.KernelIdeal.main_arg9 (by decide))).trans (Cert.KernelIdeal.Hand.B8_main_arg9 m ρ c),
      (h c _ (Cert.KernelIdeal.Hand.mem_uc Cert.KernelIdeal.main_arg10 (by decide))).trans (Cert.KernelIdeal.Hand.B8_main_arg10 m ρ c)⟩) (Cert.KernelIdeal.Hand.run m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v140_eq, e0, e1, e2, e3, e4, e5, e6, e7, e8, e9, e10]
    funext i
    obtain ⟨g, j, rfl⟩ : ∃ (g : Fin 128) (j : Fin 2), i = ix2 g j := ⟨i 0, i 1, eq_ix2 i⟩
    exact (ref_out_args m c g j).trans ((congrFun (congrFun (Cert.Proof.Val.outK_eq_outR (Cert.Proof.Val.argsOf m c)) g) j).symm.trans (Cert.Proof.Val.kernel_out m ρ c g j).symm)

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, trivial, algebraic⟩

end Cert.Proof

end
